-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x35 : Shape := ⟨2, ![32768, 35]⟩
abbrev S32768 : Shape := ⟨1, ![32768]⟩
abbrev S256x36 : Shape := ⟨2, ![256, 36]⟩
abbrev S256 : Shape := ⟨1, ![256]⟩
abbrev S256x257 : Shape := ⟨2, ![256, 257]⟩
abbrev S12x256x36 : Shape := ⟨3, ![12, 256, 36]⟩
abbrev S12x256 : Shape := ⟨2, ![12, 256]⟩
abbrev S12x256x257 : Shape := ⟨3, ![12, 256, 257]⟩
abbrev S7x5x257 : Shape := ⟨3, ![7, 5, 257]⟩
abbrev S7x5 : Shape := ⟨2, ![7, 5]⟩
abbrev S12x7x5x257 : Shape := ⟨4, ![12, 7, 5, 257]⟩
abbrev S12x7x5 : Shape := ⟨3, ![12, 7, 5]⟩
abbrev S_ : Shape := ⟨0, ![]⟩

class Facts : Prop where
  bcast_S_S32768x35 : S_.BroadcastsInDim S32768x35 (![] : Fin 0 → Fin S32768x35.rank)
  reducesTo_S32768x35_S_d0_1 : S32768x35.ReducesTo [0, 1] S_
  h_S_ : 0 < S_.numel
  bcast_S_S256x36 : S_.BroadcastsInDim S256x36 (![] : Fin 0 → Fin S256x36.rank)
  reducesTo_S256x36_S_d0_1 : S256x36.ReducesTo [0, 1] S_
  bcast_S_S256 : S_.BroadcastsInDim S256 (![] : Fin 0 → Fin S256.rank)
  reducesTo_S256_S_d0 : S256.ReducesTo [0] S_
  bcast_S_S256x257 : S_.BroadcastsInDim S256x257 (![] : Fin 0 → Fin S256x257.rank)
  reducesTo_S256x257_S_d0_1 : S256x257.ReducesTo [0, 1] S_
  bcast_S_S12x256x36 : S_.BroadcastsInDim S12x256x36 (![] : Fin 0 → Fin S12x256x36.rank)
  reducesTo_S12x256x36_S_d0_1_2 : S12x256x36.ReducesTo [0, 1, 2] S_
  bcast_S_S12x256 : S_.BroadcastsInDim S12x256 (![] : Fin 0 → Fin S12x256.rank)
  reducesTo_S12x256_S_d0_1 : S12x256.ReducesTo [0, 1] S_
  bcast_S_S12x256x257 : S_.BroadcastsInDim S12x256x257 (![] : Fin 0 → Fin S12x256x257.rank)
  reducesTo_S12x256x257_S_d0_1_2 : S12x256x257.ReducesTo [0, 1, 2] S_
  bcast_S_S7x5x257 : S_.BroadcastsInDim S7x5x257 (![] : Fin 0 → Fin S7x5x257.rank)
  reducesTo_S7x5x257_S_d0_1_2 : S7x5x257.ReducesTo [0, 1, 2] S_
  bcast_S_S7x5 : S_.BroadcastsInDim S7x5 (![] : Fin 0 → Fin S7x5.rank)
  reducesTo_S7x5_S_d0_1 : S7x5.ReducesTo [0, 1] S_
  bcast_S_S12x7x5x257 : S_.BroadcastsInDim S12x7x5x257 (![] : Fin 0 → Fin S12x7x5x257.rank)
  reducesTo_S12x7x5x257_S_d0_1_2_3 : S12x7x5x257.ReducesTo [0, 1, 2, 3] S_
  bcast_S_S12x7x5 : S_.BroadcastsInDim S12x7x5 (![] : Fin 0 → Fin S12x7x5.rank)
  reducesTo_S12x7x5_S_d0_1_2 : S12x7x5.ReducesTo [0, 1, 2] S_
  bcast_S_S32768 : S_.BroadcastsInDim S32768 (![] : Fin 0 → Fin S32768.rank)
  reducesTo_S32768_S_d0 : S32768.ReducesTo [0] S_

variable [Facts]

def fn_part4 {F : FTy → Type} [FloatOps F] (main_arg1 : IVec S32768 32) (main_v67 : IVec S_ 1) : IVec S_ 1 :=
  let main_c_26 : IVec S_ 32 := constantI S_ 32 12#32
  let main_v68 : IVec S32768 32 := broadcastInDim S32768 ![] bcast_S_S32768 main_c_26
  let main_v69 : IVec S32768 1 := cmpi .slt main_arg1 main_v68
  let main_c_27 : IVec S_ 1 := constantI S_ 1 1#1
  let main_v70 : IVec S_ 1 := (fun x v => Host.reduce IntOp.andi x v reducesTo_S32768_S_d0 h_S_) main_v69 main_c_27
  let main_v71 : IVec S_ 1 := andi main_v67 main_v70
  main_v71

def fn_part3 {F : FTy → Type} [FloatOps F] (main_arg1 : IVec S32768 32) (main_arg12 : FVec F S12x7x5x257 .f32) (main_arg13 : FVec F S12x7x5 .f32) (main_v48 : IVec S_ 1) (main_v49 : FVec F S7x5 .f32) (main_v50 : FVec F S7x5 .f32) : IVec S_ 1 :=
  let main_v51 : IVec S7x5 1 := cmpf .olt main_v49 main_v50
  let main_c_19 : IVec S_ 1 := constantI S_ 1 1#1
  let main_v52 : IVec S_ 1 := (fun x v => Host.reduce IntOp.andi x v reducesTo_S7x5_S_d0_1 h_S_) main_v51 main_c_19
  let main_v53 : IVec S_ 1 := andi main_v48 main_v52
  let main_v54 : FVec F S12x7x5x257 .f32 := Host.absf main_arg12
  let main_cst_20 : FVec F S_ .f32 := constant S_ .f32 0x7F800000#32
  let main_v55 : FVec F S12x7x5x257 .f32 := broadcastInDim S12x7x5x257 ![] bcast_S_S12x7x5x257 main_cst_20
  let main_v56 : IVec S12x7x5x257 1 := cmpf .olt main_v54 main_v55
  let main_c_21 : IVec S_ 1 := constantI S_ 1 1#1
  let main_v57 : IVec S_ 1 := (fun x v => Host.reduce IntOp.andi x v reducesTo_S12x7x5x257_S_d0_1_2_3 h_S_) main_v56 main_c_21
  let main_v58 : IVec S_ 1 := andi main_v53 main_v57
  let main_v59 : FVec F S12x7x5 .f32 := Host.absf main_arg13
  let main_cst_22 : FVec F S_ .f32 := constant S_ .f32 0x7F800000#32
  let main_v60 : FVec F S12x7x5 .f32 := broadcastInDim S12x7x5 ![] bcast_S_S12x7x5 main_cst_22
  let main_v61 : IVec S12x7x5 1 := cmpf .olt main_v59 main_v60
  let main_c_23 : IVec S_ 1 := constantI S_ 1 1#1
  let main_v62 : IVec S_ 1 := (fun x v => Host.reduce IntOp.andi x v reducesTo_S12x7x5_S_d0_1_2 h_S_) main_v61 main_c_23
  let main_v63 : IVec S_ 1 := andi main_v58 main_v62
  let main_c_24 : IVec S_ 32 := constantI S_ 32 0#32
  let main_v64 : IVec S32768 32 := broadcastInDim S32768 ![] bcast_S_S32768 main_c_24
  let main_v65 : IVec S32768 1 := cmpi .sge main_arg1 main_v64
  let main_c_25 : IVec S_ 1 := constantI S_ 1 1#1
  let main_v66 : IVec S_ 1 := (fun x v => Host.reduce IntOp.andi x v reducesTo_S32768_S_d0 h_S_) main_v65 main_c_25
  let main_v67 : IVec S_ 1 := andi main_v63 main_v66
  fn_part4 (F := F) main_arg1 main_v67

def fn_part2 {F : FTy → Type} [FloatOps F] (main_arg1 : IVec S32768 32) (main_arg8 : FVec F S12x256x257 .f32) (main_arg9 : FVec F S12x256 .f32) (main_arg10 : FVec F S7x5x257 .f32) (main_arg11 : FVec F S7x5 .f32) (main_arg12 : FVec F S12x7x5x257 .f32) (main_arg13 : FVec F S12x7x5 .f32) (main_v33 : IVec S_ 1) : IVec S_ 1 :=
  let main_v34 : FVec F S12x256x257 .f32 := Host.absf main_arg8
  let main_cst_12 : FVec F S_ .f32 := constant S_ .f32 0x7F800000#32
  let main_v35 : FVec F S12x256x257 .f32 := broadcastInDim S12x256x257 ![] bcast_S_S12x256x257 main_cst_12
  let main_v36 : IVec S12x256x257 1 := cmpf .olt main_v34 main_v35
  let main_c_13 : IVec S_ 1 := constantI S_ 1 1#1
  let main_v37 : IVec S_ 1 := (fun x v => Host.reduce IntOp.andi x v reducesTo_S12x256x257_S_d0_1_2 h_S_) main_v36 main_c_13
  let main_v38 : IVec S_ 1 := andi main_v33 main_v37
  let main_v39 : FVec F S12x256 .f32 := Host.absf main_arg9
  let main_cst_14 : FVec F S_ .f32 := constant S_ .f32 0x7F800000#32
  let main_v40 : FVec F S12x256 .f32 := broadcastInDim S12x256 ![] bcast_S_S12x256 main_cst_14
  let main_v41 : IVec S12x256 1 := cmpf .olt main_v39 main_v40
  let main_c_15 : IVec S_ 1 := constantI S_ 1 1#1
  let main_v42 : IVec S_ 1 := (fun x v => Host.reduce IntOp.andi x v reducesTo_S12x256_S_d0_1 h_S_) main_v41 main_c_15
  let main_v43 : IVec S_ 1 := andi main_v38 main_v42
  let main_v44 : FVec F S7x5x257 .f32 := Host.absf main_arg10
  let main_cst_16 : FVec F S_ .f32 := constant S_ .f32 0x7F800000#32
  let main_v45 : FVec F S7x5x257 .f32 := broadcastInDim S7x5x257 ![] bcast_S_S7x5x257 main_cst_16
  let main_v46 : IVec S7x5x257 1 := cmpf .olt main_v44 main_v45
  let main_c_17 : IVec S_ 1 := constantI S_ 1 1#1
  let main_v47 : IVec S_ 1 := (fun x v => Host.reduce IntOp.andi x v reducesTo_S7x5x257_S_d0_1_2 h_S_) main_v46 main_c_17
  let main_v48 : IVec S_ 1 := andi main_v43 main_v47
  let main_v49 : FVec F S7x5 .f32 := Host.absf main_arg11
  let main_cst_18 : FVec F S_ .f32 := constant S_ .f32 0x7F800000#32
  let main_v50 : FVec F S7x5 .f32 := broadcastInDim S7x5 ![] bcast_S_S7x5 main_cst_18
  fn_part3 (F := F) main_arg1 main_arg12 main_arg13 main_v48 main_v49 main_v50

def fn_part1 {F : FTy → Type} [FloatOps F] (main_arg1 : IVec S32768 32) (main_arg5 : FVec F S256 .f32) (main_arg6 : FVec F S12x256x36 .f32) (main_arg7 : FVec F S12x256 .f32) (main_arg8 : FVec F S12x256x257 .f32) (main_arg9 : FVec F S12x256 .f32) (main_arg10 : FVec F S7x5x257 .f32) (main_arg11 : FVec F S7x5 .f32) (main_arg12 : FVec F S12x7x5x257 .f32) (main_arg13 : FVec F S12x7x5 .f32) (main_v13 : IVec S_ 1) (main_v16 : IVec S256x257 1) : IVec S_ 1 :=
  let main_c_5 : IVec S_ 1 := constantI S_ 1 1#1
  let main_v17 : IVec S_ 1 := (fun x v => Host.reduce IntOp.andi x v reducesTo_S256x257_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S12x256x36 .f32 := Host.absf main_arg6
  let main_cst_8 : FVec F S_ .f32 := constant S_ .f32 0x7F800000#32
  let main_v25 : FVec F S12x256x36 .f32 := broadcastInDim S12x256x36 ![] bcast_S_S12x256x36 main_cst_8
  let main_v26 : IVec S12x256x36 1 := cmpf .olt main_v24 main_v25
  let main_c_9 : IVec S_ 1 := constantI S_ 1 1#1
  let main_v27 : IVec S_ 1 := (fun x v => Host.reduce IntOp.andi x v reducesTo_S12x256x36_S_d0_1_2 h_S_) main_v26 main_c_9
  let main_v28 : IVec S_ 1 := andi main_v23 main_v27
  let main_v29 : FVec F S12x256 .f32 := Host.absf main_arg7
  let main_cst_10 : FVec F S_ .f32 := constant S_ .f32 0x7F800000#32
  let main_v30 : FVec F S12x256 .f32 := broadcastInDim S12x256 ![] bcast_S_S12x256 main_cst_10
  let main_v31 : IVec S12x256 1 := cmpf .olt main_v29 main_v30
  let main_c_11 : IVec S_ 1 := constantI S_ 1 1#1
  let main_v32 : IVec S_ 1 := (fun x v => Host.reduce IntOp.andi x v reducesTo_S12x256_S_d0_1 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S32768x35 .f32) (main_arg1 : IVec S32768 32) (main_arg2 : FVec F S256x36 .f32) (main_arg3 : FVec F S256 .f32) (main_arg4 : FVec F S256x257 .f32) (main_arg5 : FVec F S256 .f32) (main_arg6 : FVec F S12x256x36 .f32) (main_arg7 : FVec F S12x256 .f32) (main_arg8 : FVec F S12x256x257 .f32) (main_arg9 : FVec F S12x256 .f32) (main_arg10 : FVec F S7x5x257 .f32) (main_arg11 : FVec F S7x5 .f32) (main_arg12 : FVec F S12x7x5x257 .f32) (main_arg13 : FVec F S12x7x5 .f32) : IVec S_ 1 :=
  let main_v0 : FVec F S32768x35 .f32 := Host.absf main_arg0
  let main_cst : FVec F S_ .f32 := constant S_ .f32 0x7F800000#32
  let main_v1 : FVec F S32768x35 .f32 := broadcastInDim S32768x35 ![] bcast_S_S32768x35 main_cst
  let main_v2 : IVec S32768x35 1 := cmpf .olt main_v0 main_v1
  let main_c : IVec S_ 1 := constantI S_ 1 1#1
  let main_v3 : IVec S_ 1 := (fun x v => Host.reduce IntOp.andi x v reducesTo_S32768x35_S_d0_1 h_S_) main_v2 main_c
  let main_v4 : FVec F S256x36 .f32 := Host.absf main_arg2
  let main_cst_0 : FVec F S_ .f32 := constant S_ .f32 0x7F800000#32
  let main_v5 : FVec F S256x36 .f32 := broadcastInDim S256x36 ![] bcast_S_S256x36 main_cst_0
  let main_v6 : IVec S256x36 1 := cmpf .olt main_v4 main_v5
  let main_c_1 : IVec S_ 1 := constantI S_ 1 1#1
  let main_v7 : IVec S_ 1 := (fun x v => Host.reduce IntOp.andi x v reducesTo_S256x36_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x257 .f32 := Host.absf main_arg4
  let main_cst_4 : FVec F S_ .f32 := constant S_ .f32 0x7F800000#32
  let main_v15 : FVec F S256x257 .f32 := broadcastInDim S256x257 ![] bcast_S_S256x257 main_cst_4
  let main_v16 : IVec S256x257 1 := cmpf .olt main_v14 main_v15
  fn_part1 (F := F) main_arg1 main_arg5 main_arg6 main_arg7 main_arg8 main_arg9 main_arg10 main_arg11 main_arg12 main_arg13 main_v13 main_v16
-- ==== Kernel.lean ====
abbrev S32768x35 : Shape := ⟨2, ![32768, 35]⟩
abbrev S32768 : Shape := ⟨1, ![32768]⟩
abbrev S256x36 : Shape := ⟨2, ![256, 36]⟩
abbrev S256 : Shape := ⟨1, ![256]⟩
abbrev S256x257 : Shape := ⟨2, ![256, 257]⟩
abbrev S12x256x36 : Shape := ⟨3, ![12, 256, 36]⟩
abbrev S12x256 : Shape := ⟨2, ![12, 256]⟩
abbrev S12x256x257 : Shape := ⟨3, ![12, 256, 257]⟩
abbrev S7x5x257 : Shape := ⟨3, ![7, 5, 257]⟩
abbrev S7x5 : Shape := ⟨2, ![7, 5]⟩
abbrev S12x7x5x257 : Shape := ⟨4, ![12, 7, 5, 257]⟩
abbrev S12x7x5 : Shape := ⟨3, ![12, 7, 5]⟩
abbrev S_ : Shape := ⟨0, ![]⟩
abbrev S256x35 : Shape := ⟨2, ![256, 35]⟩
abbrev S256x1 : Shape := ⟨2, ![256, 1]⟩
abbrev S1x256 : Shape := ⟨2, ![1, 256]⟩
abbrev S12x256x35 : Shape := ⟨3, ![12, 256, 35]⟩
abbrev S12x256x1 : Shape := ⟨3, ![12, 256, 1]⟩
abbrev S1x256x35 : Shape := ⟨3, ![1, 256, 35]⟩
abbrev S1x1x256 : Shape := ⟨3, ![1, 1, 256]⟩
abbrev S12x1x256 : Shape := ⟨3, ![12, 1, 256]⟩
abbrev S256x256 : Shape := ⟨2, ![256, 256]⟩
abbrev S12x256x256 : Shape := ⟨3, ![12, 256, 256]⟩
abbrev S1x256x256 : Shape := ⟨3, ![1, 256, 256]⟩
abbrev S35x257 : Shape := ⟨2, ![35, 257]⟩
abbrev S35x256 : Shape := ⟨2, ![35, 256]⟩
abbrev S35x1 : Shape := ⟨2, ![35, 1]⟩
abbrev S35 : Shape := ⟨1, ![35]⟩
abbrev S1x35 : Shape := ⟨2, ![1, 35]⟩
abbrev S12x35x257 : Shape := ⟨3, ![12, 35, 257]⟩
abbrev S12x35x256 : Shape := ⟨3, ![12, 35, 256]⟩
abbrev S12x35x1 : Shape := ⟨3, ![12, 35, 1]⟩
abbrev S12x35 : Shape := ⟨2, ![12, 35]⟩
abbrev S1x35x256 : Shape := ⟨3, ![1, 35, 256]⟩
abbrev S1x1x35 : Shape := ⟨3, ![1, 1, 35]⟩
abbrev S12x1x35 : Shape := ⟨3, ![12, 1, 35]⟩
abbrev S32768x1 : Shape := ⟨2, ![32768, 1]⟩
abbrev S12 : Shape := ⟨1, ![12]⟩
abbrev S1 : Shape := ⟨1, ![1]⟩
abbrev S13 : Shape := ⟨1, ![13]⟩
abbrev S45056 : Shape := ⟨1, ![45056]⟩
abbrev S32769x35 : Shape := ⟨2, ![32769, 35]⟩
abbrev S45056x1 : Shape := ⟨2, ![45056, 1]⟩
abbrev S45056x35 : Shape := ⟨2, ![45056, 35]⟩
abbrev S44 : Shape := ⟨1, ![44]⟩
abbrev S44x1 : Shape := ⟨2, ![44, 1]⟩
abbrev S1x12 : Shape := ⟨2, ![1, 12]⟩
abbrev S44x12 : Shape := ⟨2, ![44, 12]⟩
abbrev S45056x128 : Shape := ⟨2, ![45056, 128]⟩
abbrev S1024x35 : Shape := ⟨2, ![1024, 35]⟩
abbrev S1024x128 : Shape := ⟨2, ![1024, 128]⟩
abbrev S1024x256 : Shape := ⟨2, ![1024, 256]⟩
abbrev S1024x5 : Shape := ⟨2, ![1024, 5]⟩
abbrev S1024 : Shape := ⟨1, ![1024]⟩
abbrev S1024x1 : Shape := ⟨2, ![1024, 1]⟩
abbrev S1024x93 : Shape := ⟨2, ![1024, 93]⟩
abbrev S32768x7x5 : Shape := ⟨3, ![32768, 7, 5]⟩

abbrev nBuf : Space → Nat
  | .hbm => 233
  | .vmem => 16
  | .smem => 1
  | _ => 0

abbrev hbmTy0_0 (i : Nat) : BufTy := match i % 128 with
  | 0 => ⟨S32768x35, .f32⟩
  | 1 => ⟨S32768, .i32⟩
  | 2 => ⟨S256x36, .f32⟩
  | 3 => ⟨S256, .f32⟩
  | 4 => ⟨S256x257, .f32⟩
  | 5 => ⟨S256, .f32⟩
  | 6 => ⟨S12x256x36, .f32⟩
  | 7 => ⟨S12x256, .f32⟩
  | 8 => ⟨S12x256x257, .f32⟩
  | 9 => ⟨S12x256, .f32⟩
  | 10 => ⟨S7x5x257, .f32⟩
  | 11 => ⟨S7x5, .f32⟩
  | 12 => ⟨S12x7x5x257, .f32⟩
  | 13 => ⟨S12x7x5, .f32⟩
  | 14 => ⟨S_, .i32⟩
  | 15 => ⟨S_, .i32⟩
  | 16 => ⟨S_, .i32⟩
  | 17 => ⟨S32768, .i32⟩
  | 18 => ⟨S32768, .i32⟩
  | 19 => ⟨S_, .i32⟩
  | 20 => ⟨S32768, .i32⟩
  | 21 => ⟨S32768, .i32⟩
  | 22 => ⟨S256x35, .f32⟩
  | 23 => ⟨S256x1, .f32⟩
  | 24 => ⟨S256, .f32⟩
  | 25 => ⟨S256, .f32⟩
  | 26 => ⟨S1x256, .f32⟩
  | 27 => ⟨S12x256x35, .f32⟩
  | 28 => ⟨S12x256x1, .f32⟩
  | 29 => ⟨S12x256, .f32⟩
  | 30 => ⟨S12x256, .f32⟩
  | 31 => ⟨S1x256x35, .f32⟩
  | 32 => ⟨S12x256x35, .f32⟩
  | 33 => ⟨S12x256x35, .f32⟩
  | 34 => ⟨S12x256x35, .bf16⟩
  | 35 => ⟨S1x1x256, .f32⟩
  | 36 => ⟨S12x1x256, .f32⟩
  | 37 => ⟨S12x1x256, .f32⟩
  | 38 => ⟨S12x1x256, .f32⟩
  | 39 => ⟨S256x256, .f32⟩
  | 40 => ⟨S256x1, .f32⟩
  | 41 => ⟨S256, .f32⟩
  | 42 => ⟨S256, .f32⟩
  | 43 => ⟨S1x256, .f32⟩
  | 44 => ⟨S12x256x256, .f32⟩
  | 45 => ⟨S12x256x1, .f32⟩
  | 46 => ⟨S12x256, .f32⟩
  | 47 => ⟨S12x256, .f32⟩
  | 48 => ⟨S1x256x256, .f32⟩
  | 49 => ⟨S12x256x256, .f32⟩
  | 50 => ⟨S12x256x256, .f32⟩
  | 51 => ⟨S12x256x256, .bf16⟩
  | 52 => ⟨S1x1x256, .f32⟩
  | 53 => ⟨S12x1x256, .f32⟩
  | 54 => ⟨S12x1x256, .f32⟩
  | 55 => ⟨S12x1x256, .f32⟩
  | 56 => ⟨S35x257, .f32⟩
  | 57 => ⟨S35x256, .f32⟩
  | 58 => ⟨S35x1, .f32⟩
  | 59 => ⟨S35, .f32⟩
  | 60 => ⟨S35, .f32⟩
  | 61 => ⟨S35, .f32⟩
  | 62 => ⟨S1x35, .f32⟩
  | 63 => ⟨S12x35x257, .f32⟩
  | 64 => ⟨S12x35x256, .f32⟩
  | 65 => ⟨S12x35x1, .f32⟩
  | 66 => ⟨S12x35, .f32⟩
  | 67 => ⟨S12x35, .f32⟩
  | 68 => ⟨S12x35, .f32⟩
  | 69 => ⟨S1x35x256, .f32⟩
  | 70 => ⟨S12x35x256, .f32⟩
  | 71 => ⟨S12x35x256, .f32⟩
  | 72 => ⟨S12x35x256, .bf16⟩
  | 73 => ⟨S1x1x35, .f32⟩
  | 74 => ⟨S12x1x35, .f32⟩
  | 75 => ⟨S12x1x35, .f32⟩
  | 76 => ⟨S12x1x35, .f32⟩
  | 77 => ⟨S32768, .i32⟩
  | 78 => ⟨S32768, .i32⟩
  | 79 => ⟨S32768, .i32⟩
  | 80 => ⟨S_, .i32⟩
  | 81 => ⟨S32768, .i32⟩
  | 82 => ⟨S32768, .i1⟩
  | 83 => ⟨S_, .i32⟩
  | 84 => ⟨S32768, .i32⟩
  | 85 => ⟨S32768, .i32⟩
  | 86 => ⟨S32768, .i32⟩
  | 87 => ⟨S32768x1, .i32⟩
  | 88 => ⟨S32768, .i32⟩
  | 89 => ⟨S_, .i32⟩
  | 90 => ⟨S12, .i32⟩
  | 91 => ⟨S_, .i32⟩
  | 92 => ⟨S_, .i32⟩
  | 93 => ⟨S32768, .i32⟩
  | 94 => ⟨S32768, .i32⟩
  | 95 => ⟨S_, .i32⟩
  | 96 => ⟨S32768, .i32⟩
  | 97 => ⟨S32768, .i1⟩
  | 98 => ⟨S_, .i32⟩
  | 99 => ⟨S32768, .i32⟩
  | 100 => ⟨S32768, .i32⟩
  | 101 => ⟨S32768, .i32⟩
  | 102 => ⟨S32768x1, .i32⟩
  | 103 => ⟨S_, .i32⟩
  | 104 => ⟨S32768, .i32⟩
  | 105 => ⟨S12, .i32⟩
  | 106 => ⟨S_, .i32⟩
  | 107 => ⟨S12, .i32⟩
  | 108 => ⟨S12, .i32⟩
  | 109 => ⟨S_, .i32⟩
  | 110 => ⟨S12, .i32⟩
  | 111 => ⟨S12, .i32⟩
  | 112 => ⟨S_, .i32⟩
  | 113 => ⟨S_, .i32⟩
  | 114 => ⟨S12, .i32⟩
  | 115 => ⟨S12, .i32⟩
  | 116 => ⟨S12, .i32⟩
  | 117 => ⟨S_, .i32⟩
  | 118 => ⟨S12, .i32⟩
  | 119 => ⟨S12, .i1⟩
  | 120 => ⟨S12, .i32⟩
  | 121 => ⟨S12, .i32⟩
  | 122 => ⟨S_, .i32⟩
  | 123 => ⟨S12, .i32⟩
  | 124 => ⟨S12, .i1⟩
  | 125 => ⟨S12, .i1⟩
  | 126 => ⟨S_, .i32⟩
  | 127 => ⟨S12, .i32⟩
  | _ => ⟨S32768x35, .f32⟩

abbrev hbmTy0_1 (i : Nat) : BufTy := match i % 128 with
  | 0 => ⟨S12, .i32⟩
  | 1 => ⟨S12, .i32⟩
  | 2 => ⟨S_, .i32⟩
  | 3 => ⟨S1, .i32⟩
  | 4 => ⟨S_, .i32⟩
  | 5 => ⟨S_, .i32⟩
  | 6 => ⟨S12, .i32⟩
  | 7 => ⟨S13, .i32⟩
  | 8 => ⟨S12, .i32⟩
  | 9 => ⟨S_, .i32⟩
  | 10 => ⟨S12, .i32⟩
  | 11 => ⟨S12, .i32⟩
  | 12 => ⟨S_, .i32⟩
  | 13 => ⟨S1, .i32⟩
  | 14 => ⟨S_, .i32⟩
  | 15 => ⟨S_, .i32⟩
  | 16 => ⟨S12, .i32⟩
  | 17 => ⟨S13, .i32⟩
  | 18 => ⟨S12, .i32⟩
  | 19 => ⟨S32768, .i32⟩
  | 20 => ⟨S_, .i32⟩
  | 21 => ⟨S32768, .i32⟩
  | 22 => ⟨S32768, .i1⟩
  | 23 => ⟨S_, .i32⟩
  | 24 => ⟨S32768, .i32⟩
  | 25 => ⟨S32768, .i32⟩
  | 26 => ⟨S32768, .i32⟩
  | 27 => ⟨S32768x1, .i32⟩
  | 28 => ⟨S32768, .i32⟩
  | 29 => ⟨S32768, .i32⟩
  | 30 => ⟨S_, .i32⟩
  | 31 => ⟨S32768, .i32⟩
  | 32 => ⟨S32768, .i1⟩
  | 33 => ⟨S_, .i32⟩
  | 34 => ⟨S32768, .i32⟩
  | 35 => ⟨S32768, .i32⟩
  | 36 => ⟨S32768, .i32⟩
  | 37 => ⟨S32768x1, .i32⟩
  | 38 => ⟨S32768, .i32⟩
  | 39 => ⟨S32768, .i32⟩
  | 40 => ⟨S_, .i32⟩
  | 41 => ⟨S45056, .i32⟩
  | 42 => ⟨S_, .i32⟩
  | 43 => ⟨S32768, .i32⟩
  | 44 => ⟨S32768, .i1⟩
  | 45 => ⟨S_, .i32⟩
  | 46 => ⟨S32768, .i32⟩
  | 47 => ⟨S32768, .i32⟩
  | 48 => ⟨S32768, .i32⟩
  | 49 => ⟨S32768x1, .i32⟩
  | 50 => ⟨S45056, .i32⟩
  | 51 => ⟨S_, .f32⟩
  | 52 => ⟨S1x35, .f32⟩
  | 53 => ⟨S32769x35, .f32⟩
  | 54 => ⟨S_, .i32⟩
  | 55 => ⟨S45056, .i32⟩
  | 56 => ⟨S45056, .i1⟩
  | 57 => ⟨S_, .i32⟩
  | 58 => ⟨S45056, .i32⟩
  | 59 => ⟨S45056, .i32⟩
  | 60 => ⟨S45056, .i32⟩
  | 61 => ⟨S45056x1, .i32⟩
  | 62 => ⟨S45056x35, .f32⟩
  | 63 => ⟨S44, .i32⟩
  | 64 => ⟨S44x1, .i32⟩
  | 65 => ⟨S1x12, .i32⟩
  | 66 => ⟨S44x12, .i32⟩
  | 67 => ⟨S44x12, .i32⟩
  | 68 => ⟨S44x12, .i1⟩
  | 69 => ⟨S44x12, .i32⟩
  | 70 => ⟨S_, .i32⟩
  | 71 => ⟨S44, .i32⟩
  | 72 => ⟨S_, .i32⟩
  | 73 => ⟨S44, .i32⟩
  | 74 => ⟨S44, .i32⟩
  | 75 => ⟨S_, .i32⟩
  | 76 => ⟨S_, .i32⟩
  | 77 => ⟨S_, .i32⟩
  | 78 => ⟨S44, .i32⟩
  | 79 => ⟨S44, .i32⟩
  | 80 => ⟨S_, .i32⟩
  | 81 => ⟨S44, .i32⟩
  | 82 => ⟨S_, .i32⟩
  | 83 => ⟨S32768, .i32⟩
  | 84 => ⟨S_, .i32⟩
  | 85 => ⟨S32768, .i32⟩
  | 86 => ⟨S32768, .i1⟩
  | 87 => ⟨S_, .i32⟩
  | 88 => ⟨S32768, .i32⟩
  | 89 => ⟨S32768, .i32⟩
  | 90 => ⟨S32768, .i32⟩
  | 91 => ⟨S32768x1, .i32⟩
  | 92 => ⟨S32768, .i32⟩
  | 93 => ⟨S45056x128, .f32⟩
  | 94 => ⟨S45056x35, .f32⟩
  | 95 => ⟨S_, .i32⟩
  | 96 => ⟨S32768, .i32⟩
  | 97 => ⟨S32768, .i1⟩
  | 98 => ⟨S_, .i32⟩
  | 99 => ⟨S32768, .i32⟩
  | 100 => ⟨S32768, .i32⟩
  | 101 => ⟨S32768, .i32⟩
  | 102 => ⟨S32768x1, .i32⟩
  | 103 => ⟨S32768x35, .f32⟩
  | 104 => ⟨S32768x7x5, .f32⟩
  | _ => ⟨S32768x35, .f32⟩

abbrev hbmTy (i : Nat) : BufTy := match i / 128 with
  | 0 => hbmTy0_0 i
  | 1 => hbmTy0_1 i
  | _ => ⟨S32768x35, .f32⟩

abbrev bufTy : (tb : Table) → Fin (tcTables nBuf tb) → BufTy
  | .hbm, ⟨i, _⟩ => hbmTy i
  | .local _ .vmem, ⟨0, _⟩ => ⟨S1024x35, .f32⟩
  | .local _ .vmem, ⟨1, _⟩ => ⟨S1024x35, .f32⟩
  | .local _ .vmem, ⟨2, _⟩ => ⟨S1x256x35, .bf16⟩
  | .local _ .vmem, ⟨3, _⟩ => ⟨S1x256x35, .bf16⟩
  | .local _ .vmem, ⟨4, _⟩ => ⟨S1x1x256, .f32⟩
  | .local _ .vmem, ⟨5, _⟩ => ⟨S1x1x256, .f32⟩
  | .local _ .vmem, ⟨6, _⟩ => ⟨S1x256x256, .bf16⟩
  | .local _ .vmem, ⟨7, _⟩ => ⟨S1x256x256, .bf16⟩
  | .local _ .vmem, ⟨8, _⟩ => ⟨S1x1x256, .f32⟩
  | .local _ .vmem, ⟨9, _⟩ => ⟨S1x1x256, .f32⟩
  | .local _ .vmem, ⟨10, _⟩ => ⟨S1x35x256, .bf16⟩
  | .local _ .vmem, ⟨11, _⟩ => ⟨S1x35x256, .bf16⟩
  | .local _ .vmem, ⟨12, _⟩ => ⟨S1x1x35, .f32⟩
  | .local _ .vmem, ⟨13, _⟩ => ⟨S1x1x35, .f32⟩
  | .local _ .vmem, ⟨14, _⟩ => ⟨S1024x128, .f32⟩
  | .local _ .vmem, ⟨15, _⟩ => ⟨S1024x128, .f32⟩
  | .local _ .smem, ⟨0, _⟩ => ⟨S44, .i32⟩
  | _, _ => ⟨S32768x35, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call1_v0 : Ref sig .tc := ⟨.hbm, 77, rfl⟩
abbrev main_call1_v1_0 : Ref sig .tc := ⟨.hbm, 78, rfl⟩
abbrev main_v56 : Ref sig .tc := ⟨.hbm, 79, rfl⟩
abbrev main_c_1 : Ref sig .tc := ⟨.hbm, 80, rfl⟩
abbrev main_v57 : Ref sig .tc := ⟨.hbm, 81, rfl⟩
abbrev main_v58 : Ref sig .tc := ⟨.hbm, 82, rfl⟩
abbrev main_c_2 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_3 : Ref sig .tc := ⟨.hbm, 89, rfl⟩
abbrev main_v64 : Ref sig .tc := ⟨.hbm, 90, rfl⟩
abbrev main_c_4 : Ref sig .tc := ⟨.hbm, 91, rfl⟩
abbrev main_call2_v0 : Ref sig .tc := ⟨.hbm, 92, rfl⟩
abbrev main_call2_v1 : Ref sig .tc := ⟨.hbm, 93, rfl⟩
abbrev main_v65 : Ref sig .tc := ⟨.hbm, 94, rfl⟩
abbrev main_c_5 : Ref sig .tc := ⟨.hbm, 95, rfl⟩
abbrev main_v66 : Ref sig .tc := ⟨.hbm, 96, rfl⟩
abbrev main_v67 : Ref sig .tc := ⟨.hbm, 97, rfl⟩
abbrev main_c_6 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_7 : Ref sig .tc := ⟨.hbm, 103, rfl⟩
abbrev main_v72 : Ref sig .tc := ⟨.hbm, 104, rfl⟩
abbrev main_v73 : Ref sig .tc := ⟨.hbm, 105, rfl⟩
abbrev main_c_8 : Ref sig .tc := ⟨.hbm, 106, rfl⟩
abbrev main_v74 : Ref sig .tc := ⟨.hbm, 107, rfl⟩
abbrev main_v75 : Ref sig .tc := ⟨.hbm, 108, rfl⟩
abbrev main_c_9 : Ref sig .tc := ⟨.hbm, 109, rfl⟩
abbrev main_v76 : Ref sig .tc := ⟨.hbm, 110, rfl⟩
abbrev main_v77 : Ref sig .tc := ⟨.hbm, 111, rfl⟩
abbrev main_c_10 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_c : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_0 : Ref sig .tc := ⟨.hbm, 126, rfl⟩
abbrev main_call3_v12 : Ref sig .tc := ⟨.hbm, 127, rfl⟩
abbrev main_call3_v13 : Ref sig .tc := ⟨.hbm, 128, rfl⟩
abbrev main_v78 : Ref sig .tc := ⟨.hbm, 129, rfl⟩
abbrev main_c_11 : Ref sig .tc := ⟨.hbm, 130, rfl⟩
abbrev main_v79 : Ref sig .tc := ⟨.hbm, 131, rfl⟩
abbrev main_call4_call0_c : Ref sig .tc := ⟨.hbm, 132, rfl⟩
abbrev main_call4_call0_v0 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_12 : Ref sig .tc := ⟨.hbm, 137, rfl⟩
abbrev main_v83 : Ref sig .tc := ⟨.hbm, 138, rfl⟩
abbrev main_v84 : Ref sig .tc := ⟨.hbm, 139, rfl⟩
abbrev main_c_13 : Ref sig .tc := ⟨.hbm, 140, rfl⟩
abbrev main_v85 : Ref sig .tc := ⟨.hbm, 141, rfl⟩
abbrev main_call5_call0_c : Ref sig .tc := ⟨.hbm, 142, rfl⟩
abbrev main_call5_call0_v0 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_c_14 : Ref sig .tc := ⟨.hbm, 148, rfl⟩
abbrev main_v90 : Ref sig .tc := ⟨.hbm, 149, rfl⟩
abbrev main_v91 : Ref sig .tc := ⟨.hbm, 150, rfl⟩
abbrev main_c_15 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_c_16 : Ref sig .tc := ⟨.hbm, 158, rfl⟩
abbrev main_v98 : Ref sig .tc := ⟨.hbm, 159, rfl⟩
abbrev main_v99 : Ref sig .tc := ⟨.hbm, 160, rfl⟩
abbrev main_c_17 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_c_18 : Ref sig .tc := ⟨.hbm, 168, rfl⟩
abbrev main_v106 : Ref sig .tc := ⟨.hbm, 169, rfl⟩
abbrev main_c_19 : Ref sig .tc := ⟨.hbm, 170, rfl⟩
abbrev main_v107 : Ref sig .tc := ⟨.hbm, 171, rfl⟩
abbrev main_v108 : Ref sig .tc := ⟨.hbm, 172, rfl⟩
abbrev main_c_20 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_cst : Ref sig .tc := ⟨.hbm, 179, rfl⟩
abbrev main_v114 : Ref sig .tc := ⟨.hbm, 180, rfl⟩
abbrev main_v115 : Ref sig .tc := ⟨.hbm, 181, rfl⟩
abbrev main_c_21 : Ref sig .tc := ⟨.hbm, 182, rfl⟩
abbrev main_v116 : Ref sig .tc := ⟨.hbm, 183, rfl⟩
abbrev main_v117 : Ref sig .tc := ⟨.hbm, 184, rfl⟩
abbrev main_c_22 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_c_23 : Ref sig .tc := ⟨.hbm, 198, rfl⟩
abbrev main_v130 : Ref sig .tc := ⟨.hbm, 199, rfl⟩
abbrev main_c_24 : Ref sig .tc := ⟨.hbm, 200, rfl⟩
abbrev main_v131 : Ref sig .tc := ⟨.hbm, 201, rfl⟩
abbrev main_v132 : Ref sig .tc := ⟨.hbm, 202, rfl⟩
abbrev main_c_25 : Ref sig .tc := ⟨.hbm, 203, rfl⟩
abbrev main_c_26 : Ref sig .tc := ⟨.hbm, 204, rfl⟩
abbrev main_call6_v0 : Ref sig .tc := ⟨.hbm, 205, rfl⟩
abbrev main_call6_v1 : Ref sig .tc := ⟨.hbm, 206, rfl⟩
abbrev main_call6_v2 : Ref sig .tc := ⟨.hbm, 207, rfl⟩
abbrev main_call6_v3 : Ref sig .tc := ⟨.hbm, 208, rfl⟩
abbrev main_call6_v4 : Ref sig .tc := ⟨.hbm, 209, rfl⟩
abbrev main_c_27 : Ref sig .tc := ⟨.hbm, 210, rfl⟩
abbrev main_v134 : Ref sig .tc := ⟨.hbm, 211, rfl⟩
abbrev main_c_28 : Ref sig .tc := ⟨.hbm, 212, rfl⟩
abbrev main_v135 : Ref sig .tc := ⟨.hbm, 213, rfl⟩
abbrev main_v136 : Ref sig .tc := ⟨.hbm, 214, rfl⟩
abbrev main_c_29 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_c_30 : Ref sig .tc := ⟨.hbm, 223, rfl⟩
abbrev main_v144 : Ref sig .tc := ⟨.hbm, 224, rfl⟩
abbrev main_v145 : Ref sig .tc := ⟨.hbm, 225, rfl⟩
abbrev main_c_31 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v133 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![44], ![false]⟩

abbrev pre0 : Pipeline.Prefetch sig := ⟨1, ![main_v133.idx], fun | 0 => main_v133.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S44) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S44) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S44) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S44) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S44) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S44) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x35 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x35 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x35x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x35 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S32768 : S_.BroadcastsInDim S32768 (![] : Fin 0 → Fin S32768.rank)
  slices_S256x36_S256x35_0_0 : S256x36.Slices ![0, 0] S256x35
  slices_S256x36_S256x1_0_35 : S256x36.Slices ![0, 35] S256x1
  shapeCasts_S256x1_S256 : S256x1.ShapeCasts S256
  shapeCasts_S256_S1x256 : S256.ShapeCasts S1x256
  slices_S12x256x36_S12x256x35_0_0_0 : S12x256x36.Slices ![0, 0, 0] S12x256x35
  slices_S12x256x36_S12x256x1_0_0_35 : S12x256x36.Slices ![0, 0, 35] S12x256x1
  shapeCasts_S12x256x1_S12x256 : S12x256x1.ShapeCasts S12x256
  bcast_S256x35_S1x256x35_1_2 : S256x35.BroadcastsInDim S1x256x35 (![1, 2] : Fin 2 → Fin S1x256x35.rank)
  bcast_S1x256x35_S12x256x35_0_1_2 : S1x256x35.BroadcastsInDim S12x256x35 (![0, 1, 2] : Fin 3 → Fin S12x256x35.rank)
  bitsLt_bf16_f32 : FTy.bits .bf16 < FTy.bits .f32
  bcast_S1x256_S1x1x256_1_2 : S1x256.BroadcastsInDim S1x1x256 (![1, 2] : Fin 2 → Fin S1x1x256.rank)
  bcast_S12x256_S12x1x256_0_2 : S12x256.BroadcastsInDim S12x1x256 (![0, 2] : Fin 2 → Fin S12x1x256.rank)
  bcast_S1x1x256_S12x1x256_0_1_2 : S1x1x256.BroadcastsInDim S12x1x256 (![0, 1, 2] : Fin 3 → Fin S12x1x256.rank)
  slices_S256x257_S256x256_0_0 : S256x257.Slices ![0, 0] S256x256
  slices_S256x257_S256x1_0_256 : S256x257.Slices ![0, 256] S256x1
  slices_S12x256x257_S12x256x256_0_0_0 : S12x256x257.Slices ![0, 0, 0] S12x256x256
  slices_S12x256x257_S12x256x1_0_0_256 : S12x256x257.Slices ![0, 0, 256] S12x256x1
  bcast_S256x256_S1x256x256_1_2 : S256x256.BroadcastsInDim S1x256x256 (![1, 2] : Fin 2 → Fin S1x256x256.rank)
  bcast_S1x256x256_S12x256x256_0_1_2 : S1x256x256.BroadcastsInDim S12x256x256 (![0, 1, 2] : Fin 3 → Fin S12x256x256.rank)
  shapeCasts_S7x5x257_S35x257 : S7x5x257.ShapeCasts S35x257
  slices_S35x257_S35x256_0_0 : S35x257.Slices ![0, 0] S35x256
  slices_S35x257_S35x1_0_256 : S35x257.Slices ![0, 256] S35x1
  shapeCasts_S35x1_S35 : S35x1.ShapeCasts S35
  shapeCasts_S7x5_S35 : S7x5.ShapeCasts S35
  shapeCasts_S35_S1x35 : S35.ShapeCasts S1x35
  shapeCasts_S12x7x5x257_S12x35x257 : S12x7x5x257.ShapeCasts S12x35x257
  slices_S12x35x257_S12x35x256_0_0_0 : S12x35x257.Slices ![0, 0, 0] S12x35x256
  slices_S12x35x257_S12x35x1_0_0_256 : S12x35x257.Slices ![0, 0, 256] S12x35x1
  shapeCasts_S12x35x1_S12x35 : S12x35x1.ShapeCasts S12x35
  shapeCasts_S12x7x5_S12x35 : S12x7x5.ShapeCasts S12x35
  bcast_S35x256_S1x35x256_1_2 : S35x256.BroadcastsInDim S1x35x256 (![1, 2] : Fin 2 → Fin S1x35x256.rank)
  bcast_S1x35x256_S12x35x256_0_1_2 : S1x35x256.BroadcastsInDim S12x35x256 (![0, 1, 2] : Fin 3 → Fin S12x35x256.rank)
  bcast_S1x35_S1x1x35_1_2 : S1x35.BroadcastsInDim S1x1x35 (![1, 2] : Fin 2 → Fin S1x1x35.rank)
  bcast_S12x35_S12x1x35_0_2 : S12x35.BroadcastsInDim S12x1x35 (![0, 2] : Fin 2 → Fin S12x1x35.rank)
  bcast_S1x1x35_S12x1x35_0_1_2 : S1x1x35.BroadcastsInDim S12x1x35 (![0, 1, 2] : Fin 3 → Fin S12x1x35.rank)
  bcast_S32768_S32768x1_0 : S32768.BroadcastsInDim S32768x1 (![0] : Fin 1 → Fin S32768x1.rank)
  bcast_S_S12 : S_.BroadcastsInDim S12 (![] : Fin 0 → Fin S12.rank)
  bcast_S_S1 : S_.BroadcastsInDim S1 (![] : Fin 0 → Fin S1.rank)
  bcast_S_S_ : S_.BroadcastsInDim S_ (![] : Fin 0 → Fin S_.rank)
  reduceWindows_S12_S12_w12s1p11_0 : S12.ReduceWindows (![12] : Fin 1 → Nat) ![1] ![11] ![0] S12
  h_S_ : 0 < S_.numel
  concatenates_S1_S12_S13_d0 : Shape.Concatenates [S1, S12] S13 0
  slices_S13_S12_0 : S13.Slices ![0] S12
  bcast_S_S45056 : S_.BroadcastsInDim S45056 (![] : Fin 0 → Fin S45056.rank)
  bcast_S_S1x35 : S_.BroadcastsInDim S1x35 (![] : Fin 0 → Fin S1x35.rank)
  concatenates_S32768x35_S1x35_S32769x35_d0 : Shape.Concatenates [S32768x35, S1x35] S32769x35 0
  bcast_S45056_S45056x1_0 : S45056.BroadcastsInDim S45056x1 (![0] : Fin 1 → Fin S45056x1.rank)
  bcast_S44_S44x1_0 : S44.BroadcastsInDim S44x1 (![0] : Fin 1 → Fin S44x1.rank)
  bcast_S12_S1x12_1 : S12.BroadcastsInDim S1x12 (![1] : Fin 1 → Fin S1x12.rank)
  bcast_S44x1_S44x12_0_1 : S44x1.BroadcastsInDim S44x12 (![0, 1] : Fin 2 → Fin S44x12.rank)
  bcast_S1x12_S44x12_0_1 : S1x12.BroadcastsInDim S44x12 (![0, 1] : Fin 2 → Fin S44x12.rank)
  natLt_1_32 : 1 < 32
  reducesTo_S44x12_S44_d1 : S44x12.ReducesTo [1] S44
  bcast_S_S44 : S_.BroadcastsInDim S44 (![] : Fin 0 → Fin S44.rank)
  numel1_S1 : S1.numel = 1
  inb_S1024x35_S1024x35_0_0 : ∀ a, (![0, 0] : Fin 2 → Nat) a + S1024x35.size a ≤ S1024x35.size a
  h_S1024x35 : 0 < S1024x35.numel
  shapeCasts_S1024x35_S1024x35 : S1024x35.ShapeCasts S1024x35
  inb_S1x256x35_S1x256x35_0_0_0 : ∀ a, (![0, 0, 0] : Fin 3 → Nat) a + S1x256x35.size a ≤ S1x256x35.size a
  h_S1x256x35 : 0 < S1x256x35.numel
  shapeCasts_S1x256x35_S256x35 : S1x256x35.ShapeCasts S256x35
  transposes_S256x35_p1_0_S35x256 : S256x35.Transposes [1, 0] S35x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S1024x256 : S1x256.Broadcasts S1024x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  transposes_S256x256_p1_0_S256x256 : S256x256.Transposes [1, 0] S256x256
  inb_S1x35x256_S1x35x256_0_0_0 : ∀ a, (![0, 0, 0] : Fin 3 → Nat) a + S1x35x256.size a ≤ S1x35x256.size a
  h_S1x35x256 : 0 < S1x35x256.numel
  shapeCasts_S1x35x256_S35x256 : S1x35x256.ShapeCasts S35x256
  transposes_S35x256_p1_0_S256x35 : S35x256.Transposes [1, 0] S256x35
  inb_S1x1x35_S1x1x35_0_0_0 : ∀ a, (![0, 0, 0] : Fin 3 → Nat) a + S1x1x35.size a ≤ S1x1x35.size a
  h_S1x1x35 : 0 < S1x1x35.numel
  shapeCasts_S1x1x35_S1x35 : S1x1x35.ShapeCasts S1x35
  broadcasts_S1x35_S1024x35 : S1x35.Broadcasts S1024x35
  slices_S1024x35_o0_0_S1024x5 : S1024x35.Slices ![0, 0] S1024x5
  reduces_S1024x5_S1024 : S1024x5.Reduces [1] S1024
  shapeCasts_S1024_S1024x1 : S1024.ShapeCasts S1024x1
  broadcasts_S1024x1_S1024x5 : S1024x1.Broadcasts S1024x5
  slices_S1024x35_o0_5_S1024x5 : S1024x35.Slices ![0, 5] S1024x5
  slices_S1024x35_o0_10_S1024x5 : S1024x35.Slices ![0, 10] S1024x5
  slices_S1024x35_o0_15_S1024x5 : S1024x35.Slices ![0, 15] S1024x5
  slices_S1024x35_o0_20_S1024x5 : S1024x35.Slices ![0, 20] S1024x5
  slices_S1024x35_o0_25_S1024x5 : S1024x35.Slices ![0, 25] S1024x5
  slices_S1024x35_o0_30_S1024x5 : S1024x35.Slices ![0, 30] S1024x5
  concatenates_S1024x5_S1024x5_S1024x5_S1024x5_S1024x5_S1024x5_S1024x5_S1024x35_d1 : Shape.Concatenates [S1024x5, S1024x5, S1024x5, S1024x5, S1024x5, S1024x5, S1024x5] S1024x35 1
  concatenates_S1024x35_S1024x93_S1024x128_d1 : Shape.Concatenates [S1024x35, S1024x93] S1024x128 1
  inb_S1024x128_S1024x128_0_0 : ∀ a, (![0, 0] : Fin 2 → Nat) a + S1024x128.size a ≤ S1024x128.size a
  h_S1024x128 : 0 < S1024x128.numel
  slices_S45056x128_S45056x35_0_0 : S45056x128.Slices ![0, 0] S45056x35
  shapeCasts_S32768x35_S32768x7x5 : S32768x35.ShapeCasts S32768x7x5
  gather_S32768_S32768x1_S32768_n_0_n_n_0_1_1_wf : GatherDims.WF S32768 S32768x1 S32768 [] [0] [] [0] [] 1 ![1]
  scatter_S12_S32768x1_S32768_n_0_0_1_wf : ScatterDims.WF S12 S32768x1 S32768 [] [0] [0] 1
  gather_S12_S32768x1_S32768_n_0_n_n_0_1_1_wf : GatherDims.WF S12 S32768x1 S32768 [] [0] [] [0] [] 1 ![1]
  scatter_S45056_S32768x1_S32768_n_0_0_1_wf : ScatterDims.WF S45056 S32768x1 S32768 [] [0] [0] 1
  gather_S32769x35_S45056x1_S45056x35_1_0_n_n_0_1_135_wf : GatherDims.WF S32769x35 S45056x1 S45056x35 [1] [0] [] [0] [] 1 ![1, 35]
  scatter_S32768_S32768x1_S32768_n_0_0_1_wf : ScatterDims.WF S32768 S32768x1 S32768 [] [0] [0] 1
  dot_S1024x35_S35x256_S1024x256_1_0_0_1_n_n_wf : DotDims.WF S1024x35 S35x256 S1024x256 [1] [0] [0] [1] [] []
  dot_S1024x256_S256x256_S1024x256_1_0_0_1_n_n_wf : DotDims.WF S1024x256 S256x256 S1024x256 [1] [0] [0] [1] [] []
  dot_S1024x256_S256x35_S1024x35_1_0_0_1_n_n_wf : DotDims.WF S1024x256 S256x35 S1024x35 [1] [0] [0] [1] [] []
  gather_S45056x35_S32768x1_S32768x35_1_0_n_n_0_1_135_wf : GatherDims.WF S45056x35 S32768x1 S32768x35 [1] [0] [] [0] [] 1 ![1, 35]
  hrank0 : 0 < grid0.rank
  k0_off1_inb : ∀ i : grid0.Coords, ∀ a, (k0_off1 i) a + S1.size a ≤ S44.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x35.size a ≤ S45056x35.size a
  hwx0_0 : ∀ i : grid0.Coords, EltTy.bits .f32 = 32 ∨ (Rect.block (s := S45056x35) S1024x35.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ {F : FTy → Type} [FloatOps F] (pf : pre0.Contents (Elt F)) (i i' : grid0.Coords), (∀ a, reads0_6 a = true → i a = i' a) → cc0_transform_6 k0_off1_inb numel1_S1 pf i = cc0_transform_6 k0_off1_inb numel1_S1 pf i'
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S45056x128.size a
  hwx0_7 : ∀ i : grid0.Coords, EltTy.bits .f32 = 32 ∨ (Rect.block (s := S45056x128) S1024x128.size (cc0_transform_7 i) (hinb0_7 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S32768_S32768x1_S32768_n_0_n_n_0_1_1 : GatherDims S32768 S32768x1 S32768 where
  offsetDims := []
  collapsedSliceDims := [0]
  operandBatchingDims := []
  startIndicesBatchingDims := []
  startIndexMap := [0]
  indexVectorDim := 1
  sliceSizes := ![1]
  wf := gather_S32768_S32768x1_S32768_n_0_n_n_0_1_1_wf
def scatter_S12_S32768x1_S32768_n_0_0_1 : ScatterDims S12 S32768x1 S32768 where
  updateWindowDims := []
  insertedWindowDims := [0]
  scatterDimsToOperandDims := [0]
  indexVectorDim := 1
  wf := scatter_S12_S32768x1_S32768_n_0_0_1_wf
def gather_S12_S32768x1_S32768_n_0_n_n_0_1_1 : GatherDims S12 S32768x1 S32768 where
  offsetDims := []
  collapsedSliceDims := [0]
  operandBatchingDims := []
  startIndicesBatchingDims := []
  startIndexMap := [0]
  indexVectorDim := 1
  sliceSizes := ![1]
  wf := gather_S12_S32768x1_S32768_n_0_n_n_0_1_1_wf
def scatter_S45056_S32768x1_S32768_n_0_0_1 : ScatterDims S45056 S32768x1 S32768 where
  updateWindowDims := []
  insertedWindowDims := [0]
  scatterDimsToOperandDims := [0]
  indexVectorDim := 1
  wf := scatter_S45056_S32768x1_S32768_n_0_0_1_wf
def gather_S32769x35_S45056x1_S45056x35_1_0_n_n_0_1_135 : GatherDims S32769x35 S45056x1 S45056x35 where
  offsetDims := [1]
  collapsedSliceDims := [0]
  operandBatchingDims := []
  startIndicesBatchingDims := []
  startIndexMap := [0]
  indexVectorDim := 1
  sliceSizes := ![1, 35]
  wf := gather_S32769x35_S45056x1_S45056x35_1_0_n_n_0_1_135_wf
def scatter_S32768_S32768x1_S32768_n_0_0_1 : ScatterDims S32768 S32768x1 S32768 where
  updateWindowDims := []
  insertedWindowDims := [0]
  scatterDimsToOperandDims := [0]
  indexVectorDim := 1
  wf := scatter_S32768_S32768x1_S32768_n_0_0_1_wf
def dot_S1024x35_S35x256_S1024x256_1_0_0_1_n_n : DotDims S1024x35 S35x256 S1024x256 where
  lhsContracting := [1]
  rhsContracting := [0]
  lhsNonContracting := [0]
  rhsNonContracting := [1]
  lhsBatch := []
  rhsBatch := []
  wf := dot_S1024x35_S35x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x35_S1024x35_1_0_0_1_n_n : DotDims S1024x256 S256x35 S1024x35 where
  lhsContracting := [1]
  rhsContracting := [0]
  lhsNonContracting := [0]
  rhsNonContracting := [1]
  lhsBatch := []
  rhsBatch := []
  wf := dot_S1024x256_S256x35_S1024x35_1_0_0_1_n_n_wf
def gather_S45056x35_S32768x1_S32768x35_1_0_n_n_0_1_135 : GatherDims S45056x35 S32768x1 S32768x35 where
  offsetDims := [1]
  collapsedSliceDims := [0]
  operandBatchingDims := []
  startIndicesBatchingDims := []
  startIndexMap := [0]
  indexVectorDim := 1
  sliceSizes := ![1, 35]
  wf := gather_S45056x35_S32768x1_S32768x35_1_0_n_n_0_1_135_wf

abbrev spec0_0 : Pipeline.WinSpec sig grid0.rank :=
  Pipeline.WinSpec.ofSpec (Memref.whole main_v122) S1024x35.size reads0_0 false false 2 stage0_0 sem0_0 nbuf0_0 hstage0_0

abbrev spec0_1 : Pipeline.WinSpec sig grid0.rank :=
  Pipeline.WinSpec.ofSpec (Memref.whole main_v13) S1x256x35.size reads0_1 false false 2 stage0_1 sem0_1 nbuf0_1 hstage0_1

abbrev spec0_2 : Pipeline.WinSpec sig grid0.rank :=
  Pipeline.WinSpec.ofSpec (Memref.whole main_v17) S1x1x256.size reads0_2 false false 2 stage0_2 sem0_2 nbuf0_2 hstage0_2

abbrev spec0_3 : Pipeline.WinSpec sig grid0.rank :=
  Pipeline.WinSpec.ofSpec (Memref.whole main_v30) S1x256x256.size reads0_3 false false 2 stage0_3 sem0_3 nbuf0_3 hstage0_3

abbrev spec0_4 : Pipeline.WinSpec sig grid0.rank :=
  Pipeline.WinSpec.ofSpec (Memref.whole main_v34) S1x1x256.size reads0_4 false false 2 stage0_4 sem0_4 nbuf0_4 hstage0_4

abbrev spec0_5 : Pipeline.WinSpec sig grid0.rank :=
  Pipeline.WinSpec.ofSpec (Memref.whole main_v51) S1x35x256.size reads0_5 false false 2 stage0_5 sem0_5 nbuf0_5 hstage0_5

abbrev spec0_6 : Pipeline.WinSpec sig grid0.rank :=
  Pipeline.WinSpec.ofSpec (Memref.whole main_v55) S1x1x35.size reads0_6 false false 2 stage0_6 sem0_6 nbuf0_6 hstage0_6

abbrev spec0_7 : Pipeline.WinSpec sig grid0.rank :=
  Pipeline.WinSpec.ofSpec (Memref.whole main_v142) S1024x128.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | 6 => cc0_transform_6 k0_off1_inb numel1_S1 pf | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 pf | 5 => hreads0_5 pf | 6 => hreads0_6 pf | 7 => hreads0_7 | ⟨_ + 8, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x35.size a ≤ S12x256x35.size a), EltTy.bits .bf16 = 32 ∨ (Rect.block (s := S12x256x35) S1x256x35.size (cc0_transform_1 k0_off1_inb numel1_S1 pf i) h).WholeWords (EltTy.packing .bf16)) ∧
  (∀ i : grid0.Coords, ∃ h : (∀ a, (cc0_transform_2 k0_off1_inb numel1_S1 pf i a + 1) * S1x1x256.size a ≤ S12x1x256.size a), EltTy.bits .f32 = 32 ∨ (Rect.block (s := S12x1x256) S1x1x256.size (cc0_transform_2 k0_off1_inb numel1_S1 pf i) h).WholeWords (EltTy.packing .f32)) ∧
  (∀ i : grid0.Coords, ∃ h : (∀ a, (cc0_transform_3 k0_off1_inb numel1_S1 pf i a + 1) * S1x256x256.size a ≤ S12x256x256.size a), EltTy.bits .bf16 = 32 ∨ (Rect.block (s := S12x256x256) S1x256x256.size (cc0_transform_3 k0_off1_inb numel1_S1 pf i) h).WholeWords (EltTy.packing .bf16)) ∧
  (∀ i : grid0.Coords, ∃ h : (∀ a, (cc0_transform_4 k0_off1_inb numel1_S1 pf i a + 1) * S1x1x256.size a ≤ S12x1x256.size a), EltTy.bits .f32 = 32 ∨ (Rect.block (s := S12x1x256) S1x1x256.size (cc0_transform_4 k0_off1_inb numel1_S1 pf i) h).WholeWords (EltTy.packing .f32)) ∧
  (∀ i : grid0.Coords, ∃ h : (∀ a, (cc0_transform_5 k0_off1_inb numel1_S1 pf i a + 1) * S1x35x256.size a ≤ S12x35x256.size a), EltTy.bits .bf16 = 32 ∨ (Rect.block (s := S12x35x256) S1x35x256.size (cc0_transform_5 k0_off1_inb numel1_S1 pf i) h).WholeWords (EltTy.packing .bf16)) ∧
  (∀ i : grid0.Coords, ∃ h : (∀ a, (cc0_transform_6 k0_off1_inb numel1_S1 pf i a + 1) * S1x1x35.size a ≤ S12x1x35.size a), EltTy.bits .f32 = 32 ∨ (Rect.block (s := S12x1x35) S1x1x35.size (cc0_transform_6 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2.1 i).elim fun h _ => h a | 4 => fun i a => (hok.2.2.2.1 i).elim fun h _ => h a | 5 => fun i a => (hok.2.2.2.2.1 i).elim fun h _ => h a | 6 => fun i a => (hok.2.2.2.2.2 i).elim fun h _ => h a | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2.1 i).elim fun _ h => h | 4 => fun i => (hok.2.2.2.1 i).elim fun _ h => h | 5 => fun i => (hok.2.2.2.2.1 i).elim fun _ h => h | 6 => fun i => (hok.2.2.2.2.2 i).elim fun _ h => h | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S32768x35 : Shape := ⟨2, ![32768, 35]⟩
abbrev S32768 : Shape := ⟨1, ![32768]⟩
abbrev S256x36 : Shape := ⟨2, ![256, 36]⟩
abbrev S256 : Shape := ⟨1, ![256]⟩
abbrev S256x257 : Shape := ⟨2, ![256, 257]⟩
abbrev S12x256x36 : Shape := ⟨3, ![12, 256, 36]⟩
abbrev S12x256 : Shape := ⟨2, ![12, 256]⟩
abbrev S12x256x257 : Shape := ⟨3, ![12, 256, 257]⟩
abbrev S7x5x257 : Shape := ⟨3, ![7, 5, 257]⟩
abbrev S7x5 : Shape := ⟨2, ![7, 5]⟩
abbrev S12x7x5x257 : Shape := ⟨4, ![12, 7, 5, 257]⟩
abbrev S12x7x5 : Shape := ⟨3, ![12, 7, 5]⟩
abbrev S_ : Shape := ⟨0, ![]⟩
abbrev S32768x1 : Shape := ⟨2, ![32768, 1]⟩
abbrev S32768x36 : Shape := ⟨2, ![32768, 36]⟩
abbrev S32768x12x256 : Shape := ⟨3, ![32768, 12, 256]⟩
abbrev S32768x1x1 : Shape := ⟨3, ![32768, 1, 1]⟩
abbrev S1 : Shape := ⟨1, ![1]⟩
abbrev S1x1x1 : Shape := ⟨3, ![1, 1, 1]⟩
abbrev S32768x1x256 : Shape := ⟨3, ![32768, 1, 256]⟩
abbrev S32768x256 : Shape := ⟨2, ![32768, 256]⟩
abbrev S36x256 : Shape := ⟨2, ![36, 256]⟩
abbrev S1x256 : Shape := ⟨2, ![1, 256]⟩
abbrev S32768x257 : Shape := ⟨2, ![32768, 257]⟩
abbrev S257x256 : Shape := ⟨2, ![257, 256]⟩
abbrev S32768x7x5 : Shape := ⟨3, ![32768, 7, 5]⟩
abbrev S1x7x5 : Shape := ⟨3, ![1, 7, 5]⟩
abbrev S32768x12x7x5 : Shape := ⟨4, ![32768, 12, 7, 5]⟩
abbrev S32768x1x1x1 : Shape := ⟨4, ![32768, 1, 1, 1]⟩
abbrev S32768x1x7x5 : Shape := ⟨4, ![32768, 1, 7, 5]⟩
abbrev S32768x7 : Shape := ⟨2, ![32768, 7]⟩
abbrev S32768x7x1 : Shape := ⟨3, ![32768, 7, 1]⟩

abbrev nBuf : Space → Nat
  | .hbm => 166
  | .vmem => 0
  | .smem => 0
  | _ => 0

abbrev hbmTy0_0 (i : Nat) : BufTy := match i % 128 with
  | 0 => ⟨S32768x35, .f32⟩
  | 1 => ⟨S32768, .i32⟩
  | 2 => ⟨S256x36, .f32⟩
  | 3 => ⟨S256, .f32⟩
  | 4 => ⟨S256x257, .f32⟩
  | 5 => ⟨S256, .f32⟩
  | 6 => ⟨S12x256x36, .f32⟩
  | 7 => ⟨S12x256, .f32⟩
  | 8 => ⟨S12x256x257, .f32⟩
  | 9 => ⟨S12x256, .f32⟩
  | 10 => ⟨S7x5x257, .f32⟩
  | 11 => ⟨S7x5, .f32⟩
  | 12 => ⟨S12x7x5x257, .f32⟩
  | 13 => ⟨S12x7x5, .f32⟩
  | 14 => ⟨S_, .f32⟩
  | 15 => ⟨S32768x1, .f32⟩
  | 16 => ⟨S32768x36, .f32⟩
  | 17 => ⟨S32768x12x256, .f32⟩
  | 18 => ⟨S32768x1x1, .i32⟩
  | 19 => ⟨S_, .i32⟩
  | 20 => ⟨S32768x1x1, .i32⟩
  | 21 => ⟨S32768x1x1, .i1⟩
  | 22 => ⟨S_, .i32⟩
  | 23 => ⟨S32768x1x1, .i32⟩
  | 24 => ⟨S32768x1x1, .i32⟩
  | 25 => ⟨S32768x1x1, .i32⟩
  | 26 => ⟨S1, .i32⟩
  | 27 => ⟨S_, .i32⟩
  | 28 => ⟨S32768x1x1, .i32⟩
  | 29 => ⟨S32768x1x1, .i1⟩
  | 30 => ⟨S1x1x1, .i32⟩
  | 31 => ⟨S32768x1x1, .i32⟩
  | 32 => ⟨S32768x1x1, .i1⟩
  | 33 => ⟨S32768x1x1, .i1⟩
  | 34 => ⟨S_, .i1⟩
  | 35 => ⟨S32768x1, .i1⟩
  | 36 => ⟨S32768x1x256, .f32⟩
  | 37 => ⟨S32768x1x256, .i1⟩
  | 38 => ⟨S_, .f32⟩
  | 39 => ⟨S32768x1x256, .f32⟩
  | 40 => ⟨S32768x1x256, .f32⟩
  | 41 => ⟨S32768x256, .f32⟩
  | 42 => ⟨S_, .i32⟩
  | 43 => ⟨S32768, .i32⟩
  | 44 => ⟨S32768, .i1⟩
  | 45 => ⟨S_, .i32⟩
  | 46 => ⟨S32768, .i32⟩
  | 47 => ⟨S32768, .i32⟩
  | 48 => ⟨S32768, .i32⟩
  | 49 => ⟨S32768x1, .i32⟩
  | 50 => ⟨S32768x256, .f32⟩
  | 51 => ⟨S32768x256, .f32⟩
  | 52 => ⟨S36x256, .f32⟩
  | 53 => ⟨S32768x256, .f32⟩
  | 54 => ⟨S1x256, .f32⟩
  | 55 => ⟨S32768x256, .f32⟩
  | 56 => ⟨S32768x256, .f32⟩
  | 57 => ⟨S32768x256, .f32⟩
  | 58 => ⟨S_, .f32⟩
  | 59 => ⟨S32768x256, .f32⟩
  | 60 => ⟨S32768x256, .f32⟩
  | 61 => ⟨S_, .f32⟩
  | 62 => ⟨S32768x1, .f32⟩
  | 63 => ⟨S32768x257, .f32⟩
  | 64 => ⟨S32768x12x256, .f32⟩
  | 65 => ⟨S32768x1x1, .i32⟩
  | 66 => ⟨S_, .i32⟩
  | 67 => ⟨S32768x1x1, .i32⟩
  | 68 => ⟨S32768x1x1, .i1⟩
  | 69 => ⟨S_, .i32⟩
  | 70 => ⟨S32768x1x1, .i32⟩
  | 71 => ⟨S32768x1x1, .i32⟩
  | 72 => ⟨S32768x1x1, .i32⟩
  | 73 => ⟨S1, .i32⟩
  | 74 => ⟨S_, .i32⟩
  | 75 => ⟨S32768x1x1, .i32⟩
  | 76 => ⟨S32768x1x1, .i1⟩
  | 77 => ⟨S1x1x1, .i32⟩
  | 78 => ⟨S32768x1x1, .i32⟩
  | 79 => ⟨S32768x1x1, .i1⟩
  | 80 => ⟨S32768x1x1, .i1⟩
  | 81 => ⟨S_, .i1⟩
  | 82 => ⟨S32768x1, .i1⟩
  | 83 => ⟨S32768x1x256, .f32⟩
  | 84 => ⟨S32768x1x256, .i1⟩
  | 85 => ⟨S_, .f32⟩
  | 86 => ⟨S32768x1x256, .f32⟩
  | 87 => ⟨S32768x1x256, .f32⟩
  | 88 => ⟨S32768x256, .f32⟩
  | 89 => ⟨S_, .i32⟩
  | 90 => ⟨S32768, .i32⟩
  | 91 => ⟨S32768, .i1⟩
  | 92 => ⟨S_, .i32⟩
  | 93 => ⟨S32768, .i32⟩
  | 94 => ⟨S32768, .i32⟩
  | 95 => ⟨S32768, .i32⟩
  | 96 => ⟨S32768x1, .i32⟩
  | 97 => ⟨S32768x256, .f32⟩
  | 98 => ⟨S32768x256, .f32⟩
  | 99 => ⟨S257x256, .f32⟩
  | 100 => ⟨S32768x256, .f32⟩
  | 101 => ⟨S1x256, .f32⟩
  | 102 => ⟨S32768x256, .f32⟩
  | 103 => ⟨S32768x256, .f32⟩
  | 104 => ⟨S32768x256, .f32⟩
  | 105 => ⟨S_, .f32⟩
  | 106 => ⟨S32768x256, .f32⟩
  | 107 => ⟨S32768x256, .f32⟩
  | 108 => ⟨S_, .f32⟩
  | 109 => ⟨S32768x1, .f32⟩
  | 110 => ⟨S32768x257, .f32⟩
  | 111 => ⟨S32768x7x5, .f32⟩
  | 112 => ⟨S1x7x5, .f32⟩
  | 113 => ⟨S32768x7x5, .f32⟩
  | 114 => ⟨S32768x7x5, .f32⟩
  | 115 => ⟨S32768x12x7x5, .f32⟩
  | 116 => ⟨S32768x1x1x1, .i32⟩
  | 117 => ⟨S_, .i32⟩
  | 118 => ⟨S32768x1x1x1, .i32⟩
  | 119 => ⟨S32768x1x1x1, .i1⟩
  | 120 => ⟨S_, .i32⟩
  | 121 => ⟨S32768x1x1x1, .i32⟩
  | 122 => ⟨S32768x1x1x1, .i32⟩
  | 123 => ⟨S32768x1x1x1, .i32⟩
  | 124 => ⟨S32768x1x1, .i32⟩
  | 125 => ⟨S1, .i32⟩
  | 126 => ⟨S_, .i32⟩
  | 127 => ⟨S32768x1x1, .i32⟩
  | _ => ⟨S32768x35, .f32⟩

abbrev hbmTy0_1 (i : Nat) : BufTy := match i % 128 with
  | 0 => ⟨S32768x1x1, .i1⟩
  | 1 => ⟨S1x1x1, .i32⟩
  | 2 => ⟨S32768x1x1, .i32⟩
  | 3 => ⟨S32768x1x1, .i1⟩
  | 4 => ⟨S32768x1x1, .i1⟩
  | 5 => ⟨S_, .i1⟩
  | 6 => ⟨S32768x1, .i1⟩
  | 7 => ⟨S32768x1x7x5, .f32⟩
  | 8 => ⟨S32768x1x7x5, .i1⟩
  | 9 => ⟨S_, .f32⟩
  | 10 => ⟨S32768x1x7x5, .f32⟩
  | 11 => ⟨S32768x1x7x5, .f32⟩
  | 12 => ⟨S32768x7x5, .f32⟩
  | 13 => ⟨S_, .i32⟩
  | 14 => ⟨S32768, .i32⟩
  | 15 => ⟨S32768, .i1⟩
  | 16 => ⟨S_, .i32⟩
  | 17 => ⟨S32768, .i32⟩
  | 18 => ⟨S32768, .i32⟩
  | 19 => ⟨S32768, .i32⟩
  | 20 => ⟨S32768x1, .i32⟩
  | 21 => ⟨S32768x7x5, .f32⟩
  | 22 => ⟨S32768x7x5, .f32⟩
  | 23 => ⟨S32768x7x5, .f32⟩
  | 24 => ⟨S_, .f32⟩
  | 25 => ⟨S32768x7, .f32⟩
  | 26 => ⟨S_, .f32⟩
  | 27 => ⟨S32768x7, .f32⟩
  | 28 => ⟨S32768x7, .f32⟩
  | 29 => ⟨S32768x7x1, .f32⟩
  | 30 => ⟨S32768x7x5, .f32⟩
  | 31 => ⟨S32768x7x5, .f32⟩
  | 32 => ⟨S32768x7x5, .f32⟩
  | 33 => ⟨S_, .f32⟩
  | 34 => ⟨S32768x7, .f32⟩
  | 35 => ⟨S32768x7x1, .f32⟩
  | 36 => ⟨S32768x7x5, .f32⟩
  | 37 => ⟨S32768x7x5, .f32⟩
  | _ => ⟨S32768x35, .f32⟩

abbrev hbmTy (i : Nat) : BufTy := match i / 128 with
  | 0 => hbmTy0_0 i
  | 1 => hbmTy0_1 i
  | _ => ⟨S32768x35, .f32⟩

abbrev bufTy : (tb : Table) → Fin (tcTables nBuf tb) → BufTy
  | .hbm, ⟨i, _⟩ => hbmTy i
  | _, _ => ⟨S32768x35, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_c_2 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_c_3 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v4 : Ref sig .tc := ⟨.hbm, 40, rfl⟩
abbrev main_v5 : Ref sig .tc := ⟨.hbm, 41, rfl⟩
abbrev main_c : Ref sig .tc := ⟨.hbm, 42, rfl⟩
abbrev main_v6 : Ref sig .tc := ⟨.hbm, 43, rfl⟩
abbrev main_v7 : Ref sig .tc := ⟨.hbm, 44, rfl⟩
abbrev main_c_0 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_call1_cst : Ref sig .tc := ⟨.hbm, 58, rfl⟩
abbrev main_call1_v0 : Ref sig .tc := ⟨.hbm, 59, rfl⟩
abbrev main_v20 : Ref sig .tc := ⟨.hbm, 60, rfl⟩
abbrev main_cst_1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_c_2 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_c_3 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_cst : Ref sig .tc := ⟨.hbm, 85, rfl⟩
abbrev main_call2_v14 : Ref sig .tc := ⟨.hbm, 86, rfl⟩
abbrev main_v25 : Ref sig .tc := ⟨.hbm, 87, rfl⟩
abbrev main_v26 : Ref sig .tc := ⟨.hbm, 88, rfl⟩
abbrev main_c_2 : Ref sig .tc := ⟨.hbm, 89, rfl⟩
abbrev main_v27 : Ref sig .tc := ⟨.hbm, 90, rfl⟩
abbrev main_v28 : Ref sig .tc := ⟨.hbm, 91, rfl⟩
abbrev main_c_3 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_call3_cst : Ref sig .tc := ⟨.hbm, 105, rfl⟩
abbrev main_call3_v0 : Ref sig .tc := ⟨.hbm, 106, rfl⟩
abbrev main_v41 : Ref sig .tc := ⟨.hbm, 107, rfl⟩
abbrev main_cst_4 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v50 : Ref sig .tc := ⟨.hbm, 139, rfl⟩
abbrev main_v51 : Ref sig .tc := ⟨.hbm, 140, rfl⟩
abbrev main_c_5 : Ref sig .tc := ⟨.hbm, 141, rfl⟩
abbrev main_v52 : Ref sig .tc := ⟨.hbm, 142, rfl⟩
abbrev main_v53 : Ref sig .tc := ⟨.hbm, 143, rfl⟩
abbrev main_c_6 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_v60 : Ref sig .tc := ⟨.hbm, 151, rfl⟩
abbrev main_cst_7 : Ref sig .tc := ⟨.hbm, 152, rfl⟩
abbrev main_v61 : Ref sig .tc := ⟨.hbm, 153, rfl⟩
abbrev main_cst_8 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_cst_9 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩

abbrev nD : Nat := 1
abbrev τ : Topo := Topo.v7x

variable {F : FTy → Type} [FloatOps F]

class Facts₀ : Prop where
  bcast_S_S32768x1 : S_.BroadcastsInDim S32768x1 (![] : Fin 0 → Fin S32768x1.rank)
  concatenates_S32768x35_S32768x1_S32768x36_d1 : Shape.Concatenates [S32768x35, S32768x1] S32768x36 1
  bcast_S32768_S32768x1x1_0 : S32768.BroadcastsInDim S32768x1x1 (![0] : Fin 1 → Fin S32768x1x1.rank)
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  h_S_ : 0 < S_.numel
  bcast_S32768x1_S32768x1x256_0_1 : S32768x1.BroadcastsInDim S32768x1x256 (![0, 1] : Fin 2 → Fin S32768x1x256.rank)
  bcast_S_S32768x1x256 : S_.BroadcastsInDim S32768x1x256 (![] : Fin 0 → Fin S32768x1x256.rank)
  shapeCasts_S32768x1x256_S32768x256 : S32768x1x256.ShapeCasts S32768x256
  bcast_S_S32768 : S_.BroadcastsInDim S32768 (![] : Fin 0 → Fin S32768.rank)
  bcast_S32768_S32768x1_0 : S32768.BroadcastsInDim S32768x1 (![0] : Fin 1 → Fin S32768x1.rank)
  transposes_S256x36_S36x256_1_0 : S256x36.Transposes [1, 0] S36x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  concatenates_S32768x256_S32768x1_S32768x257_d1 : Shape.Concatenates [S32768x256, S32768x1] S32768x257 1
  transposes_S256x257_S257x256_1_0 : S256x257.Transposes [1, 0] S257x256
  bcast_S7x5_S1x7x5_1_2 : S7x5.BroadcastsInDim S1x7x5 (![1, 2] : Fin 2 → Fin S1x7x5.rank)
  bcast_S1x7x5_S32768x7x5_0_1_2 : S1x7x5.BroadcastsInDim S32768x7x5 (![0, 1, 2] : Fin 3 → Fin S32768x7x5.rank)
  bcast_S32768_S32768x1x1x1_0 : S32768.BroadcastsInDim S32768x1x1x1 (![0] : Fin 1 → Fin S32768x1x1x1.rank)
  bcast_S_S32768x1x1x1 : S_.BroadcastsInDim S32768x1x1x1 (![] : Fin 0 → Fin S32768x1x1x1.rank)
  shapeCasts_S32768x1x1x1_S32768x1x1 : S32768x1x1x1.ShapeCasts S32768x1x1
  bcast_S32768x1_S32768x1x7x5_0_1 : S32768x1.BroadcastsInDim S32768x1x7x5 (![0, 1] : Fin 2 → Fin S32768x1x7x5.rank)
  bcast_S_S32768x1x7x5 : S_.BroadcastsInDim S32768x1x7x5 (![] : Fin 0 → Fin S32768x1x7x5.rank)
  shapeCasts_S32768x1x7x5_S32768x7x5 : S32768x1x7x5.ShapeCasts S32768x7x5
  reducesTo_S32768x7x5_S32768x7_d2 : S32768x7x5.ReducesTo [2] S32768x7
  bcast_S_S32768x7 : S_.BroadcastsInDim S32768x7 (![] : Fin 0 → Fin S32768x7.rank)
  bcast_S32768x7_S32768x7x1_0_1 : S32768x7.BroadcastsInDim S32768x7x1 (![0, 1] : Fin 2 → Fin S32768x7x1.rank)
  bcast_S32768x7x1_S32768x7x5_0_1_2 : S32768x7x1.BroadcastsInDim S32768x7x5 (![0, 1, 2] : Fin 3 → Fin S32768x7x5.rank)
  dot_S32768x36_S12x256x36_S32768x12x256_1_2_0_01_n_n_wf : DotDims.WF S32768x36 S12x256x36 S32768x12x256 [1] [2] [0] [0, 1] [] []
  gather_S32768x12x256_S32768x1x1_S32768x1x256_2_1_0_0_1_2_11256_wf : GatherDims.WF S32768x12x256 S32768x1x1 S32768x1x256 [2] [1] [0] [1] [0] 2 ![1, 1, 256]
  gather_S12x256_S32768x1_S32768x256_1_0_n_n_0_1_1256_wf : GatherDims.WF S12x256 S32768x1 S32768x256 [1] [0] [] [0] [] 1 ![1, 256]
  dot_S32768x36_S36x256_S32768x256_1_0_0_1_n_n_wf : DotDims.WF S32768x36 S36x256 S32768x256 [1] [0] [0] [1] [] []
  dot_S32768x257_S12x256x257_S32768x12x256_1_2_0_01_n_n_wf : DotDims.WF S32768x257 S12x256x257 S32768x12x256 [1] [2] [0] [0, 1] [] []
  dot_S32768x257_S257x256_S32768x256_1_0_0_1_n_n_wf : DotDims.WF S32768x257 S257x256 S32768x256 [1] [0] [0] [1] [] []
  dot_S32768x257_S7x5x257_S32768x7x5_1_2_0_01_n_n_wf : DotDims.WF S32768x257 S7x5x257 S32768x7x5 [1] [2] [0] [0, 1] [] []
  dot_S32768x257_S12x7x5x257_S32768x12x7x5_1_3_0_012_n_n_wf : DotDims.WF S32768x257 S12x7x5x257 S32768x12x7x5 [1] [3] [0] [0, 1, 2] [] []
  gather_S32768x12x7x5_S32768x1x1_S32768x1x7x5_23_1_0_0_1_2_1175_wf : GatherDims.WF S32768x12x7x5 S32768x1x1 S32768x1x7x5 [2, 3] [1] [0] [1] [0] 2 ![1, 1, 7, 5]
  gather_S12x7x5_S32768x1_S32768x7x5_12_0_n_n_0_1_175_wf : GatherDims.WF S12x7x5 S32768x1 S32768x7x5 [1, 2] [0] [] [0] [] 1 ![1, 7, 5]

variable [Facts₀]

def dot_S32768x36_S12x256x36_S32768x12x256_1_2_0_01_n_n : DotDims S32768x36 S12x256x36 S32768x12x256 where
  lhsContracting := [1]
  rhsContracting := [2]
  lhsNonContracting := [0]
  rhsNonContracting := [0, 1]
  lhsBatch := []
  rhsBatch := []
  wf := dot_S32768x36_S12x256x36_S32768x12x256_1_2_0_01_n_n_wf
def gather_S32768x12x256_S32768x1x1_S32768x1x256_2_1_0_0_1_2_11256 : GatherDims S32768x12x256 S32768x1x1 S32768x1x256 where
  offsetDims := [2]
  collapsedSliceDims := [1]
  operandBatchingDims := [0]
  startIndicesBatchingDims := [0]
  startIndexMap := [1]
  indexVectorDim := 2
  sliceSizes := ![1, 1, 256]
  wf := gather_S32768x12x256_S32768x1x1_S32768x1x256_2_1_0_0_1_2_11256_wf
def gather_S12x256_S32768x1_S32768x256_1_0_n_n_0_1_1256 : GatherDims S12x256 S32768x1 S32768x256 where
  offsetDims := [1]
  collapsedSliceDims := [0]
  operandBatchingDims := []
  startIndicesBatchingDims := []
  startIndexMap := [0]
  indexVectorDim := 1
  sliceSizes := ![1, 256]
  wf := gather_S12x256_S32768x1_S32768x256_1_0_n_n_0_1_1256_wf
def dot_S32768x36_S36x256_S32768x256_1_0_0_1_n_n : DotDims S32768x36 S36x256 S32768x256 where
  lhsContracting := [1]
  rhsContracting := [0]
  lhsNonContracting := [0]
  rhsNonContracting := [1]
  lhsBatch := []
  rhsBatch := []
  wf := dot_S32768x36_S36x256_S32768x256_1_0_0_1_n_n_wf
def dot_S32768x257_S12x256x257_S32768x12x256_1_2_0_01_n_n : DotDims S32768x257 S12x256x257 S32768x12x256 where
  lhsContracting := [1]
  rhsContracting := [2]
  lhsNonContracting := [0]
  rhsNonContracting := [0, 1]
  lhsBatch := []
  rhsBatch := []
  wf := dot_S32768x257_S12x256x257_S32768x12x256_1_2_0_01_n_n_wf
def dot_S32768x257_S257x256_S32768x256_1_0_0_1_n_n : DotDims S32768x257 S257x256 S32768x256 where
  lhsContracting := [1]
  rhsContracting := [0]
  lhsNonContracting := [0]
  rhsNonContracting := [1]
  lhsBatch := []
  rhsBatch := []
  wf := dot_S32768x257_S257x256_S32768x256_1_0_0_1_n_n_wf
def dot_S32768x257_S7x5x257_S32768x7x5_1_2_0_01_n_n : DotDims S32768x257 S7x5x257 S32768x7x5 where
  lhsContracting := [1]
  rhsContracting := [2]
  lhsNonContracting := [0]
  rhsNonContracting := [0, 1]
  lhsBatch := []
  rhsBatch := []
  wf := dot_S32768x257_S7x5x257_S32768x7x5_1_2_0_01_n_n_wf
def dot_S32768x257_S12x7x5x257_S32768x12x7x5_1_3_0_012_n_n : DotDims S32768x257 S12x7x5x257 S32768x12x7x5 where
  lhsContracting := [1]
  rhsContracting := [3]
  lhsNonContracting := [0]
  rhsNonContracting := [0, 1, 2]
  lhsBatch := []
  rhsBatch := []
  wf := dot_S32768x257_S12x7x5x257_S32768x12x7x5_1_3_0_012_n_n_wf
def gather_S32768x12x7x5_S32768x1x1_S32768x1x7x5_23_1_0_0_1_2_1175 : GatherDims S32768x12x7x5 S32768x1x1 S32768x1x7x5 where
  offsetDims := [2, 3]
  collapsedSliceDims := [1]
  operandBatchingDims := [0]
  startIndicesBatchingDims := [0]
  startIndexMap := [1]
  indexVectorDim := 2
  sliceSizes := ![1, 1, 7, 5]
  wf := gather_S32768x12x7x5_S32768x1x1_S32768x1x7x5_23_1_0_0_1_2_1175_wf
def gather_S12x7x5_S32768x1_S32768x7x5_12_0_n_n_0_1_175 : GatherDims S12x7x5 S32768x1 S32768x7x5 where
  offsetDims := [1, 2]
  collapsedSliceDims := [0]
  operandBatchingDims := []
  startIndicesBatchingDims := []
  startIndexMap := [0]
  indexVectorDim := 1
  sliceSizes := ![1, 7, 5]
  wf := gather_S12x7x5_S32768x1_S32768x7x5_12_0_n_n_0_1_175_wf

class Facts : Prop extends Facts₀ where

variable [Facts]
-- ==== Proof.LibTypedRef.lean ====
/-
  A typed reference's transport, and its inverse.

  A line of a module-local function writes its result to a buffer through a transport along an equation of buffer
  types (`TRef.toBuf`) and a later line of the function reads it back through the inverse transport (`TRef.ofBuf`).
  Whatever the equation's proof, a value carried there and back is the value: the two transports cancel. So where
  the lines of such a function are read back as values, every pair "written, then read" disappears by these two
  lemmas, with no need to decide that the two buffer types are the same type; a transport is then left only where
  a line of the function reads a buffer written outside it, or writes one read outside it — at the ends of the
  function's stretch of lines, where it is the identity on a value that already has a name.
-/
import Idealize.ShloMosaic.Lib.StableHlo

namespace Idealize.ShloMosaic.StableHlo

/-- A value carried along an equation of types and back is itself. -/
theorem cast_cast_cancel {α β : Sort _} (h : α = β) (h' : β = α) (v : α) : cast h' (cast h v) = v := by subst h; rfl

/-- What a typed reference writes to its buffer and reads back is the value written. -/
theorem TRef.ofBuf_toBuf {sig : RefSig} {Val : EltTy → Type} {T : BufTy} (x : TRef sig T) (v : T.Contents Val) :
    x.ofBuf (x.toBuf v) = v := cast_cast_cancel _ _ v

/-- What is read from a typed reference's buffer and written back is what was there. -/
theorem TRef.toBuf_ofBuf {sig : RefSig} {Val : EltTy → Type} {T : BufTy} (x : TRef sig T) (v : x.ref.ty.Contents Val) :
    x.toBuf (x.ofBuf v) = v := cast_cast_cancel _ _ v

end Idealize.ShloMosaic.StableHlo
-- ==== Proof.OkKernel.lean ====
/-
  The pipeline's side condition on the prefetched table of block owners holds whatever the inputs are.

  The table `block_expert` has 44 words; window `w ∈ {1, …, 6}` (the six per-judge parameter arrays, each with 12
  slabs along its first axis) takes, at grid point `t`, the slab named by word `t` of the table. The host computes
  the table as a clip: `min(11, max(0, ·))` in signed arithmetic. A word clipped into `[0, 11]` is, read unsigned,
  below 12, so slab `w` exists in every one of the six arrays; and a block `[1, r, c]` at `(w, 0, 0)` of an array
  `[12, r, c]` takes every row of the one slab it meets, so it is whole words at any packing (the three bf16 arrays).
-/
import proofs.«423243_j44985487458585_3_alg».proof.Proof.Gen.Kernel.Frame
import proofs.«423243_j44985487458585_3_alg».proof.Proof.LibTypedRef
import Idealize.ShloMosaic.Lib.StableHlo.Run

set_option maxRecDepth 16384

noncomputable section

namespace Cert.Kernel.OkOfPre

open Cert.Kernel Cert.Kernel.Gen
open Idealize.ShloMosaic Idealize.ShloMosaic.TcCoe Idealize.SL.Sem Idealize.ShloMosaic.StableHlo

variable {F : FTy → Type} [FloatOps F]

/-- A word clipped into `[0, 11]` (signed) is below 12 read unsigned. -/
theorem clip_toNat_lt (w : BitVec 32) : (IntOp.minsi 11#32 (IntOp.maxsi 0#32 w)).toNat < 12 := by
  unfold IntOp.minsi IntOp.maxsi
  have h32 := w.isLt
  by_cases h1 : w.slt 0#32
  · -- negative: the maximum is 0
    rw [if_pos h1]
    have : ¬ (11#32 : BitVec 32).slt 0#32 := by decide
    rw [if_neg this]; decide
  · rw [if_neg h1]
    by_cases h2 : (11#32 : BitVec 32).slt w
    · rw [if_pos h2]; decide
    · rw [if_neg h2]
      simp only [BitVec.slt, decide_eq_true_eq, not_lt] at h1 h2
      unfold BitVec.toInt at h1 h2
      simp at h1 h2
      split at h2 <;> split at h1 <;> omega

variable (m : (ℓ : Loc nD τ sig) → Buf (Elt F) ℓ)

set_option maxHeartbeats 4000000 in
/-- Every word of the table is below 12: the table's last two host operations clip it into `[0, 11]`. -/
theorem tbl_lt (x : S44.Idx) : (tbl m 0 x).toNat < 12 := by
  show (V m (0 : Dev nD) main_v133 x).toNat < 12
  have e : ∀ Y : IVec S44 32, ((minsi (broadcastInDim S44 ![] bcast_S_S44 (constantI S_ 32 11#32))
      (maxsi (broadcastInDim S44 ![] bcast_S_S44 (constantI S_ 32 0#32)) Y)) x).toNat < 12 := fun Y => clip_toNat_lt (Y x)
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [TRef.ofBuf_toBuf, TRef.toBuf_ofBuf, id]
  exact e _

/-! ## The index maps read one word of the table; the blocks they name -/

-- the contents are a variable here: nothing below unfolds the table
theorem tr1 (pf : pre0.Contents (Elt F)) (hpf : ∀ x : S44.Idx, (pf 0 x).toNat < 12) (i : grid0.Coords) :
    ∃ w : BitVec 32, w.toNat < 12 ∧ cc0_transform_1 k0_off1_inb numel1_S1 pf i = ![w.toNat, 0, 0] := ⟨_, hpf _, rfl⟩
theorem tr2 (pf : pre0.Contents (Elt F)) (hpf : ∀ x : S44.Idx, (pf 0 x).toNat < 12) (i : grid0.Coords) :
    ∃ w : BitVec 32, w.toNat < 12 ∧ cc0_transform_2 k0_off1_inb numel1_S1 pf i = ![w.toNat, 0, 0] := ⟨_, hpf _, rfl⟩
theorem tr3 (pf : pre0.Contents (Elt F)) (hpf : ∀ x : S44.Idx, (pf 0 x).toNat < 12) (i : grid0.Coords) :
    ∃ w : BitVec 32, w.toNat < 12 ∧ cc0_transform_3 k0_off1_inb numel1_S1 pf i = ![w.toNat, 0, 0] := ⟨_, hpf _, rfl⟩
theorem tr4 (pf : pre0.Contents (Elt F)) (hpf : ∀ x : S44.Idx, (pf 0 x).toNat < 12) (i : grid0.Coords) :
    ∃ w : BitVec 32, w.toNat < 12 ∧ cc0_transform_4 k0_off1_inb numel1_S1 pf i = ![w.toNat, 0, 0] := ⟨_, hpf _, rfl⟩
theorem tr5 (pf : pre0.Contents (Elt F)) (hpf : ∀ x : S44.Idx, (pf 0 x).toNat < 12) (i : grid0.Coords) :
    ∃ w : BitVec 32, w.toNat < 12 ∧ cc0_transform_5 k0_off1_inb numel1_S1 pf i = ![w.toNat, 0, 0] := ⟨_, hpf _, rfl⟩
theorem tr6 (pf : pre0.Contents (Elt F)) (hpf : ∀ x : S44.Idx, (pf 0 x).toNat < 12) (i : grid0.Coords) :
    ∃ w : BitVec 32, w.toNat < 12 ∧ cc0_transform_6 k0_off1_inb numel1_S1 pf i = ![w.toNat, 0, 0] := ⟨_, hpf _, rfl⟩

theorem inb1 (w : BitVec 32) (hw : w.toNat < 12) (idx : Fin 3 → Nat) (hidx : idx = ![w.toNat, 0, 0]) :
    ∀ a, (idx a + 1) * S1x256x35.size a ≤ S12x256x35.size a := by
  intro a; subst hidx
  fin_cases a <;> simp [S1x256x35, S12x256x35] <;> omega
theorem inb2 (w : BitVec 32) (hw : w.toNat < 12) (idx : Fin 3 → Nat) (hidx : idx = ![w.toNat, 0, 0]) :
    ∀ a, (idx a + 1) * S1x1x256.size a ≤ S12x1x256.size a := by
  intro a; subst hidx
  fin_cases a <;> simp [S1x1x256, S12x1x256] <;> omega
theorem inb3 (w : BitVec 32) (hw : w.toNat < 12) (idx : Fin 3 → Nat) (hidx : idx = ![w.toNat, 0, 0]) :
    ∀ a, (idx a + 1) * S1x256x256.size a ≤ S12x256x256.size a := by
  intro a; subst hidx
  fin_cases a <;> simp [S1x256x256, S12x256x256] <;> omega
theorem inb5 (w : BitVec 32) (hw : w.toNat < 12) (idx : Fin 3 → Nat) (hidx : idx = ![w.toNat, 0, 0]) :
    ∀ a, (idx a + 1) * S1x35x256.size a ≤ S12x35x256.size a := by
  intro a; subst hidx
  fin_cases a <;> simp [S1x35x256, S12x35x256] <;> omega
theorem inb6 (w : BitVec 32) (hw : w.toNat < 12) (idx : Fin 3 → Nat) (hidx : idx = ![w.toNat, 0, 0]) :
    ∀ a, (idx a + 1) * S1x1x35.size a ≤ S12x1x35.size a := by
  intro a; subst hidx
  fin_cases a <;> simp [S1x1x35, S12x1x35] <;> omega

/-- A block `[1, r, c]` at `(w, 0, 0)` takes every row of its slab: whole words at the bf16 packing. -/
theorem words1 (w : BitVec 32) (idx : Fin 3 → Nat) (hidx : idx = ![w.toNat, 0, 0])
    (h : ∀ a, (idx a + 1) * S1x256x35.size a ≤ S12x256x35.size a) :
    (Rect.block (s := S12x256x35) S1x256x35.size idx h).WholeWords (EltTy.packing .bf16) := by
  subst hidx
  exact Or.inr ⟨by decide, rfl, rfl, rfl⟩
theorem words3 (w : BitVec 32) (idx : Fin 3 → Nat) (hidx : idx = ![w.toNat, 0, 0])
    (h : ∀ a, (idx a + 1) * S1x256x256.size a ≤ S12x256x256.size a) :
    (Rect.block (s := S12x256x256) S1x256x256.size idx h).WholeWords (EltTy.packing .bf16) := by
  subst hidx
  exact Or.inr ⟨by decide, rfl, rfl, rfl⟩
theorem words5 (w : BitVec 32) (idx : Fin 3 → Nat) (hidx : idx = ![w.toNat, 0, 0])
    (h : ∀ a, (idx a + 1) * S1x35x256.size a ≤ S12x35x256.size a) :
    (Rect.block (s := S12x35x256) S1x35x256.size idx h).WholeWords (EltTy.packing .bf16) := by
  subst hidx
  exact Or.inr ⟨by decide, rfl, rfl, rfl⟩

/-- THE SIDE CONDITION, for every memory: it needs nothing of the precondition. -/
theorem ok (m : (ℓ : Loc nD τ sig) → Buf (Elt F) ℓ) : Ok m := by
  have hl := tbl_lt m
  refine ⟨fun i => ?_, fun i => ?_, fun i => ?_, fun i => ?_, fun i => ?_, fun i => ?_⟩
  · obtain ⟨w, hw, e⟩ := tr1 (tbl m) hl i
    exact ⟨inb1 w hw _ e, Or.inr (words1 w _ e _)⟩
  · obtain ⟨w, hw, e⟩ := tr2 (tbl m) hl i
    exact ⟨inb2 w hw _ e, Or.inl rfl⟩
  · obtain ⟨w, hw, e⟩ := tr3 (tbl m) hl i
    exact ⟨inb3 w hw _ e, Or.inr (words3 w _ e _)⟩
  · obtain ⟨w, hw, e⟩ := tr4 (tbl m) hl i
    exact ⟨inb2 w hw _ e, Or.inl rfl⟩
  · obtain ⟨w, hw, e⟩ := tr5 (tbl m) hl i
    exact ⟨inb5 w hw _ e, Or.inr (words5 w _ e _)⟩
  · obtain ⟨w, hw, e⟩ := tr6 (tbl m) hl i
    exact ⟨inb6 w hw _ e, Or.inl rfl⟩

end Cert.Kernel.OkOfPre

end
-- ==== Proof.OkIdeal.lean ====
/-
  The pipeline's side condition on the prefetched table of block owners holds whatever the inputs are.

  The table `block_expert` has 44 words; window `w ∈ {1, …, 6}` (the six per-judge parameter arrays, each with 12
  slabs along its first axis) takes, at grid point `t`, the slab named by word `t` of the table. The host computes
  the table as a clip: `min(11, max(0, ·))` in signed arithmetic. A word clipped into `[0, 11]` is, read unsigned,
  below 12, so slab `w` exists in every one of the six arrays; and a block `[1, r, c]` at `(w, 0, 0)` of an array
  `[12, r, c]` takes every row of the one slab it meets, so it is whole words at any packing (the three bf16 arrays).
-/
import proofs.«423243_j44985487458585_3_alg».proof.Proof.Gen.KernelIdeal.Frame
import proofs.«423243_j44985487458585_3_alg».proof.Proof.LibTypedRef
import Idealize.ShloMosaic.Lib.StableHlo.Run

set_option maxRecDepth 16384

noncomputable section

namespace Cert.KernelIdeal.OkOfPre

open Cert.KernelIdeal Cert.KernelIdeal.Gen
open Idealize.ShloMosaic Idealize.ShloMosaic.TcCoe Idealize.SL.Sem Idealize.ShloMosaic.StableHlo

variable {F : FTy → Type} [FloatOps F]

/-- A word clipped into `[0, 11]` (signed) is below 12 read unsigned. -/
theorem clip_toNat_lt (w : BitVec 32) : (IntOp.minsi 11#32 (IntOp.maxsi 0#32 w)).toNat < 12 := by
  unfold IntOp.minsi IntOp.maxsi
  have h32 := w.isLt
  by_cases h1 : w.slt 0#32
  · -- negative: the maximum is 0
    rw [if_pos h1]
    have : ¬ (11#32 : BitVec 32).slt 0#32 := by decide
    rw [if_neg this]; decide
  · rw [if_neg h1]
    by_cases h2 : (11#32 : BitVec 32).slt w
    · rw [if_pos h2]; decide
    · rw [if_neg h2]
      simp only [BitVec.slt, decide_eq_true_eq, not_lt] at h1 h2
      unfold BitVec.toInt at h1 h2
      simp at h1 h2
      split at h2 <;> split at h1 <;> omega

variable (m : (ℓ : Loc nD τ sig) → Buf (Elt F) ℓ)

set_option maxHeartbeats 4000000 in
/-- Every word of the table is below 12: the table's last two host operations clip it into `[0, 11]`. -/
theorem tbl_lt (x : S44.Idx) : (tbl m 0 x).toNat < 12 := by
  show (V m (0 : Dev nD) main_v133 x).toNat < 12
  have e : ∀ Y : IVec S44 32, ((minsi (broadcastInDim S44 ![] bcast_S_S44 (constantI S_ 32 11#32))
      (maxsi (broadcastInDim S44 ![] bcast_S_S44 (constantI S_ 32 0#32)) Y)) x).toNat < 12 := fun Y => clip_toNat_lt (Y x)
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [TRef.ofBuf_toBuf, TRef.toBuf_ofBuf, id]
  exact e _

/-! ## The index maps read one word of the table; the blocks they name -/

-- the contents are a variable here: nothing below unfolds the table
theorem tr1 (pf : pre0.Contents (Elt F)) (hpf : ∀ x : S44.Idx, (pf 0 x).toNat < 12) (i : grid0.Coords) :
    ∃ w : BitVec 32, w.toNat < 12 ∧ cc0_transform_1 k0_off1_inb numel1_S1 pf i = ![w.toNat, 0, 0] := ⟨_, hpf _, rfl⟩
theorem tr2 (pf : pre0.Contents (Elt F)) (hpf : ∀ x : S44.Idx, (pf 0 x).toNat < 12) (i : grid0.Coords) :
    ∃ w : BitVec 32, w.toNat < 12 ∧ cc0_transform_2 k0_off1_inb numel1_S1 pf i = ![w.toNat, 0, 0] := ⟨_, hpf _, rfl⟩
theorem tr3 (pf : pre0.Contents (Elt F)) (hpf : ∀ x : S44.Idx, (pf 0 x).toNat < 12) (i : grid0.Coords) :
    ∃ w : BitVec 32, w.toNat < 12 ∧ cc0_transform_3 k0_off1_inb numel1_S1 pf i = ![w.toNat, 0, 0] := ⟨_, hpf _, rfl⟩
theorem tr4 (pf : pre0.Contents (Elt F)) (hpf : ∀ x : S44.Idx, (pf 0 x).toNat < 12) (i : grid0.Coords) :
    ∃ w : BitVec 32, w.toNat < 12 ∧ cc0_transform_4 k0_off1_inb numel1_S1 pf i = ![w.toNat, 0, 0] := ⟨_, hpf _, rfl⟩
theorem tr5 (pf : pre0.Contents (Elt F)) (hpf : ∀ x : S44.Idx, (pf 0 x).toNat < 12) (i : grid0.Coords) :
    ∃ w : BitVec 32, w.toNat < 12 ∧ cc0_transform_5 k0_off1_inb numel1_S1 pf i = ![w.toNat, 0, 0] := ⟨_, hpf _, rfl⟩
theorem tr6 (pf : pre0.Contents (Elt F)) (hpf : ∀ x : S44.Idx, (pf 0 x).toNat < 12) (i : grid0.Coords) :
    ∃ w : BitVec 32, w.toNat < 12 ∧ cc0_transform_6 k0_off1_inb numel1_S1 pf i = ![w.toNat, 0, 0] := ⟨_, hpf _, rfl⟩

theorem inb1 (w : BitVec 32) (hw : w.toNat < 12) (idx : Fin 3 → Nat) (hidx : idx = ![w.toNat, 0, 0]) :
    ∀ a, (idx a + 1) * S1x256x35.size a ≤ S12x256x35.size a := by
  intro a; subst hidx
  fin_cases a <;> simp [S1x256x35, S12x256x35] <;> omega
theorem inb2 (w : BitVec 32) (hw : w.toNat < 12) (idx : Fin 3 → Nat) (hidx : idx = ![w.toNat, 0, 0]) :
    ∀ a, (idx a + 1) * S1x1x256.size a ≤ S12x1x256.size a := by
  intro a; subst hidx
  fin_cases a <;> simp [S1x1x256, S12x1x256] <;> omega
theorem inb3 (w : BitVec 32) (hw : w.toNat < 12) (idx : Fin 3 → Nat) (hidx : idx = ![w.toNat, 0, 0]) :
    ∀ a, (idx a + 1) * S1x256x256.size a ≤ S12x256x256.size a := by
  intro a; subst hidx
  fin_cases a <;> simp [S1x256x256, S12x256x256] <;> omega
theorem inb5 (w : BitVec 32) (hw : w.toNat < 12) (idx : Fin 3 → Nat) (hidx : idx = ![w.toNat, 0, 0]) :
    ∀ a, (idx a + 1) * S1x35x256.size a ≤ S12x35x256.size a := by
  intro a; subst hidx
  fin_cases a <;> simp [S1x35x256, S12x35x256] <;> omega
theorem inb6 (w : BitVec 32) (hw : w.toNat < 12) (idx : Fin 3 → Nat) (hidx : idx = ![w.toNat, 0, 0]) :
    ∀ a, (idx a + 1) * S1x1x35.size a ≤ S12x1x35.size a := by
  intro a; subst hidx
  fin_cases a <;> simp [S1x1x35, S12x1x35] <;> omega

/-- A block `[1, r, c]` at `(w, 0, 0)` takes every row of its slab: whole words at the bf16 packing. -/
theorem words1 (w : BitVec 32) (idx : Fin 3 → Nat) (hidx : idx = ![w.toNat, 0, 0])
    (h : ∀ a, (idx a + 1) * S1x256x35.size a ≤ S12x256x35.size a) :
    (Rect.block (s := S12x256x35) S1x256x35.size idx h).WholeWords (EltTy.packing .bf16) := by
  subst hidx
  exact Or.inr ⟨by decide, rfl, rfl, rfl⟩
theorem words3 (w : BitVec 32) (idx : Fin 3 → Nat) (hidx : idx = ![w.toNat, 0, 0])
    (h : ∀ a, (idx a + 1) * S1x256x256.size a ≤ S12x256x256.size a) :
    (Rect.block (s := S12x256x256) S1x256x256.size idx h).WholeWords (EltTy.packing .bf16) := by
  subst hidx
  exact Or.inr ⟨by decide, rfl, rfl, rfl⟩
theorem words5 (w : BitVec 32) (idx : Fin 3 → Nat) (hidx : idx = ![w.toNat, 0, 0])
    (h : ∀ a, (idx a + 1) * S1x35x256.size a ≤ S12x35x256.size a) :
    (Rect.block (s := S12x35x256) S1x35x256.size idx h).WholeWords (EltTy.packing .bf16) := by
  subst hidx
  exact Or.inr ⟨by decide, rfl, rfl, rfl⟩

/-- THE SIDE CONDITION, for every memory: it needs nothing of the precondition. -/
theorem ok (m : (ℓ : Loc nD τ sig) → Buf (Elt F) ℓ) : Ok m := by
  have hl := tbl_lt m
  refine ⟨fun i => ?_, fun i => ?_, fun i => ?_, fun i => ?_, fun i => ?_, fun i => ?_⟩
  · obtain ⟨w, hw, e⟩ := tr1 (tbl m) hl i
    exact ⟨inb1 w hw _ e, Or.inr (words1 w _ e _)⟩
  · obtain ⟨w, hw, e⟩ := tr2 (tbl m) hl i
    exact ⟨inb2 w hw _ e, Or.inl rfl⟩
  · obtain ⟨w, hw, e⟩ := tr3 (tbl m) hl i
    exact ⟨inb3 w hw _ e, Or.inr (words3 w _ e _)⟩
  · obtain ⟨w, hw, e⟩ := tr4 (tbl m) hl i
    exact ⟨inb2 w hw _ e, Or.inl rfl⟩
  · obtain ⟨w, hw, e⟩ := tr5 (tbl m) hl i
    exact ⟨inb5 w hw _ e, Or.inr (words5 w _ e _)⟩
  · obtain ⟨w, hw, e⟩ := tr6 (tbl m) hl i
    exact ⟨inb6 w hw _ e, Or.inl rfl⟩

end Cert.KernelIdeal.OkOfPre

end
-- ==== Proof.KernelBlocks.lean ====
/-
  The windows' blocks as parts of the arrays the region finds, and the output array from what the points leave.

  Grid point `t` of 44 takes rows `1024 t … 1024 t + 1023` of the laid-out rows (window 0) and of the output
  (window 7), and, of each of the six per-judge parameter arrays (windows 1 to 6), the slab named by word `t` of the
  table of block owners. So an entry of a window's block is an entry of its array at the matching row or slab, and row
  `s` of the output array after the region is row `s mod 1024` of what point `s / 1024` left.
-/
import proofs.«423243_j44985487458585_3_alg».proof.Proof.Gen.KernelIdeal.Frame
import Idealize.ShloMosaic.Lib.Pipeline.Value
import Idealize.ShloMosaic.Lib.ValueIdx

set_option maxRecDepth 16384

noncomputable section

namespace Cert.KernelIdeal.KernelBlocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-! ## The grid's one coordinate, and the index maps -/

/-- Point `t`'s coordinate is `t`, as a natural number through the 32-bit word the index maps compute with. -/
theorem coord_word : ∀ t : Fin grid0.N, (BitVec.ofNat 32 (grid0.coords t 0).val).toNat = t.val := by decide +kernel

theorem coord_index : ∀ t : Fin grid0.N, (Scalar.indexCast (BitVec.ofNat 32 (grid0.coords t 0).val)).toNat = t.val := by
  decide +kernel

/-- Windows 0 and 7 take block `(t, 0)`. -/
theorem tr0_eq (t : Fin grid0.N) : cc0_transform_0 (grid0.coords t) = ![t.val, 0] := by
  funext a
  fin_cases a
  · exact coord_word t
  · rfl

theorem tr7_eq (t : Fin grid0.N) : cc0_transform_7 (grid0.coords t) = ![t.val, 0] := by
  funext a
  fin_cases a
  · exact coord_word t
  · rfl

/-- The one index of the table that point `t`'s index maps read: a unit rectangle at offset `t`. -/
theorem tbl_emb (t : Fin grid0.N) (t' : Fin 44) (ht : t'.val = t.val) (off : Fin 1 → Nat) (hoff : off 0 = t.val)
    (inb : ∀ a, off a + S1.size a ≤ S44.size a) (h1 : 0 < S1.numel) :
    (Rect.unit (s := S44) off S1.size inb).emb (Shape.Idx.first h1) = ix1 t' := by
  funext a
  apply Fin.ext
  fin_cases a
  show off 0 + 1 * (Shape.Idx.first h1 (0 : Fin 1)).val = t'.val
  have hz : (Shape.Idx.first h1 (0 : Fin 1)).val = 0 := by
    have := (Shape.Idx.first h1 (0 : Fin 1)).isLt
    have e : S1.size (0 : Fin 1) = 1 := by decide
    omega
  rw [hz, hoff, ht]; omega

/-- Windows 1 to 6 take the slab named by the table's word at `t`: for any contents of the table. -/
theorem tr1_eq (pf : pre0.Contents (Elt F)) (t : Fin grid0.N) (t' : Fin 44) (ht : t'.val = t.val) :
    cc0_transform_1 k0_off1_inb numel1_S1 pf (grid0.coords t) = ![(pf 0 (ix1 t')).toNat, 0, 0] :=
  congrArg (fun w : BitVec 32 => (![w.toNat, 0, 0] : Fin 3 → Nat)) (congrArg (pf 0) (tbl_emb t t' ht _ (coord_index t) _ _))
theorem tr2_eq (pf : pre0.Contents (Elt F)) (t : Fin grid0.N) (t' : Fin 44) (ht : t'.val = t.val) :
    cc0_transform_2 k0_off1_inb numel1_S1 pf (grid0.coords t) = ![(pf 0 (ix1 t')).toNat, 0, 0] :=
  congrArg (fun w : BitVec 32 => (![w.toNat, 0, 0] : Fin 3 → Nat)) (congrArg (pf 0) (tbl_emb t t' ht _ (coord_index t) _ _))
theorem tr3_eq (pf : pre0.Contents (Elt F)) (t : Fin grid0.N) (t' : Fin 44) (ht : t'.val = t.val) :
    cc0_transform_3 k0_off1_inb numel1_S1 pf (grid0.coords t) = ![(pf 0 (ix1 t')).toNat, 0, 0] :=
  congrArg (fun w : BitVec 32 => (![w.toNat, 0, 0] : Fin 3 → Nat)) (congrArg (pf 0) (tbl_emb t t' ht _ (coord_index t) _ _))
theorem tr4_eq (pf : pre0.Contents (Elt F)) (t : Fin grid0.N) (t' : Fin 44) (ht : t'.val = t.val) :
    cc0_transform_4 k0_off1_inb numel1_S1 pf (grid0.coords t) = ![(pf 0 (ix1 t')).toNat, 0, 0] :=
  congrArg (fun w : BitVec 32 => (![w.toNat, 0, 0] : Fin 3 → Nat)) (congrArg (pf 0) (tbl_emb t t' ht _ (coord_index t) _ _))
theorem tr5_eq (pf : pre0.Contents (Elt F)) (t : Fin grid0.N) (t' : Fin 44) (ht : t'.val = t.val) :
    cc0_transform_5 k0_off1_inb numel1_S1 pf (grid0.coords t) = ![(pf 0 (ix1 t')).toNat, 0, 0] :=
  congrArg (fun w : BitVec 32 => (![w.toNat, 0, 0] : Fin 3 → Nat)) (congrArg (pf 0) (tbl_emb t t' ht _ (coord_index t) _ _))
theorem tr6_eq (pf : pre0.Contents (Elt F)) (t : Fin grid0.N) (t' : Fin 44) (ht : t'.val = t.val) :
    cc0_transform_6 k0_off1_inb numel1_S1 pf (grid0.coords t) = ![(pf 0 (ix1 t')).toNat, 0, 0] :=
  congrArg (fun w : BitVec 32 => (![w.toNat, 0, 0] : Fin 3 → Nat)) (congrArg (pf 0) (tbl_emb t t' ht _ (coord_index t) _ _))

/-! ## A window's block read at an index -/

set_option maxHeartbeats 2000000 in
/-- Window 0 at point `t`: entry `(r, i)` of the block is entry `(1024 t + r, i)` of the array. -/
theorem blk0_read (a : (pcfg0 (F := F)).Adm) (t : Fin (cfg0 a).N) (A : S45056x35.Idx → Elt F .f32)
    (r : Fin 1024) (i : Fin 35) (s : Fin 45056) (hs : s.val = 1024 * t.val + r.val) :
    ((((cfg0 a).win 0).blk t).view.read (Elt F) A : S1024x35.Idx → Elt F .f32) (ix2 r i) = A (ix2 s i) := by
  show A ((((cfg0 a).win 0).blk t).view.emb (ix2 r i)) = A (ix2 s i)
  have hidx : ((cfg0 a).win 0).index t = cc0_transform_0 (grid0.coords t) := rfl
  have hsz : ((cfg0 a).win 0).size = S1024x35.size := rfl
  have hemb : ∀ (y : S1024x35.Idx) (b : Fin 2), ((((cfg0 a).win 0).blk t).view.emb y b : ℕ)
      = ((cfg0 a).win 0).index t b * ((cfg0 a).win 0).size b + 1 * (y b).val := fun y b => rfl
  refine congrArg A (funext fun b => Fin.ext ?_)
  refine (hemb (ix2 r i) b).trans ?_
  rw [hidx, hsz, tr0_eq t]
  match b with
  | ⟨0, _⟩ => show t.val * 1024 + 1 * r.val = s.val; omega
  | ⟨1, _⟩ => show 0 * 35 + 1 * i.val = i.val; omega

set_option maxHeartbeats 2000000 in
/-- Window 1 at point `t`: entry `(0, h, i)` of the block is entry `(j, h, i)` of the array, `j` the table's word at `t`. -/
theorem blk1_read (a : (pcfg0 (F := F)).Adm) (t : Fin (cfg0 a).N) (t' : Fin 44) (ht : t'.val = t.val)
    (A : S12x256x35.Idx → Elt F .bf16) (h : Fin 256) (i : Fin 35) (j : Fin 12) (hj : j.val = (a.1 0 (ix1 t')).toNat) :
    ((((cfg0 a).win 1).blk t).view.read (Elt F) A : S1x256x35.Idx → Elt F .bf16) (ix3 (0 : Fin 1) h i) = A (ix3 j h i) := by
  show A ((((cfg0 a).win 1).blk t).view.emb (ix3 (0 : Fin 1) h i)) = A (ix3 j h i)
  have hidx : ((cfg0 a).win 1).index t = cc0_transform_1 k0_off1_inb numel1_S1 a.1 (grid0.coords t) := rfl
  have hsz : ((cfg0 a).win 1).size = S1x256x35.size := rfl
  have hemb : ∀ (y : S1x256x35.Idx) (b : Fin 3), ((((cfg0 a).win 1).blk t).view.emb y b : ℕ)
      = ((cfg0 a).win 1).index t b * ((cfg0 a).win 1).size b + 1 * (y b).val := fun y b => rfl
  refine congrArg A (funext fun b => Fin.ext ?_)
  refine (hemb (ix3 (0 : Fin 1) h i) b).trans ?_
  rw [hidx, hsz, tr1_eq a.1 t t' ht]
  match b with
  | ⟨0, _⟩ => show (a.1 0 (ix1 t')).toNat * 1 + 1 * 0 = j.val; omega
  | ⟨1, _⟩ => show 0 * 256 + 1 * h.val = h.val; omega
  | ⟨2, _⟩ => show 0 * 35 + 1 * i.val = i.val; omega

/-! ## The output window -/

/-- A row of the output array lies in one of the 44 blocks of 1024 rows. -/
theorem row_block_lt (a : (pcfg0 (F := F)).Adm) (s : S45056x128.Idx) : (s 0).val / 1024 < (cfg0 a).N := by
  have h1 : (s 0).val < 45056 := (s 0).isLt
  have h2 : (cfg0 a).N = 44 := N_0
  omega

theorem row_in_block_lt (s : S45056x128.Idx) : (s 0).val % 1024 < 1024 := Nat.mod_lt _ (by decide)

/-- The whole output array made of what each point left: row `s` is row `s mod 1024` of point `s / 1024`'s block. -/
def glue (a : (pcfg0 (F := F)).Adm) (Y : Fin (cfg0 a).N → S1024x128.Idx → Elt F .f32) : S45056x128.Idx → Elt F .f32 :=
  fun s => Y ⟨(s 0).val / 1024, row_block_lt a s⟩ (ix2 ⟨(s 0).val % 1024, row_in_block_lt s⟩ (s 1))

set_option maxHeartbeats 2000000 in
/-- Block `t` of the glued array is what point `t` left. -/
theorem blk7_read (a : (pcfg0 (F := F)).Adm) (t : Fin (cfg0 a).N) (Y : Fin (cfg0 a).N → S1024x128.Idx → Elt F .f32) :
    ((((cfg0 a).win 7).blk t).view.read (Elt F) (glue a Y) : S1024x128.Idx → Elt F .f32) = Y t := by
  refine funext fun (y : S1024x128.Idx) => ?_
  show glue a Y ((((cfg0 a).win 7).blk t).view.emb y) = Y t y
  have hidx : ((cfg0 a).win 7).index t = cc0_transform_7 (grid0.coords t) := rfl
  have hsz : ((cfg0 a).win 7).size = S1024x128.size := rfl
  have hemb : ∀ (y : S1024x128.Idx) (b : Fin 2), ((((cfg0 a).win 7).blk t).view.emb y b : ℕ)
      = ((cfg0 a).win 7).index t b * ((cfg0 a).win 7).size b + 1 * (y b).val := fun y b => rfl
  have h0 : ((((cfg0 a).win 7).blk t).view.emb y (0 : Fin 2) : ℕ) = t.val * 1024 + (y 0).val := by
    refine (hemb y 0).trans ?_
    rw [hidx, hsz, tr7_eq t]; show t.val * 1024 + 1 * (y 0).val = _; omega
  have h1 : ((((cfg0 a).win 7).blk t).view.emb y (1 : Fin 2) : ℕ) = (y 1).val := by
    refine (hemb y 1).trans ?_
    rw [hidx, hsz, tr7_eq t]; show 0 * 128 + 1 * (y 1).val = _; omega
  have hy0 : (y 0).val < 1024 := (y 0).isLt
  unfold glue
  have e1 : (⟨((((cfg0 a).win 7).blk t).view.emb y (0 : Fin 2)).val / 1024, row_block_lt a _⟩ : Fin (cfg0 a).N) = t :=
    Fin.ext (by show ((((cfg0 a).win 7).blk t).view.emb y (0 : Fin 2)).val / 1024 = t.val; rw [h0]; omega)
  have e2 : ix2 (⟨((((cfg0 a).win 7).blk t).view.emb y (0 : Fin 2)).val % 1024, row_in_block_lt _⟩ : Fin 1024)
      ((((cfg0 a).win 7).blk t).view.emb y (1 : Fin 2)) = y := by
    funext b
    apply Fin.ext
    match b with
    | ⟨0, _⟩ => show ((((cfg0 a).win 7).blk t).view.emb y (0 : Fin 2)).val % 1024 = (y 0).val; rw [h0]; omega
    | ⟨1, _⟩ => exact h1
  rw [e1]
  exact congrArg (Y t) e2

set_option maxHeartbeats 2000000 in
/-- Where the output window's block at point `t` puts its entry `y`: row `1024 t + y₀`, lane `y₁`. -/
theorem emb7 (a : (pcfg0 (F := F)).Adm) (t : Fin (cfg0 a).N) (y : S1024x128.Idx) (s : Fin 45056)
    (hs : s.val = 1024 * t.val + (y 0).val) :
    ((((cfg0 a).win 7).blk t).view.emb y : S45056x128.Idx) = ix2 s (y 1) := by
  have hidx : ((cfg0 a).win 7).index t = cc0_transform_7 (grid0.coords t) := rfl
  have hsz : ((cfg0 a).win 7).size = S1024x128.size := rfl
  have hemb : ∀ (y : S1024x128.Idx) (b : Fin 2), ((((cfg0 a).win 7).blk t).view.emb y b : ℕ)
      = ((cfg0 a).win 7).index t b * ((cfg0 a).win 7).size b + 1 * (y b).val := fun y b => rfl
  funext b
  apply Fin.ext
  refine (hemb y b).trans ?_
  rw [hidx, hsz, tr7_eq t]
  match b with
  | ⟨0, _⟩ => show t.val * 1024 + 1 * (y 0).val = s.val; omega
  | ⟨1, _⟩ => show 0 * 128 + 1 * (y 1).val = (y 1).val; omega

/-- Entry `(s, l)` of the output array lies in the block of point `s / 1024`. -/
theorem mem7 (a : (pcfg0 (F := F)).Adm) (t : Fin (cfg0 a).N) (s : Fin 45056) (l : Fin 128) (hs : s.val / 1024 = t.val) :
    (ix2 s l : S45056x128.Idx) ∈ (((cfg0 a).win 7).blk t).view.set := by
  have e := emb7 a t (ix2 (⟨s.val % 1024, Nat.mod_lt _ (by decide)⟩ : Fin 1024) l) s
    (by show s.val = 1024 * t.val + s.val % 1024; omega)
  have e' : (ix2 s l : S45056x128.Idx) = (((cfg0 a).win 7).blk t).view.emb (ix2 (⟨s.val % 1024, Nat.mod_lt _ (by decide)⟩ : Fin 1024) l) := e.symm
  rw [e']
  exact View.emb_mem_set _ _

/-- The glued array at `(s, l)`. -/
theorem glue_apply (a : (pcfg0 (F := F)).Adm) (Y : Fin (cfg0 a).N → S1024x128.Idx → Elt F .f32) (s : Fin 45056) (l : Fin 128)
    (t : Fin (cfg0 a).N) (ht : t.val = s.val / 1024) (r : Fin 1024) (hr : r.val = s.val % 1024) :
    glue a Y (ix2 s l) = Y t (ix2 r l) := by
  unfold glue
  have e1 : (⟨((ix2 s l : S45056x128.Idx) 0).val / 1024, row_block_lt a _⟩ : Fin (cfg0 a).N) = t := Fin.ext ht.symm
  have e2 : (⟨((ix2 s l : S45056x128.Idx) 0).val % 1024, row_in_block_lt _⟩ : Fin 1024) = r := Fin.ext hr.symm
  rw [e1, e2]

end Cert.KernelIdeal.KernelBlocks

end
-- ==== Proof.KernelBlocksWin.lean ====
/-
  The block reads of the per-judge parameter windows 2 to 6: entry `(0, p, q)` of window `k`'s block at grid point `t`
  is entry `(j, p, q)` of its array, `j` the table's word at `t`. One statement and one proof (window 1's, in
  KernelBlocks.lean) at five block shapes.
-/
import proofs.«423243_j44985487458585_3_alg».proof.Proof.KernelBlocks

set_option maxRecDepth 16384

noncomputable section

namespace Cert.KernelIdeal.KernelBlocks

open Cert.KernelIdeal Cert.KernelIdeal.Gen
open Idealize.ShloMosaic Idealize.ShloMosaic.TcCoe Idealize.SL.Sem Idealize.ShloMosaic.ValueIdx

variable {F : FTy → Type} [FloatOps F]

set_option maxHeartbeats 2000000 in
/-- Window 2 at point `t`: entry `(0, p, q)` of the block is entry `(j, p, q)` of the array, `j` the table's word at `t`. -/
theorem blk2_read (a : (pcfg0 (F := F)).Adm) (t : Fin (cfg0 a).N) (t' : Fin 44) (ht : t'.val = t.val)
    (A : S12x1x256.Idx → Elt F .f32) (p : Fin 1) (q : Fin 256) (j : Fin 12) (hj : j.val = (a.1 0 (ix1 t')).toNat) :
    ((((cfg0 a).win 2).blk t).view.read (Elt F) A : S1x1x256.Idx → Elt F .f32) (ix3 (0 : Fin 1) p q) = A (ix3 j p q) := by
  show A ((((cfg0 a).win 2).blk t).view.emb (ix3 (0 : Fin 1) p q)) = A (ix3 j p q)
  have hidx : ((cfg0 a).win 2).index t = cc0_transform_2 k0_off1_inb numel1_S1 a.1 (grid0.coords t) := rfl
  have hsz : ((cfg0 a).win 2).size = S1x1x256.size := rfl
  have hemb : ∀ (y : S1x1x256.Idx) (b : Fin 3), ((((cfg0 a).win 2).blk t).view.emb y b : ℕ)
      = ((cfg0 a).win 2).index t b * ((cfg0 a).win 2).size b + 1 * (y b).val := fun y b => rfl
  refine congrArg A (funext fun b => Fin.ext ?_)
  refine (hemb (ix3 (0 : Fin 1) p q) b).trans ?_
  rw [hidx, hsz, tr2_eq a.1 t t' ht]
  match b with
  | ⟨0, _⟩ => show (a.1 0 (ix1 t')).toNat * 1 + 1 * 0 = j.val; omega
  | ⟨1, _⟩ => show 0 * 1 + 1 * p.val = p.val; omega
  | ⟨2, _⟩ => show 0 * 256 + 1 * q.val = q.val; omega

set_option maxHeartbeats 2000000 in
/-- Window 3 at point `t`: entry `(0, p, q)` of the block is entry `(j, p, q)` of the array, `j` the table's word at `t`. -/
theorem blk3_read (a : (pcfg0 (F := F)).Adm) (t : Fin (cfg0 a).N) (t' : Fin 44) (ht : t'.val = t.val)
    (A : S12x256x256.Idx → Elt F .bf16) (p : Fin 256) (q : Fin 256) (j : Fin 12) (hj : j.val = (a.1 0 (ix1 t')).toNat) :
    ((((cfg0 a).win 3).blk t).view.read (Elt F) A : S1x256x256.Idx → Elt F .bf16) (ix3 (0 : Fin 1) p q) = A (ix3 j p q) := by
  show A ((((cfg0 a).win 3).blk t).view.emb (ix3 (0 : Fin 1) p q)) = A (ix3 j p q)
  have hidx : ((cfg0 a).win 3).index t = cc0_transform_3 k0_off1_inb numel1_S1 a.1 (grid0.coords t) := rfl
  have hsz : ((cfg0 a).win 3).size = S1x256x256.size := rfl
  have hemb : ∀ (y : S1x256x256.Idx) (b : Fin 3), ((((cfg0 a).win 3).blk t).view.emb y b : ℕ)
      = ((cfg0 a).win 3).index t b * ((cfg0 a).win 3).size b + 1 * (y b).val := fun y b => rfl
  refine congrArg A (funext fun b => Fin.ext ?_)
  refine (hemb (ix3 (0 : Fin 1) p q) b).trans ?_
  rw [hidx, hsz, tr3_eq a.1 t t' ht]
  match b with
  | ⟨0, _⟩ => show (a.1 0 (ix1 t')).toNat * 1 + 1 * 0 = j.val; omega
  | ⟨1, _⟩ => show 0 * 256 + 1 * p.val = p.val; omega
  | ⟨2, _⟩ => show 0 * 256 + 1 * q.val = q.val; omega

set_option maxHeartbeats 2000000 in
/-- Window 4 at point `t`: entry `(0, p, q)` of the block is entry `(j, p, q)` of the array, `j` the table's word at `t`. -/
theorem blk4_read (a : (pcfg0 (F := F)).Adm) (t : Fin (cfg0 a).N) (t' : Fin 44) (ht : t'.val = t.val)
    (A : S12x1x256.Idx → Elt F .f32) (p : Fin 1) (q : Fin 256) (j : Fin 12) (hj : j.val = (a.1 0 (ix1 t')).toNat) :
    ((((cfg0 a).win 4).blk t).view.read (Elt F) A : S1x1x256.Idx → Elt F .f32) (ix3 (0 : Fin 1) p q) = A (ix3 j p q) := by
  show A ((((cfg0 a).win 4).blk t).view.emb (ix3 (0 : Fin 1) p q)) = A (ix3 j p q)
  have hidx : ((cfg0 a).win 4).index t = cc0_transform_4 k0_off1_inb numel1_S1 a.1 (grid0.coords t) := rfl
  have hsz : ((cfg0 a).win 4).size = S1x1x256.size := rfl
  have hemb : ∀ (y : S1x1x256.Idx) (b : Fin 3), ((((cfg0 a).win 4).blk t).view.emb y b : ℕ)
      = ((cfg0 a).win 4).index t b * ((cfg0 a).win 4).size b + 1 * (y b).val := fun y b => rfl
  refine congrArg A (funext fun b => Fin.ext ?_)
  refine (hemb (ix3 (0 : Fin 1) p q) b).trans ?_
  rw [hidx, hsz, tr4_eq a.1 t t' ht]
  match b with
  | ⟨0, _⟩ => show (a.1 0 (ix1 t')).toNat * 1 + 1 * 0 = j.val; omega
  | ⟨1, _⟩ => show 0 * 1 + 1 * p.val = p.val; omega
  | ⟨2, _⟩ => show 0 * 256 + 1 * q.val = q.val; omega

set_option maxHeartbeats 2000000 in
/-- Window 5 at point `t`: entry `(0, p, q)` of the block is entry `(j, p, q)` of the array, `j` the table's word at `t`. -/
theorem blk5_read (a : (pcfg0 (F := F)).Adm) (t : Fin (cfg0 a).N) (t' : Fin 44) (ht : t'.val = t.val)
    (A : S12x35x256.Idx → Elt F .bf16) (p : Fin 35) (q : Fin 256) (j : Fin 12) (hj : j.val = (a.1 0 (ix1 t')).toNat) :
    ((((cfg0 a).win 5).blk t).view.read (Elt F) A : S1x35x256.Idx → Elt F .bf16) (ix3 (0 : Fin 1) p q) = A (ix3 j p q) := by
  show A ((((cfg0 a).win 5).blk t).view.emb (ix3 (0 : Fin 1) p q)) = A (ix3 j p q)
  have hidx : ((cfg0 a).win 5).index t = cc0_transform_5 k0_off1_inb numel1_S1 a.1 (grid0.coords t) := rfl
  have hsz : ((cfg0 a).win 5).size = S1x35x256.size := rfl
  have hemb : ∀ (y : S1x35x256.Idx) (b : Fin 3), ((((cfg0 a).win 5).blk t).view.emb y b : ℕ)
      = ((cfg0 a).win 5).index t b * ((cfg0 a).win 5).size b + 1 * (y b).val := fun y b => rfl
  refine congrArg A (funext fun b => Fin.ext ?_)
  refine (hemb (ix3 (0 : Fin 1) p q) b).trans ?_
  rw [hidx, hsz, tr5_eq a.1 t t' ht]
  match b with
  | ⟨0, _⟩ => show (a.1 0 (ix1 t')).toNat * 1 + 1 * 0 = j.val; omega
  | ⟨1, _⟩ => show 0 * 35 + 1 * p.val = p.val; omega
  | ⟨2, _⟩ => show 0 * 256 + 1 * q.val = q.val; omega

set_option maxHeartbeats 2000000 in
/-- Window 6 at point `t`: entry `(0, p, q)` of the block is entry `(j, p, q)` of the array, `j` the table's word at `t`. -/
theorem blk6_read (a : (pcfg0 (F := F)).Adm) (t : Fin (cfg0 a).N) (t' : Fin 44) (ht : t'.val = t.val)
    (A : S12x1x35.Idx → Elt F .f32) (p : Fin 1) (q : Fin 35) (j : Fin 12) (hj : j.val = (a.1 0 (ix1 t')).toNat) :
    ((((cfg0 a).win 6).blk t).view.read (Elt F) A : S1x1x35.Idx → Elt F .f32) (ix3 (0 : Fin 1) p q) = A (ix3 j p q) := by
  show A ((((cfg0 a).win 6).blk t).view.emb (ix3 (0 : Fin 1) p q)) = A (ix3 j p q)
  have hidx : ((cfg0 a).win 6).index t = cc0_transform_6 k0_off1_inb numel1_S1 a.1 (grid0.coords t) := rfl
  have hsz : ((cfg0 a).win 6).size = S1x1x35.size := rfl
  have hemb : ∀ (y : S1x1x35.Idx) (b : Fin 3), ((((cfg0 a).win 6).blk t).view.emb y b : ℕ)
      = ((cfg0 a).win 6).index t b * ((cfg0 a).win 6).size b + 1 * (y b).val := fun y b => rfl
  refine congrArg A (funext fun b => Fin.ext ?_)
  refine (hemb (ix3 (0 : Fin 1) p q) b).trans ?_
  rw [hidx, hsz, tr6_eq a.1 t t' ht]
  match b with
  | ⟨0, _⟩ => show (a.1 0 (ix1 t')).toNat * 1 + 1 * 0 = j.val; omega
  | ⟨1, _⟩ => show 0 * 1 + 1 * p.val = p.val; omega
  | ⟨2, _⟩ => show 0 * 35 + 1 * q.val = q.val; omega

end Cert.KernelIdeal.KernelBlocks

end
-- ==== Proof.KernelPiece.lean ====
/-
  What the kernel body leaves in the output's staging buffer is the stored value of its seven loads.

  The body has one store, through the whole `[1024, 128]` block; its loads read each input's whole staging buffer.
  So the run's pieces are that one piece, reading them back gives the piece's payload, and each load of a whole
  buffer through the whole-block rectangle is the buffer's contents.
-/
import proofs.«423243_j44985487458585_3_alg».proof.Proof.Gen.KernelIdeal.Frame
import Idealize.ShloMosaic.Lib.Pipeline.Value

set_option maxRecDepth 16384

noncomputable section

namespace Cert.KernelIdeal.KernelPiece

open Cert.KernelIdeal Cert.KernelIdeal.Gen
open Idealize.ShloMosaic Idealize.ShloMosaic.TcCoe Idealize.ShloMosaic.Tactic Idealize.SL.Sem

variable {F : FTy → Type} [FloatOps F]

theorem zero2 : (![0, 0] : Fin 2 → Nat) = fun _ => 0 := by funext a; fin_cases a <;> rfl
theorem zero3 : (![0, 0, 0] : Fin 3 → Nat) = fun _ => 0 := by funext a; fin_cases a <;> rfl

set_option maxHeartbeats 2000000 in
/-- The output's staging buffer after the body: the stored value, a function of the seven loaded blocks. -/
theorem out0_A_7_eq (c : Dev nD) (i : grid0.Coords) (arg2 : Memref sig .tc .vmem S1024x35 .f32) (harg2 : arg2.IsWhole) (arg3 : Memref sig .tc .vmem S1x256x35 .bf16) (harg3 : arg3.IsWhole) (arg4 : Memref sig .tc .vmem S1x1x256 .f32) (harg4 : arg4.IsWhole) (arg5 : Memref sig .tc .vmem S1x256x256 .bf16) (harg5 : arg5.IsWhole) (arg6 : Memref sig .tc .vmem S1x1x256 .f32) (harg6 : arg6.IsWhole) (arg7 : Memref sig .tc .vmem S1x35x256 .bf16) (harg7 : arg7.IsWhole) (arg8 : Memref sig .tc .vmem S1x1x35 .f32) (harg8 : arg8.IsWhole) (arg9 : Memref sig .tc .vmem S1024x128 .f32) (harg9 : arg9.IsWhole)
    (x0 : Vec F S1024x35 .f32) (x1 : Vec F S1x256x35 .bf16) (x2 : Vec F S1x1x256 .f32) (x3 : Vec F S1x256x256 .bf16) (x4 : Vec F S1x1x256 .f32) (x5 : Vec F S1x35x256 .bf16) (x6 : Vec F S1x1x35 .f32) (xt0 : TbBuf0 (F := F) c tbM0_0) :
    out0_A_7 c i arg2 harg2 arg3 harg3 arg4 harg4 arg5 harg5 arg6 harg6 arg7 harg7 arg8 harg8 arg9 harg9 x0 x1 x2 x3 x4 x5 x6 xt0
      = k0_pay1 (k0_pay2 x0 x1 x2 x3 x4 x5 x6) (k0_pay4 (k0_pay3 x0 x1 x2 x3 x4 x5 x6)) (k0_pay5 (k0_pay2 x0 x1 x2 x3 x4 x5 x6)) (k0_pay6 (k0_pay2 x0 x1 x2 x3 x4 x5 x6)) (k0_pay7 (k0_pay2 x0 x1 x2 x3 x4 x5 x6)) (k0_pay8 (k0_pay2 x0 x1 x2 x3 x4 x5 x6)) (k0_pay9 (k0_pay2 x0 x1 x2 x3 x4 x5 x6)) := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6 xt0)]
  unfold kernelRun0_A
  dsimp only
  sl_unfold_words
  rw [View.canon_unit_zero zero2]
  simp only [View.readAt_eq_ld, harg2.read_unread, harg3.read_unread, harg4.read_unread, harg5.read_unread, harg6.read_unread,
    harg7.read_unread, harg8.read_unread, View.ld_unit_zero (S := S1024x35) zero2, View.ld_unit_zero (S := S1x256x35) zero3,
    View.ld_unit_zero (S := S1x1x256) zero3, View.ld_unit_zero (S := S1x256x256) zero3, View.ld_unit_zero (S := S1x35x256) zero3,
    View.ld_unit_zero (S := S1x1x35) zero3]

end Cert.KernelIdeal.KernelPiece

end
-- ==== Proof.MoeSpec.lean ====
/-
  The routed two-layer network with per-question softmax heads, per row, in two arrangements, and their equality.

  A row `x : Fin 35 → EReal` routed to judge `j` goes through two hidden layers of 256 units and 7 heads of 5
  logits. Every layer has a shared weight matrix `W` and a judge's matrix `Wa j`, each with one extra input
  column that multiplies a constant 1 appended to the layer's input, and shared and judge biases `b`, `ba j`.

  * The arrangement with the weights summed first (`affK`): `∑ i, x i · (W h i + Wa h i)` over the true inputs,
    plus the bias `(b h + W h last) + (ba h + Wa h last)` that absorbs the appended 1's column.
  * The arrangement with the 1 appended (`affR`): `(∑ i, xb i · W h i + b h) + (∑ i, xb i · Wa h i + ba h)`
    over `xb = x` followed by 1.

  On the extended reals sums and products commute and regroup freely, but `x · (a + b) = x · a + x · b` needs
  real (finite) entries; with every parameter and every input entry real the two arrangements agree layer by
  layer, each layer's output is real again (a finite sum of products of reals, a maximum with 0), and the softmax
  heads, the same function of equal logits, agree.
-/
import Idealize.ShloMosaic.PureOps.Ideal
import Mathlib.Algebra.BigOperators.Fin
import Mathlib.Tactic.Ring

noncomputable section

namespace Cert.Moe.Spec

open Idealize.ShloMosaic

/-- An extended real that is a real number. -/
def IsReal (v : EReal) : Prop := ∃ r : ℝ, v = (r : EReal)

/-- `x` followed by a 1. -/
def app1 {k : ℕ} (x : Fin k → EReal) (i : Fin (k + 1)) : EReal := if h : i.val < k then x ⟨i.val, h⟩ else 1

/-- One affine layer, weights summed first, the appended 1's column folded into the bias. -/
def affK {ι : Type} {k : ℕ} (x : Fin k → EReal) (W Wa : ι → Fin (k + 1) → EReal) (b ba : ι → EReal) (h : ι) : EReal :=
  (∑ i : Fin k, x i * (W h i.castSucc + Wa h i.castSucc)) + ((b h + W h (Fin.last k)) + (ba h + Wa h (Fin.last k)))

/-- One affine layer on the input with a 1 appended: the shared part plus the judge's part. -/
def affR {ι : Type} {k : ℕ} (xb : Fin (k + 1) → EReal) (W Wa : ι → Fin (k + 1) → EReal) (b ba : ι → EReal) (h : ι) : EReal :=
  ((∑ i : Fin (k + 1), xb i * W h i) + b h) + ((∑ i : Fin (k + 1), xb i * Wa h i) + ba h)

def relu (v : EReal) : EReal := max v 0

/-- Softmax of `n` logits: `exp (l o − M) / ∑ o', exp (l o' − M)`, `M` the largest logit (the fold of `max` from −∞). -/
def softmax {n : ℕ} (l : Fin n → EReal) (o : Fin n) : EReal :=
  Ideal.div (Ideal.exp (l o - Finset.univ.fold max ⊥ l)) (∑ o' : Fin n, Ideal.exp (l o' - Finset.univ.fold max ⊥ l))

/-- The parameters: shared and per-judge weights (last column: the appended 1's) and biases. -/
structure Params where
  W1 : Fin 256 → Fin 36 → EReal
  b1 : Fin 256 → EReal
  W2 : Fin 256 → Fin 257 → EReal
  b2 : Fin 256 → EReal
  W1a : Fin 12 → Fin 256 → Fin 36 → EReal
  b1a : Fin 12 → Fin 256 → EReal
  W2a : Fin 12 → Fin 256 → Fin 257 → EReal
  b2a : Fin 12 → Fin 256 → EReal
  V : Fin 7 → Fin 5 → Fin 257 → EReal
  bV : Fin 7 → Fin 5 → EReal
  Va : Fin 12 → Fin 7 → Fin 5 → Fin 257 → EReal
  bVa : Fin 12 → Fin 7 → Fin 5 → EReal

/-- Every parameter is a real number. -/
def Params.Real (P : Params) : Prop :=
  (∀ h i, IsReal (P.W1 h i)) ∧ (∀ h, IsReal (P.b1 h)) ∧ (∀ g h, IsReal (P.W2 g h)) ∧ (∀ g, IsReal (P.b2 g))
  ∧ (∀ j h i, IsReal (P.W1a j h i)) ∧ (∀ j h, IsReal (P.b1a j h)) ∧ (∀ j g h, IsReal (P.W2a j g h)) ∧ (∀ j g, IsReal (P.b2a j g))
  ∧ (∀ q o g, IsReal (P.V q o g)) ∧ (∀ q o, IsReal (P.bV q o)) ∧ (∀ j q o g, IsReal (P.Va j q o g)) ∧ (∀ j q o, IsReal (P.bVa j q o))

/-- The hidden layers and logits, weights summed first. -/
def hid1K (P : Params) (j : Fin 12) (x : Fin 35 → EReal) (h : Fin 256) : EReal :=
  relu (affK x P.W1 (P.W1a j) P.b1 (P.b1a j) h)
def hid2K (P : Params) (j : Fin 12) (x : Fin 35 → EReal) (g : Fin 256) : EReal :=
  relu (affK (hid1K P j x) P.W2 (P.W2a j) P.b2 (P.b2a j) g)
def logitK (P : Params) (j : Fin 12) (x : Fin 35 → EReal) (q : Fin 7) (o : Fin 5) : EReal :=
  affK (hid2K P j x) (fun qo : Fin 7 × Fin 5 => P.V qo.1 qo.2) (fun qo => P.Va j qo.1 qo.2)
    (fun qo => P.bV qo.1 qo.2) (fun qo => P.bVa j qo.1 qo.2) (q, o)
def netK (P : Params) (j : Fin 12) (x : Fin 35 → EReal) (q : Fin 7) (o : Fin 5) : EReal :=
  softmax (logitK P j x q) o

/-- The same with a 1 appended to each layer's input. -/
def hid1R (P : Params) (j : Fin 12) (x : Fin 35 → EReal) (h : Fin 256) : EReal :=
  relu (affR (app1 x) P.W1 (P.W1a j) P.b1 (P.b1a j) h)
def hid2R (P : Params) (j : Fin 12) (x : Fin 35 → EReal) (g : Fin 256) : EReal :=
  relu (affR (app1 (hid1R P j x)) P.W2 (P.W2a j) P.b2 (P.b2a j) g)
def logitR (P : Params) (j : Fin 12) (x : Fin 35 → EReal) (q : Fin 7) (o : Fin 5) : EReal :=
  affR (app1 (hid2R P j x)) (fun qo : Fin 7 × Fin 5 => P.V qo.1 qo.2) (fun qo => P.Va j qo.1 qo.2)
    (fun qo => P.bV qo.1 qo.2) (fun qo => P.bVa j qo.1 qo.2) (q, o)
def netR (P : Params) (j : Fin 12) (x : Fin 35 → EReal) (q : Fin 7) (o : Fin 5) : EReal :=
  softmax (logitR P j x q) o

/-- The coercion of a finite sum of reals is the sum of the coercions. -/
theorem coe_finset_sum {α : Type} (s : Finset α) (f : α → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem app1_castSucc {k : ℕ} (x : Fin k → EReal) (i : Fin k) : app1 x i.castSucc = x i := by
  unfold app1
  have h : (i.castSucc : Fin (k + 1)).val < k := i.isLt
  rw [dif_pos h]
  rfl

theorem app1_last {k : ℕ} (x : Fin k → EReal) : app1 x (Fin.last k) = 1 := by
  unfold app1
  have h : ¬ (Fin.last k).val < k := by simp
  rw [dif_neg h]

/-- One layer: the two arrangements agree on real data, and the value is real. -/
theorem affK_eq_affR {ι : Type} {k : ℕ} (x : Fin k → EReal) (W Wa : ι → Fin (k + 1) → EReal) (b ba : ι → EReal) (h : ι)
    (hx : ∀ i, IsReal (x i)) (hW : ∀ i, IsReal (W h i)) (hWa : ∀ i, IsReal (Wa h i)) (hb : IsReal (b h)) (hba : IsReal (ba h)) :
    affK x W Wa b ba h = affR (app1 x) W Wa b ba h ∧ IsReal (affK x W Wa b ba h) := by
  choose xr hxr using hx
  choose Wr hWr using hW
  choose War hWar using hWa
  obtain ⟨br, hbr⟩ := hb
  obtain ⟨bar, hbar⟩ := hba
  have hK : affK x W Wa b ba h
      = ((∑ i : Fin k, xr i * (Wr i.castSucc + War i.castSucc)
          + ((br + Wr (Fin.last k)) + (bar + War (Fin.last k))) : ℝ) : EReal) := by
    unfold affK
    rw [hbr, hbar]
    simp only [hxr, hWr, hWar, EReal.coe_add, EReal.coe_mul, coe_finset_sum]
  have hR : affR (app1 x) W Wa b ba h
      = ((((∑ i : Fin k, xr i * Wr i.castSucc) + Wr (Fin.last k)) + br)
          + (((∑ i : Fin k, xr i * War i.castSucc) + War (Fin.last k)) + bar) : ℝ) := by
    unfold affR
    rw [Fin.sum_univ_castSucc, Fin.sum_univ_castSucc, hbr, hbar]
    simp only [app1_castSucc, app1_last, one_mul, hxr, hWr, hWar, EReal.coe_add, EReal.coe_mul,
      coe_finset_sum]
  have hreal : (∑ i : Fin k, xr i * (Wr i.castSucc + War i.castSucc)
        + ((br + Wr (Fin.last k)) + (bar + War (Fin.last k))) : ℝ)
      = (((∑ i : Fin k, xr i * Wr i.castSucc) + Wr (Fin.last k)) + br)
          + (((∑ i : Fin k, xr i * War i.castSucc) + War (Fin.last k)) + bar) := by
    simp only [mul_add, Finset.sum_add_distrib]
    ring
  refine ⟨?_, _, hK⟩
  rw [hK, hR, hreal]

theorem isReal_relu {v : EReal} (hv : IsReal v) : IsReal (relu v) := by
  obtain ⟨r, rfl⟩ := hv
  unfold relu
  rcases le_total r 0 with h | h
  · refine ⟨0, ?_⟩
    rw [EReal.coe_zero]
    exact max_eq_right (EReal.coe_nonpos.2 h)
  · exact ⟨r, max_eq_left (EReal.coe_nonneg.2 h)⟩

/-- The whole network: the two arrangements agree on real parameters and a real row. -/
theorem netK_eq_netR (P : Params) (hP : P.Real) (j : Fin 12) (x : Fin 35 → EReal) (hx : ∀ i, IsReal (x i))
    (q : Fin 7) (o : Fin 5) : netK P j x q o = netR P j x q o := by
  obtain ⟨hW1, hb1, hW2, hb2, hW1a, hb1a, hW2a, hb2a, hV, hbV, hVa, hbVa⟩ := hP
  have h1 : ∀ h, hid1K P j x h = hid1R P j x h ∧ IsReal (hid1K P j x h) := by
    intro h
    have := affK_eq_affR x P.W1 (P.W1a j) P.b1 (P.b1a j) h hx (hW1 h) (hW1a j h) (hb1 h) (hb1a j h)
    unfold hid1K hid1R
    exact ⟨by rw [this.1], isReal_relu this.2⟩
  have h1f : hid1K P j x = hid1R P j x := funext fun h => (h1 h).1
  have h2 : ∀ g, hid2K P j x g = hid2R P j x g ∧ IsReal (hid2K P j x g) := by
    intro g
    have := affK_eq_affR (hid1K P j x) P.W2 (P.W2a j) P.b2 (P.b2a j) g (fun h => (h1 h).2)
      (hW2 g) (hW2a j g) (hb2 g) (hb2a j g)
    unfold hid2K hid2R
    rw [← h1f]
    exact ⟨by rw [this.1], isReal_relu this.2⟩
  have h2f : hid2K P j x = hid2R P j x := funext fun g => (h2 g).1
  have h3 : logitK P j x q = logitR P j x q := by
    funext o'
    have := affK_eq_affR (hid2K P j x) (fun qo : Fin 7 × Fin 5 => P.V qo.1 qo.2)
      (fun qo => P.Va j qo.1 qo.2) (fun qo => P.bV qo.1 qo.2) (fun qo => P.bVa j qo.1 qo.2) (q, o')
      (fun g => (h2 g).2) (fun g => hV q o' g) (fun g => hVa j q o' g) (hbV q o') (hbVa j q o')
    unfold logitK logitR
    rw [← h2f]
    exact this.1
  unfold netK netR
  rw [h3]

end Cert.Moe.Spec

end
-- ==== Proof.MoeParams.lean ====
/-
  The row network in dense form, and the parameter record of the twelve argument arrays.

  `dense x A c h = ∑ i, x i · A h i + c h` is one layer with one weight matrix. The network with the weights summed
  first (`netK`) is three dense layers — relu after the first two, a softmax over each question's five logits after
  the third — at the summed weights `W + Wa j` (without the appended 1's column) and the folded biases
  `(b + W·last) + (ba j + Wa j·last)`: `netK_eq_rowNet`, by unfolding. `paramsOf` reads the shared and per-judge
  weights and biases out of arrays of the arguments' shapes.
-/
import proofs.«423243_j44985487458585_3_alg».proof.Proof.MoeSpec
import Idealize.ShloMosaic.Lib.ValueIdx

noncomputable section

namespace Cert.Moe.Spec

open Idealize.ShloMosaic Idealize.ShloMosaic.ValueIdx

/-- One dense layer. -/
def dense {ι : Type} {k : ℕ} (x : Fin k → EReal) (A : ι → Fin k → EReal) (c : ι → EReal) (h : ι) : EReal :=
  (∑ i : Fin k, x i * A h i) + c h

/-- Three dense layers, relu after the first two, a softmax over each question's five logits after the third. -/
def rowNet (x : Fin 35 → EReal) (A1 : Fin 256 → Fin 35 → EReal) (c1 : Fin 256 → EReal)
    (A2 : Fin 256 → Fin 256 → EReal) (c2 : Fin 256 → EReal)
    (A3 : Fin 7 × Fin 5 → Fin 256 → EReal) (c3 : Fin 7 × Fin 5 → EReal) (q : Fin 7) (o : Fin 5) : EReal :=
  softmax (fun o' : Fin 5 =>
    dense (fun g => relu (dense (fun h => relu (dense x A1 c1 h)) A2 c2 g)) A3 c3 (q, o')) o

/-- The summed weights and folded biases of judge `j`. -/
def sumW1 (P : Params) (j : Fin 12) (h : Fin 256) (i : Fin 35) : EReal := P.W1 h i.castSucc + P.W1a j h i.castSucc
def sumB1 (P : Params) (j : Fin 12) (h : Fin 256) : EReal := (P.b1 h + P.W1 h (Fin.last 35)) + (P.b1a j h + P.W1a j h (Fin.last 35))
def sumW2 (P : Params) (j : Fin 12) (g : Fin 256) (h : Fin 256) : EReal := P.W2 g h.castSucc + P.W2a j g h.castSucc
def sumB2 (P : Params) (j : Fin 12) (g : Fin 256) : EReal := (P.b2 g + P.W2 g (Fin.last 256)) + (P.b2a j g + P.W2a j g (Fin.last 256))
def sumV (P : Params) (j : Fin 12) (qo : Fin 7 × Fin 5) (g : Fin 256) : EReal := P.V qo.1 qo.2 g.castSucc + P.Va j qo.1 qo.2 g.castSucc
def sumBV (P : Params) (j : Fin 12) (qo : Fin 7 × Fin 5) : EReal :=
  (P.bV qo.1 qo.2 + P.V qo.1 qo.2 (Fin.last 256)) + (P.bVa j qo.1 qo.2 + P.Va j qo.1 qo.2 (Fin.last 256))

/-- The network with the weights summed first is the dense network at the summed weights. -/
theorem netK_eq_rowNet (P : Params) (j : Fin 12) (x : Fin 35 → EReal) (q : Fin 7) (o : Fin 5) :
    netK P j x q o = rowNet x (sumW1 P j) (sumB1 P j) (sumW2 P j) (sumB2 P j) (sumV P j) (sumBV P j) q o := rfl

/-- The parameters read out of arrays of the arguments' shapes. -/
def paramsOf (W1 : (⟨2, ![256, 36]⟩ : Shape).Idx → EReal) (b1 : (⟨1, ![256]⟩ : Shape).Idx → EReal)
    (W2 : (⟨2, ![256, 257]⟩ : Shape).Idx → EReal) (b2 : (⟨1, ![256]⟩ : Shape).Idx → EReal)
    (W1a : (⟨3, ![12, 256, 36]⟩ : Shape).Idx → EReal) (b1a : (⟨2, ![12, 256]⟩ : Shape).Idx → EReal)
    (W2a : (⟨3, ![12, 256, 257]⟩ : Shape).Idx → EReal) (b2a : (⟨2, ![12, 256]⟩ : Shape).Idx → EReal)
    (V : (⟨3, ![7, 5, 257]⟩ : Shape).Idx → EReal) (bV : (⟨2, ![7, 5]⟩ : Shape).Idx → EReal)
    (Va : (⟨4, ![12, 7, 5, 257]⟩ : Shape).Idx → EReal) (bVa : (⟨3, ![12, 7, 5]⟩ : Shape).Idx → EReal) : Params where
  W1 h i := W1 (ix2 h i)
  b1 h := b1 (ix1 h)
  W2 g h := W2 (ix2 g h)
  b2 g := b2 (ix1 g)
  W1a j h i := W1a (ix3 j h i)
  b1a j h := b1a (ix2 j h)
  W2a j g h := W2a (ix3 j g h)
  b2a j g := b2a (ix2 j g)
  V q o g := V (ix3 q o g)
  bV q o := bV (ix2 q o)
  Va j q o g := Va (ix4 j q o g)
  bVa j q o := bVa (ix3 j q o)

end Cert.Moe.Spec

end
-- ==== Proof.KernelLogits.lean ====
/-
  The body's logits, read at an index at the ideal instance: three dense layers.

  Row `r`, lane `l < 35` of the logits block is `∑ g, z2 g · x5[0, l, g] + x6[0, 0, l]` with
  `z2 g = max (∑ h, z1 h · x3[0, g, h] + x4[0, 0, g]) 0` and `z1 h = max (∑ i, x0[r, i] · x1[0, h, i] + x2[0, 0, h]) 0`:
  narrowing to bf16 is the identity, each matrix product into a zero accumulator is the sum over its contracted
  axis of the products (the right operand a transposed slab), the bias a broadcast row.
-/
import proofs.«423243_j44985487458585_3_alg».proof.Proof.Gen.KernelIdeal.Skeleton
import proofs.«423243_j44985487458585_3_alg».proof.Proof.MoeParams
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KernelLogits

open Cert.KernelIdeal Cert.KernelIdeal.Gen Cert.Moe.Spec Idealize.ShloMosaic Idealize.ShloMosaic.ValueIdx

/-! ## A matrix product, rows by columns, over variable sizes -/

/-- The dimension numbers of `[M, K] × [K, N] → [M, N]`: contract the left operand's axis 1 with the right's axis 0. -/
abbrev plainDot (M K N : ℕ)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section plain

variable {M K N : ℕ} (wf : DotDims.WF ⟨2, ![M, K]⟩ ⟨2, ![K, N]⟩ ⟨2, ![M, N]⟩ [1] [0] [0] [1] [] [])

/-- The left operand's row is the result's row. -/
theorem plain_lhs_0 (r : Fin M) (n : Fin N) (k : (plainDot M K N wf).contr.Idx) :
    ((plainDot M K N wf).lhsIdx (ix2 r n) k (0 : Fin 2)).val = r.val := by
  unfold DotDims.lhsIdx
  rw [dif_neg (show ¬ (0 : Fin 2) ∈ (plainDot M K N wf).lhsBatch from List.not_mem_nil),
    dif_pos (show (0 : Fin 2) ∈ (plainDot M K N wf).lhsNonContracting from List.mem_singleton.mpr rfl)]
  rfl

/-- The left operand's column is the contraction position. -/
theorem plain_lhs_1 (r : Fin M) (n : Fin N) (k : (plainDot M K N wf).contr.Idx) :
    ((plainDot M K N wf).lhsIdx (ix2 r n) k (1 : Fin 2)).val = (k ⟨0, Nat.one_pos⟩).val :=
  (plainDot M K N wf).lhsIdx_val_of_single (cl := (1 : Fin 2)) rfl (ix2 r n) k

/-- The right operand's row is the contraction position. -/
theorem plain_rhs_0 (r : Fin M) (n : Fin N) (k : (plainDot M K N wf).contr.Idx) :
    ((plainDot M K N wf).rhsIdx (ix2 r n) k (0 : Fin 2)).val = (k ⟨0, Nat.one_pos⟩).val :=
  (plainDot M K N wf).rhsIdx_val_of_single (cr := (0 : Fin 2)) rfl (ix2 r n) k

/-- The right operand's column is the result's column. -/
theorem plain_rhs_1 (r : Fin M) (n : Fin N) (k : (plainDot M K N wf).contr.Idx) :
    ((plainDot M K N wf).rhsIdx (ix2 r n) k (1 : Fin 2)).val = n.val := by
  unfold DotDims.rhsIdx
  rw [dif_neg (show ¬ (1 : Fin 2) ∈ (plainDot M K N wf).rhsBatch from List.not_mem_nil),
    dif_pos (show (1 : Fin 2) ∈ (plainDot M K N wf).rhsNonContracting from List.mem_singleton.mpr rfl)]
  rfl

end plain

/-! ## One dense layer as the body writes it -/

section layer

variable {M K N : ℕ} (wf : DotDims.WF ⟨2, ![M, K]⟩ ⟨2, ![K, N]⟩ ⟨2, ![M, N]⟩ [1] [0] [0] [1] [] [])
  (hA : (⟨3, ![1, N, K]⟩ : Shape).ShapeCasts ⟨2, ![N, K]⟩)
  (hT : (⟨2, ![N, K]⟩ : Shape).Transposes [1, 0] ⟨2, ![K, N]⟩)
  (hc : (⟨3, ![1, 1, N]⟩ : Shape).ShapeCasts ⟨2, ![1, N]⟩)
  (hB : (⟨2, ![1, N]⟩ : Shape).Broadcasts ⟨2, ![M, N]⟩)
  (hbits : FTy.bits .bf16 < FTy.bits .f32)

/-- The narrowed rows times the transposed slab, into zero, plus the broadcast bias row, at `(r, n)`:
    `∑ k, z[r, k] · A[0, n, k] + c[0, 0, n]`. -/
theorem layer_apply (z : FVec Ideal ⟨2, ![M, K]⟩ .f32) (A : FVec Ideal ⟨3, ![1, N, K]⟩ .bf16)
    (c : FVec Ideal ⟨3, ![1, 1, N]⟩ .f32) (r : Fin M) (n : Fin N) :
    addf (matmul (plainDot M K N wf) none (truncf .bf16 z hbits)
        (transpose ⟨2, ![K, N]⟩ [1, 0] (shapeCast ⟨2, ![N, K]⟩ A hA) hT)
        (constant (F := Ideal) ⟨2, ![M, N]⟩ .f32 0x00000000#32))
      (broadcastTo ⟨2, ![M, N]⟩ (shapeCast ⟨2, ![1, N]⟩ c hc) hB) (ix2 r n)
      = dense (fun k : Fin K => z (ix2 r k)) (fun (n : Fin N) (k : Fin K) => A (ix3 (0 : Fin 1) n k))
          (fun n : Fin N => c (ix3 (0 : Fin 1) (0 : Fin 1) n)) n := by
  show FloatOps.matmul (plainDot M K N wf) none (truncf .bf16 z hbits)
        (transpose ⟨2, ![K, N]⟩ [1, 0] (shapeCast ⟨2, ![N, K]⟩ A hA) hT)
        (constant (F := Ideal) ⟨2, ![M, N]⟩ .f32 0x00000000#32) (ix2 r n)
      + broadcastTo ⟨2, ![M, N]⟩ (shapeCast ⟨2, ![1, N]⟩ c hc) hB (ix2 r n) = _
  rw [Ideal.matmul_constant_zero_apply, broadcastTo_1b_ab_apply, shapeCast_1ab_ab_apply]
  unfold dense
  congr 1
  rw [← Equiv.sum_comp (contrEquiv1 (plainDot M K N wf) K rfl rfl).symm]
  refine Finset.sum_congr rfl fun i _ => ?_
  have hk := contrEquiv1_symm_val (plainDot M K N wf) K rfl rfl i
  have el : (plainDot M K N wf).lhsIdx (ix2 r n) ((contrEquiv1 (plainDot M K N wf) K rfl rfl).symm i) = ix2 r i :=
    funext fun a => Fin.ext (match a with
      | ⟨0, _⟩ => plain_lhs_0 wf r n _
      | ⟨1, _⟩ => (plain_lhs_1 wf r n _).trans hk)
  have er : (plainDot M K N wf).rhsIdx (ix2 r n) ((contrEquiv1 (plainDot M K N wf) K rfl rfl).symm i) = ix2 i n :=
    funext fun a => Fin.ext (match a with
      | ⟨0, _⟩ => (plain_rhs_0 wf r n _).trans hk
      | ⟨1, _⟩ => plain_rhs_1 wf r n _)
  rw [el, er, transpose_ix2_apply, shapeCast_1ab_ab_apply]
  rfl

/-- The same followed by the maximum with the zero splat. -/
theorem relu_layer_apply (z : FVec Ideal ⟨2, ![M, K]⟩ .f32) (A : FVec Ideal ⟨3, ![1, N, K]⟩ .bf16)
    (c : FVec Ideal ⟨3, ![1, 1, N]⟩ .f32) (r : Fin M) (n : Fin N) :
    maximumf (addf (matmul (plainDot M K N wf) none (truncf .bf16 z hbits)
          (transpose ⟨2, ![K, N]⟩ [1, 0] (shapeCast ⟨2, ![N, K]⟩ A hA) hT)
          (constant (F := Ideal) ⟨2, ![M, N]⟩ .f32 0x00000000#32))
        (broadcastTo ⟨2, ![M, N]⟩ (shapeCast ⟨2, ![1, N]⟩ c hc) hB))
      (broadcast ⟨2, ![M, N]⟩ (Scalar.ofBits (F := Ideal) .f32 0x00000000#32)) (ix2 r n)
      = relu (dense (fun k : Fin K => z (ix2 r k)) (fun (n : Fin N) (k : Fin K) => A (ix3 (0 : Fin 1) n k))
          (fun n : Fin N => c (ix3 (0 : Fin 1) (0 : Fin 1) n)) n) := by
  show max (addf (matmul (plainDot M K N wf) none (truncf .bf16 z hbits)
          (transpose ⟨2, ![K, N]⟩ [1, 0] (shapeCast ⟨2, ![N, K]⟩ A hA) hT)
          (constant (F := Ideal) ⟨2, ![M, N]⟩ .f32 0x00000000#32))
        (broadcastTo ⟨2, ![M, N]⟩ (shapeCast ⟨2, ![1, N]⟩ c hc) hB) (ix2 r n)) (Ideal.ofBits .f32 0x00000000#32) = _
  rw [layer_apply, Ideal.ofBits_zero_f32]
  rfl

end layer

theorem pay2_apply (x0 : Vec Ideal S1024x35 .f32) (x1 : Vec Ideal S1x256x35 .bf16) (x2 : Vec Ideal S1x1x256 .f32)
    (x3 : Vec Ideal S1x256x256 .bf16) (x4 : Vec Ideal S1x1x256 .f32) (x5 : Vec Ideal S1x35x256 .bf16) (x6 : Vec Ideal S1x1x35 .f32) (r : Fin 1024) (l : Fin 35) :
    k0_pay2 (F := Ideal) x0 x1 x2 x3 x4 x5 x6 (ix2 r l)
      = dense (fun g : Fin 256 => relu (dense (fun h : Fin 256 => relu (dense (fun i : Fin 35 => x0 (ix2 r i))
            (fun (h : Fin 256) (i : Fin 35) => x1 (ix3 (0 : Fin 1) h i)) (fun h : Fin 256 => x2 (ix3 (0 : Fin 1) (0 : Fin 1) h)) h))
          (fun (g : Fin 256) (h : Fin 256) => x3 (ix3 (0 : Fin 1) g h)) (fun g : Fin 256 => x4 (ix3 (0 : Fin 1) (0 : Fin 1) g)) g))
        (fun (l : Fin 35) (g : Fin 256) => x5 (ix3 (0 : Fin 1) l g)) (fun l : Fin 35 => x6 (ix3 (0 : Fin 1) (0 : Fin 1) l)) l := by
  have hD1 : dot_S1024x35_S35x256_S1024x256_1_0_0_1_n_n
      = plainDot 1024 35 256 Facts₀.dot_S1024x35_S35x256_S1024x256_1_0_0_1_n_n_wf := rfl
  have hD2 : dot_S1024x256_S256x256_S1024x256_1_0_0_1_n_n
      = plainDot 1024 256 256 Facts₀.dot_S1024x256_S256x256_S1024x256_1_0_0_1_n_n_wf := rfl
  have hD3 : dot_S1024x256_S256x35_S1024x35_1_0_0_1_n_n
      = plainDot 1024 256 35 Facts₀.dot_S1024x256_S256x35_S1024x35_1_0_0_1_n_n_wf := rfl
  unfold k0_pay2
  dsimp only
  rw [hD1, hD2, hD3, shapeCast_self]
  refine (layer_apply (M := 1024) (K := 256) (N := 35) _ _ _ _ _ _ _ x5 x6 r l).trans ?_
  refine congrArg (fun f => dense f _ _ l) (funext fun g => ?_)
  refine (relu_layer_apply (M := 1024) (K := 256) (N := 256) _ _ _ _ _ _ _ x3 x4 r g).trans ?_
  refine congrArg (fun f => relu (dense f _ _ g)) (funext fun h => ?_)
  exact relu_layer_apply (M := 1024) (K := 35) (N := 256) _ _ _ _ _ _ x0 x1 x2 r h

end Cert.KernelIdeal.KernelLogits

end
-- ==== Proof.KernelSoftmax.lean ====
/-
  The body's stored block from its logits: a softmax over each five-lane segment, then zero padding to 128 lanes.

  For logits `v : [1024, 35]`, lane `5 q + o` of row `r` of the stored block is the softmax of the segment
  `v[r, 5 q … 5 q + 4]` at `o` — the segment's maximum from −∞, the exponentials of the differences, their sum,
  the quotient — and every lane from 35 on is 0 (the seven segments concatenated along the lanes, then 93 zero lanes).
-/
import proofs.«423243_j44985487458585_3_alg».proof.Proof.Gen.KernelIdeal.Skeleton
import proofs.«423243_j44985487458585_3_alg».proof.Proof.MoeParams
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KernelSoftmax

open Cert.KernelIdeal Cert.KernelIdeal.Gen Cert.Moe.Spec Idealize.ShloMosaic Idealize.ShloMosaic.ValueIdx

variable {F : FTy → Type} [FloatOps F]

/-- The stored block as a function of the logits. -/
def outOfLogits (v : FVec F S1024x35 .f32) : FVec F S1024x128 .f32 :=
  k0_pay1 v (k0_pay4 (extractStridedSlice S1024x5 ![0, 0] v slices_S1024x35_o0_0_S1024x5)) (k0_pay5 v) (k0_pay6 v) (k0_pay7 v) (k0_pay8 v) (k0_pay9 v)

/-- The lane, and the flattened head index, of question `q`, option `o`. -/
def lane (q : Fin 7) (o : Fin 5) : Fin 128 := ⟨5 * q.val + o.val, by omega⟩
def head (q : Fin 7) (o : Fin 5) : Fin 35 := ⟨5 * q.val + o.val, by omega⟩

/-! ### A row's value laid along the lanes -/

section Generic

variable {α : Type}

/-- A vector `[n]` viewed `[n, 1]` and broadcast along `m` lanes reads, at `(r, o)`, the vector at `r`. -/
private theorem rowBcast_apply {n m : ℕ} (w : (⟨1, ![n]⟩ : Shape).Idx → α)
    (hc : (⟨1, ![n]⟩ : Shape).ShapeCasts ⟨2, ![n, 1]⟩) (hb : (⟨2, ![n, 1]⟩ : Shape).Broadcasts ⟨2, ![n, m]⟩)
    (r : Fin n) (o : Fin m) :
    broadcastTo ⟨2, ![n, m]⟩ (shapeCast ⟨2, ![n, 1]⟩ w hc) hb (ix2 r o) = w (ix1 r) := by
  refine (broadcastTo_apply _ hb (ix2 r o) (ix2 r (0 : Fin 1)) fun ax => ?_).trans ?_
  · match ax with
    | ⟨0, _⟩ =>
      show r.val = if n = 1 then 0 else r.val
      split
      · have := r.isLt; omega
      · rfl
    | ⟨1, _⟩ => rfl
  · refine shapeCast_apply w hc (ix2 r (0 : Fin 1)) (ix1 r) ?_
    rw [Shape.rowMajor_val_one, Shape.rowMajor_val_two]
    show r.val = r.val * 1 + 0
    omega

/-- Inserting lane `k` into row `r`: the index `(r, k)`. -/
private theorem lift_row {n m : ℕ} (h : (⟨2, ![n, m]⟩ : Shape).Reduces [1] ⟨1, ![n]⟩) (r : Fin n)
    (k : Fin ((⟨2, ![n, m]⟩ : Shape).size 1)) : h.lift (ix1 r) k = ix2 r (k : Fin m) := by
  funext c
  refine Fin.ext ?_
  show h.liftVal (ix1 r) k.val c = _
  unfold Shape.Reduces.liftVal
  match c with
  | ⟨0, _⟩ => rfl
  | ⟨1, _⟩ => rfl

end Generic

/-! ### The softmax of a five-lane segment -/

/-- Each row's maximum from −∞, laid along the five lanes. -/
private def rowMax (s : FVec F S1024x5 .f32) : FVec F S1024x5 .f32 :=
  broadcastTo S1024x5 (shapeCast S1024x1 (multiReduction .maximumf [1] S1024 s 0xFF800000#32 reduces_S1024x5_S1024 (.inl rfl) rfl) shapeCasts_S1024_S1024x1) broadcasts_S1024x1_S1024x5

/-- Each row's sum from 0, laid along the five lanes. -/
private def rowSum (e : FVec F S1024x5 .f32) : FVec F S1024x5 .f32 :=
  broadcastTo S1024x5 (shapeCast S1024x1 (multiReduction .add [1] S1024 e 0x00000000#32 reduces_S1024x5_S1024 (.inl rfl) rfl) shapeCasts_S1024_S1024x1) broadcasts_S1024x1_S1024x5

/-- The body's softmax of each row of a segment: the exponentials of the differences from the row's maximum, over
    their sum. -/
private def segSoftmax (s : FVec F S1024x5 .f32) : FVec F S1024x5 .f32 :=
  divf (exp (subf s (rowMax s))) (rowSum (exp (subf s (rowMax s))))

private theorem rowMax_apply (s : FVec Ideal S1024x5 .f32) (r : Fin 1024) (o : Fin 5) :
    rowMax s (ix2 r o) = Finset.univ.fold max ⊥ (fun o' : Fin 5 => s (ix2 r o')) := by
  unfold rowMax
  refine (rowBcast_apply _ _ _ r o).trans ?_
  refine (Ideal.multiReduction_maximumf_single _ _ _ _ _ _).trans ?_
  have hbot : FloatOps.ofBits (F := Ideal) .f32 0xFF800000#32 = (⊥ : EReal) := by simp [Ideal.ofBits, Ideal.ieee]
  have hf : (s ∘ reduces_S1024x5_S1024.lift (ix1 r)) = fun o' : Fin 5 => s (ix2 r o') :=
    funext fun k => congrArg s (lift_row _ r k)
  rw [hbot, hf]
  rfl

private theorem rowSum_apply (e : FVec Ideal S1024x5 .f32) (r : Fin 1024) (o : Fin 5) :
    rowSum e (ix2 r o) = ∑ k : Fin 5, e (ix2 r k) := by
  unfold rowSum
  refine (rowBcast_apply _ _ _ r o).trans ?_
  refine (Ideal.multiReduction_add_single _ _ _ _ _ _).trans ?_
  exact Finset.sum_congr rfl fun k _ => congrArg e (lift_row _ r k)

private theorem segSoftmax_apply (s : FVec Ideal S1024x5 .f32) (r : Fin 1024) (o : Fin 5) :
    segSoftmax s (ix2 r o) = softmax (fun o' : Fin 5 => s (ix2 r o')) o := by
  show Ideal.div (Ideal.exp (s (ix2 r o) - rowMax s (ix2 r o))) (rowSum (exp (subf s (rowMax s))) (ix2 r o)) = _
  rw [rowMax_apply, rowSum_apply]
  unfold softmax
  refine congrArg (Ideal.div _) (Finset.sum_congr rfl fun k _ => ?_)
  show Ideal.exp (s (ix2 r k) - rowMax s (ix2 r k)) = _
  rw [rowMax_apply]

/-! ### Blocks side by side, read at a lane -/

section Concat

variable {α : Type}

/-- Two blocks side by side, read at a lane of the first. -/
private theorem concat2_left {n m₁ m₂ m : ℕ} (x₁ : (⟨2, ![n, m₁]⟩ : Shape).Idx → α) (x₂ : (⟨2, ![n, m₂]⟩ : Shape).Idx → α)
    (h : Shape.Concatenates [(⟨2, ![n, m₁]⟩ : Shape), ⟨2, ![n, m₂]⟩] ⟨2, ![n, m]⟩ 1) (r : Fin n) (l : Fin m) (l₁ : Fin m₁)
    (hl : l₁.val = l.val) :
    concatenate ⟨2, ![n, m]⟩ 1 [⟨⟨2, ![n, m₁]⟩, x₁⟩, ⟨⟨2, ![n, m₂]⟩, x₂⟩] h (ix2 r l) = x₁ (ix2 r l₁) :=
  concatenate_pair_apply_left 1 x₁ x₂ h (ix2 r l) rfl (ix2 r l₁) (fun b => by
    match b with
    | ⟨0, _⟩ => rfl
    | ⟨1, _⟩ => exact hl)

/-- Two blocks side by side, read at a lane of the second. -/
private theorem concat2_right {n m₁ m₂ m : ℕ} (x₁ : (⟨2, ![n, m₁]⟩ : Shape).Idx → α) (x₂ : (⟨2, ![n, m₂]⟩ : Shape).Idx → α)
    (h : Shape.Concatenates [(⟨2, ![n, m₁]⟩ : Shape), ⟨2, ![n, m₂]⟩] ⟨2, ![n, m]⟩ 1) (r : Fin n) (l : Fin m) (l₂ : Fin m₂)
    (hl : l₂.val + m₁ = l.val) :
    concatenate ⟨2, ![n, m]⟩ 1 [⟨⟨2, ![n, m₁]⟩, x₁⟩, ⟨⟨2, ![n, m₂]⟩, x₂⟩] h (ix2 r l) = x₂ (ix2 r l₂) :=
  concatenate_pair_apply_right 1 x₁ x₂ h (ix2 r l) rfl rfl (ix2 r l₂) (fun b hb => by
    match b with
    | ⟨0, _⟩ => rfl
    | ⟨1, _⟩ => exact absurd rfl hb) hl

/-- Seven five-lane blocks, listed. -/
private abbrev seven {n : ℕ} (x0 x1 x2 x3 x4 x5 x6 : (⟨2, ![n, 5]⟩ : Shape).Idx → α) : List ((s : Shape) × (s.Idx → α)) :=
  [⟨⟨2, ![n, 5]⟩, x0⟩, ⟨⟨2, ![n, 5]⟩, x1⟩, ⟨⟨2, ![n, 5]⟩, x2⟩, ⟨⟨2, ![n, 5]⟩, x3⟩, ⟨⟨2, ![n, 5]⟩, x4⟩, ⟨⟨2, ![n, 5]⟩, x5⟩,
    ⟨⟨2, ![n, 5]⟩, x6⟩]

/-- Seven five-lane blocks side by side: lane `5 k + o` is lane `o` of block `k`. -/
private theorem concat7_apply {n : ℕ} (x0 x1 x2 x3 x4 x5 x6 : (⟨2, ![n, 5]⟩ : Shape).Idx → α)
    (h : Shape.Concatenates [(⟨2, ![n, 5]⟩ : Shape), ⟨2, ![n, 5]⟩, ⟨2, ![n, 5]⟩, ⟨2, ![n, 5]⟩, ⟨2, ![n, 5]⟩,
      ⟨2, ![n, 5]⟩, ⟨2, ![n, 5]⟩] ⟨2, ![n, 35]⟩ 1)
    (r : Fin n) (k : ℕ) (hk : k < 7) (o : Fin 5) (l : Fin 35) (hl : 5 * k + o.val = l.val) :
    concatenate ⟨2, ![n, 35]⟩ 1 [⟨⟨2, ![n, 5]⟩, x0⟩, ⟨⟨2, ![n, 5]⟩, x1⟩, ⟨⟨2, ![n, 5]⟩, x2⟩, ⟨⟨2, ![n, 5]⟩, x3⟩,
        ⟨⟨2, ![n, 5]⟩, x4⟩, ⟨⟨2, ![n, 5]⟩, x5⟩, ⟨⟨2, ![n, 5]⟩, x6⟩] h (ix2 r l)
      = ([x0, x1, x2, x3, x4, x5, x6][k]'hk) (ix2 r o) := by
  have hoff : ∀ b : Fin (⟨2, ![n, 5]⟩ : Shape).rank, b.cast (rfl : (⟨2, ![n, 5]⟩ : Shape).rank = (⟨2, ![n, 35]⟩ : Shape).rank) ≠ 1 →
      (ix2 r o b).val = (ix2 r l (b.cast rfl)).val := by
    intro b hb
    match b with
    | ⟨0, _⟩ => rfl
    | ⟨1, _⟩ => exact absurd rfl hb
  match k, hk, hl with
  | 0, _, hl => exact concatenate_apply_piece (t := ⟨2, ![n, 35]⟩) 1 (seven x0 x1 x2 x3 x4 x5 x6) h (ix2 r l) 0 (by simp) ⟨2, ![n, 5]⟩ x0 rfl rfl 0 rfl (ix2 r o) hoff hl
  | 1, _, hl => exact concatenate_apply_piece (t := ⟨2, ![n, 35]⟩) 1 (seven x0 x1 x2 x3 x4 x5 x6) h (ix2 r l) 1 (by simp) ⟨2, ![n, 5]⟩ x1 rfl rfl 5 rfl (ix2 r o) hoff hl
  | 2, _, hl => exact concatenate_apply_piece (t := ⟨2, ![n, 35]⟩) 1 (seven x0 x1 x2 x3 x4 x5 x6) h (ix2 r l) 2 (by simp) ⟨2, ![n, 5]⟩ x2 rfl rfl 10 rfl (ix2 r o) hoff hl
  | 3, _, hl => exact concatenate_apply_piece (t := ⟨2, ![n, 35]⟩) 1 (seven x0 x1 x2 x3 x4 x5 x6) h (ix2 r l) 3 (by simp) ⟨2, ![n, 5]⟩ x3 rfl rfl 15 rfl (ix2 r o) hoff hl
  | 4, _, hl => exact concatenate_apply_piece (t := ⟨2, ![n, 35]⟩) 1 (seven x0 x1 x2 x3 x4 x5 x6) h (ix2 r l) 4 (by simp) ⟨2, ![n, 5]⟩ x4 rfl rfl 20 rfl (ix2 r o) hoff hl
  | 5, _, hl => exact concatenate_apply_piece (t := ⟨2, ![n, 35]⟩) 1 (seven x0 x1 x2 x3 x4 x5 x6) h (ix2 r l) 5 (by simp) ⟨2, ![n, 5]⟩ x5 rfl rfl 25 rfl (ix2 r o) hoff hl
  | 6, _, hl => exact concatenate_apply_piece (t := ⟨2, ![n, 35]⟩) 1 (seven x0 x1 x2 x3 x4 x5 x6) h (ix2 r l) 6 (by simp) ⟨2, ![n, 5]⟩ x6 rfl rfl 30 rfl (ix2 r o) hoff hl
  | k + 7, hk, _ => exact absurd hk (by omega)

end Concat

/-! ### The stored block -/

/-- The softmax of the five lanes of the logits from lane `c`. -/
private theorem seg_apply (c : ℕ) (v : FVec Ideal S1024x35 .f32) (h : S1024x35.Slices ![0, c] S1024x5) (r : Fin 1024)
    (o : Fin 5) (hd : Fin 5 → Fin 35) (hhd : ∀ o', (hd o').val = c + o'.val) :
    segSoftmax (extractStridedSlice S1024x5 ![0, c] v h) (ix2 r o) = softmax (fun o' => v (ix2 r (hd o'))) o := by
  refine (segSoftmax_apply _ r o).trans ?_
  refine congrArg (fun f => softmax f o) (funext fun o' => ?_)
  exact slice2_axis1_apply c v h r o' (hd o') (hhd o')

/-- The stored block is the seven segments' softmaxes side by side, then zero lanes. -/
private theorem outOfLogits_eq (v : FVec F S1024x35 .f32) :
    outOfLogits v = concatenate S1024x128 1
      [⟨S1024x35, concatenate S1024x35 1
        [⟨S1024x5, segSoftmax (extractStridedSlice S1024x5 ![0, 0] v slices_S1024x35_o0_0_S1024x5)⟩,
         ⟨S1024x5, segSoftmax (extractStridedSlice S1024x5 ![0, 5] v slices_S1024x35_o0_5_S1024x5)⟩,
         ⟨S1024x5, segSoftmax (extractStridedSlice S1024x5 ![0, 10] v slices_S1024x35_o0_10_S1024x5)⟩,
         ⟨S1024x5, segSoftmax (extractStridedSlice S1024x5 ![0, 15] v slices_S1024x35_o0_15_S1024x5)⟩,
         ⟨S1024x5, segSoftmax (extractStridedSlice S1024x5 ![0, 20] v slices_S1024x35_o0_20_S1024x5)⟩,
         ⟨S1024x5, segSoftmax (extractStridedSlice S1024x5 ![0, 25] v slices_S1024x35_o0_25_S1024x5)⟩,
         ⟨S1024x5, segSoftmax (extractStridedSlice S1024x5 ![0, 30] v slices_S1024x35_o0_30_S1024x5)⟩]
        concatenates_S1024x5_S1024x5_S1024x5_S1024x5_S1024x5_S1024x5_S1024x5_S1024x35_d1⟩,
       ⟨S1024x93, broadcast S1024x93 (Scalar.ofBits .f32 0x00000000#32)⟩]
      concatenates_S1024x35_S1024x93_S1024x128_d1 := rfl

theorem outOfLogits_apply (v : FVec Ideal S1024x35 .f32) (r : Fin 1024) (q : Fin 7) (o : Fin 5) :
    outOfLogits (F := Ideal) v (ix2 r (lane q o)) = softmax (fun o' : Fin 5 => v (ix2 r (head q o'))) o := by
  rw [outOfLogits_eq]
  refine (concat2_left _ _ _ r (lane q o) (head q o) rfl).trans ?_
  refine (concat7_apply _ _ _ _ _ _ _ _ r q.val q.isLt o (head q o) rfl).trans ?_
  match q with
  | ⟨0, _⟩ => exact seg_apply 0 v _ r o _ (fun o' => by show 5 * 0 + o'.val = 0 + o'.val; omega)
  | ⟨1, _⟩ => exact seg_apply 5 v _ r o _ (fun o' => by show 5 * 1 + o'.val = 5 + o'.val; omega)
  | ⟨2, _⟩ => exact seg_apply 10 v _ r o _ (fun o' => by show 5 * 2 + o'.val = 10 + o'.val; omega)
  | ⟨3, _⟩ => exact seg_apply 15 v _ r o _ (fun o' => by show 5 * 3 + o'.val = 15 + o'.val; omega)
  | ⟨4, _⟩ => exact seg_apply 20 v _ r o _ (fun o' => by show 5 * 4 + o'.val = 20 + o'.val; omega)
  | ⟨5, _⟩ => exact seg_apply 25 v _ r o _ (fun o' => by show 5 * 5 + o'.val = 25 + o'.val; omega)
  | ⟨6, _⟩ => exact seg_apply 30 v _ r o _ (fun o' => by show 5 * 6 + o'.val = 30 + o'.val; omega)

theorem outOfLogits_pad (v : FVec Ideal S1024x35 .f32) (r : Fin 1024) (l : Fin 128) (hl : 35 ≤ l.val) :
    outOfLogits (F := Ideal) v (ix2 r l) = 0 := by
  rw [outOfLogits_eq]
  refine (concat2_right _ _ _ r l (⟨l.val - 35, by omega⟩ : Fin 93) (by show l.val - 35 + 35 = l.val; omega)).trans ?_
  exact Ideal.ofBits_zero_f32

end Cert.KernelIdeal.KernelSoftmax

end
-- ==== Proof.KernelRow.lean ====
/-
  What the kernel body stores, row by row.

  The body's one store writes `kernelOut` of its seven loads: the stored block as a function of the logits, at the
  logits as three dense layers of the row block `x0` and one judge's slabs `x1 … x6`. At the ideal instance row `r` of
  the stored block is, at lane `5 q + o < 35`, the dense network `rowNet` of row `r` of `x0` with the slabs as its
  weight matrices and biases, and 0 at the lanes from 35 on.
-/
import proofs.«423243_j44985487458585_3_alg».proof.Proof.KernelLogits
import proofs.«423243_j44985487458585_3_alg».proof.Proof.KernelSoftmax

noncomputable section

namespace Cert.KernelIdeal.KernelRow

open Cert.KernelIdeal Cert.KernelIdeal.Gen Cert.KernelIdeal.KernelLogits Cert.KernelIdeal.KernelSoftmax Cert.Moe.Spec
open Idealize.ShloMosaic Idealize.ShloMosaic.ValueIdx

variable {F : FTy → Type} [FloatOps F]

/-- The value the body stores, as a function of its seven loads. -/
def kernelOut (x0 : Vec F S1024x35 .f32) (x1 : Vec F S1x256x35 .bf16) (x2 : Vec F S1x1x256 .f32) (x3 : Vec F S1x256x256 .bf16)
    (x4 : Vec F S1x1x256 .f32) (x5 : Vec F S1x35x256 .bf16) (x6 : Vec F S1x1x35 .f32) : FVec F S1024x128 .f32 :=
  k0_pay1 (k0_pay2 x0 x1 x2 x3 x4 x5 x6) (k0_pay4 (k0_pay3 x0 x1 x2 x3 x4 x5 x6))
    (k0_pay5 (k0_pay2 x0 x1 x2 x3 x4 x5 x6)) (k0_pay6 (k0_pay2 x0 x1 x2 x3 x4 x5 x6)) (k0_pay7 (k0_pay2 x0 x1 x2 x3 x4 x5 x6))
    (k0_pay8 (k0_pay2 x0 x1 x2 x3 x4 x5 x6)) (k0_pay9 (k0_pay2 x0 x1 x2 x3 x4 x5 x6))

/-- The stored value is the block made from the logits. -/
theorem kernelOut_eq (x0 : Vec F S1024x35 .f32) (x1 : Vec F S1x256x35 .bf16) (x2 : Vec F S1x1x256 .f32) (x3 : Vec F S1x256x256 .bf16)
    (x4 : Vec F S1x1x256 .f32) (x5 : Vec F S1x35x256 .bf16) (x6 : Vec F S1x1x35 .f32) :
    kernelOut x0 x1 x2 x3 x4 x5 x6 = outOfLogits (k0_pay2 x0 x1 x2 x3 x4 x5 x6) := by
  unfold kernelOut outOfLogits k0_pay3
  rfl

variable (x0 : Vec Ideal S1024x35 .f32) (x1 : Vec Ideal S1x256x35 .bf16) (x2 : Vec Ideal S1x1x256 .f32) (x3 : Vec Ideal S1x256x256 .bf16) (x4 : Vec Ideal S1x1x256 .f32) (x5 : Vec Ideal S1x35x256 .bf16) (x6 : Vec Ideal S1x1x35 .f32)

/-- A lane below 35 of row `r`: the dense network of the row at the loaded slabs. -/
theorem kernelOut_apply (r : Fin 1024) (q : Fin 7) (o : Fin 5) :
    kernelOut (F := Ideal) x0 x1 x2 x3 x4 x5 x6 (ix2 r (lane q o))
      = rowNet (fun i => x0 (ix2 r i))
          (fun h i => x1 (ix3 (0 : Fin 1) h i)) (fun h => x2 (ix3 (0 : Fin 1) (0 : Fin 1) h))
          (fun g h => x3 (ix3 (0 : Fin 1) g h)) (fun g => x4 (ix3 (0 : Fin 1) (0 : Fin 1) g))
          (fun qo g => x5 (ix3 (0 : Fin 1) (head qo.1 qo.2) g)) (fun qo => x6 (ix3 (0 : Fin 1) (0 : Fin 1) (head qo.1 qo.2))) q o := by
  rw [kernelOut_eq, outOfLogits_apply]
  unfold rowNet
  refine congrArg (fun f => softmax f o) (funext fun o' => ?_)
  rw [pay2_apply]
  rfl

/-- The padding lanes hold 0. -/
theorem kernelOut_pad (r : Fin 1024) (l : Fin 128) (hl : 35 ≤ l.val) :
    kernelOut (F := Ideal) x0 x1 x2 x3 x4 x5 x6 (ix2 r l) = 0 := by
  rw [kernelOut_eq]
  exact outOfLogits_pad _ r l hl

end Cert.KernelIdeal.KernelRow

end
-- ==== Proof.HostWeights.lean ====
/-
  The host's pre-summed weights and folded biases, as functions of the twelve parameter arrays.

  For each layer the host adds the shared matrix (without its last column) to every judge's matrix (without its
  last column) and narrows the sum to bf16; and adds the shared bias plus the shared matrix's last column to every
  judge's bias plus the judge's matrix's last column. The heads' arrays `[7, 5, …]` are flattened to `[35, …]` first.
  Written with the program's own operations in the program's order.
-/
import proofs.«423243_j44985487458585_3_alg».proof.Proof.Gen.KernelIdeal

noncomputable section

namespace Cert.KernelIdeal.HostWeights

open Cert.KernelIdeal Cert.KernelIdeal.Gen Idealize.ShloMosaic

variable {F : FTy → Type} [FloatOps F]

/-- Layer 1: shared + judge weights, `[12, 256, 35]` in bf16. -/
def w1tot (W1 : FVec F S256x36 .f32) (W1a : FVec F S12x256x36 .f32) : FVec F S12x256x35 .bf16 :=
  truncf .bf16 (addf
    (broadcastInDim S12x256x35 ![0, 1, 2] bcast_S1x256x35_S12x256x35_0_1_2
      (broadcastInDim S1x256x35 ![1, 2] bcast_S256x35_S1x256x35_1_2 (extractStridedSlice S256x35 ![0, 0] W1 slices_S256x36_S256x35_0_0)))
    (extractStridedSlice S12x256x35 ![0, 0, 0] W1a slices_S12x256x36_S12x256x35_0_0_0)) bitsLt_bf16_f32

/-- Layer 1: the folded bias, `[12, 1, 256]`. -/
def b1tot (b1 : FVec F S256 .f32) (W1 : FVec F S256x36 .f32) (b1a : FVec F S12x256 .f32) (W1a : FVec F S12x256x36 .f32) : FVec F S12x1x256 .f32 :=
  addf
    (broadcastInDim S12x1x256 ![0, 1, 2] bcast_S1x1x256_S12x1x256_0_1_2
      (broadcastInDim S1x1x256 ![1, 2] bcast_S1x256_S1x1x256_1_2
        (shapeCast S1x256 (addf b1 (shapeCast S256 (extractStridedSlice S256x1 ![0, 35] W1 slices_S256x36_S256x1_0_35) shapeCasts_S256x1_S256)) shapeCasts_S256_S1x256)))
    (broadcastInDim S12x1x256 ![0, 2] bcast_S12x256_S12x1x256_0_2
      (addf b1a (shapeCast S12x256 (extractStridedSlice S12x256x1 ![0, 0, 35] W1a slices_S12x256x36_S12x256x1_0_0_35) shapeCasts_S12x256x1_S12x256)))

/-- Layer 2: shared + judge weights, `[12, 256, 256]` in bf16. -/
def w2tot (W2 : FVec F S256x257 .f32) (W2a : FVec F S12x256x257 .f32) : FVec F S12x256x256 .bf16 :=
  truncf .bf16 (addf
    (broadcastInDim S12x256x256 ![0, 1, 2] bcast_S1x256x256_S12x256x256_0_1_2
      (broadcastInDim S1x256x256 ![1, 2] bcast_S256x256_S1x256x256_1_2 (extractStridedSlice S256x256 ![0, 0] W2 slices_S256x257_S256x256_0_0)))
    (extractStridedSlice S12x256x256 ![0, 0, 0] W2a slices_S12x256x257_S12x256x256_0_0_0)) bitsLt_bf16_f32

/-- Layer 2: the folded bias, `[12, 1, 256]`. -/
def b2tot (b2 : FVec F S256 .f32) (W2 : FVec F S256x257 .f32) (b2a : FVec F S12x256 .f32) (W2a : FVec F S12x256x257 .f32) : FVec F S12x1x256 .f32 :=
  addf
    (broadcastInDim S12x1x256 ![0, 1, 2] bcast_S1x1x256_S12x1x256_0_1_2
      (broadcastInDim S1x1x256 ![1, 2] bcast_S1x256_S1x1x256_1_2
        (shapeCast S1x256 (addf b2 (shapeCast S256 (extractStridedSlice S256x1 ![0, 256] W2 slices_S256x257_S256x1_0_256) shapeCasts_S256x1_S256)) shapeCasts_S256_S1x256)))
    (broadcastInDim S12x1x256 ![0, 2] bcast_S12x256_S12x1x256_0_2
      (addf b2a (shapeCast S12x256 (extractStridedSlice S12x256x1 ![0, 0, 256] W2a slices_S12x256x257_S12x256x1_0_0_256) shapeCasts_S12x256x1_S12x256)))

/-- The heads: shared + judge weights, flattened, `[12, 35, 256]` in bf16. -/
def vtot (V : FVec F S7x5x257 .f32) (Va : FVec F S12x7x5x257 .f32) : FVec F S12x35x256 .bf16 :=
  truncf .bf16 (addf
    (broadcastInDim S12x35x256 ![0, 1, 2] bcast_S1x35x256_S12x35x256_0_1_2
      (broadcastInDim S1x35x256 ![1, 2] bcast_S35x256_S1x35x256_1_2
        (extractStridedSlice S35x256 ![0, 0] (shapeCast S35x257 V shapeCasts_S7x5x257_S35x257) slices_S35x257_S35x256_0_0)))
    (extractStridedSlice S12x35x256 ![0, 0, 0] (shapeCast S12x35x257 Va shapeCasts_S12x7x5x257_S12x35x257) slices_S12x35x257_S12x35x256_0_0_0)) bitsLt_bf16_f32

/-- The heads: the folded bias, flattened, `[12, 1, 35]`. -/
def bvtot (bV : FVec F S7x5 .f32) (V : FVec F S7x5x257 .f32) (bVa : FVec F S12x7x5 .f32) (Va : FVec F S12x7x5x257 .f32) : FVec F S12x1x35 .f32 :=
  addf
    (broadcastInDim S12x1x35 ![0, 1, 2] bcast_S1x1x35_S12x1x35_0_1_2
      (broadcastInDim S1x1x35 ![1, 2] bcast_S1x35_S1x1x35_1_2
        (shapeCast S1x35
          (addf (shapeCast S35 bV shapeCasts_S7x5_S35)
            (shapeCast S35 (extractStridedSlice S35x1 ![0, 256] (shapeCast S35x257 V shapeCasts_S7x5x257_S35x257) slices_S35x257_S35x1_0_256) shapeCasts_S35x1_S35))
          shapeCasts_S35_S1x35)))
    (broadcastInDim S12x1x35 ![0, 2] bcast_S12x35_S12x1x35_0_2
      (addf (shapeCast S12x35 bVa shapeCasts_S12x7x5_S12x35)
        (shapeCast S12x35 (extractStridedSlice S12x35x1 ![0, 0, 256] (shapeCast S12x35x257 Va shapeCasts_S12x7x5x257_S12x35x257) slices_S12x35x257_S12x35x1_0_0_256) shapeCasts_S12x35x1_S12x35)))

end Cert.KernelIdeal.HostWeights

end
-- ==== Proof.WeightReads.lean ====
/-
  The pre-summed weights and folded biases read at an index, at the ideal instance.

  Narrowing to bf16 is the identity there, so entry `(j, h, i)` of a summed weight array is the shared entry plus judge
  `j`'s entry (columns below the last), and entry `(j, 0, h)` of a folded bias is (shared bias + the shared matrix's
  last column) + (judge `j`'s bias + judge `j`'s matrix's last column); for the heads, `[7, 5]` is flattened to 35.
-/
import proofs.«423243_j44985487458585_3_alg».proof.Proof.HostWeights
import proofs.«423243_j44985487458585_3_alg».proof.Proof.MoeParams
import Idealize.ShloMosaic.Lib.ValueIdx
import Idealize.ShloMosaic.Lib.Pipeline.Value
import Idealize.ShloMosaic.Lib.ValueLayout

noncomputable section

namespace Cert.KernelIdeal.WeightReads

open Cert.KernelIdeal Cert.KernelIdeal.Gen Cert.KernelIdeal.HostWeights Idealize.ShloMosaic Idealize.ShloMosaic.ValueIdx

/-- The flattened head index of question `q`, option `o`. -/
def head (q : Fin 7) (o : Fin 5) : Fin 35 := ⟨5 * q.val + o.val, by omega⟩

/-! ## Layout operations read at an index given by coordinates (sizes as variables) -/

section reads
variable {α : Type}

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A `[1, a, b]` array broadcast over a leading axis of `m` reads, at `(j, p, q)`, the operand at `(0, p, q)`. -/
theorem bcast_1ab_mab_apply {m a b : Nat} (x : (⟨3, ![1, a, b]⟩ : Shape).Idx → α)
    (h : (⟨3, ![1, a, b]⟩ : Shape).BroadcastsInDim ⟨3, ![m, a, b]⟩ ![0, 1, 2])
    (j : Fin m) (p : Fin a) (q : Fin b) :
    broadcastInDim ⟨3, ![m, a, b]⟩ ![0, 1, 2] h x (ix3 j p q) = x (ix3 (0 : Fin 1) p q) :=
  broadcastInDim_apply _ h x _ _ (fun ax => by
    have hp := p.isLt
    have hq := q.isLt
    match ax with
    | ⟨0, _⟩ => show 0 = if 1 = 1 then 0 else j.val; rfl
    | ⟨1, _⟩ => show p.val = if a = 1 then 0 else p.val; split <;> omega
    | ⟨2, _⟩ => show q.val = if b = 1 then 0 else q.val; split <;> omega)

/-- An `[a, b]` array given a leading unit axis reads, at `(u, p, q)`, the operand at `(p, q)`. -/
theorem bcast_ab_1ab_apply {a b : Nat} (x : (⟨2, ![a, b]⟩ : Shape).Idx → α)
    (h : (⟨2, ![a, b]⟩ : Shape).BroadcastsInDim ⟨3, ![1, a, b]⟩ ![1, 2])
    (u : Fin 1) (p : Fin a) (q : Fin b) :
    broadcastInDim ⟨3, ![1, a, b]⟩ ![1, 2] h x (ix3 u p q) = x (ix2 p q) :=
  broadcastInDim_apply _ h x _ _ (fun ax => by
    have hp := p.isLt
    have hq := q.isLt
    match ax with
    | ⟨0, _⟩ => show p.val = if a = 1 then 0 else p.val; split <;> omega
    | ⟨1, _⟩ => show q.val = if b = 1 then 0 else q.val; split <;> omega)

/-- An `[m, b]` array given a middle unit axis reads, at `(j, u, q)`, the operand at `(j, q)`. -/
theorem bcast_mb_m1b_apply {m b : Nat} (x : (⟨2, ![m, b]⟩ : Shape).Idx → α)
    (h : (⟨2, ![m, b]⟩ : Shape).BroadcastsInDim ⟨3, ![m, 1, b]⟩ ![0, 2])
    (j : Fin m) (u : Fin 1) (q : Fin b) :
    broadcastInDim ⟨3, ![m, 1, b]⟩ ![0, 2] h x (ix3 j u q) = x (ix2 j q) :=
  broadcastInDim_apply _ h x _ _ (fun ax => by
    have hj := j.isLt
    have hq := q.isLt
    match ax with
    | ⟨0, _⟩ => show j.val = if m = 1 then 0 else j.val; split <;> omega
    | ⟨1, _⟩ => show q.val = if b = 1 then 0 else q.val; split <;> omega)

/-- An `[a, 1]` array cast to `[a]` reads, at `i`, the operand at `(i, 0)`. -/
theorem shapeCast_a1_a_apply {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b, 1]` array cast to `[a, b]` reads, at `(i, j)`, the operand at `(i, j, 0)`. -/
theorem shapeCast_ab1_ab_apply {a b : Nat} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array flattened to `[N]` reads, at `k = i b + j`, the operand at `(i, j)`. -/
theorem shapeCast_ab_N_apply {a b N : Nat} (x : (⟨2, ![a, b]⟩ : Shape).Idx → α)
    (h : (⟨2, ![a, b]⟩ : Shape).ShapeCasts ⟨1, ![N]⟩) (i : Fin a) (j : Fin b) (k : Fin N)
    (hk : k.val = i.val * b + j.val) :
    shapeCast ⟨1, ![N]⟩ x h (ix1 k) = x (ix2 i j) :=
  shapeCast_apply x h _ _ (by
    rw [Shape.rowMajor_val_two, Shape.rowMajor_val_one]
    show i.val * b + j.val = k.val
    exact hk.symm)

/-- An `[a, b, c]` array with its two leading axes flattened to `[N, c]` reads, at `(k, l)` with `k = i b + j`, the
    operand at `(i, j, l)`. -/
theorem shapeCast_abc_Nc_apply {a b c N : Nat} (x : (⟨3, ![a, b, c]⟩ : Shape).Idx → α)
    (h : (⟨3, ![a, b, c]⟩ : Shape).ShapeCasts ⟨2, ![N, c]⟩) (i : Fin a) (j : Fin b) (l : Fin c) (k : Fin N)
    (hk : k.val = i.val * b + j.val) :
    shapeCast ⟨2, ![N, c]⟩ x h (ix2 k l) = x (ix3 i j l) :=
  shapeCast_apply x h _ _ (by
    rw [Shape.rowMajor_val_three, Shape.rowMajor_val_two]
    show (i.val * b + j.val) * c + l.val = k.val * c + l.val
    rw [hk])

/-- An `[m, a, b]` array with its two trailing axes flattened to `[m, N]`, `N = a b`, reads, at `(e, k)` with
    `k = i b + j`, the operand at `(e, i, j)`. -/
theorem shapeCast_mab_mN_apply {m a b N : Nat} (hN : N = a * b) (x : (⟨3, ![m, a, b]⟩ : Shape).Idx → α)
    (h : (⟨3, ![m, a, b]⟩ : Shape).ShapeCasts ⟨2, ![m, N]⟩) (e : Fin m) (i : Fin a) (j : Fin b) (k : Fin N)
    (hk : k.val = i.val * b + j.val) :
    shapeCast ⟨2, ![m, N]⟩ x h (ix2 e k) = x (ix3 e i j) :=
  shapeCast_apply x h _ _ (by
    rw [Shape.rowMajor_val_three, Shape.rowMajor_val_two]
    show (e.val * a + i.val) * b + j.val = e.val * N + k.val
    rw [hk, hN, Nat.add_mul, Nat.mul_assoc, Nat.add_assoc])

/-- An `[m, a, b, c]` array with its two middle axes flattened to `[m, N, c]`, `N = a b`, reads, at `(e, k, l)` with
    `k = i b + j`, the operand at `(e, i, j, l)`. -/
theorem shapeCast_mabc_mNc_apply {m a b c N : Nat} (hN : N = a * b) (x : (⟨4, ![m, a, b, c]⟩ : Shape).Idx → α)
    (h : (⟨4, ![m, a, b, c]⟩ : Shape).ShapeCasts ⟨3, ![m, N, c]⟩) (e : Fin m) (i : Fin a) (j : Fin b) (l : Fin c)
    (k : Fin N) (hk : k.val = i.val * b + j.val) :
    shapeCast ⟨3, ![m, N, c]⟩ x h (ix3 e k l) = x (ix4 e i j l) :=
  shapeCast_apply x h _ _ (by
    rw [Shape.rowMajor_val_four, Shape.rowMajor_val_three]
    show ((e.val * a + i.val) * b + j.val) * c + l.val = (e.val * N + k.val) * c + l.val
    rw [hk, hN, Nat.add_mul (e.val * a), Nat.mul_assoc e.val, Nat.add_assoc])

end reads

/-- A sum of two arrays at the ideal instance, read at an index. -/
theorem addf_apply {s : Shape} {φ : FTy} (A B : FVec Ideal s φ) (j : s.Idx) : addf A B j = A j + B j := rfl

/-- Narrowing a sum to bf16 at the ideal instance changes nothing. -/
theorem truncf_addf_apply {s : Shape} (A B : FVec Ideal s .f32) (hb : FTy.bits .bf16 < FTy.bits .f32) (j : s.Idx) :
    truncf .bf16 (addf A B) hb j = A j + B j := rfl

/-- The flattened head index as a sum. -/
theorem head_val (q : Fin 7) (o : Fin 5) : (head q o).val = q.val * 5 + o.val := by
  show 5 * q.val + o.val = q.val * 5 + o.val
  omega

theorem w1tot_apply (W1 : FVec Ideal S256x36 .f32) (W1a : FVec Ideal S12x256x36 .f32) (j : Fin 12) (h : Fin 256) (i : Fin 35) :
    w1tot (F := Ideal) W1 W1a (ix3 j h i) = W1 (ix2 h i.castSucc) + W1a (ix3 j h i.castSucc) := by
  unfold w1tot
  refine (truncf_addf_apply _ _ _ _).trans ?_
  refine congrArg₂ (· + ·) ?_ ?_
  · refine (bcast_1ab_mab_apply _ _ j h i).trans ?_
    refine (bcast_ab_1ab_apply _ _ _ h i).trans ?_
    exact slice2_axis1_apply 0 _ _ h i i.castSucc (by simp)
  · exact slice3_axis2_apply 0 _ _ j h i i.castSucc (by simp)

theorem b1tot_apply (b1 : FVec Ideal S256 .f32) (W1 : FVec Ideal S256x36 .f32) (b1a : FVec Ideal S12x256 .f32) (W1a : FVec Ideal S12x256x36 .f32)
    (j : Fin 12) (z : Fin 1) (h : Fin 256) :
    b1tot (F := Ideal) b1 W1 b1a W1a (ix3 j z h)
      = (b1 (ix1 h) + W1 (ix2 h (Fin.last 35))) + (b1a (ix2 j h) + W1a (ix3 j h (Fin.last 35))) := by
  unfold b1tot
  refine (addf_apply _ _ _).trans ?_
  refine congrArg₂ (· + ·) ?_ ?_
  · refine (bcast_1ab_mab_apply _ _ j z h).trans ?_
    refine (bcast_ab_1ab_apply _ _ _ z h).trans ?_
    refine (shapeCast_a_1a_apply _ _ z h).trans ?_
    refine (addf_apply _ _ _).trans ?_
    refine congrArg (b1 (ix1 h) + ·) ?_
    refine (shapeCast_a1_a_apply _ _ h).trans ?_
    exact slice2_axis1_apply 35 W1 _ h (0 : Fin 1) (Fin.last 35) (by simp)
  · refine (bcast_mb_m1b_apply _ _ j z h).trans ?_
    refine (addf_apply _ _ _).trans ?_
    refine congrArg (b1a (ix2 j h) + ·) ?_
    refine (shapeCast_ab1_ab_apply _ _ j h).trans ?_
    exact slice3_axis2_apply 35 W1a _ j h (0 : Fin 1) (Fin.last 35) (by simp)

theorem w2tot_apply (W2 : FVec Ideal S256x257 .f32) (W2a : FVec Ideal S12x256x257 .f32) (j : Fin 12) (g : Fin 256) (h : Fin 256) :
    w2tot (F := Ideal) W2 W2a (ix3 j g h) = W2 (ix2 g h.castSucc) + W2a (ix3 j g h.castSucc) := by
  unfold w2tot
  refine (truncf_addf_apply _ _ _ _).trans ?_
  refine congrArg₂ (· + ·) ?_ ?_
  · refine (bcast_1ab_mab_apply _ _ j g h).trans ?_
    refine (bcast_ab_1ab_apply _ _ _ g h).trans ?_
    exact slice2_axis1_apply 0 _ _ g h h.castSucc (by simp)
  · exact slice3_axis2_apply 0 _ _ j g h h.castSucc (by simp)

theorem b2tot_apply (b2 : FVec Ideal S256 .f32) (W2 : FVec Ideal S256x257 .f32) (b2a : FVec Ideal S12x256 .f32) (W2a : FVec Ideal S12x256x257 .f32)
    (j : Fin 12) (z : Fin 1) (g : Fin 256) :
    b2tot (F := Ideal) b2 W2 b2a W2a (ix3 j z g)
      = (b2 (ix1 g) + W2 (ix2 g (Fin.last 256))) + (b2a (ix2 j g) + W2a (ix3 j g (Fin.last 256))) := by
  unfold b2tot
  refine (addf_apply _ _ _).trans ?_
  refine congrArg₂ (· + ·) ?_ ?_
  · refine (bcast_1ab_mab_apply _ _ j z g).trans ?_
    refine (bcast_ab_1ab_apply _ _ _ z g).trans ?_
    refine (shapeCast_a_1a_apply _ _ z g).trans ?_
    refine (addf_apply _ _ _).trans ?_
    refine congrArg (b2 (ix1 g) + ·) ?_
    refine (shapeCast_a1_a_apply _ _ g).trans ?_
    exact slice2_axis1_apply 256 W2 _ g (0 : Fin 1) (Fin.last 256) (by simp)
  · refine (bcast_mb_m1b_apply _ _ j z g).trans ?_
    refine (addf_apply _ _ _).trans ?_
    refine congrArg (b2a (ix2 j g) + ·) ?_
    refine (shapeCast_ab1_ab_apply _ _ j g).trans ?_
    exact slice3_axis2_apply 256 W2a _ j g (0 : Fin 1) (Fin.last 256) (by simp)

theorem vtot_apply (V : FVec Ideal S7x5x257 .f32) (Va : FVec Ideal S12x7x5x257 .f32) (j : Fin 12) (q : Fin 7) (o : Fin 5) (g : Fin 256) :
    vtot (F := Ideal) V Va (ix3 j (head q o) g) = V (ix3 q o g.castSucc) + Va (ix4 j q o g.castSucc) := by
  unfold vtot
  refine (truncf_addf_apply _ _ _ _).trans ?_
  refine congrArg₂ (· + ·) ?_ ?_
  · refine (bcast_1ab_mab_apply _ _ j (head q o) g).trans ?_
    refine (bcast_ab_1ab_apply _ _ _ (head q o) g).trans ?_
    refine (slice2_axis1_apply 0 _ _ (head q o) g g.castSucc (by simp)).trans ?_
    exact shapeCast_abc_Nc_apply V _ q o g.castSucc (head q o) (head_val q o)
  · refine (slice3_axis2_apply 0 _ _ j (head q o) g g.castSucc (by simp)).trans ?_
    exact shapeCast_mabc_mNc_apply rfl Va _ j q o g.castSucc (head q o) (head_val q o)

theorem bvtot_apply (bV : FVec Ideal S7x5 .f32) (V : FVec Ideal S7x5x257 .f32) (bVa : FVec Ideal S12x7x5 .f32) (Va : FVec Ideal S12x7x5x257 .f32)
    (j : Fin 12) (z : Fin 1) (q : Fin 7) (o : Fin 5) :
    bvtot (F := Ideal) bV V bVa Va (ix3 j z (head q o))
      = (bV (ix2 q o) + V (ix3 q o (Fin.last 256))) + (bVa (ix3 j q o) + Va (ix4 j q o (Fin.last 256))) := by
  unfold bvtot
  refine (addf_apply _ _ _).trans ?_
  refine congrArg₂ (· + ·) ?_ ?_
  · refine (bcast_1ab_mab_apply _ _ j z (head q o)).trans ?_
    refine (bcast_ab_1ab_apply _ _ _ z (head q o)).trans ?_
    refine (shapeCast_a_1a_apply _ _ z (head q o)).trans ?_
    refine (addf_apply _ _ _).trans ?_
    refine congrArg₂ (· + ·) ?_ ?_
    · exact shapeCast_ab_N_apply bV _ q o (head q o) (head_val q o)
    · refine (shapeCast_a1_a_apply _ _ (head q o)).trans ?_
      refine (slice2_axis1_apply 256 _ _ (head q o) (0 : Fin 1) (Fin.last 256) (by simp)).trans ?_
      exact shapeCast_abc_Nc_apply V _ q o (Fin.last 256) (head q o) (head_val q o)
  · refine (bcast_mb_m1b_apply _ _ j z (head q o)).trans ?_
    refine (addf_apply _ _ _).trans ?_
    refine congrArg₂ (· + ·) ?_ ?_
    · exact shapeCast_mab_mN_apply rfl bVa _ j q o (head q o) (head_val q o)
    · refine (shapeCast_ab1_ab_apply _ _ j (head q o)).trans ?_
      refine (slice3_axis2_apply 256 _ _ j (head q o) (0 : Fin 1) (Fin.last 256) (by simp)).trans ?_
      exact shapeCast_mabc_mNc_apply rfl Va _ j q o (Fin.last 256) (head q o) (head_val q o)

end Cert.KernelIdeal.WeightReads

end
-- ==== Proof.HostDefs.lean ====
/-
  The host's index computation that groups rows by judge, as functions of the judge ids (and of the rows).

  Each definition is one named value of the host program before the launch, written with the program's own
  operations in the program's order, so that the program's buffers are these functions of its arguments:
  the clipped ids; the stable sorting permutation `order` and the sorted ids; the per-judge counts (a
  scatter-add of ones); blocks per judge `⌈count / 1024⌉` (a floor division of `count + 1023`); the first block and
  the first sorted position of each judge (running sums, shifted by one); the slot of each sorted position; the
  source row of each slot (a scatter of `order` into a table filled with the out-of-range row 32768); the rows
  laid out by slot (a gather from the rows followed by one zero row); the judge that owns each block (how many
  first-blocks are at or before it, less one, clipped); and the slot of each original row (a scatter of the slots
  through `order`).
-/
import proofs.«423243_j44985487458585_3_alg».proof.Proof.Gen.KernelIdeal

noncomputable section

namespace Cert.KernelIdeal.HostDefs

open Cert.KernelIdeal Cert.KernelIdeal.Gen Idealize.ShloMosaic

variable {F : FTy → Type} [FloatOps F]

/-- A vector of ids as start indices `[n, 1]`, negative ids wrapped by the axis length `len` first (numpy indexing). -/
def wrapIdx32768 (len : BitVec 32) (v : IVec S32768 32) : IVec S32768x1 32 :=
  broadcastInDim S32768x1 ![0] bcast_S32768_S32768x1_0
    (select (cmpi .slt v (broadcastInDim S32768 ![] bcast_S_S32768 (constantI S_ 32 0#32)))
      (addi v (broadcastInDim S32768 ![] bcast_S_S32768 (constantI S_ 32 len))) v)

/-- The ids clipped into `[0, 11]`. -/
def idsC (ids : IVec S32768 32) : IVec S32768 32 :=
  minsi (broadcastInDim S32768 ![] bcast_S_S32768 (id (constantI S_ 32 11#32)))
    (maxsi (broadcastInDim S32768 ![] bcast_S_S32768 (id (constantI S_ 32 0#32))) ids)

/-- The stable sorting permutation of the clipped ids: position `k` holds the row that sorts to `k`. -/
def order (ids : IVec S32768 32) : IVec S32768 32 :=
  (Host.sort2 S32768 0 comparator_i32_i32_d0 (idsC ids) (iotaInDim S32768 32 0)).2

/-- The ids in sorted order. -/
def sortedIds (ids : IVec S32768 32) : IVec S32768 32 :=
  Host.gather gather_S32768_S32768x1_S32768_n_0_n_n_0_1_1 (idsC ids) (wrapIdx32768 32768#32 (order ids))

/-- How many rows each judge has. -/
def counts (ids : IVec S32768 32) : IVec S12 32 :=
  Host.scatter scatter_S12_S32768x1_S32768_n_0_0_1 IntOp.addi
    (broadcastInDim S12 ![] bcast_S_S12 (constantI S_ 32 0#32))
    (wrapIdx32768 12#32 (maxsi (broadcastInDim S32768 ![] bcast_S_S32768 (id (constantI S_ 32 0#32))) (idsC ids)))
    (broadcastInDim S32768 ![] bcast_S_S32768 (constantI S_ 32 1#32))

/-- `count + 1024 − 1`. -/
def countsUp (ids : IVec S32768 32) : IVec S12 32 :=
  subi (addi (counts ids) (broadcastInDim S12 ![] bcast_S_S12 (constantI S_ 32 1024#32)))
    (broadcastInDim S12 ![] bcast_S_S12 (constantI S_ 32 1#32))

/-- Floor division by 1024 as numpy spells it: the truncated quotient, less one where the signs differ and the
    remainder is not zero. -/
def floorDiv1024 (v : IVec S12 32) : IVec S12 32 :=
  select
    (andi (cmpi .ne (signi v) (broadcastInDim S12 ![] bcast_S_S12 (signi (id (constantI S_ 32 1024#32)))))
      (cmpi .ne (Host.remsi v (broadcastInDim S12 ![] bcast_S_S12 (id (constantI S_ 32 1024#32))))
        (broadcastInDim S12 ![] bcast_S_S12 (constantI S_ 32 0#32))))
    (subi (Host.divsi v (broadcastInDim S12 ![] bcast_S_S12 (id (constantI S_ 32 1024#32))))
      (broadcastInDim S12 ![] bcast_S_S12 (constantI S_ 32 1#32)))
    (Host.divsi v (broadcastInDim S12 ![] bcast_S_S12 (id (constantI S_ 32 1024#32))))

/-- Blocks per judge. -/
def blockCounts (ids : IVec S32768 32) : IVec S12 32 := floorDiv1024 (countsUp ids)

/-- The running sum of a vector of 12 words. -/
def cumsum12 (v : IVec S12 32) : IVec S12 32 :=
  Host.reduceWindow IntOp.addi ![12] ![1] ![11] ![0] v
    (broadcastInDim S_ ![] bcast_S_S_ (constantI S_ 32 0#32)) reduceWindows_S12_S12_w12s1p11_0 h_S_

/-- The running sum shifted by one: entry `j` is the sum of the entries before `j`. -/
def shiftedCumsum12 (v : IVec S12 32) : IVec S12 32 :=
  extractStridedSlice S12 ![0]
    (concatenate S13 0 [⟨S1, broadcastInDim S1 ![] bcast_S_S1 (constantI S_ 32 0#32)⟩, ⟨S12, cumsum12 v⟩] concatenates_S1_S12_S13_d0)
    slices_S13_S12_0

/-- The first block of each judge. -/
def blockOffsets (ids : IVec S32768 32) : IVec S12 32 := shiftedCumsum12 (blockCounts ids)

/-- The first slot of each judge. -/
def rowOffsets (ids : IVec S32768 32) : IVec S12 32 :=
  muli (blockOffsets ids) (broadcastInDim S12 ![] bcast_S_S12 (constantI S_ 32 1024#32))

/-- The first sorted position of each judge. -/
def groupStart (ids : IVec S32768 32) : IVec S12 32 := shiftedCumsum12 (counts ids)

/-- The slot of each sorted position: its judge's first slot plus its rank inside the judge's group. -/
def destSlot (ids : IVec S32768 32) : IVec S32768 32 :=
  addi (Host.gather gather_S12_S32768x1_S32768_n_0_n_n_0_1_1 (rowOffsets ids) (wrapIdx32768 12#32 (sortedIds ids)))
    (subi (iotaInDim S32768 32 0)
      (Host.gather gather_S12_S32768x1_S32768_n_0_n_n_0_1_1 (groupStart ids) (wrapIdx32768 12#32 (sortedIds ids))))

/-- The source row of each slot; 32768 (the appended zero row) where no row is sent. -/
def srcIndex (ids : IVec S32768 32) : IVec S45056 32 :=
  Host.scatter scatter_S45056_S32768x1_S32768_n_0_0_1 (fun _ b => b)
    (broadcastInDim S45056 ![] bcast_S_S45056 (constantI S_ 32 32768#32))
    (wrapIdx32768 45056#32 (destSlot ids)) (order ids)

/-- The rows laid out by slot. -/
def paddedX (x : FVec F S32768x35 .f32) (ids : IVec S32768 32) : FVec F S45056x35 .f32 :=
  Host.gather gather_S32769x35_S45056x1_S45056x35_1_0_n_n_0_1_135
    (concatenate S32769x35 0 [⟨S32768x35, x⟩, ⟨S1x35, broadcastInDim S1x35 ![] bcast_S_S1x35 (constant S_ .f32 0x00000000#32)⟩] concatenates_S32768x35_S1x35_S32769x35_d0)
    (broadcastInDim S45056x1 ![0] bcast_S45056_S45056x1_0
      (select (cmpi .slt (srcIndex ids) (broadcastInDim S45056 ![] bcast_S_S45056 (constantI S_ 32 0#32)))
        (addi (srcIndex ids) (broadcastInDim S45056 ![] bcast_S_S45056 (constantI S_ 32 32769#32))) (srcIndex ids)))

/-- The judge that owns each block: the number of judges whose first block is at or before it, less one, clipped. -/
def blockExpert (ids : IVec S32768 32) : IVec S44 32 :=
  minsi (broadcastInDim S44 ![] bcast_S_S44 (id (constantI S_ 32 11#32)))
    (maxsi (broadcastInDim S44 ![] bcast_S_S44 (id (constantI S_ 32 0#32)))
      (subi
        (Host.reduce IntOp.addi
          (extui 32 (cmpi .sge
            (broadcastInDim S44x12 ![0, 1] bcast_S44x1_S44x12_0_1 (broadcastInDim S44x1 ![0] bcast_S44_S44x1_0 (iotaInDim S44 32 0)))
            (broadcastInDim S44x12 ![0, 1] bcast_S1x12_S44x12_0_1 (broadcastInDim S1x12 ![1] bcast_S12_S1x12_1 (blockOffsets ids)))) natLt_1_32)
          (constantI S_ 32 0#32) reducesTo_S44x12_S44_d1 h_S_)
        (broadcastInDim S44 ![] bcast_S_S44 (constantI S_ 32 1#32))))

/-- The slot of each original row. -/
def destIndex (ids : IVec S32768 32) : IVec S32768 32 :=
  Host.scatter scatter_S32768_S32768x1_S32768_n_0_0_1 (fun _ b => b)
    (broadcastInDim S32768 ![] bcast_S_S32768 (constantI S_ 32 0#32))
    (wrapIdx32768 32768#32 (order ids)) (destSlot ids)

end Cert.KernelIdeal.HostDefs

end
-- ==== Proof.HostStages.lean ====
/-
  The program's buffers when the region is entered are the host's index computation and pre-summed weights of its
  arguments: the table of block owners, the rows laid out by slot, the slot of each row, and the six per-judge
  parameter arrays the region's windows read.
-/
import proofs.«423243_j44985487458585_3_alg».proof.Proof.Gen.KernelIdeal.Frame
import proofs.«423243_j44985487458585_3_alg».proof.Proof.HostDefs
import proofs.«423243_j44985487458585_3_alg».proof.Proof.HostWeights
import proofs.«423243_j44985487458585_3_alg».proof.Proof.LibTypedRef
import Idealize.ShloMosaic.Lib.StableHlo.Run

set_option maxRecDepth 16384

noncomputable section

namespace Cert.KernelIdeal.HostStages

open Cert.KernelIdeal Cert.KernelIdeal.Gen Cert.KernelIdeal.HostDefs Cert.KernelIdeal.HostWeights
open Idealize.ShloMosaic Idealize.ShloMosaic.TcCoe Idealize.SL.Sem Idealize.ShloMosaic.StableHlo

variable {F : FTy → Type} [FloatOps F]
variable (m : (ℓ : Loc nD τ sig) → Buf (Elt F) ℓ)

/-- Reads a buffer at region entry as the composition of the operations that produced it. -/
local macro "read_entry" : tactic => `(tactic| (
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  try simp only [TRef.ofBuf_toBuf, TRef.toBuf_ofBuf, id]))

/-- A word followed by twelve words. -/
def cat13 (a : IVec S1 32) (b : IVec S12 32) : IVec S13 32 :=
  concatenate S13 0 [⟨S1, a⟩, ⟨S12, b⟩] concatenates_S1_S12_S13_d0

theorem cat13_def (a : IVec S1 32) (b : IVec S12 32) :
    concatenate S13 0 [⟨S1, a⟩, ⟨S12, b⟩] concatenates_S1_S12_S13_d0 = cat13 a b := rfl

/-- The rows followed by one more row. -/
def catRows (a : FVec F S32768x35 .f32) (b : FVec F S1x35 .f32) : FVec F S32769x35 .f32 :=
  concatenate S32769x35 0 [⟨S32768x35, a⟩, ⟨S1x35, b⟩] concatenates_S32768x35_S1x35_S32769x35_d0

theorem catRows_def (a : FVec F S32768x35 .f32) (b : FVec F S1x35 .f32) :
    concatenate S32769x35 0 [⟨S32768x35, a⟩, ⟨S1x35, b⟩] concatenates_S32768x35_S1x35_S32769x35_d0 = catRows a b := rfl

/-- Reads a buffer at region entry as the composition of the operations that produced it, each two-piece
    concatenation taken as a function of its two pieces, and compares it with the named functions unfolded. -/
local macro "read_index" : tactic => `(tactic| (
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  simp (disch := decide) only [StableHlo.after_cons, StableHlo.after_nil,
      StableHlo.nullary_result', StableHlo.unary_result', StableHlo.binary_result', StableHlo.ternary_result', StableHlo.quaternary_result', StableHlo.reshape_result',
      StableHlo.nullary_result_ne', StableHlo.unary_result_ne', StableHlo.binary_result_ne', StableHlo.ternary_result_ne', StableHlo.quaternary_result_ne', StableHlo.reshape_result_ne', cat13_def, catRows_def, TRef.ofBuf_toBuf, TRef.toBuf_ofBuf, id, TRef.ofBuf, TRef.toBuf, cast_eq]
  simp only [blockExpert, paddedX, destIndex, srcIndex, destSlot, groupStart, rowOffsets, blockOffsets, shiftedCumsum12, cumsum12, blockCounts, floorDiv1024, countsUp, counts, sortedIds, order, idsC, wrapIdx32768, cat13_def, catRows_def, id]))

set_option maxHeartbeats 4000000 in
theorem V_blockExpert (c : Dev nD) : V m c main_v133 = blockExpert (m ((c : Thread nD τ).loc main_arg1)) := by
  read_index

set_option maxHeartbeats 4000000 in
theorem V_paddedX (c : Dev nD) : V m c main_v122 = paddedX (m ((c : Thread nD τ).loc main_arg0)) (m ((c : Thread nD τ).loc main_arg1)) := by
  read_index

set_option maxHeartbeats 4000000 in
theorem V_destIndex (c : Dev nD) : V m c main_v141 = destIndex (m ((c : Thread nD τ).loc main_arg1)) := by
  read_index

set_option maxHeartbeats 4000000 in
theorem V_w1tot (c : Dev nD) : V m c main_v13 = w1tot (m ((c : Thread nD τ).loc main_arg2)) (m ((c : Thread nD τ).loc main_arg6)) := by
  read_entry
  rfl

set_option maxHeartbeats 4000000 in
theorem V_b1tot (c : Dev nD) : V m c main_v17 = b1tot (m ((c : Thread nD τ).loc main_arg3)) (m ((c : Thread nD τ).loc main_arg2)) (m ((c : Thread nD τ).loc main_arg7)) (m ((c : Thread nD τ).loc main_arg6)) := by
  read_entry
  rfl

set_option maxHeartbeats 4000000 in
theorem V_w2tot (c : Dev nD) : V m c main_v30 = w2tot (m ((c : Thread nD τ).loc main_arg4)) (m ((c : Thread nD τ).loc main_arg8)) := by
  read_entry
  rfl

set_option maxHeartbeats 4000000 in
theorem V_b2tot (c : Dev nD) : V m c main_v34 = b2tot (m ((c : Thread nD τ).loc main_arg5)) (m ((c : Thread nD τ).loc main_arg4)) (m ((c : Thread nD τ).loc main_arg9)) (m ((c : Thread nD τ).loc main_arg8)) := by
  read_entry
  rfl

set_option maxHeartbeats 4000000 in
theorem V_vtot (c : Dev nD) : V m c main_v51 = vtot (m ((c : Thread nD τ).loc main_arg10)) (m ((c : Thread nD τ).loc main_arg12)) := by
  read_entry
  rfl

set_option maxHeartbeats 4000000 in
theorem V_bvtot (c : Dev nD) : V m c main_v55 = bvtot (m ((c : Thread nD τ).loc main_arg11)) (m ((c : Thread nD τ).loc main_arg10)) (m ((c : Thread nD τ).loc main_arg13)) (m ((c : Thread nD τ).loc main_arg12)) := by
  read_entry
  rfl

end Cert.KernelIdeal.HostStages

end
-- ==== Proof.Routing.lean ====
/-
  Grouping rows by a key, with each group padded up to whole blocks: where sorted position `k` lands.

  `B` rows carry keys `key b`. A bijection `σ` of the positions lists the rows with keys nondecreasing.
  `cnt j` rows carry key `j`; `gstart j` rows carry a smaller key; key `j` needs `bcnt j = ⌈cnt j / T⌉`
  blocks of `T` slots, and its blocks start at block `boff j`, the number of blocks of the smaller keys.
  Sorted position `k`, of key `j = key (σ k)`, is sent to slot `T · boff j + (k − gstart j)`.

  Because the keys are nondecreasing along `σ`, the positions of key `< j` are exactly `[0, gstart j)`, so
  `k − gstart j` is the rank of `k` inside its group and is `< cnt j`. Hence the slot lies in one of the
  blocks of key `j`, distinct positions get distinct slots, every slot is below `T · boff J`, and the
  block of the slot has exactly `j + 1` block starts `boff i`, `i < J`, at or before it.
-/
import Mathlib.Algebra.BigOperators.Fin
import Mathlib.Algebra.Order.BigOperators.Group.Finset
import Mathlib.Data.Fintype.Card
import Mathlib.Order.Interval.Finset.Nat

namespace Cert.Moe.Routing

open Finset

variable {B : ℕ}

/-- How many rows carry key `j`. -/
def cnt (key : Fin B → ℕ) (j : ℕ) : ℕ := (univ.filter fun b : Fin B => key b = j).card

/-- How many rows carry a key below `j`. -/
def gstart (key : Fin B → ℕ) (j : ℕ) : ℕ := ∑ i ∈ range j, cnt key i

/-- Blocks of `T` slots that key `j` needs. -/
def bcnt (T : ℕ) (key : Fin B → ℕ) (j : ℕ) : ℕ := (cnt key j + (T - 1)) / T

/-- The first block of key `j`: the blocks of all smaller keys. -/
def boff (T : ℕ) (key : Fin B → ℕ) (j : ℕ) : ℕ := ∑ i ∈ range j, bcnt T key i

/-- The slot of sorted position `k`. -/
def slot (T : ℕ) (key : Fin B → ℕ) (σ : Fin B → Fin B) (k : Fin B) : ℕ :=
  T * boff T key (key (σ k)) + (k.val - gstart key (key (σ k)))

theorem cnt_le (key : Fin B → ℕ) (j : ℕ) : cnt key j ≤ B := by
  unfold cnt
  calc (univ.filter fun b : Fin B => key b = j).card
      ≤ (univ : Finset (Fin B)).card := card_le_card (filter_subset _ _)
    _ = B := by simp

/-- The rows of key below `j`, counted key by key. -/
theorem card_key_lt (key : Fin B → ℕ) (j : ℕ) :
    (univ.filter fun b : Fin B => key b < j).card = gstart key j := by
  unfold gstart cnt
  rw [card_eq_sum_card_fiberwise (f := key) (t := range j)]
  · apply sum_congr rfl
    intro i hi
    congr 1
    ext b
    simp only [mem_filter, mem_univ, true_and]
    constructor
    · rintro ⟨_, h⟩
      exact h
    · intro h
      exact ⟨by rw [h]; exact mem_range.1 hi, h⟩
  · intro x hx
    have hx' : key x < j := by simpa using hx
    simpa using hx'

theorem gstart_total (key : Fin B → ℕ) (J : ℕ) (hJ : ∀ b, key b < J) : gstart key J = B := by
  rw [← card_key_lt]
  have : (univ.filter fun b : Fin B => key b < J) = univ := by
    ext b
    simp [hJ b]
  rw [this]
  simp

theorem gstart_le_total (key : Fin B → ℕ) (j : ℕ) : gstart key j ≤ B := by
  rw [← card_key_lt]
  calc (univ.filter fun b : Fin B => key b < j).card
      ≤ (univ : Finset (Fin B)).card := card_le_card (filter_subset _ _)
    _ = B := by simp

theorem boff_mono (T : ℕ) (key : Fin B → ℕ) {j j' : ℕ} (h : j ≤ j') : boff T key j ≤ boff T key j' := by
  unfold boff
  apply sum_le_sum_of_subset
  intro i hi
  exact mem_range.2 (lt_of_lt_of_le (mem_range.1 hi) h)

theorem boff_succ (T : ℕ) (key : Fin B → ℕ) (j : ℕ) : boff T key (j + 1) = boff T key j + bcnt T key j := by
  unfold boff
  rw [sum_range_succ]

theorem gstart_succ (key : Fin B → ℕ) (j : ℕ) : gstart key (j + 1) = gstart key j + cnt key j := by
  unfold gstart
  rw [sum_range_succ]

/-- Rounding `c` up to a whole number of blocks does not lose rows. -/
theorem le_mul_ceil {T : ℕ} (hT : 0 < T) (c : ℕ) : c ≤ T * ((c + (T - 1)) / T) := by
  have h1 := Nat.div_add_mod (c + (T - 1)) T
  have h2 := Nat.mod_lt (c + (T - 1)) hT
  generalize (c + (T - 1)) / T = q at h1 ⊢
  generalize (c + (T - 1)) % T = m at h1 h2
  generalize T * q = a at h1 ⊢
  omega

/-- All blocks together: at most one partial block per key beyond the rows themselves. -/
theorem boff_le {T : ℕ} (hT : 0 < T) (key : Fin B → ℕ) (J : ℕ) (hJ : ∀ b, key b < J) :
    T * boff T key J ≤ B + J * (T - 1) := by
  have h : T * boff T key J ≤ ∑ i ∈ range J, (cnt key i + (T - 1)) := by
    unfold boff
    rw [mul_sum]
    apply sum_le_sum
    intro i _
    unfold bcnt
    exact Nat.mul_div_le _ _
  rw [sum_add_distrib, sum_const, card_range, smul_eq_mul] at h
  have hg : ∑ i ∈ range J, cnt key i = B := gstart_total key J hJ
  rw [hg] at h
  exact h

section sorted

variable (key : Fin B → ℕ) (σ : Fin B → Fin B) (hσ : Function.Bijective σ)
  (hs : ∀ k k' : Fin B, k ≤ k' → key (σ k) ≤ key (σ k'))

/-- Counting positions through a bijection is counting rows. -/
theorem card_comp_bij (hσ : Function.Bijective σ) (p : Fin B → Prop) [DecidablePred p] :
    (univ.filter fun k' : Fin B => p (σ k')).card = (univ.filter fun b : Fin B => p b).card := by
  apply card_bij (fun a _ => σ a)
  · intro a ha
    simpa using ha
  · intro a _ b _ h
    exact hσ.1 h
  · intro b hb
    obtain ⟨a, rfl⟩ := hσ.2 b
    exact ⟨a, by simpa using hb, rfl⟩

/-- The positions whose key is below `j` number `gstart j`. -/
theorem card_pos_lt (hσ : Function.Bijective σ) (j : ℕ) :
    (univ.filter fun k' : Fin B => key (σ k') < j).card = gstart key j := by
  rw [card_comp_bij σ hσ (fun b => key b < j), card_key_lt]

include hσ hs

/-- The positions of smaller key come first. -/
theorem gstart_le (k : Fin B) : gstart key (key (σ k)) ≤ k.val := by
  rw [← card_pos_lt key σ hσ]
  calc (univ.filter fun k' : Fin B => key (σ k') < key (σ k)).card
      ≤ (range k.val).card := by
        apply card_le_card_of_injOn (fun k' : Fin B => k'.val)
        · intro k' hk'
          have h1 : key (σ k') < key (σ k) := by simpa using hk'
          have h2 : k' < k := by
            by_contra hc
            have := hs k k' (not_lt.1 hc)
            omega
          simpa using h2
        · intro a _ b _ hab
          exact Fin.ext hab
    _ = k.val := card_range _

/-- The rank of `k` inside its group is below the group's size. -/
theorem rank_lt (k : Fin B) : k.val - gstart key (key (σ k)) < cnt key (key (σ k)) := by
  have hle := gstart_le key σ hσ hs k
  have hsucc : k.val + 1 ≤ gstart key (key (σ k) + 1) := by
    rw [← card_pos_lt key σ hσ]
    calc k.val + 1 = (range (k.val + 1)).card := (card_range _).symm
      _ ≤ (univ.filter fun k' : Fin B => key (σ k') < key (σ k) + 1).card := by
        apply card_le_card_of_injOn (fun n : ℕ => if h : n < B then (⟨n, h⟩ : Fin B) else k)
        · intro n hn
          have hn1 : n < k.val + 1 := by simpa using hn
          have hnB : n < B := by have := k.isLt; omega
          have hle' : (⟨n, hnB⟩ : Fin B) ≤ k := by
            show n ≤ k.val
            omega
          have := hs _ _ hle'
          simp only [dif_pos hnB, coe_filter, mem_univ, true_and, Set.mem_setOf_eq]
          omega
        · intro a ha b hb hab
          have ha1 : a < k.val + 1 := by simpa using ha
          have hb1 : b < k.val + 1 := by simpa using hb
          have haB : a < B := by have := k.isLt; omega
          have hbB : b < B := by have := k.isLt; omega
          simp only [dif_pos haB, dif_pos hbB] at hab
          exact Fin.mk.inj hab
  rw [gstart_succ] at hsucc
  omega

/-- The slot lies in a block of its own key. -/
theorem slot_div {T : ℕ} (hT : 0 < T) (k : Fin B) :
    boff T key (key (σ k)) ≤ slot T key σ k / T ∧ slot T key σ k / T < boff T key (key (σ k) + 1) := by
  have hr := rank_lt key σ hσ hs k
  have hc := le_mul_ceil hT (cnt key (key (σ k)))
  have hdiv : slot T key σ k / T
      = boff T key (key (σ k)) + (k.val - gstart key (key (σ k))) / T := by
    unfold slot
    exact Nat.mul_add_div hT _ _
  have hlt : (k.val - gstart key (key (σ k))) / T < bcnt T key (key (σ k)) := by
    unfold bcnt
    rw [Nat.div_lt_iff_lt_mul hT]
    rw [Nat.mul_comm]
    omega
  rw [hdiv, boff_succ]
  generalize (k.val - gstart key (key (σ k))) / T = q at hlt ⊢
  omega

theorem slot_injective {T : ℕ} (hT : 0 < T) : Function.Injective (slot T key σ) := by
  intro k k' h
  have h1 := slot_div key σ hσ hs hT k
  have h2 := slot_div key σ hσ hs hT k'
  rw [h] at h1
  have hkey : key (σ k) = key (σ k') := by
    rcases Nat.lt_trichotomy (key (σ k)) (key (σ k')) with hlt | heq | hgt
    · have := boff_mono T key (show key (σ k) + 1 ≤ key (σ k') by omega)
      omega
    · exact heq
    · have := boff_mono T key (show key (σ k') + 1 ≤ key (σ k) by omega)
      omega
  have g1 := gstart_le key σ hσ hs k
  have g2 := gstart_le key σ hσ hs k'
  unfold slot at h
  rw [hkey] at h g1
  apply Fin.ext
  omega

theorem slot_lt {T : ℕ} (hT : 0 < T) (J : ℕ) (hJ : ∀ b, key b < J) (k : Fin B) :
    slot T key σ k < T * boff T key J := by
  have h1 := (slot_div key σ hσ hs hT k).2
  have h2 := boff_mono T key (show key (σ k) + 1 ≤ J from hJ (σ k))
  have h3 : slot T key σ k / T < boff T key J := lt_of_lt_of_le h1 h2
  rw [Nat.div_lt_iff_lt_mul hT] at h3
  rw [Nat.mul_comm]
  exact h3

/-- The block of the slot has exactly `key + 1` block starts at or before it. -/
theorem expert_count {T : ℕ} (hT : 0 < T) (J : ℕ) (hJ : ∀ b, key b < J) (k : Fin B) :
    ((range J).filter fun j => boff T key j ≤ slot T key σ k / T).card = key (σ k) + 1 := by
  have h1 := slot_div key σ hσ hs hT k
  have : ((range J).filter fun j => boff T key j ≤ slot T key σ k / T) = range (key (σ k) + 1) := by
    ext i
    simp only [mem_filter, mem_range]
    constructor
    · rintro ⟨_, hi⟩
      by_contra hc
      have := boff_mono T key (not_lt.1 hc)
      omega
    · intro hi
      have := boff_mono T key (Nat.le_of_lt_succ hi)
      have := hJ (σ k)
      exact ⟨by omega, by omega⟩
  rw [this, card_range]

end sorted

end Cert.Moe.Routing
-- ==== Proof.LibScatterFold.lean ====
/-
  A scatter read at an index, for the two bodies an index computation uses.

  `Host.scatter d f x idx upd` folds the updates, in row-major order, into the operand: update `j` replaces the
  element at its landing index `d.resultIdx? j idx` (when there is one) by `f` of that element and `upd j`.
  * Body "keep the update" (`.at[idx].set(upd)`): an element on which exactly one update lands ends at that
    update; an element on which none lands keeps the operand's value (for any body).
  * Body integer addition (`.at[idx].add(upd)`): an element ends at the operand's value plus the sum, in
    `BitVec 32`, of the updates that land on it.
-/
import Idealize.ShloMosaic.PureOps.ShapeOps
import Idealize.ShloMosaic.PureOps.Float
import Mathlib.Algebra.BigOperators.Fin
import Mathlib.Data.BitVec

noncomputable section

namespace Cert.Moe.ScatterFold

open Idealize.ShloMosaic

variable {s si u : Shape} {w : Nat} {α : Type}

/-- One step of the fold: update number `n` (in row-major order) replaces the element it lands on. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w)
    (upd : u.Idx → α) :
    Host.scatter d f x idx upd = (List.finRange u.numel).foldl (step d f idx upd) x := rfl

/-- A step on which the update lands on `i`. -/
theorem step_apply_of_lands (d : ScatterDims s si u) (f : α → α → α) (idx : IVec si w) (upd : u.Idx → α)
    (r : s.Idx → α) (n : Fin u.numel) (i : s.Idx) (h : d.resultIdx? (u.rowMajor.symm n) idx = some i) :
    step d f idx upd r n i = f (r i) (upd (u.rowMajor.symm n)) := by
  unfold step
  rw [h]
  simp

/-- A step on which the update does not land on `i`. -/
theorem step_apply_of_not_lands (d : ScatterDims s si u) (f : α → α → α) (idx : IVec si w) (upd : u.Idx → α)
    (r : s.Idx → α) (n : Fin u.numel) (i : s.Idx) (h : d.resultIdx? (u.rowMajor.symm n) idx ≠ some i) :
    step d f idx upd r n i = r i := by
  unfold step
  cases h' : d.resultIdx? (u.rowMajor.symm n) idx with
  | none => rfl
  | some i0 =>
    have hne : i ≠ i0 := fun e => h (by rw [h', e])
    simp [hne]

/-- The fold over any list none of whose members lands on `i` leaves the element. -/
theorem foldl_apply_of_none (d : ScatterDims s si u) (f : α → α → α) (idx : IVec si w) (upd : u.Idx → α)
    (i : s.Idx) (l : List (Fin u.numel)) (r : s.Idx → α)
    (hl : ∀ n ∈ l, d.resultIdx? (u.rowMajor.symm n) idx ≠ some i) :
    l.foldl (step d f idx upd) r i = r i := by
  induction l generalizing r with
  | nil => rfl
  | cons a t ih =>
    rw [List.foldl_cons, ih _ (fun n hn => hl n (List.mem_cons_of_mem _ hn))]
    exact step_apply_of_not_lands d f idx upd r a i (hl a List.mem_cons_self)

/-- The fold, keeping the update, over a list without repetition of which exactly one member lands on `i`. -/
theorem foldl_set_apply_of_unique (d : ScatterDims s si u) (idx : IVec si w) (upd : u.Idx → α)
    (i : s.Idx) (n0 : Fin u.numel) (h0 : d.resultIdx? (u.rowMajor.symm n0) idx = some i)
    (l : List (Fin u.numel)) (r : s.Idx → α) (hnd : l.Nodup) (hmem : n0 ∈ l)
    (huniq : ∀ n ∈ l, d.resultIdx? (u.rowMajor.symm n) idx = some i → n = n0) :
    l.foldl (step d (fun _ b => b) idx upd) r i = upd (u.rowMajor.symm n0) := by
  induction l generalizing r with
  | nil => exact absurd hmem List.not_mem_nil
  | cons a t ih =>
    rw [List.foldl_cons]
    rw [List.nodup_cons] at hnd
    by_cases ha : a = n0
    · subst ha
      rw [foldl_apply_of_none d _ idx upd i t _ (fun n hn hland => by
        have := huniq n (List.mem_cons_of_mem _ hn) hland
        subst this
        exact hnd.1 hn)]
      exact step_apply_of_lands d _ idx upd r a i h0
    · have hmem' : n0 ∈ t := by
        rcases List.mem_cons.1 hmem with e | e
        · exact absurd e.symm ha
        · exact e
      exact ih _ hnd.2 hmem' (fun n hn => huniq n (List.mem_cons_of_mem _ hn))

/-- The fold with integer addition: the element plus the sum of the updates that land on it. -/
theorem foldl_addi_apply (d : ScatterDims s si u) (idx : IVec si w) (upd : IVec u 32)
    (i : s.Idx) (l : List (Fin u.numel)) (r : IVec s 32) :
    l.foldl (step d IntOp.addi idx upd) r i
      = r i + (l.map fun n =>
          if d.resultIdx? (u.rowMajor.symm n) idx = some i then upd (u.rowMajor.symm n) else 0).sum := by
  induction l generalizing r with
  | nil => simp
  | cons a t ih =>
    rw [List.foldl_cons, ih, List.map_cons, List.sum_cons]
    by_cases ha : d.resultIdx? (u.rowMajor.symm a) idx = some i
    · rw [step_apply_of_lands d _ idx upd r a i ha, if_pos ha]
      unfold IntOp.addi
      rw [add_assoc]
    · rw [step_apply_of_not_lands d _ idx upd r a i ha, if_neg ha, zero_add]

/-- No update lands on `i`: the operand's value stays, whatever the body. -/
theorem scatter_apply_of_none (d : ScatterDims s si u) (f : α → α → α) (x : s.Idx → α) (idx : IVec si w)
    (upd : u.Idx → α) (i : s.Idx) (hnone : ∀ j : u.Idx, d.resultIdx? j idx ≠ some i) :
    Host.scatter d f x idx upd i = x i := by
  rw [scatter_eq_foldl]
  exact foldl_apply_of_none d f idx upd i _ x (fun n _ => hnone _)

/-- Exactly one update, `j`, lands on `i`, and the body keeps the update: the element ends at `upd j`. -/
theorem scatter_set_apply_of_unique (d : ScatterDims s si u) (x : s.Idx → α) (idx : IVec si w)
    (upd : u.Idx → α) (i : s.Idx) (j : u.Idx) (hj : d.resultIdx? j idx = some i)
    (huniq : ∀ j' : u.Idx, d.resultIdx? j' idx = some i → j' = j) :
    Host.scatter d (fun _ b => b) x idx upd i = upd j := by
  rw [scatter_eq_foldl]
  have h0 : d.resultIdx? (u.rowMajor.symm (u.rowMajor j)) idx = some i := by
    rw [Equiv.symm_apply_apply]; exact hj
  have := foldl_set_apply_of_unique d idx upd i (u.rowMajor j) h0 (List.finRange u.numel) x
    (List.nodup_finRange _) (List.mem_finRange _)
    (fun n _ hn => by
      have := huniq _ hn
      rw [← this, Equiv.apply_symm_apply])
  rw [this, Equiv.symm_apply_apply]

/-- Integer addition as the body: the operand's value plus the sum of the updates that land on `i`. -/
theorem scatter_addi_apply (d : ScatterDims s si u) (x : IVec s 32) (idx : IVec si w) (upd : IVec u 32) (i : s.Idx) :
    Host.scatter d IntOp.addi x idx upd i
      = x i + ∑ j ∈ Finset.univ.filter (fun j : u.Idx => d.resultIdx? j idx = some i), upd j := by
  rw [scatter_eq_foldl, foldl_addi_apply, ← Fin.sum_univ_def, Finset.sum_filter]
  congr 1
  exact Equiv.sum_comp u.rowMajor.symm (fun j => if d.resultIdx? j idx = some i then upd j else 0)

end Cert.Moe.ScatterFold

end
-- ==== Proof.LibCumsum.lean ====
/-
  A running sum written as a padded window reduction, and a row sum, over 32-bit words.

  `jnp.cumsum` of a vector of `n` words prints as a `reduce_window` by integer addition with window `n`,
  stride 1 and `n − 1` cells of low padding holding the initial value 0: window position `p` of result `j`
  reads the operand at `j + p − (n − 1)` when that is not negative. So result `j` is the sum of the operand's
  entries `0 … j`, in `BitVec 32`. A `reduce` by integer addition from 0 along the last axis of an `[a, b]`
  array is, at row `t`, the sum of the row's entries.
-/
import Idealize.ShloMosaic.PureOps.Contract
import Idealize.ShloMosaic.PureOps.Reduce
import Idealize.ShloMosaic.Lib.ValueIdx
import Mathlib.Algebra.BigOperators.Fin
import Mathlib.Data.BitVec

noncomputable section

namespace Cert.Moe.Cumsum

open Idealize.ShloMosaic Idealize.ShloMosaic.ValueIdx

/-- Reducing the last of two axes keeps the first. -/
private theorem kept_two_one (d : Fin 2 → Nat) : (⟨2, d⟩ : Shape).kept [1] = [0] := by
  show (List.finRange 2).filter (fun c : Fin 2 => decide (c ∉ [(1 : Fin 2)])) = [0]
  decide

/-- A fold of word addition from 0 over a finite set is the sum over it. -/
private theorem fold_addi_eq_sum {ι : Type} (S : Finset ι) (x : ι → BitVec 32) :
    S.fold IntOp.addi (0#32) x = ∑ i ∈ S, x i := by
  induction S using Finset.cons_induction with
  | empty => simp
  | cons a S ha ih => rw [Finset.fold_cons, Finset.sum_cons, ih]; rfl

/-- A rank-1 index is its one coordinate. -/
private def coord1 {n : Nat} : (⟨1, ![n]⟩ : Shape).Idx ≃ Fin n where
  toFun i := i 0
  invFun := ix1
  left_inv i := (eq_ix1 i).symm
  right_inv _ := rfl

/-- A left fold of word addition over a list is the start plus the sum of the list. -/
private theorem foldl_addi_eq_sum {β : Type} (l : List β) (g : β → BitVec 32) (c : BitVec 32) :
    l.foldl (fun r m => IntOp.addi r (g m)) c = c + (l.map g).sum := by
  induction l generalizing c with
  | nil => simp
  | cons m l ih =>
    rw [List.foldl_cons, ih, List.map_cons, List.sum_cons]
    show (c + g m) + _ = c + (g m + _)
    rw [BitVec.add_assoc]

/-- The running sum: result `j` of the padded window reduction is the sum of entries `0 … j`. -/
theorem reduceWindow_cumsum_apply {n : Nat} (hn : 0 < n) (x : IVec ⟨1, ![n]⟩ 32) (init : IVec ⟨0, ![]⟩ 32)
    (hinit : ∀ i, init i = 0#32)
    (h : (⟨1, ![n]⟩ : Shape).ReduceWindows (![n] : Fin 1 → Nat) ![1] ![n - 1] ![0] ⟨1, ![n]⟩)
    (hu : 0 < (⟨0, ![]⟩ : Shape).numel) (j : Fin n) :
    Host.reduceWindow IntOp.addi (![n] : Fin 1 → Nat) ![1] ![n - 1] ![0] x init h hu (ix1 j)
      = ∑ i ∈ Finset.univ.filter (fun i : Fin n => i ≤ j), x (ix1 i) := by
  unfold Host.reduceWindow
  dsimp only
  rw [foldl_addi_eq_sum, hinit, BitVec.zero_add, ← Fin.sum_univ_def,
    ← Equiv.sum_comp (Shape.rowMajor ⟨1, ![n]⟩), ← Equiv.sum_comp (coord1 (n := n)).symm]
  simp only [Equiv.symm_apply_apply]
  -- window position `k` of result `j` reads entry `j + k − (n − 1)` when that is not negative, padding otherwise
  trans ∑ k : Fin n, if n - 1 ≤ j.val + k.val then x (ix1 ⟨j.val + k.val - (n - 1), by omega⟩) else (0 : BitVec 32)
  · refine Finset.sum_congr rfl fun k _ => ?_
    by_cases hc : n - 1 ≤ j.val + k.val
    · rw [if_pos hc, dif_pos]
      · congr 1
        funext a
        match a with
        | ⟨0, _⟩ => exact Fin.ext (by show j.val * 1 + k.val - (n - 1) = j.val + k.val - (n - 1); omega)
      · intro a
        match a with
        | ⟨0, _⟩ =>
          show n - 1 ≤ j.val * 1 + k.val ∧ j.val * 1 + k.val - (n - 1) < n
          omega
    · rw [if_neg hc]
      refine dif_neg fun hin => hc ?_
      have h0 : n - 1 ≤ j.val * 1 + k.val := (hin 0).1
      omega
  -- the positions that read an entry correspond one to one with the entries `0 … j`
  · rw [← Finset.sum_filter]
    refine Finset.sum_nbij' (fun k : Fin n => (⟨j.val + k.val - (n - 1), by omega⟩ : Fin n))
      (fun i : Fin n => (⟨min (i.val + (n - 1) - j.val) (n - 1), by omega⟩ : Fin n)) ?_ ?_ ?_ ?_ ?_
    · intro k hk
      have hk' : n - 1 ≤ j.val + k.val := (Finset.mem_filter.1 hk).2
      refine Finset.mem_filter.2 ⟨Finset.mem_univ _, Fin.le_def.2 ?_⟩
      show j.val + k.val - (n - 1) ≤ j.val
      omega
    · intro i hi
      have hi' : i.val ≤ j.val := Fin.le_def.1 (Finset.mem_filter.1 hi).2
      refine Finset.mem_filter.2 ⟨Finset.mem_univ _, ?_⟩
      show n - 1 ≤ j.val + min (i.val + (n - 1) - j.val) (n - 1)
      omega
    · intro k hk
      have hk' : n - 1 ≤ j.val + k.val := (Finset.mem_filter.1 hk).2
      refine Fin.ext ?_
      show min (j.val + k.val - (n - 1) + (n - 1) - j.val) (n - 1) = k.val
      omega
    · intro i hi
      have hi' : i.val ≤ j.val := Fin.le_def.1 (Finset.mem_filter.1 hi).2
      refine Fin.ext ?_
      show j.val + min (i.val + (n - 1) - j.val) (n - 1) - (n - 1) = i.val
      omega
    · intro k _; rfl

/-- The row sum: a reduce by integer addition from 0 along the last axis of `[a, b]`, at row `t`. -/
theorem reduce_addi_rows_apply {a b : Nat} (x : IVec ⟨2, ![a, b]⟩ 32) (init : IVec ⟨0, ![]⟩ 32)
    (hinit : ∀ i, init i = 0#32)
    (h : (⟨2, ![a, b]⟩ : Shape).ReducesTo [1] ⟨1, ![a]⟩) (hu : 0 < (⟨0, ![]⟩ : Shape).numel) (t : Fin a) :
    Host.reduce IntOp.addi x init h hu (ix1 t) = ∑ k : Fin b, x (ix2 t k) := by
  rw [Host.reduce_eq_fold, hinit, fold_addi_eq_sum]
  have hd : ∀ i : (⟨2, ![a, b]⟩ : Shape).Idx, (h.drop i ⟨0, Nat.one_pos⟩ : Nat) = i 0 := fun i =>
    h.drop_apply_val_of_eq i ⟨0, Nat.one_pos⟩ 0 (by simp only [kept_two_one]; exact Nat.one_pos)
      (by simp only [kept_two_one]; rfl)
  refine Finset.sum_nbij' (fun i => i 1) (fun k => ix2 t k) ?_ ?_ ?_ ?_ ?_
  · intro i _; exact Finset.mem_univ _
  · intro k _
    refine Finset.mem_filter.2 ⟨Finset.mem_univ _, ?_⟩
    funext d
    match d with
    | ⟨0, _⟩ => exact Fin.ext (hd _)
  · intro i hi
    have hj := (Finset.mem_filter.1 hi).2
    have h0 : (i 0 : Nat) = t := by rw [← hd i, hj]
    funext d
    match d with
    | ⟨0, _⟩ => exact (Fin.ext h0).symm
    | ⟨1, _⟩ => rfl
  · intro k _; rfl
  · intro i hi
    have hj := (Finset.mem_filter.1 hi).2
    have h0 : (i 0 : Nat) = t := by rw [← hd i, hj]
    congr 1
    funext d
    match d with
    | ⟨0, _⟩ => exact Fin.ext h0
    | ⟨1, _⟩ => rfl

/-- No carry leaves a sum of words whose values' sum fits: by induction on the index set, each partial sum being
    below the whole. -/
private theorem toNat_sum_aux {ι : Type} (A : Finset ι) (f : ι → BitVec 32) (hlt : ∑ k ∈ A, (f k).toNat < 2 ^ 32) :
    (∑ k ∈ A, f k).toNat = ∑ k ∈ A, (f k).toNat := by
  classical
  induction A using Finset.induction_on with
  | empty => simp
  | insert a S ha ih =>
    rw [Finset.sum_insert ha] at hlt ⊢
    rw [Finset.sum_insert ha, BitVec.toNat_add, ih (by omega), Nat.mod_eq_of_lt hlt]

/-- A sum of words that are each 0 or 1 is the count of the ones, as a word, when the count fits. -/
theorem sum_indicator_toNat {ι : Type} [Fintype ι] (p : ι → Prop) [DecidablePred p] (hcard : Fintype.card ι < 2 ^ 32) :
    (∑ k : ι, (if p k then (1#32 : BitVec 32) else 0#32)).toNat = (Finset.univ.filter p).card := by
  have hval : ∀ k : ι, (if p k then (1#32 : BitVec 32) else 0#32).toNat = if p k then 1 else 0 := by
    intro k; split_ifs <;> rfl
  rw [toNat_sum_aux]
  · rw [Finset.card_filter]; exact Finset.sum_congr rfl fun k _ => hval k
  · calc ∑ k : ι, (if p k then (1#32 : BitVec 32) else 0#32).toNat
        ≤ ∑ _k : ι, 1 := Finset.sum_le_sum fun k _ => by rw [hval]; split_ifs <;> omega
      _ = Fintype.card ι := by simp
      _ < 2 ^ 32 := hcard

/-- The value of a sum of words whose values' sum fits in 32 bits is the sum of the values. -/
theorem toNat_sum_of_lt {ι : Type} (A : Finset ι) (f : ι → BitVec 32) (hlt : ∑ k ∈ A, (f k).toNat < 2 ^ 32) :
    (∑ k ∈ A, f k).toNat = ∑ k ∈ A, (f k).toNat :=
  toNat_sum_aux A f hlt

end Cert.Moe.Cumsum

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.HostCounts.lean ====
/-
  The per-judge counts and offsets of the host's grouping, as natural numbers.

  With every id in `[0, 12)`: the scatter-add of ones counts the rows of each judge; the floor division of
  `count + 1023` by 1024 is the number of 1024-row blocks the judge needs; the shifted running sums are the blocks
  and the rows of the judges before it. No word overflows: every count is at most 32768 and every offset at most
  45056. The owner word of block `t` counts the judges whose first block is at or before `t`, less one, clipped.
-/
import proofs.«423243_j44985487458585_3_alg».proof.Proof.HostDefs
import proofs.«423243_j44985487458585_3_alg».proof.Proof.Routing
import proofs.«423243_j44985487458585_3_alg».proof.Proof.LibScatterFold
import proofs.«423243_j44985487458585_3_alg».proof.Proof.LibCumsum
import proofs.«423243_j44985487458585_3_alg».proof.Proof.LibIndexed
import Idealize.ShloMosaic.Lib.ValueIdx
import Idealize.ShloMosaic.Lib.StableHlo.Predicate
import Idealize.ShloMosaic.Lib.Pipeline.Value

noncomputable section

namespace Cert.KernelIdeal.HostCounts

open Cert.KernelIdeal Cert.KernelIdeal.HostDefs Cert.Moe Idealize.ShloMosaic Idealize.ShloMosaic.ValueIdx
open Cert.KernelIdeal.Gen

/-! ### Words -/

/-- A word whose signed value lies in `[0, n)`, `n ≤ 2³¹`, has that value unsigned too. -/
private theorem toNat_of_toInt_range (x : BitVec 32) (n : ℕ) (hn : n ≤ 2 ^ 31) (h0 : 0 ≤ x.toInt)
    (h1 : x.toInt < n) : x.toInt = x.toNat ∧ x.toNat < n := by
  have hc := BitVec.toInt_eq_toNat_cond x
  have hl := x.isLt
  split at hc <;> omega

/-- A word below 2³¹ reads the same signed. -/
private theorem toInt_of_toNat_lt (x : BitVec 32) (h : x.toNat < 2 ^ 31) : x.toInt = x.toNat := by
  have hc := BitVec.toInt_eq_toNat_cond x
  split at hc <;> omega

/-- The larger of 0 and a word that is not negative is the word. -/
private theorem maxsi_zero_eq (x : BitVec 32) (h : x.toNat < 2 ^ 31) : IntOp.maxsi 0#32 x = x := by
  have hx : x.toInt = x.toNat := toInt_of_toNat_lt x h
  have h0 : (0#32 : BitVec 32).toInt = 0 := by decide
  unfold IntOp.maxsi
  rw [if_neg]
  simp only [BitVec.slt, hx, h0, decide_eq_true_eq]
  omega

/-- A word that is not negative is not below 0. -/
private theorem cmpi_slt_zero (x : BitVec 32) (h : 0 ≤ x.toInt) : IntOp.cmpi .slt x 0#32 = 0#1 := by
  have h0 : (0#32 : BitVec 32).toInt = 0 := by decide
  have hf : x.slt 0#32 = false := by
    simp only [BitVec.slt, h0]
    exact decide_eq_false (by omega)
  unfold IntOp.cmpi
  simp only [hf]
  rfl

/-- Clipping into `[0, 11]` leaves a word below 12 alone. -/
private theorem clip_eq (x : BitVec 32) (h : x.toNat < 12) : IntOp.minsi 11#32 (IntOp.maxsi 0#32 x) = x := by
  have hx : x.toInt = x.toNat := toInt_of_toNat_lt x (by omega)
  have h11 : (11#32 : BitVec 32).toInt = 11 := by decide
  rw [maxsi_zero_eq x (by omega)]
  unfold IntOp.minsi
  rw [if_neg]
  simp only [BitVec.slt, hx, h11, decide_eq_true_eq]
  omega

/-- Every id is a judge: `0 ≤ id < 12` as a signed integer. -/
def InRange (ids : IVec S32768 32) : Prop := ∀ b : Fin 32768, 0 ≤ (ids (ix1 b)).toInt ∧ (ids (ix1 b)).toInt < 12

/-- The ids as natural numbers. -/
def key (ids : IVec S32768 32) (b : Fin 32768) : ℕ := (ids (ix1 b)).toNat

variable (ids : IVec S32768 32) (hr : InRange ids)
include hr

theorem key_lt (b : Fin 32768) : key ids b < 12 :=
  (toNat_of_toInt_range _ 12 (by norm_num) (hr b).1 (hr b).2).2

/-- In range, the clip changes nothing. -/
theorem idsC_eq : idsC ids = ids := by
  funext i
  rw [eq_ix1 i]
  exact clip_eq _ (key_lt ids hr (i 0))

omit hr in
/-- A vector of words that are not negative, as start indices: the wrap of negative words changes nothing. -/
private theorem wrapIdx_apply (len : BitVec 32) (v : IVec S32768 32) (e : Fin 32768) (hv : 0 ≤ (v (ix1 e)).toInt) :
    wrapIdx32768 len v (ix2 e (0 : Fin 1)) = v (ix1 e) := by
  unfold wrapIdx32768
  rw [broadcastInDim_apply _ _ _ (ix2 e (0 : Fin 1)) (ix1 e) (by
    intro a
    match a with
    | ⟨0, _⟩ => exact (if_neg (show ¬ (32768 : ℕ) = 1 by norm_num)).symm)]
  show Scalar.select (IntOp.cmpi .slt (v (ix1 e)) 0#32) (IntOp.addi (v (ix1 e)) len) (v (ix1 e)) = v (ix1 e)
  rw [cmpi_slt_zero _ hv, select_zero]

/-- The larger of 0 and the clipped ids is the ids. -/
private theorem maxsi_idsC_eq :
    maxsi (broadcastInDim S32768 ![] bcast_S_S32768 (id (constantI S_ 32 0#32))) (idsC ids) = ids := by
  rw [idsC_eq ids hr]
  funext i
  rw [eq_ix1 i]
  exact maxsi_zero_eq _ (Nat.lt_of_lt_of_le (key_lt ids hr (i 0)) (by norm_num))

theorem counts_toNat (j : Fin 12) : (counts ids (ix1 j)).toNat = Routing.cnt (key ids) j.val := by
  unfold counts
  rw [ScatterFold.scatter_addi_apply, maxsi_idsC_eq ids hr]
  -- update `b` lands on `j` exactly when row `b`'s id is `j`
  have hiff : ∀ b : Fin 32768,
      (scatter_S12_S32768x1_S32768_n_0_0_1.resultIdx? (ix1 b) (wrapIdx32768 12#32 ids) = some (ix1 j))
        ↔ key ids b = j.val := by
    intro b
    have hland := Cert.Rgcn.Lib.scatter_vec_resultIdx (N := 12) (E := 32768) (w := 32)
      scatter_S12_S32768x1_S32768_n_0_0_1 scatter_S12_S32768x1_S32768_n_0_0_1.wf rfl (wrapIdx32768 12#32 ids) b j
    rw [hland, wrapIdx_apply _ _ _ (hr b).1]
    have := toNat_of_toInt_range _ 12 (by norm_num) (hr b).1 (hr b).2
    unfold key
    omega
  trans (∑ b : Fin 32768, if key ids b = j.val then (1#32 : BitVec 32) else 0#32).toNat
  · refine congrArg BitVec.toNat ?_
    rw [show broadcastInDim S12 ![] bcast_S_S12 (constantI S_ 32 0#32) (ix1 j) = 0#32 from rfl, BitVec.zero_add,
      Finset.sum_filter, ← Equiv.sum_comp (idxEquiv1 (n := 32768)).symm]
    exact Finset.sum_congr rfl fun b _ => if_congr (hiff b) rfl rfl
  · rw [Cumsum.sum_indicator_toNat _ (by rw [Fintype.card_fin]; norm_num)]
    rfl

omit hr in
/-- Signed division by 1024 of a word below 2³¹ is the division of its value: no corner, on any unit. -/
private theorem toNat_divsi_1024 (u : ArithUnit) (w : BitVec 32) (hw : w.toNat < 2 ^ 31) :
    (IntOp.divsi u w 1024#32).toNat = w.toNat / 1024 := by
  have hcorner : ¬ IntOp.SDivCorner w 1024#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (1024#32 : BitVec 32).msb = false from by decide,
    BitVec.udiv_eq, BitVec.toNat_udiv, BitVec.toNat_ofNat]

omit hr in
/-- The floor division by 1024 of a positive word below 2³¹: the signs agree, so it is the truncated quotient. -/
private theorem floorDiv1024_toNat (v : IVec S12 32) (j : Fin 12) (h1 : 0 < (v (ix1 j)).toNat)
    (h2 : (v (ix1 j)).toNat < 2 ^ 31) : (floorDiv1024 v (ix1 j)).toNat = (v (ix1 j)).toNat / 1024 := by
  have hne : ¬ v (ix1 j) = 0 := by
    intro h
    rw [h] at h1
    exact absurd h1 (by decide)
  have hm : (v (ix1 j)).msb = false := BitVec.msb_eq_false_iff_two_mul_lt.mpr (by omega)
  have hs : signi v (ix1 j) = 1 := by
    unfold signi
    rw [if_neg hne, hm]
    rfl
  have hcond : (andi (cmpi .ne (signi v) (broadcastInDim S12 ![] bcast_S_S12 (signi (id (constantI S_ 32 1024#32)))))
      (cmpi .ne (Host.remsi v (broadcastInDim S12 ![] bcast_S_S12 (id (constantI S_ 32 1024#32))))
        (broadcastInDim S12 ![] bcast_S_S12 (constantI S_ 32 0#32)))) (ix1 j) = 0#1 := by
    show IntOp.andi (IntOp.cmpi .ne (signi v (ix1 j))
      (if (1024#32 : BitVec 32) = 0 then (0 : BitVec 32) else if (1024#32 : BitVec 32).msb then -1 else 1)) _ = 0#1
    rw [hs, show (if (1024#32 : BitVec 32) = 0 then (0 : BitVec 32) else if (1024#32 : BitVec 32).msb then -1 else 1) = 1
      from by decide, show IntOp.cmpi .ne (1 : BitVec 32) 1 = 0#1 from by decide]
    unfold IntOp.andi
    exact BitVec.zero_and
  unfold floorDiv1024
  rw [select_apply, hcond, select_zero]
  exact toNat_divsi_1024 _ _ h2

theorem blockCounts_toNat (j : Fin 12) : (blockCounts ids (ix1 j)).toNat = Routing.bcnt 1024 (key ids) j.val := by
  have hc := counts_toNat ids hr j
  have hle := Routing.cnt_le (key ids) j.val
  have hv : (countsUp ids (ix1 j)).toNat = (counts ids (ix1 j)).toNat + 1023 := by
    show (IntOp.subi (IntOp.addi (counts ids (ix1 j)) 1024#32) 1#32).toNat = _
    unfold IntOp.subi IntOp.addi
    simp only [BitVec.toNat_sub, BitVec.toNat_add, BitVec.toNat_ofNat]
    omega
  unfold blockCounts
  rw [floorDiv1024_toNat _ j (by omega) (by omega), hv, hc]
  rfl

omit hr in
/-- Summing over the positions before `j` is summing over the naturals below `j`. -/
private theorem sum_fin_lt {M : Type} [AddCommMonoid M] {n : ℕ} (j : Fin n) (f : ℕ → M) :
    ∑ i ∈ Finset.univ.filter (fun i : Fin n => i < j), f i.val = ∑ i ∈ Finset.range j.val, f i := by
  refine Finset.sum_nbij (fun i => i.val) ?_ ?_ ?_ ?_
  · intro i hi
    exact Finset.mem_range.2 (Fin.lt_def.1 (Finset.mem_filter.1 hi).2)
  · intro a _ b _ hab
    exact Fin.ext hab
  · intro i hi
    have hi' : i < j.val := Finset.mem_range.1 (Finset.mem_coe.1 hi)
    exact ⟨⟨i, by omega⟩, Finset.mem_coe.2 (Finset.mem_filter.2 ⟨Finset.mem_univ _, Fin.lt_def.2 hi'⟩), rfl⟩
  · intro i _
    rfl

omit hr in
/-- The shifted running sum at `j` is the sum of the entries before `j`: entry 0 is the prepended zero, entry
    `j + 1` the running sum through `j`. -/
private theorem shiftedCumsum12_apply (v : IVec S12 32) (j : Fin 12) :
    shiftedCumsum12 v (ix1 j) = ∑ i ∈ Finset.univ.filter (fun i : Fin 12 => i < j), v (ix1 i) := by
  unfold shiftedCumsum12
  refine (extractStridedSlice_apply _ _ _ _ (ix1 (⟨j.val, by omega⟩ : Fin 13)) (by
    intro a
    match a with
    | ⟨0, _⟩ => exact (Nat.zero_add _).symm)).trans ?_
  by_cases hj : j.val = 0
  · refine (concatenate_pair_apply_left (t := S13) (s₁ := S1) (s₂ := S12) _ _ _ concatenates_S1_S12_S13_d0
      (ix1 (⟨j.val, by omega⟩ : Fin 13)) rfl (ix1 (0 : Fin 1)) (by
      intro b
      match b with
      | ⟨0, _⟩ => exact hj.symm)).trans ?_
    have hemp : Finset.univ.filter (fun i : Fin 12 => i < j) = ∅ := by
      ext i
      simp only [Finset.mem_filter, Finset.mem_univ, true_and, Finset.notMem_empty, iff_false, Fin.lt_def]
      omega
    rw [hemp, Finset.sum_empty]
    rfl
  · refine (concatenate_pair_apply_right (t := S13) (s₁ := S1) (s₂ := S12) _ _ _ concatenates_S1_S12_S13_d0
      (ix1 (⟨j.val, by omega⟩ : Fin 13)) rfl rfl (ix1 (⟨j.val - 1, by omega⟩ : Fin 12)) (by
      intro b hb
      match b with
      | ⟨0, _⟩ => exact absurd rfl hb) (by
      show j.val - 1 + 1 = j.val
      omega)).trans ?_
    unfold cumsum12
    refine (Cumsum.reduceWindow_cumsum_apply (n := 12) (by norm_num) v _ (fun _ => rfl)
      reduceWindows_S12_S12_w12s1p11_0 h_S_ ⟨j.val - 1, by omega⟩).trans ?_
    refine Finset.sum_congr ?_ (fun _ _ => rfl)
    ext i
    simp only [Finset.mem_filter, Finset.mem_univ, true_and, Fin.le_def, Fin.lt_def]
    omega

/-- All the blocks together are at most 44. -/
private theorem boff_le_44 (j : ℕ) (hj : j ≤ 12) : Routing.boff 1024 (key ids) j ≤ 44 := by
  have h1 := Routing.boff_mono 1024 (key ids) hj
  have h2 := Routing.boff_le (T := 1024) (by norm_num) (key ids) 12 (key_lt ids hr)
  omega

theorem blockOffsets_toNat (j : Fin 12) : (blockOffsets ids (ix1 j)).toNat = Routing.boff 1024 (key ids) j.val := by
  unfold blockOffsets
  rw [shiftedCumsum12_apply]
  have hsum : ∑ i ∈ Finset.univ.filter (fun i : Fin 12 => i < j), (blockCounts ids (ix1 i)).toNat
      = Routing.boff 1024 (key ids) j.val := by
    rw [Finset.sum_congr rfl (fun i _ => blockCounts_toNat ids hr i)]
    exact sum_fin_lt j (fun i => Routing.bcnt 1024 (key ids) i)
  have hb := boff_le_44 ids hr j.val (by omega)
  rw [Cumsum.toNat_sum_of_lt _ _ (by rw [hsum]; omega), hsum]

theorem rowOffsets_toNat (j : Fin 12) : (rowOffsets ids (ix1 j)).toNat = 1024 * Routing.boff 1024 (key ids) j.val := by
  have hb := boff_le_44 ids hr j.val (by omega)
  show (IntOp.muli (blockOffsets ids (ix1 j)) 1024#32).toNat = _
  unfold IntOp.muli
  rw [BitVec.toNat_mul, blockOffsets_toNat ids hr j]
  simp only [BitVec.toNat_ofNat]
  omega

theorem groupStart_toNat (j : Fin 12) : (groupStart ids (ix1 j)).toNat = Routing.gstart (key ids) j.val := by
  unfold groupStart
  rw [shiftedCumsum12_apply]
  have hsum : ∑ i ∈ Finset.univ.filter (fun i : Fin 12 => i < j), (counts ids (ix1 i)).toNat
      = Routing.gstart (key ids) j.val := by
    rw [Finset.sum_congr rfl (fun i _ => counts_toNat ids hr i)]
    exact sum_fin_lt j (fun i => Routing.cnt (key ids) i)
  have hb := Routing.gstart_le_total (key ids) j.val
  rw [Cumsum.toNat_sum_of_lt _ _ (by rw [hsum]; omega), hsum]

omit hr in
/-- Counting the positions of `Fin n` by a property of their value is counting the naturals below `n`. -/
private theorem card_fin_filter {n : ℕ} (p : ℕ → Prop) [DecidablePred p] :
    (Finset.univ.filter fun q : Fin n => p q.val).card = ((Finset.range n).filter p).card := by
  refine Finset.card_nbij (fun q => q.val) ?_ ?_ ?_
  · intro q hq
    exact Finset.mem_filter.2 ⟨Finset.mem_range.2 q.isLt, (Finset.mem_filter.1 hq).2⟩
  · intro a _ b _ hab
    exact Fin.ext hab
  · intro i hi
    have hi' := Finset.mem_filter.1 (Finset.mem_coe.1 hi)
    exact ⟨⟨i, Finset.mem_range.1 hi'.1⟩, Finset.mem_coe.2 (Finset.mem_filter.2 ⟨Finset.mem_univ _, hi'.2⟩), rfl⟩

omit hr in
/-- One less than a count `e + 1 ≤ 12`, clipped into `[0, 11]`, is `e`. -/
private theorem clip_pred_toNat (R : BitVec 32) (e : ℕ) (he : e < 12) (hR : R.toNat = e + 1) :
    (IntOp.minsi 11#32 (IntOp.maxsi 0#32 (IntOp.subi R 1#32))).toNat = e := by
  have hsub : (IntOp.subi R 1#32).toNat = e := by
    unfold IntOp.subi
    simp only [BitVec.toNat_sub, BitVec.toNat_ofNat, hR]
    omega
  rw [clip_eq _ (by rw [hsub]; exact he), hsub]

omit hr in
/-- The two spellings of a rank-1 index agree. -/
private theorem ofFin_eq_ix1 {n : ℕ} (k : Fin n) : Shape.Idx.ofFin k = ix1 k := by
  funext d
  match d with
  | ⟨0, _⟩ => rfl

/-- Block `t` against judge `q`: is the judge's first block at or before `t`. -/
private abbrev ownerMask (ids : IVec S32768 32) : IVec S44x12 1 :=
  cmpi .sge
    (broadcastInDim S44x12 ![0, 1] bcast_S44x1_S44x12_0_1 (broadcastInDim S44x1 ![0] bcast_S44_S44x1_0 (iotaInDim S44 32 0)))
    (broadcastInDim S44x12 ![0, 1] bcast_S1x12_S44x12_0_1 (broadcastInDim S1x12 ![1] bcast_S12_S1x12_1 (blockOffsets ids)))

/-- The owner word of block `t`, when exactly `e + 1` judges (`e < 12`) have their first block at or before `t`. -/
theorem blockExpert_toNat (t : Fin 44) (e : ℕ) (he : e < 12)
    (hcard : ((Finset.range 12).filter fun j => Routing.boff 1024 (key ids) j ≤ t.val).card = e + 1) :
    (blockExpert ids (ix1 t)).toNat = e := by
  -- the mask at `(t, q)` is set exactly when judge `q`'s first block is at or before `t`
  have hmask : ∀ q : Fin 12, (ownerMask ids (StableHlo.Predicate.ij t q) = 1#1)
      ↔ Routing.boff 1024 (key ids) q.val ≤ t.val := by
    intro q
    show IntOp.cmpi .sge
      (broadcastInDim S44x12 ![0, 1] bcast_S44x1_S44x12_0_1 (broadcastInDim S44x1 ![0] bcast_S44_S44x1_0 (iotaInDim S44 32 0))
        (StableHlo.Predicate.ij t q))
      (broadcastInDim S44x12 ![0, 1] bcast_S1x12_S44x12_0_1 (broadcastInDim S1x12 ![1] bcast_S12_S1x12_1 (blockOffsets ids))
        (StableHlo.Predicate.ij t q)) = 1#1 ↔ _
    rw [StableHlo.Predicate.bcast_rows, StableHlo.Predicate.bcast_cols, StableHlo.Predicate.iota_apply, ofFin_eq_ix1]
    have hb := boff_le_44 ids hr q.val (by omega)
    have hq := blockOffsets_toNat ids hr q
    have ht : (BitVec.ofNat 32 t.val).toNat = t.val := by
      simp only [BitVec.toNat_ofNat]
      omega
    rw [StableHlo.Predicate.sge_iff_toNat (by rw [ht]; omega) (by rw [hq]; omega), ht, hq]
  -- so the row sum of the widened mask is the number of such judges
  have hcount := StableHlo.Predicate.toNat_reduce_count_cols (n := 44) (m := 12) (by norm_num) (ownerMask ids)
    natLt_1_32 reducesTo_S44x12_S44_d1 h_S_ (ix1 t)
  have hcard' : (Finset.univ.filter fun q : Fin 12 => ownerMask ids (StableHlo.Predicate.ij t q) = 1#1).card = e + 1 := by
    rw [← hcard, ← card_fin_filter (n := 12) (fun j => Routing.boff 1024 (key ids) j ≤ t.val)]
    exact congrArg Finset.card (Finset.filter_congr fun q _ => hmask q)
  exact clip_pred_toNat _ e he (hcount.trans hcard')

end Cert.KernelIdeal.HostCounts

end
-- ==== Proof.LibSortPerm.lean ====
/-
  A stable sort of a vector of words carrying a second vector: one permutation, and the keys end in order.

  `Host.sort2` along the one axis of rank-1 operands `x`, `y`, by a comparator that says "the first key is
  signed-less than the second", reads both operands through one self-map `σ` of the positions; `σ` is a
  bijection, and along it the keys are nondecreasing as signed integers (a later position's key is never
  signed-less than an earlier one's).
-/
import Idealize.ShloMosaic.Lib.SortFacts
import Idealize.ShloMosaic.Lib.ValueIdx

noncomputable section

namespace Cert.Moe.SortPerm

open Idealize.ShloMosaic Idealize.ShloMosaic.ValueIdx

/-- The rank-1 index at a coordinate, in its two spellings. -/
theorem ix1_eq_ofFin {n : Nat} (k : Fin n) : ix1 k = Shape.Idx.ofFin k := by
  funext d
  have hd : d = 0 := Subsingleton.elim _ _
  subst hd
  exact Fin.ext rfl

/-- "Signed-less-than says yes" is the order of the signed values. -/
theorem cmpi_slt_beq_one (a b : BitVec 32) : (IntOp.cmpi .slt a b == 1#1) = decide (a.toInt < b.toInt) := by
  unfold IntOp.cmpi
  simp only [BitVec.slt]
  by_cases h : a.toInt < b.toInt
  · simp [h]
  · simp [h]

/-- On a rank-1 shape the two-operand sort reads both operands through the one self-map of the positions. -/
theorem sort2_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).1 j
        = x (Shape.Idx.ofFin (sortedFrom (fun k k' => cmp (x (Shape.Idx.ofFin k), y (Shape.Idx.ofFin k))
            (x (Shape.Idx.ofFin k'), y (Shape.Idx.ofFin k')) == 1#1) (j 0)))
    ∧ (Host.sort2 ⟨1, ![n]⟩ 0 cmp x y).2 j
        = y (Shape.Idx.ofFin (sortedFrom (fun k k' => cmp (x (Shape.Idx.ofFin k), y (Shape.Idx.ofFin k))
            (x (Shape.Idx.ofFin k'), y (Shape.Idx.ofFin k')) == 1#1) (j 0))) := by
  unfold Host.sort2
  simp

/-- A stable sort by a relation that is "the signed value is less" leaves the signed values nondecreasing. -/
theorem sortedFrom_toInt_le {n : Nat} (x : IVec ⟨1, ![n]⟩ 32) (R : Fin n → Fin n → Bool)
    (hR : ∀ a b, R a b = decide ((x (Shape.Idx.ofFin a)).toInt < (x (Shape.Idx.ofFin b)).toInt))
    (k k' : Fin n) (hlt : k < k') :
    (x (Shape.Idx.ofFin (sortedFrom R k))).toInt ≤ (x (Shape.Idx.ofFin (sortedFrom R k'))).toInt := by
  have h := sortedFrom_noInversion R R
    (by
      intro a b hab
      have h1 := of_decide_eq_true ((hR a b).symm.trans hab)
      rw [hR b a]
      exact decide_eq_false (not_lt.mpr (le_of_lt h1)))
    (fun _ _ hab => hab)
    (by
      intro a b c hab hbc
      have h1 := not_lt.mp (of_decide_eq_false ((hR a b).symm.trans hab))
      have h2 := not_lt.mp (of_decide_eq_false ((hR b c).symm.trans hbc))
      rw [hR a c]
      exact decide_eq_false (not_lt.mpr (le_trans h2 h1)))
    k k' hlt
  exact not_lt.mp (of_decide_eq_false ((hR _ _).symm.trans h))

/-- The sort as a permutation with ordered keys. -/
theorem sort2_slt_rank1 {n : Nat} {β : Type} (cmp : BitVec 32 × β → BitVec 32 × β → BitVec 1)
    (hcmp : ∀ l r, cmp l r = IntOp.cmpi .slt l.1 r.1)
    (x : IVec ⟨1, ![n]⟩ 32) (y : (⟨1, ![n]⟩ : Shape).Idx → β) :
    ∃ σ : Fin n → Fin n, Function.Bijective σ
      ∧ (∀ k : Fin n, (Host.sort2 ⟨1, ![n]⟩ 0 cmp x y).1 (ix1 k) = x (ix1 (σ k)))
      ∧ (∀ k : Fin n, (Host.sort2 ⟨1, ![n]⟩ 0 cmp x y).2 (ix1 k) = y (ix1 (σ k)))
      ∧ (∀ k k' : Fin n, k ≤ k' → (x (ix1 (σ k))).toInt ≤ (x (ix1 (σ k'))).toInt) := by
  refine ⟨sortedFrom (fun k k' => cmp (x (Shape.Idx.ofFin k), y (Shape.Idx.ofFin k))
      (x (Shape.Idx.ofFin k'), y (Shape.Idx.ofFin k')) == 1#1),
    ⟨sortedFrom_injective _, sortedFrom_surjective _⟩, ?_, ?_, ?_⟩
  · intro k
    rw [ix1_eq_ofFin, ix1_eq_ofFin, (sort2_rank1 cmp x y (Shape.Idx.ofFin k)).1, Shape.Idx.ofFin_zero]
  · intro k
    rw [ix1_eq_ofFin, ix1_eq_ofFin, (sort2_rank1 cmp x y (Shape.Idx.ofFin k)).2, Shape.Idx.ofFin_zero]
  · intro k k' hkk'
    rcases lt_or_eq_of_le hkk' with hlt | heq
    · rw [ix1_eq_ofFin, ix1_eq_ofFin]
      exact sortedFrom_toInt_le x _ (fun a b => by rw [hcmp]; exact cmpi_slt_beq_one _ _) k k' hlt
    · rw [heq]

end Cert.Moe.SortPerm

end
-- ==== Proof.LibGatherElem.lean ====
/-
  A `stablehlo.gather` that picks single ELEMENTS, read at an index.

  Two shapes of it, both with every operand axis collapsed (slice sizes all 1, no offset axis, no batching axis) and
  the index vector on the last axis of the start indices.  From a vector `[N]` at start indices `[R, 1]`: result
  element `r` is the vector at the start index `idx[r, 0]`, read as a signed integer and clamped into `[0, N - 1]`.
  From a table `[N, K]` at start indices `[R, 2]`: result element `r` is the table at row `idx[r, 0]` and column
  `idx[r, 1]`, each read signed and clamped into its axis.  (StableHLO clamps every start index so that the slice
  lies inside the operand; with slices of one element that is the clamp of the index itself.)
-/
import Idealize.ShloMosaic.Lib.ValueIdx

noncomputable section

namespace Cert.LibGatherElem

open Idealize.ShloMosaic Idealize.ShloMosaic.ValueIdx

variable {α : Type}

/-- The dimension numbers of an element gather from a vector `[N]` at start indices `[R, 1]` into `[R]`. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `r` of the vector gather: the vector at the clamped signed start index `idx[r, 0]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r ⟨0, Nat.one_pos⟩)).toInt.toNat (N - 1), by omega⟩) := by
  -- the gather reads the operand at its operand index; compare the two indices on the operand's one axis
  show x ((vecDims N R wf).operandIdx (ix1 r) idx) = _
  refine congrArg x (funext fun a => ?_)
  have ha : a = (0 : Fin 1) := Subsingleton.elim _ _
  subst ha
  apply Fin.ext
  show (vecDims N R wf).start (ix1 r) idx 0 + (vecDims N R wf).batchCoord (ix1 r) 0
      + (vecDims N R wf).offCoord (ix1 r) 0 = _
  -- no batching axis, and axis 0 is collapsed: only the clamped start is left
  have hb : (vecDims N R wf).batchCoord (ix1 r) 0 = 0 :=
    GatherDims.batchCoord_eq_zero _ _ _ List.not_mem_nil
  have ho : (vecDims N R wf).offCoord (ix1 r) 0 = 0 :=
    GatherDims.offCoord_eq_zero _ _ _ fun h =>
      ((GatherDims.mem_sKept _ _).mp h).1 (List.mem_singleton.mpr rfl)
  simp only [hb, ho, Nat.add_zero]
  -- axis 0 is the start index map's entry 0, so its start index is read at `(r, 0)`
  have hm : (0 : Fin 1) ∈ (vecDims N R wf).startIndexMap := List.mem_singleton.mpr rfl
  have hsi : (vecDims N R wf).siIdx (ix1 r)
      ⟨List.idxOf (0 : Fin 1) (vecDims N R wf).startIndexMap, List.idxOf_lt_length_iff.2 hm⟩
        = ix2 r ⟨0, Nat.one_pos⟩ := by
    funext b
    apply Fin.ext
    match b with
    | ⟨0, _⟩ => rfl
    | ⟨1, _⟩ => rfl
  unfold GatherDims.start
  rw [dif_pos hm, hsi]
  -- the clamp's upper end is the extent `N` less the slice size `1`
  rfl

/-- The dimension numbers of an element gather from a table `[N, K]` at start indices `[R, 2]` into `[R]`. -/
abbrev pairDims (N K R : Nat) (wf : GatherDims.WF ⟨2, ![N, K]⟩ ⟨2, ![R, 2]⟩ ⟨1, ![R]⟩ [] [0, 1] [] [0, 1] [] 1 ![1, 1]) :
    GatherDims ⟨2, ![N, K]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- Result element `r` of the table gather: the table at the clamped signed start indices `idx[r, 0]`, `idx[r, 1]`. -/
theorem gather_pair_apply {N K R w : Nat} (hN : 0 < N) (hK : 0 < K)
    (wf : GatherDims.WF ⟨2, ![N, K]⟩ ⟨2, ![R, 2]⟩ ⟨1, ![R]⟩ [] [0, 1] [] [0, 1] [] 1 ![1, 1])
    (x : (⟨2, ![N, K]⟩ : Shape).Idx → α) (idx : IVec ⟨2, ![R, 2]⟩ w) (r : Fin R) :
    Host.gather (pairDims N K R wf) x idx (ix1 r)
      = x (ix2 ⟨min (idx (ix2 r ⟨0, by omega⟩)).toInt.toNat (N - 1), by omega⟩
               ⟨min (idx (ix2 r ⟨1, by omega⟩)).toInt.toNat (K - 1), by omega⟩) := by
  -- the gather reads the operand at its operand index; compare the two indices axis by axis
  show x ((pairDims N K R wf).operandIdx (ix1 r) idx) = _
  refine congrArg x (funext fun a => ?_)
  apply Fin.ext
  show (pairDims N K R wf).start (ix1 r) idx a + (pairDims N K R wf).batchCoord (ix1 r) a
      + (pairDims N K R wf).offCoord (ix1 r) a = _
  -- no batching axis, and both axes are collapsed: only the clamped start is left
  have hb : (pairDims N K R wf).batchCoord (ix1 r) a = 0 :=
    GatherDims.batchCoord_eq_zero _ _ _ List.not_mem_nil
  have hc : a ∈ (pairDims N K R wf).collapsedSliceDims := by
    match a with
    | ⟨0, _⟩ => exact List.mem_cons_self
    | ⟨1, _⟩ => exact List.mem_cons_of_mem _ List.mem_cons_self
  have ho : (pairDims N K R wf).offCoord (ix1 r) a = 0 :=
    GatherDims.offCoord_eq_zero _ _ _ fun h => ((GatherDims.mem_sKept _ _).mp h).1 hc
  simp only [hb, ho, Nat.add_zero]
  -- axis `a` is the start index map's entry `a`, so its start index is read at `(r, a)`
  have hm : a ∈ (pairDims N K R wf).startIndexMap := hc
  unfold GatherDims.start
  rw [dif_pos hm]
  match a, hm with
  | ⟨0, _⟩, hm =>
    have hsi : (pairDims N K R wf).siIdx (ix1 r)
        ⟨List.idxOf (⟨0, by omega⟩ : Fin 2) (pairDims N K R wf).startIndexMap, List.idxOf_lt_length_iff.2 hm⟩
          = ix2 r ⟨0, by omega⟩ := by
      funext b
      apply Fin.ext
      match b with
      | ⟨0, _⟩ => rfl
      | ⟨1, _⟩ => rfl
    rw [hsi]
    rfl
  | ⟨1, _⟩, hm =>
    have hsi : (pairDims N K R wf).siIdx (ix1 r)
        ⟨List.idxOf (⟨1, by omega⟩ : Fin 2) (pairDims N K R wf).startIndexMap, List.idxOf_lt_length_iff.2 hm⟩
          = ix2 r ⟨1, by omega⟩ := by
      funext b
      apply Fin.ext
      match b with
      | ⟨0, _⟩ => rfl
      | ⟨1, _⟩ => rfl
    rw [hsi]
    rfl

end Cert.LibGatherElem

end
-- ==== Proof.HostOrder.lean ====
/-
  The host's argsort of the judge ids, as a permutation of the rows with the ids in order along it.

  `order` lists the rows by a stable sort of their (clipped) ids: there is a bijection `σ` of the 32768 positions
  with `order[k] = σ k` as a word, the sorted ids are `ids[σ k]`, and along `σ` the ids never decrease.
-/
import proofs.«423243_j44985487458585_3_alg».proof.Proof.HostDefs
import proofs.«423243_j44985487458585_3_alg».proof.Proof.HostCounts
import proofs.«423243_j44985487458585_3_alg».proof.Proof.LibSortPerm
import proofs.«423243_j44985487458585_3_alg».proof.Proof.LibGatherElem
import Idealize.ShloMosaic.Lib.ValueIdx
import Idealize.ShloMosaic.Lib.Pipeline.Value

noncomputable section

namespace Cert.KernelIdeal.HostOrder

open Cert.KernelIdeal Cert.KernelIdeal.HostDefs Cert.KernelIdeal.HostCounts Cert.Moe Idealize.ShloMosaic Idealize.ShloMosaic.ValueIdx

/-- A word below `32768` read as a signed integer is itself. -/
theorem toInt_ofNat_small (m : ℕ) (hm : m < 32768) : (BitVec.ofNat 32 m).toInt = (m : ℤ) := by
  have h1 : (BitVec.ofNat 32 m).toNat = m := by
    rw [BitVec.toNat_ofNat]; exact Nat.mod_eq_of_lt (by omega)
  rw [BitVec.toInt_eq_toNat_of_lt (by rw [h1]; omega), h1]

/-- A word that is nonnegative as a signed integer is its natural value. -/
theorem toInt_eq_toNat_of_nonneg (a : BitVec 32) (h : 0 ≤ a.toInt) : a.toInt = (a.toNat : ℤ) := by
  have hlt := a.isLt
  rw [BitVec.toInt_eq_toNat_cond] at h ⊢
  split_ifs at h ⊢ with hc
  · rfl
  · omega

/-- The wrapped start indices at `(k, ·)`: a nonnegative word is left alone. -/
theorem wrapIdx32768_apply_of_nonneg (len : BitVec 32) (v : IVec S32768 32) (k : Fin 32768) (z : Fin 1)
    (h : 0 ≤ (v (ix1 k)).toInt) : wrapIdx32768 len v (ix2 k z) = v (ix1 k) := by
  unfold wrapIdx32768
  rw [broadcastInDim_apply (k := ix1 k) (hk := by
    intro a
    have ha : a = (0 : Fin 1) := Subsingleton.elim _ _
    subst ha
    rw [if_neg (by decide)]
    rfl)]
  show Scalar.select (IntOp.cmpi .slt (v (ix1 k)) 0#32) (IntOp.addi (v (ix1 k)) len) (v (ix1 k)) = v (ix1 k)
  have hs : (v (ix1 k)).slt 0#32 = false := by
    rw [BitVec.slt_eq_decide, BitVec.toInt_zero]
    exact decide_eq_false (not_lt.mpr h)
  simp [Scalar.select, IntOp.cmpi, hs]

theorem order_perm (ids : IVec S32768 32) (hr : InRange ids) :
    ∃ σ : Fin 32768 → Fin 32768, Function.Bijective σ
      ∧ (∀ k : Fin 32768, order ids (ix1 k) = BitVec.ofNat 32 (σ k).val)
      ∧ (∀ k : Fin 32768, sortedIds ids (ix1 k) = ids (ix1 (σ k)))
      ∧ (∀ k k' : Fin 32768, k ≤ k' → key ids (σ k) ≤ key ids (σ k')) := by
  obtain ⟨σ, hbij, _, h2, h3⟩ := SortPerm.sort2_slt_rank1 (n := 32768) comparator_i32_i32_d0 (fun _ _ => rfl)
    ids (iotaInDim S32768 32 0)
  -- the carried iota along the permutation is the permutation, as a word
  have horder : ∀ k : Fin 32768, order ids (ix1 k) = BitVec.ofNat 32 (σ k).val := by
    intro k
    unfold order
    rw [idsC_eq ids hr]
    exact (h2 k).trans rfl
  refine ⟨σ, hbij, horder, ?_, ?_⟩
  · intro k
    unfold sortedIds
    rw [idsC_eq ids hr]
    have hg : gather_S32768_S32768x1_S32768_n_0_n_n_0_1_1
        = LibGatherElem.vecDims 32768 32768 Facts₀.gather_S32768_S32768x1_S32768_n_0_n_n_0_1_1_wf := rfl
    rw [hg, LibGatherElem.gather_vec_apply (by norm_num)]
    have hnn : 0 ≤ (order ids (ix1 k)).toInt := by
      rw [horder k, toInt_ofNat_small _ (σ k).isLt]; exact Int.natCast_nonneg _
    have hidx : (wrapIdx32768 32768#32 (order ids) (ix2 k ⟨0, Nat.one_pos⟩)).toInt.toNat = (σ k).val := by
      rw [wrapIdx32768_apply_of_nonneg _ _ _ _ hnn, horder k, toInt_ofNat_small _ (σ k).isLt]
      exact Int.toNat_natCast _
    refine congrArg ids (congrArg ix1 (Fin.ext ?_))
    show min _ (32768 - 1) = (σ k).val
    rw [hidx]
    have := (σ k).isLt
    omega
  · intro k k' hkk'
    have hle := h3 k k' hkk'
    rw [toInt_eq_toNat_of_nonneg _ (hr (σ k)).1, toInt_eq_toNat_of_nonneg _ (hr (σ k')).1] at hle
    exact Int.ofNat_le.mp hle

end Cert.KernelIdeal.HostOrder

end
-- ==== Proof.HostRouting.lean ====
/-
  Where the host's grouping sends each row, and what it leaves there.

  With every id in `[0, 12)` there is a slot `dest b < 45056` for each row `b` such that: the word `destIndex[b]` is
  `dest b`; the row laid out at slot `dest b` is row `b`; and the block `dest b / 1024` that holds the slot is owned
  by judge `ids[b]`. (Row `b = σ k` goes to the slot of sorted position `k`: its judge's first slot plus its rank
  in the judge's group. Slots of distinct positions are distinct and below `1024 · 44`, so each of the two scatters
  lands exactly one update on each slot that is hit, and the gathers read it back.)
-/
import proofs.«423243_j44985487458585_3_alg».proof.Proof.HostDefs
import proofs.«423243_j44985487458585_3_alg».proof.Proof.HostCounts
import proofs.«423243_j44985487458585_3_alg».proof.Proof.HostOrder
import proofs.«423243_j44985487458585_3_alg».proof.Proof.Routing
import proofs.«423243_j44985487458585_3_alg».proof.Proof.LibScatterFold
import proofs.«423243_j44985487458585_3_alg».proof.Proof.LibIndexed
import proofs.«423243_j44985487458585_3_alg».proof.Proof.LibGatherElem
import Idealize.ShloMosaic.Lib.ValueIdx
import Idealize.ShloMosaic.Lib.WordArith
import Idealize.ShloMosaic.Lib.Pipeline.Value

noncomputable section

namespace Cert.KernelIdeal.HostRouting

open Cert.KernelIdeal Cert.KernelIdeal.HostDefs Cert.KernelIdeal.HostCounts Cert.KernelIdeal.HostOrder Cert.Moe
open Idealize.ShloMosaic Idealize.ShloMosaic.ValueIdx

variable {F : FTy → Type} [FloatOps F]

/-! ## Words -/

/-- A word that reads signed as a non-negative integer reads the same unsigned. -/
theorem toNat_toInt_of_nonneg (x : BitVec 32) (h : 0 ≤ x.toInt) : x.toInt.toNat = x.toNat := by
  have e := BitVec.toInt_eq_toNat_cond x
  have := x.isLt
  split at e <;> omega

/-- A word that reads signed as a non-negative integer is not below zero: the compare answers the zero bit. -/
theorem cmpi_slt_zero_of_nonneg (x : BitVec 32) (h : 0 ≤ x.toInt) : IntOp.cmpi .slt x 0#32 = 0#1 := by
  have hs : x.slt 0#32 = false := by
    rw [Bool.eq_false_iff]
    intro hc
    rw [BitVec.slt_iff_toInt_lt] at hc
    simp at hc
    omega
  show BitVec.ofBool (x.slt 0#32) = 0#1
  rw [hs]
  rfl

/-- First slot of the judge plus the rank inside the group, in words: no borrow, no carry. -/
theorem word_slot (a g : BitVec 32) (A G k : ℕ) (ha : a.toNat = A) (hg : g.toNat = G) (hG : G ≤ k) (hk : k < 2 ^ 31)
    (hA : A + (k - G) < 2 ^ 32) :
    IntOp.addi a (IntOp.subi (BitVec.ofNat 32 k) g) = BitVec.ofNat 32 (A + (k - G)) := by
  unfold IntOp.addi IntOp.subi
  apply BitVec.eq_of_toNat_eq
  rw [BitVec.toNat_add, BitVec.toNat_sub, BitVec.toNat_ofNat, BitVec.toNat_ofNat, ha, hg]
  have := g.isLt
  omega

/-! ## Start indices: a vector as a column, negative entries wrapped first -/

section wrap

variable {N : ℕ} (hb : (⟨1, ![N]⟩ : Shape).BroadcastsInDim ⟨2, ![N, 1]⟩ ![0])
  (h0 : (⟨0, ![]⟩ : Shape).BroadcastsInDim ⟨1, ![N]⟩ ![])

/-- A vector laid as a column reads, at row `k`, the vector at `k`. -/
theorem column_apply {α : Type} (v : (⟨1, ![N]⟩ : Shape).Idx → α) (k : Fin N) (z : Fin 1) :
    broadcastInDim ⟨2, ![N, 1]⟩ ![0] hb v (ix2 k z) = v (ix1 k) := by
  refine broadcastInDim_apply ![0] hb v (ix2 k z) (ix1 k) ?_
  intro a
  have hk := k.isLt
  match a with
  | ⟨0, _⟩ =>
    show k.val = if N = 1 then 0 else k.val
    split <;> omega

/-- The wrapped column at a row whose entry is not negative: the entry. -/
theorem wrap_apply (len : BitVec 32) (v : IVec ⟨1, ![N]⟩ 32) (k : Fin N) (z : Fin 1) (hv : 0 ≤ (v (ix1 k)).toInt) :
    broadcastInDim ⟨2, ![N, 1]⟩ ![0] hb
      (select (cmpi .slt v (broadcastInDim ⟨1, ![N]⟩ ![] h0 (constantI ⟨0, ![]⟩ 32 0#32)))
        (addi v (broadcastInDim ⟨1, ![N]⟩ ![] h0 (constantI ⟨0, ![]⟩ 32 len))) v) (ix2 k z) = v (ix1 k) := by
  rw [column_apply hb]
  show Scalar.select (IntOp.cmpi .slt (v (ix1 k)) 0#32) (IntOp.addi (v (ix1 k)) len) (v (ix1 k)) = v (ix1 k)
  rw [cmpi_slt_zero_of_nonneg _ hv, select_zero]

end wrap

/-- The wrapped column of 32768 ids at a row whose entry is not negative. -/
theorem wrapIdx32768_apply (len : BitVec 32) (v : IVec S32768 32) (k : Fin 32768) (z : Fin 1)
    (hv : 0 ≤ (v (ix1 k)).toInt) : wrapIdx32768 len v (ix2 k z) = v (ix1 k) :=
  wrap_apply Facts₀.bcast_S32768_S32768x1_0 Facts₀.bcast_S_S32768 len v k z hv

/-! ## The two lookups in a table of 12 words, and a scatter that keeps the update -/

/-- A lookup in a table of 12 words at the wrapped ids reads the table at the id, when the id is a judge. -/
theorem gather12_apply (tbl : IVec S12 32) (v : IVec S32768 32) (k : Fin 32768) (j : Fin 12)
    (hv : 0 ≤ (v (ix1 k)).toInt) (hj : (v (ix1 k)).toNat = j.val) :
    Host.gather gather_S12_S32768x1_S32768_n_0_n_n_0_1_1 tbl (wrapIdx32768 12#32 v) (ix1 k) = tbl (ix1 j) := by
  have hd : gather_S12_S32768x1_S32768_n_0_n_n_0_1_1
      = LibGatherElem.vecDims 12 32768 Facts₀.gather_S12_S32768x1_S32768_n_0_n_n_0_1_1_wf := rfl
  rw [hd, LibGatherElem.gather_vec_apply (by norm_num : 0 < 12)]
  refine congrArg (fun z => tbl (ix1 z)) (Fin.ext ?_)
  show min (wrapIdx32768 12#32 v (ix2 k _)).toInt.toNat (12 - 1) = j.val
  rw [wrapIdx32768_apply _ _ _ _ hv, toNat_toInt_of_nonneg _ hv, hj]
  have := j.isLt
  omega

/-- Rows followed by one more row, read at a row of the first piece: that row. -/
theorem concat_rows_apply_left {α : Type} {N M K : ℕ}
    (h : Shape.Concatenates [(⟨2, ![N, K]⟩ : Shape), ⟨2, ![1, K]⟩] ⟨2, ![M, K]⟩ 0)
    (x : (⟨2, ![N, K]⟩ : Shape).Idx → α) (y : (⟨2, ![1, K]⟩ : Shape).Idx → α) (r : Fin M) (b : Fin N)
    (hrb : b.val = r.val) (i : Fin K) :
    concatenate ⟨2, ![M, K]⟩ 0 [⟨⟨2, ![N, K]⟩, x⟩, ⟨⟨2, ![1, K]⟩, y⟩] h (ix2 r i) = x (ix2 b i) := by
  refine concatenate_pair_apply_left (t := ⟨2, ![M, K]⟩) (s₁ := ⟨2, ![N, K]⟩) (s₂ := ⟨2, ![1, K]⟩) (0 : Fin 2) x y h
    (ix2 r i) rfl (ix2 b i) ?_
  intro b'
  match b' with
  | ⟨0, _⟩ => exact hrb
  | ⟨1, _⟩ => rfl

/-- A scatter into a vector that keeps the update, at start words that name distinct positions: the element at the
    position update `e` names ends at update `e`. -/
theorem scatter_set_vec {α : Type} {N E w : ℕ} (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : (⟨1, ![N]⟩ : Shape).Idx → α) (idx : IVec ⟨2, ![E, 1]⟩ w) (upd : (⟨1, ![E]⟩ : Shape).Idx → α)
    (pos : Fin E → ℕ) (hpos : ∀ e : Fin E, (idx (ix2 e (0 : Fin 1))).toInt = (pos e : ℤ)) (hinj : Function.Injective pos)
    (e : Fin E) (n : Fin N) (hn : pos e = n.val) :
    Host.scatter d (fun _ b => b) x idx upd (ix1 n) = upd (ix1 e) := by
  apply ScatterFold.scatter_set_apply_of_unique d x idx upd (ix1 n) (ix1 e)
  · rw [Rgcn.Lib.scatter_vec_resultIdx d wf hd idx e n, hpos, hn]
  · intro j' hj'
    obtain ⟨e', rfl⟩ : ∃ e', j' = ix1 e' := ⟨j' 0, eq_ix1 j'⟩
    rw [Rgcn.Lib.scatter_vec_resultIdx d wf hd idx e' n, hpos] at hj'
    have : pos e' = pos e := by omega
    rw [hinj this]

theorem routing (ids : IVec S32768 32) (hr : InRange ids) :
    ∃ dest : Fin 32768 → Fin 45056,
      (∀ b : Fin 32768, destIndex ids (ix1 b) = BitVec.ofNat 32 (dest b).val)
      ∧ (∀ (x : FVec F S32768x35 .f32) (b : Fin 32768) (i : Fin 35), paddedX x ids (ix2 (dest b) i) = x (ix2 b i))
      ∧ (∀ (b : Fin 32768) (t : Fin 44), t.val = (dest b).val / 1024 → (blockExpert ids (ix1 t)).toNat = key ids b) := by
  obtain ⟨σ, hσ, hord, hsorted, hmono⟩ := order_perm ids hr
  have hkey : ∀ b, key ids b < 12 := key_lt ids hr
  have hT : 0 < 1024 := by norm_num
  -- every slot is below the 44 blocks
  have hslot_lt : ∀ k, Routing.slot 1024 (key ids) σ k < 45056 := by
    intro k
    have h1 := Routing.slot_lt (key ids) σ hσ hmono hT 12 hkey k
    have h2 := Routing.boff_le hT (key ids) 12 hkey
    omega
  -- the sorted position as a word reads signed as itself
  have hordInt : ∀ k, (order ids (ix1 k)).toInt = ((σ k).val : ℤ) := by
    intro k
    rw [hord k]
    exact WordArith.toInt_ofNat_small _ (by have := (σ k).isLt; omega)
  -- the slot of sorted position k, as the program computes it
  have hdest : ∀ k, destSlot ids (ix1 k) = BitVec.ofNat 32 (Routing.slot 1024 (key ids) σ k) := by
    intro k
    have hv : 0 ≤ (sortedIds ids (ix1 k)).toInt := by rw [hsorted k]; exact (hr (σ k)).1
    have hj : (sortedIds ids (ix1 k)).toNat = (⟨key ids (σ k), hkey (σ k)⟩ : Fin 12).val := by rw [hsorted k]; rfl
    show IntOp.addi (Host.gather gather_S12_S32768x1_S32768_n_0_n_n_0_1_1 (rowOffsets ids) (wrapIdx32768 12#32 (sortedIds ids)) (ix1 k))
        (IntOp.subi (BitVec.ofNat 32 k.val)
          (Host.gather gather_S12_S32768x1_S32768_n_0_n_n_0_1_1 (groupStart ids) (wrapIdx32768 12#32 (sortedIds ids)) (ix1 k))) = _
    rw [gather12_apply _ _ k _ hv hj, gather12_apply _ _ k _ hv hj]
    have hg := Routing.gstart_le (key ids) σ hσ hmono k
    have hs := hslot_lt k
    unfold Routing.slot at hs ⊢
    exact word_slot _ _ _ _ k.val (rowOffsets_toNat ids hr _) (groupStart_toNat ids hr _) hg
      (by have := k.isLt; omega) (by omega)
  have hdestInt : ∀ k, (destSlot ids (ix1 k)).toInt = (Routing.slot 1024 (key ids) σ k : ℤ) := by
    intro k
    rw [hdest k]
    exact WordArith.toInt_ofNat_small _ (by have := hslot_lt k; omega)
  -- row σ k is sent to the slot of k
  have hDI : ∀ k, destIndex ids (ix1 (σ k)) = BitVec.ofNat 32 (Routing.slot 1024 (key ids) σ k) := by
    intro k
    unfold destIndex
    rw [scatter_set_vec scatter_S32768_S32768x1_S32768_n_0_0_1 Facts₀.scatter_S32768_S32768x1_S32768_n_0_0_1_wf rfl
      _ _ _ (fun e => (σ e).val)
      (fun e => by rw [wrapIdx32768_apply _ _ _ _ (by rw [hordInt e]; omega), hordInt e])
      (fun a b hab => hσ.1 (Fin.ext hab)) k (σ k) rfl]
    exact hdest k
  -- the slot of k holds row σ k
  have hSI : ∀ k, srcIndex ids (ix1 ⟨Routing.slot 1024 (key ids) σ k, hslot_lt k⟩) = BitVec.ofNat 32 (σ k).val := by
    intro k
    unfold srcIndex
    rw [scatter_set_vec scatter_S45056_S32768x1_S32768_n_0_0_1 Facts₀.scatter_S45056_S32768x1_S32768_n_0_0_1_wf rfl
      _ _ _ (fun e => Routing.slot 1024 (key ids) σ e)
      (fun e => by rw [wrapIdx32768_apply _ _ _ _ (by rw [hdestInt e]; omega), hdestInt e])
      (Routing.slot_injective (key ids) σ hσ hmono hT) k ⟨Routing.slot 1024 (key ids) σ k, hslot_lt k⟩ rfl]
    exact hord k
  -- the rows laid out by slot
  have hPX : ∀ (x : FVec F S32768x35 .f32) (k : Fin 32768) (i : Fin 35),
      paddedX x ids (ix2 ⟨Routing.slot 1024 (key ids) σ k, hslot_lt k⟩ i) = x (ix2 (σ k) i) := by
    intro x k i
    unfold paddedX
    rw [Rgcn.Lib.gather_rows_apply (N := 32769) (K := 35) (R := 45056) (by norm_num)
      gather_S32769x35_S45056x1_S45056x35_1_0_n_n_0_1_135
      Facts₀.gather_S32769x35_S45056x1_S45056x35_1_0_n_n_0_1_135_wf rfl]
    refine concat_rows_apply_left (N := 32768) (M := 32769) (K := 35) _ x _ _ (σ k) ?_ i
    · show (σ k).val = min (BitVec.toInt _).toNat (32769 - 1)
      have hsrc : 0 ≤ (srcIndex ids (ix1 ⟨Routing.slot 1024 (key ids) σ k, hslot_lt k⟩)).toInt := by
        rw [hSI k, WordArith.toInt_ofNat_small _ (by have := (σ k).isLt; omega)]; omega
      rw [wrap_apply Facts₀.bcast_S45056_S45056x1_0 Facts₀.bcast_S_S45056 _ _ _ _ hsrc, hSI k,
        WordArith.toInt_ofNat_small _ (by have := (σ k).isLt; omega)]
      have := (σ k).isLt
      omega
  -- assemble: row b is σ k at k the position of b
  refine ⟨fun b => ⟨Routing.slot 1024 (key ids) σ ((Equiv.ofBijective σ hσ).symm b), hslot_lt _⟩, ?_, ?_, ?_⟩
  · intro b
    have hσk : σ ((Equiv.ofBijective σ hσ).symm b) = b := Equiv.apply_symm_apply (Equiv.ofBijective σ hσ) b
    have := hDI ((Equiv.ofBijective σ hσ).symm b)
    rw [hσk] at this
    exact this
  · intro x b i
    have hσk : σ ((Equiv.ofBijective σ hσ).symm b) = b := Equiv.apply_symm_apply (Equiv.ofBijective σ hσ) b
    have := hPX x ((Equiv.ofBijective σ hσ).symm b) i
    rw [hσk] at this
    exact this
  · intro b t ht
    have hσk : σ ((Equiv.ofBijective σ hσ).symm b) = b := Equiv.apply_symm_apply (Equiv.ofBijective σ hσ) b
    have hc := Routing.expert_count (key ids) σ hσ hmono hT 12 hkey ((Equiv.ofBijective σ hσ).symm b)
    rw [hσk] at hc
    apply blockExpert_toNat ids hr t (key ids b) (hkey b)
    rw [ht]
    exact hc

end Cert.KernelIdeal.HostRouting

end
-- ==== Proof.HostTail.lean ====
/-
  The host's lines after the region, as a function of the output array and the slot words, read at `(b, q, o)`.

  After the region the host keeps the first 35 lanes of the `[45056, 128]` output, gathers row `destIndex[b]` for each
  original row `b` (negative words wrapped by 45056 first, as numpy indexing does), and reshapes `[32768, 35]` to
  `[32768, 7, 5]`. Where the slot word of row `b` is `dest b < 45056`, entry `(b, q, o)` of the result is entry
  `(dest b, 5 q + o)` of the output array.
-/
import proofs.«423243_j44985487458585_3_alg».proof.Proof.Gen.KernelIdeal
import proofs.«423243_j44985487458585_3_alg».proof.Proof.LibIndexed
import Idealize.ShloMosaic.Lib.ValueIdx
import Idealize.ShloMosaic.Lib.Pipeline.Value
import Idealize.ShloMosaic.Lib.ValueLayout

noncomputable section

namespace Cert.KernelIdeal.HostTail

open Cert.KernelIdeal Cert.KernelIdeal.Gen Idealize.ShloMosaic Idealize.ShloMosaic.ValueIdx

variable {F : FTy → Type} [FloatOps F]

/-- The result of the lines after the region, from the output array `O` and the slot words `D`. -/
def tailFn (O : FVec F S45056x128 .f32) (D : IVec S32768 32) : FVec F S32768x7x5 .f32 :=
  shapeCast S32768x7x5
    (Host.gather gather_S45056x35_S32768x1_S32768x35_1_0_n_n_0_1_135
      (extractStridedSlice S45056x35 ![0, 0] O slices_S45056x128_S45056x35_0_0)
      (broadcastInDim S32768x1 ![0] bcast_S32768_S32768x1_0
        (select (cmpi .slt D (broadcastInDim S32768 ![] bcast_S_S32768 (constantI S_ 32 0#32)))
          (addi D (broadcastInDim S32768 ![] bcast_S_S32768 (constantI S_ 32 45056#32))) D)))
    shapeCasts_S32768x35_S32768x7x5

/-- The lane of question `q`, option `o`. -/
def lane (q : Fin 7) (o : Fin 5) : Fin 128 := ⟨5 * q.val + o.val, by omega⟩

section reads
variable {α : Type}

/-- An `[m, N]` array with its last axis split to `[m, a, b]`, `N = a b`, reads, at `(e, i, j)`, the operand at `(e, k)`
    with `k = i b + j`. -/
theorem shapeCast_mN_mab_apply {m a b N : Nat} (hN : N = a * b) (x : (⟨2, ![m, N]⟩ : Shape).Idx → α)
    (h : (⟨2, ![m, N]⟩ : Shape).ShapeCasts ⟨3, ![m, a, b]⟩) (e : Fin m) (i : Fin a) (j : Fin b) (k : Fin N)
    (hk : k.val = i.val * b + j.val) :
    shapeCast ⟨3, ![m, a, b]⟩ x h (ix3 e i j) = x (ix2 e k) :=
  shapeCast_apply x h _ _ (by
    rw [Shape.rowMajor_val_three, Shape.rowMajor_val_two]
    show e.val * N + k.val = (e.val * a + i.val) * b + j.val
    rw [hk, hN, Nat.add_mul, Nat.mul_assoc, Nat.add_assoc])

end reads

/-- A word below `2 ^ 31` read as a signed integer is itself. -/
theorem toInt_ofNat_of_lt (m : ℕ) (hm : m < 2 ^ 31) : (BitVec.ofNat 32 m).toInt = (m : ℤ) := by
  have h1 : (BitVec.ofNat 32 m).toNat = m := by
    rw [BitVec.toNat_ofNat]; exact Nat.mod_eq_of_lt (by omega)
  rw [BitVec.toInt_eq_toNat_of_lt (by rw [h1]; omega), h1]

/-- The start words `[32768, 1]` made from slot words, negative ones wrapped by `len`: at `(b, ·)` a nonnegative word is
    left alone. -/
theorem wrapped_apply_of_nonneg (len : BitVec 32) (v : IVec S32768 32) (b : Fin 32768) (z : Fin 1)
    (h : 0 ≤ (v (ix1 b)).toInt) :
    broadcastInDim S32768x1 ![0] bcast_S32768_S32768x1_0
        (select (cmpi .slt v (broadcastInDim S32768 ![] bcast_S_S32768 (constantI S_ 32 0#32)))
          (addi v (broadcastInDim S32768 ![] bcast_S_S32768 (constantI S_ 32 len))) v) (ix2 b z)
      = v (ix1 b) := by
  rw [broadcastInDim_apply (k := ix1 b) (hk := by
    intro a
    have ha : a = (0 : Fin 1) := Subsingleton.elim _ _
    subst ha
    rw [if_neg (by decide)]
    rfl)]
  show Scalar.select (IntOp.cmpi .slt (v (ix1 b)) 0#32) (IntOp.addi (v (ix1 b)) len) (v (ix1 b)) = v (ix1 b)
  have hs : (v (ix1 b)).slt 0#32 = false := by
    rw [BitVec.slt_eq_decide, BitVec.toInt_zero]
    exact decide_eq_false (not_lt.mpr h)
  simp [Scalar.select, IntOp.cmpi, hs]

theorem tailFn_apply (O : FVec F S45056x128 .f32) (D : IVec S32768 32) (b : Fin 32768) (s : Fin 45056)
    (hD : D (ix1 b) = BitVec.ofNat 32 s.val) (q : Fin 7) (o : Fin 5) :
    tailFn O D (ix3 b q o) = O (ix2 s (lane q o)) := by
  have hs := s.isLt
  have hq := q.isLt
  have ho := o.isLt
  have hnn : 0 ≤ (D (ix1 b)).toInt := by
    rw [hD, toInt_ofNat_of_lt _ (by omega)]; exact Int.natCast_nonneg _
  unfold tailFn
  -- the reshape, the row lookup, the slice of the leading lanes
  refine (shapeCast_mN_mab_apply rfl _ _ b q o (⟨5 * q.val + o.val, by omega⟩ : Fin 35)
    (by show 5 * q.val + o.val = q.val * 5 + o.val; omega)).trans ?_
  refine (Cert.Rgcn.Lib.gather_rows_apply (by norm_num) _ _ rfl _ _ b _).trans ?_
  refine (slice2_axis1_apply 0 O _ _ _ (lane q o) (by show 5 * q.val + o.val = 0 + (5 * q.val + o.val); omega)).trans ?_
  -- the looked-up row is the slot
  refine congrArg O (congrArg (fun r => ix2 r (lane q o)) (Fin.ext ?_))
  show min _ (45056 - 1) = s.val
  rw [wrapped_apply_of_nonneg _ _ _ _ hnn, hD, toInt_ofNat_of_lt _ (by omega), Int.toNat_natCast]
  omega

end Cert.KernelIdeal.HostTail

end
-- ==== Proof.KernelValue.lean ====
/-
  The kernel program's result, entry by entry: the routed network of the row.

  Entry `(b, q, o)` of the result is read from the output array at the slot of row `b` (the lines after the region);
  that slot lies in the block of one grid point, whose body stored the dense network of the block's row at the slabs
  of the block's owner; the row laid out there is row `b`, the owner is judge `ids[b]`, and the slabs are the summed
  weights and folded biases of that judge: the network with the weights summed first, at row `b` and judge `ids[b]`.
-/
import proofs.«423243_j44985487458585_3_alg».proof.Proof.Gen.KernelIdeal.Frame
import proofs.«423243_j44985487458585_3_alg».proof.Proof.KernelBlocks
import proofs.«423243_j44985487458585_3_alg».proof.Proof.KernelBlocksWin
import proofs.«423243_j44985487458585_3_alg».proof.Proof.KernelPiece
import proofs.«423243_j44985487458585_3_alg».proof.Proof.KernelRow
import proofs.«423243_j44985487458585_3_alg».proof.Proof.WeightReads
import proofs.«423243_j44985487458585_3_alg».proof.Proof.HostStages
import proofs.«423243_j44985487458585_3_alg».proof.Proof.HostRouting
import proofs.«423243_j44985487458585_3_alg».proof.Proof.HostTail
import proofs.«423243_j44985487458585_3_alg».proof.Proof.MoeParams
import proofs.«423243_j44985487458585_3_alg».proof.Proof.OkIdeal
import Idealize.ShloMosaic.Lib.StableHlo.Run
import Idealize.ShloMosaic.Lib.Pipeline.Value

set_option maxRecDepth 16384

noncomputable section

namespace Cert.KernelIdeal.KernelValue

open Cert.KernelIdeal Cert.KernelIdeal.Gen Cert.Moe.Spec
open Cert.KernelIdeal.HostDefs Cert.KernelIdeal.HostWeights Cert.KernelIdeal.HostCounts Cert.KernelIdeal.HostTail
open Cert.KernelIdeal.KernelBlocks Cert.KernelIdeal.KernelRow
open Idealize.ShloMosaic Idealize.ShloMosaic.TcCoe Idealize.SL.Sem Idealize.ShloMosaic.StableHlo Idealize.ShloMosaic.ValueIdx
open Idealize.ShloMosaic.Pipeline (Dat)

section anyF

variable {F : FTy → Type} [FloatOps F]
variable (m : (ℓ : Loc nD τ sig) → Buf (Elt F) ℓ)

set_option maxHeartbeats 2000000 in
/-- The lines after the region: the result is `tailFn` of the output array after the region and the slot words. -/
theorem tail_eq (hO : Ok m) (c : Dev nD) :
    Pipeline.afterTail pcfgs (fun _ => adm m hO) (dats m hO) 0 (V0 m) [hostOps1] c main_v151
      = tailFn ((dats m hO 0 c).arrAt 7 (cfgM m hO).N) (V m c main_v141) := by
  unfold Pipeline.afterTail
  simp only [hostOps1, List.flatten_cons, List.flatten_nil, List.append_nil]
  after_results_simp
  have hA : Pipeline.withArrays (Pipeline.pin pcfgs (fun _ => adm m hO) 0).spec c (V0 m c)
      (fun w => (dats m hO 0 c).arrAt w (Pipeline.pin pcfgs (fun _ => adm m hO) 0).N) (Proc.devRef .tc main_v142)
      = (dats m hO 0 c).arrAt 7 (cfgM m hO).N :=
    Pipeline.withArrays_arr spec0 winFacts0.arr_inj c (V0 m c) _ 7
  have hD : Pipeline.withArrays (Pipeline.pin pcfgs (fun _ => adm m hO) 0).spec c (V0 m c)
      (fun w => (dats m hO 0 c).arrAt w (Pipeline.pin pcfgs (fun _ => adm m hO) 0).N) (Proc.devRef .tc main_v141)
      = V m c main_v141 :=
    Pipeline.withArrays_of_ne spec0 c (V0 m c) _ main_v141 (by decide)
  rw [hA, hD]
  rfl

/-- What point `t` leaves in the output's staging buffer: the stored value of the point's seven blocks. -/
theorem outsAt0_eq (hO : Ok m) (c : Dev nD) (t : Fin (cfgM m hO).N) :
    outsAt0 m hO c t = kernelOut (iblk m hO c 0 t) (iblk m hO c 1 t) (iblk m hO c 2 t) (iblk m hO c 3 t)
      (iblk m hO c 4 t) (iblk m hO c 5 t) (iblk m hO c 6 t) := by
  exact KernelPiece.out0_A_7_eq c (grid0.coords t) (ms0_0 m hO t) (hs0_0 m hO t) (ms0_1 m hO t) (hs0_1 m hO t)
    (ms0_2 m hO t) (hs0_2 m hO t) (ms0_3 m hO t) (hs0_3 m hO t) (ms0_4 m hO t) (hs0_4 m hO t) (ms0_5 m hO t) (hs0_5 m hO t)
    (ms0_6 m hO t) (hs0_6 m hO t) (ms0_7 m hO t) (hs0_7 m hO t) (iblk m hO c 0 t) (iblk m hO c 1 t) (iblk m hO c 2 t)
    (iblk m hO c 3 t) (iblk m hO c 4 t) (iblk m hO c 5 t) (iblk m hO c 6 t) (tbl m 0)

/-- Every point writes back the block it left: block `t` of the glued array. -/
theorem flushed_eq (hO : Ok m) (c : Dev nD) (t : Fin (cfgM m hO).N) (hf : ((cfgM m hO).win 7).flush t = true) :
    (dats m hO 0 c).flushed 7 t
      = (((cfgM m hO).win 7).blk t).view.read (Elt F) (glue (adm m hO) (fun t => outsAt0 m hO c t)) := by
  rw [blk7_read (adm m hO) t (fun t => outsAt0 m hO c t)]
  show ((cfgM m hO).win 7).cut (grid0.coords t) ((dats m hO 0 c).after 7 t) = _
  rw [after0_7]
  rfl

/-- The output array after the region, at row `s`, lane `l`: what point `s / 1024` left at row `s mod 1024`. -/
theorem arr_apply (hO : Ok m) (c : Dev nD) (s : Fin 45056) (l : Fin 128) (t : Fin (cfgM m hO).N) (ht : t.val = s.val / 1024)
    (r : Fin 1024) (hr : r.val = s.val % 1024) :
    ((dats m hO 0 c).arrAt 7 (cfgM m hO).N : S45056x128.Idx → Elt F .f32) (ix2 s l) = outsAt0 m hO c t (ix2 r l) := by
  refine ((dats m hO 0 c).arrAt_apply_of_mem 7 (glue (adm m hO) (fun t => outsAt0 m hO c t)) (flushed_eq m hO c)
    (cfgM m hO).N t (ix2 s l) t.isLt (flush0_7 (adm m hO) t) (mem7 (adm m hO) t s l ht.symm)).trans ?_
  exact glue_apply (adm m hO) (fun t => outsAt0 m hO c t) s l t ht r hr

end anyF

section run

variable {F : FTy → Type} [FloatOps F]
variable (m : (ℓ : Loc nD τ sig) → Buf (Elt F) ℓ) (ρ : Dev nD → PrngReg)

/-- THE RUN, with the result named: every weakly fair execution ends with the result buffer at what the lines after
    the region compute from the output array, and the arguments unchanged. -/
theorem run (hO : Ok m) : θ_run defs (onTc (τ := τ) (main (F := F))) ⟨m, fun _ => 0, ρ⟩ (fun r => ∀ c : Dev nD,
      r.2.mem ((c.tc : Thread nD τ).loc main_v151)
        = Pipeline.afterTail pcfgs (fun _ => adm m hO) (dats m hO) 0 (V0 m) [hostOps1] c main_v151
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).2 main_v151 (by decide : main_v151 ∈ Pipeline.restRefs sig spec0),
      (((h c).2 main_arg0 (by decide : main_arg0 ∈ Pipeline.restRefs sig spec0)).trans (W_main_arg0 m hO (dats m hO) c)),
      (((h c).2 main_arg1 (by decide : main_arg1 ∈ Pipeline.restRefs sig spec0)).trans (W_main_arg1 m hO (dats m hO) c)),
      (((h c).2 main_arg2 (by decide : main_arg2 ∈ Pipeline.restRefs sig spec0)).trans (W_main_arg2 m hO (dats m hO) c)),
      (((h c).2 main_arg3 (by decide : main_arg3 ∈ Pipeline.restRefs sig spec0)).trans (W_main_arg3 m hO (dats m hO) c)),
      (((h c).2 main_arg4 (by decide : main_arg4 ∈ Pipeline.restRefs sig spec0)).trans (W_main_arg4 m hO (dats m hO) c)),
      (((h c).2 main_arg5 (by decide : main_arg5 ∈ Pipeline.restRefs sig spec0)).trans (W_main_arg5 m hO (dats m hO) c)),
      (((h c).2 main_arg6 (by decide : main_arg6 ∈ Pipeline.restRefs sig spec0)).trans (W_main_arg6 m hO (dats m hO) c)),
      (((h c).2 main_arg7 (by decide : main_arg7 ∈ Pipeline.restRefs sig spec0)).trans (W_main_arg7 m hO (dats m hO) c)),
      (((h c).2 main_arg8 (by decide : main_arg8 ∈ Pipeline.restRefs sig spec0)).trans (W_main_arg8 m hO (dats m hO) c)),
      (((h c).2 main_arg9 (by decide : main_arg9 ∈ Pipeline.restRefs sig spec0)).trans (W_main_arg9 m hO (dats m hO) c)),
      (((h c).2 main_arg10 (by decide : main_arg10 ∈ Pipeline.restRefs sig spec0)).trans (W_main_arg10 m hO (dats m hO) c)),
      (((h c).2 main_arg11 (by decide : main_arg11 ∈ Pipeline.restRefs sig spec0)).trans (W_main_arg11 m hO (dats m hO) c)),
      (((h c).2 main_arg12 (by decide : main_arg12 ∈ Pipeline.restRefs sig spec0)).trans (W_main_arg12 m hO (dats m hO) c)),
      (((h c).2 main_arg13 (by decide : main_arg13 ∈ Pipeline.restRefs sig spec0)).trans (W_main_arg13 m hO (dats m hO) c))⟩)
    (run_main m ρ hO)

end run

section ideal

open Cert.KernelIdeal.WeightReads

variable (m : (ℓ : Loc nD τ sig) → Buf (Elt Ideal) ℓ)

/-- The parameter record of the program's twelve parameter arrays. -/
def params (c : Dev nD) : Params :=
  paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The dense network depends on its seven ingredients only through their values. -/
theorem rowNet_congr {x x' : Fin 35 → EReal} {A1 A1' : Fin 256 → Fin 35 → EReal} {c1 c1' : Fin 256 → EReal}
    {A2 A2' : Fin 256 → Fin 256 → EReal} {c2 c2' : Fin 256 → EReal} {A3 A3' : Fin 7 × Fin 5 → Fin 256 → EReal}
    {c3 c3' : Fin 7 × Fin 5 → EReal} (hx : x = x') (h1 : A1 = A1') (h2 : c1 = c1') (h3 : A2 = A2') (h4 : c2 = c2')
    (h5 : A3 = A3') (h6 : c3 = c3') (q : Fin 7) (o : Fin 5) :
    rowNet x A1 c1 A2 c2 A3 c3 q o = rowNet x' A1' c1' A2' c2' A3' c3' q o := by
  subst hx h1 h2 h3 h4 h5 h6; rfl

set_option maxHeartbeats 4000000 in
/-- THE KERNEL PROGRAM'S RESULT at `(b, q, o)`: the network with the weights summed first, at row `b` and its judge. -/
theorem result_apply (hO : Ok m) (c : Dev nD) (hr : InRange (m ((c : Thread nD τ).loc main_arg1))) (b : Fin 32768) (q : Fin 7) (o : Fin 5) :
    (Pipeline.afterTail pcfgs (fun _ => adm m hO) (dats m hO) 0 (V0 m) [hostOps1] c main_v151 : S32768x7x5.Idx → EReal) (ix3 b q o)
      = netK (params m c) ⟨key (m ((c : Thread nD τ).loc main_arg1)) b, key_lt (m ((c : Thread nD τ).loc main_arg1)) hr b⟩ (fun i : Fin 35 => ((m ((c : Thread nD τ).loc main_arg0)) : S32768x35.Idx → EReal) (ix2 b i)) q o := by
  obtain ⟨dest, hd, hx, he⟩ := HostRouting.routing (F := Ideal) (m ((c : Thread nD τ).loc main_arg1)) hr
  have hN : (cfgM m hO).N = 44 := N_0
  have hdl := (dest b).isLt
  -- the slot's block and its row inside the block
  obtain ⟨t, ht⟩ : ∃ t : Fin (cfgM m hO).N, t.val = (dest b).val / 1024 := ⟨⟨(dest b).val / 1024, by omega⟩, rfl⟩
  obtain ⟨t', ht'⟩ : ∃ t' : Fin 44, t'.val = (dest b).val / 1024 := ⟨⟨(dest b).val / 1024, by omega⟩, rfl⟩
  obtain ⟨r, hrr⟩ : ∃ r : Fin 1024, r.val = (dest b).val % 1024 := ⟨⟨(dest b).val % 1024, Nat.mod_lt _ (by decide)⟩, rfl⟩
  have hs : (dest b).val = 1024 * t.val + r.val := by rw [ht, hrr]; omega
  -- the block's owner is the row's judge
  have hj : (key (m ((c : Thread nD τ).loc main_arg1)) b) = ((adm m hO).1 0 (ix1 t')).toNat := by
    have e1 : (adm m hO).1 0 = blockExpert (m ((c : Thread nD τ).loc main_arg1)) := (V_pre m c 0).symm.trans (HostStages.V_blockExpert m c)
    rw [e1]; exact (he b t' ht').symm
  -- the result, through the tail, the output array, the point's block, the body
  refine (congrFun (tail_eq m hO c) (ix3 b q o)).trans ?_
  rw [HostStages.V_destIndex]
  refine (tailFn_apply _ _ b (dest b) (hd b) q o).trans ?_
  refine (arr_apply m hO c (dest b) (HostTail.lane q o) t ht r hrr).trans ?_
  rw [outsAt0_eq]
  refine (kernelOut_apply _ _ _ _ _ _ _ r q o).trans ?_
  rw [netK_eq_rowNet]
  refine rowNet_congr ?_ ?_ ?_ ?_ ?_ ?_ ?_ q o
  · funext i
    refine (blk0_read (adm m hO) t (V m c main_v122) r i (dest b) hs).trans ?_
    rw [HostStages.V_paddedX]; exact hx _ b i
  · funext h i
    refine (blk1_read (adm m hO) t t' (ht'.trans ht.symm) (V m c main_v13) h i ⟨_, key_lt _ hr b⟩ hj).trans ?_
    rw [HostStages.V_w1tot]; exact w1tot_apply _ _ _ h i
  · funext h
    refine (blk2_read (adm m hO) t t' (ht'.trans ht.symm) (V m c main_v17) (0 : Fin 1) h ⟨_, key_lt _ hr b⟩ hj).trans ?_
    rw [HostStages.V_b1tot]; exact b1tot_apply _ _ _ _ _ (0 : Fin 1) h
  · funext g h
    refine (blk3_read (adm m hO) t t' (ht'.trans ht.symm) (V m c main_v30) g h ⟨_, key_lt _ hr b⟩ hj).trans ?_
    rw [HostStages.V_w2tot]; exact w2tot_apply _ _ _ g h
  · funext g
    refine (blk4_read (adm m hO) t t' (ht'.trans ht.symm) (V m c main_v34) (0 : Fin 1) g ⟨_, key_lt _ hr b⟩ hj).trans ?_
    rw [HostStages.V_b2tot]; exact b2tot_apply _ _ _ _ _ (0 : Fin 1) g
  · funext qo g
    refine (blk5_read (adm m hO) t t' (ht'.trans ht.symm) (V m c main_v51) (KernelSoftmax.head qo.1 qo.2) g ⟨_, key_lt _ hr b⟩ hj).trans ?_
    rw [HostStages.V_vtot]; exact vtot_apply _ _ _ qo.1 qo.2 g
  · funext qo
    refine (blk6_read (adm m hO) t t' (ht'.trans ht.symm) (V m c main_v55) (0 : Fin 1) (KernelSoftmax.head qo.1 qo.2) ⟨_, key_lt _ hr b⟩ hj).trans ?_
    rw [HostStages.V_bvtot]; exact bvtot_apply _ _ _ _ _ (0 : Fin 1) qo.1 qo.2

end ideal

end Cert.KernelIdeal.KernelValue

end
-- ==== Proof.RefValue.lean ====
/-
  The reference program's run: it ends with its result at the last stage of its arguments, the arguments unchanged.

  @main is a straight line of 152 host operations; every weakly fair execution runs them in order, so each buffer ends
  at the fold of the operations over the launch contents. Read one operation at a time, the result buffer's fold is
  the composition of the stages `val_main_v0 … val_main_v71`, and no operation writes an argument.
-/
import proofs.«423243_j44985487458585_3_alg».proof.Proof.RefRun
import proofs.«423243_j44985487458585_3_alg».proof.Proof.RefRead
import proofs.«423243_j44985487458585_3_alg».proof.Proof.LibTypedRef
import Idealize.ShloMosaic.Lib.StableHlo.Run

set_option maxRecDepth 16384

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- An array with one more column appended (to 35 columns; to 256 columns). -/
def appendCol36 (a : FVec F S32768x35 .f32) (b : FVec F S32768x1 .f32) : FVec F S32768x36 .f32 :=
  concatenate S32768x36 1 [⟨S32768x35, a⟩, ⟨S32768x1, b⟩] concatenates_S32768x35_S32768x1_S32768x36_d1
theorem appendCol36_def (a : FVec F S32768x35 .f32) (b : FVec F S32768x1 .f32) :
    concatenate S32768x36 1 [⟨S32768x35, a⟩, ⟨S32768x1, b⟩] concatenates_S32768x35_S32768x1_S32768x36_d1 = appendCol36 a b := rfl
def appendCol257 (a : FVec F S32768x256 .f32) (b : FVec F S32768x1 .f32) : FVec F S32768x257 .f32 :=
  concatenate S32768x257 1 [⟨S32768x256, a⟩, ⟨S32768x1, b⟩] concatenates_S32768x256_S32768x1_S32768x257_d1
theorem appendCol257_def (a : FVec F S32768x256 .f32) (b : FVec F S32768x1 .f32) :
    concatenate S32768x257 1 [⟨S32768x256, a⟩, ⟨S32768x1, b⟩] concatenates_S32768x256_S32768x1_S32768x257_d1 = appendCol257 a b := rfl

/-- The three reshapes that drop an axis of size one, as plain functions of the array. -/
def dropMid256 (x : (⟨S32768x1x256, .f32⟩ : BufTy).Contents (Elt F)) : (⟨S32768x256, .f32⟩ : BufTy).Contents (Elt F) :=
  shapeCast _ x shapeCasts_S32768x1x256_S32768x256
def dropOne111 (x : (⟨S32768x1x1x1, .i32⟩ : BufTy).Contents (Elt F)) : (⟨S32768x1x1, .i32⟩ : BufTy).Contents (Elt F) :=
  shapeCast _ x shapeCasts_S32768x1x1x1_S32768x1x1
def dropMid75 (x : (⟨S32768x1x7x5, .f32⟩ : BufTy).Contents (Elt F)) : (⟨S32768x7x5, .f32⟩ : BufTy).Contents (Elt F) :=
  shapeCast _ x shapeCasts_S32768x1x7x5_S32768x7x5

/-! The four stages that are such a reshape, and what the reshape operations write. -/

theorem val_main_v5_eq (x0 : (⟨S32768x35, .f32⟩ : BufTy).Contents (Elt F)) (x1 : (⟨S32768, .i32⟩ : BufTy).Contents (Elt F)) (x6 : (⟨S12x256x36, .f32⟩ : BufTy).Contents (Elt F)) :
    val_main_v5 (F := F) x0 x1 x6 = dropMid256 (val_main_v4 (F := F) x0 x1 x6) := rfl
theorem val_main_v26_eq (x0 : (⟨S32768x35, .f32⟩ : BufTy).Contents (Elt F)) (x1 : (⟨S32768, .i32⟩ : BufTy).Contents (Elt F)) (x2 : (⟨S256x36, .f32⟩ : BufTy).Contents (Elt F)) (x3 : (⟨S256, .f32⟩ : BufTy).Contents (Elt F)) (x6 : (⟨S12x256x36, .f32⟩ : BufTy).Contents (Elt F)) (x7 : (⟨S12x256, .f32⟩ : BufTy).Contents (Elt F)) (x8 : (⟨S12x256x257, .f32⟩ : BufTy).Contents (Elt F)) :
    val_main_v26 (F := F) x0 x1 x2 x3 x6 x7 x8 = dropMid256 (val_main_v25 (F := F) x0 x1 x2 x3 x6 x7 x8) := rfl
theorem val_main_call4_v5_eq (x1 : (⟨S32768, .i32⟩ : BufTy).Contents (Elt F)) :
    val_main_call4_v5 (F := F) x1 = dropOne111 (val_main_call4_v4 (F := F) x1) := rfl
theorem val_main_v51_eq (x0 : (⟨S32768x35, .f32⟩ : BufTy).Contents (Elt F)) (x1 : (⟨S32768, .i32⟩ : BufTy).Contents (Elt F)) (x2 : (⟨S256x36, .f32⟩ : BufTy).Contents (Elt F)) (x3 : (⟨S256, .f32⟩ : BufTy).Contents (Elt F)) (x4 : (⟨S256x257, .f32⟩ : BufTy).Contents (Elt F)) (x5 : (⟨S256, .f32⟩ : BufTy).Contents (Elt F)) (x6 : (⟨S12x256x36, .f32⟩ : BufTy).Contents (Elt F)) (x7 : (⟨S12x256, .f32⟩ : BufTy).Contents (Elt F)) (x8 : (⟨S12x256x257, .f32⟩ : BufTy).Contents (Elt F)) (x9 : (⟨S12x256, .f32⟩ : BufTy).Contents (Elt F)) (x12 : (⟨S12x7x5x257, .f32⟩ : BufTy).Contents (Elt F)) :
    val_main_v51 (F := F) x0 x1 x2 x3 x4 x5 x6 x7 x8 x9 x12 = dropMid75 (val_main_v50 (F := F) x0 x1 x2 x3 x4 x5 x6 x7 x8 x9 x12) := rfl

/-- Dropping the middle axis of the first gathered layer-1 term: what the reshape writes at its result. -/
theorem reshape_main_v5 (he hn hx hy) (G : Valuation τ sig (Elt F)) :
    (StableHlo.reshape (τ := τ) (Val := Elt F) main_v4 main_v5 he hn hx hy).result G (no_index (Proc.devRef .tc main_v5))
      = dropMid256 (G (Proc.devRef .tc main_v4)) :=
  (StableHlo.reshape_result main_v4 main_v5 he hn hx hy G).trans rfl
/-- The same for the gathered layer-2 term. -/
theorem reshape_main_v26 (he hn hx hy) (G : Valuation τ sig (Elt F)) :
    (StableHlo.reshape (τ := τ) (Val := Elt F) main_v25 main_v26 he hn hx hy).result G (no_index (Proc.devRef .tc main_v26))
      = dropMid256 (G (Proc.devRef .tc main_v25)) :=
  (StableHlo.reshape_result main_v25 main_v26 he hn hx hy G).trans rfl
theorem reshape_main_call4_v5
    (h1 : (main_call4_v4 : Ref sig .tc).ty = (⟨S32768x1x1x1, .i32⟩ : BufTy)) (h2 : (main_call4_v4 : Ref sig .tc).space ≠ .host)
    (h3 : (main_call4_v4 : Ref sig .tc).isScoped = false)
    (k1 : (main_call4_v5 : Ref sig .tc).ty = (⟨S32768x1x1, .i32⟩ : BufTy)) (k2 : (main_call4_v5 : Ref sig .tc).space ≠ .host)
    (k3 : (main_call4_v5 : Ref sig .tc).isScoped = false) (he hn) (G : Valuation τ sig (Elt F)) :
    (TRef.reshape (τ := τ) (Val := Elt F) (TRef.of main_call4_v4 h1 h2 h3) (TRef.of main_call4_v5 k1 k2 k3) he hn).result G
        (no_index (Proc.devRef .tc main_call4_v5))
      = dropOne111 (G (Proc.devRef .tc main_call4_v4)) :=
  (StableHlo.reshape_result _ _ _ _ _ _ G).trans rfl
/-- And for the gathered heads' term, whose middle axis of one sits before the 7 by 5 logits. -/
theorem reshape_main_v51 (he hn hx hy) (G : Valuation τ sig (Elt F)) :
    (StableHlo.reshape (τ := τ) (Val := Elt F) main_v50 main_v51 he hn hx hy).result G (no_index (Proc.devRef .tc main_v51))
      = dropMid75 (G (Proc.devRef .tc main_v50)) :=
  (StableHlo.reshape_result main_v50 main_v51 he hn hx hy G).trans rfl

set_option maxHeartbeats 60800000 in
/-- The result buffer after the 152 operations is the last stage of the launch contents of the arguments. -/
theorem after_main_v71 (m : (ℓ : Loc nD τ sig) → Buf (Elt F) ℓ) (c : Dev nD) :
    StableHlo.after (ops (F := F)) (launchContents m c) (Proc.devRef .tc main_v71)
      = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  simp only [ops]
  simp (disch := decide) only [StableHlo.after_cons, StableHlo.after_nil, launchContents,
      StableHlo.nullary_result', StableHlo.unary_result', StableHlo.binary_result', StableHlo.ternary_result', StableHlo.quaternary_result',
      StableHlo.nullary_result_ne', StableHlo.unary_result_ne', StableHlo.binary_result_ne', StableHlo.ternary_result_ne', StableHlo.quaternary_result_ne', StableHlo.reshape_result_ne',
      reshape_main_v5, reshape_main_v26, reshape_main_call4_v5, reshape_main_v51,
      appendCol36_def, appendCol257_def, TRef.ofBuf_toBuf, TRef.toBuf_ofBuf, id, TRef.ofBuf, TRef.toBuf, cast_eq]
  simp only [val_main_v71, val_main_v70, val_main_v69, val_main_v68, val_main_cst_9, val_main_v67, val_main_v66, val_main_v65, val_main_v64, val_main_v63, val_main_v62, val_main_cst_8, val_main_v61, val_main_cst_7, val_main_v60, val_main_v59, val_main_v58, val_main_v57, val_main_v56, val_main_v55, val_main_v54, val_main_c_6, val_main_v53, val_main_v52, val_main_c_5, val_main_v50, val_main_call4_v15, val_main_call4_cst, val_main_call4_v14, val_main_call4_v13, val_main_call4_v12, val_main_call4_c_3, val_main_call4_v11, val_main_call4_v10, val_main_call4_v9, val_main_call4_v8, val_main_call4_v7, val_main_call4_v6, val_main_call4_c_2, val_main_call4_c_1, val_main_call4_v4, val_main_call4_v3, val_main_call4_v2, val_main_call4_c_0, val_main_call4_v1, val_main_call4_v0, val_main_call4_c, val_main_v49, val_main_v48, val_main_v47, val_main_v46, val_main_v45, val_main_v44, val_main_v43, val_main_v42, val_main_cst_4, val_main_v41, val_main_call3_v0, val_main_call3_cst, val_main_v40, val_main_v39, val_main_v38, val_main_v37, val_main_v36, val_main_v35, val_main_v34, val_main_v33, val_main_v32, val_main_v31, val_main_v30, val_main_v29, val_main_c_3, val_main_v28, val_main_v27, val_main_c_2, val_main_v25, val_main_call2_v14, val_main_call2_cst, val_main_call2_v13, val_main_call2_v12, val_main_call2_v11, val_main_call2_c_3, val_main_call2_v10, val_main_call2_v9, val_main_call2_v8, val_main_call2_v7, val_main_call2_v6, val_main_call2_v5, val_main_call2_c_2, val_main_call2_c_1, val_main_call2_v4, val_main_call2_v3, val_main_call2_v2, val_main_call2_c_0, val_main_call2_v1, val_main_call2_v0, val_main_call2_c, val_main_v24, val_main_v23, val_main_v22, val_main_v21, val_main_cst_1, val_main_v20, val_main_call1_v0, val_main_call1_cst, val_main_v19, val_main_v18, val_main_v17, val_main_v16, val_main_v15, val_main_v14, val_main_v13, val_main_v12, val_main_v11, val_main_v10, val_main_v9, val_main_v8, val_main_c_0, val_main_v7, val_main_v6, val_main_c, val_main_v4, val_main_call0_v14, val_main_call0_cst, val_main_call0_v13, val_main_call0_v12, val_main_call0_v11, val_main_call0_c_3, val_main_call0_v10, val_main_call0_v9, val_main_call0_v8, val_main_call0_v7, val_main_call0_v6, val_main_call0_v5, val_main_call0_c_2, val_main_call0_c_1, val_main_call0_v4, val_main_call0_v3, val_main_call0_v2, val_main_call0_c_0, val_main_call0_v1, val_main_call0_v0, val_main_call0_c, val_main_v3, val_main_v2, val_main_v1, val_main_v0, val_main_cst, val_main_v5_eq, val_main_v26_eq, val_main_call4_v5_eq, val_main_v51_eq, appendCol36_def, appendCol257_def, id, Thread.loc, Dev.tc]

set_option maxHeartbeats 60800000 in
/-- THE RUN. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v71).trans (after_main_v71 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_seq scopedRefs_eq scopedSems_eq defs main (fun _ => ops) main_eq (fun _ => ops_sub) m ρ)

end Cert.ReferenceIdeal.RefValue

end
-- ==== Proof.RefJudge.lean ====
/-
  The judge of a row: the row's id word as an index into the twelve judges, for ids in range.
-/
import proofs.«423243_j44985487458585_3_alg».proof.Proof.RefRead
import Idealize.ShloMosaic.Lib.ValueIdx

noncomputable section

namespace Cert.ReferenceIdeal.RefJudge

open Cert.ReferenceIdeal Idealize.ShloMosaic Idealize.ShloMosaic.ValueIdx

/-- Every id is a judge: `0 ≤ id < 12` as a signed integer. -/
def InRange (x1 : (⟨S32768, .i32⟩ : BufTy).Contents (Elt Ideal)) : Prop :=
  ∀ b : Fin 32768, 0 ≤ (x1 (ix1 b)).toInt ∧ (x1 (ix1 b)).toInt < 12

/-- The judge of row `b`. -/
def judge (x1 : (⟨S32768, .i32⟩ : BufTy).Contents (Elt Ideal)) (hr : InRange x1) (b : Fin 32768) : Fin 12 :=
  ⟨(x1 (ix1 b)).toNat, by
    have h := hr b
    have h32 := (x1 (ix1 b)).isLt
    unfold BitVec.toInt at h
    split at h <;> omega⟩

theorem judge_val (x1 : (⟨S32768, .i32⟩ : BufTy).Contents (Elt Ideal)) (hr : InRange x1) (b : Fin 32768) :
    (judge x1 hr b).val = (x1 (ix1 b)).toNat := rfl

/-- In range, the id read as a signed integer is the judge. -/
theorem toInt_eq_judge (x1 : (⟨S32768, .i32⟩ : BufTy).Contents (Elt Ideal)) (hr : InRange x1) (b : Fin 32768) :
    (x1 (ix1 b)).toInt = ((judge x1 hr b).val : ℤ) := by
  have h := hr b
  have h32 := (x1 (ix1 b)).isLt
  show (x1 (ix1 b)).toInt = ((x1 (ix1 b)).toNat : ℤ)
  unfold BitVec.toInt at h ⊢
  split at h <;> split <;> omega

end Cert.ReferenceIdeal.RefJudge

end
-- ==== Proof.RefLayer1.lean ====
/-
  The reference's first hidden layer, read at `(b, h)`, with every id in `[0, 12)`.

  The layer is `relu ((xb · W1ᵀ + b1) + (a1[b, ids[b]] + W1a_b[ids[b]]))` with `xb` the row followed by a 1 and
  `a1[b, j, h] = ∑ i, xb[b, i] · W1a[j, h, i]`. An in-range id is not wrapped, is inside the bounds the lookup checks,
  so the lookup along the judge axis returns the looked-up entry (not the fill value), and the row lookup of the judge
  bias reads row `ids[b]`. So the entry is `relu (affR (app1 row) W1 (W1a j) b1 (b1a j) h)` at `j = ids[b]`.
-/
import proofs.«423243_j44985487458585_3_alg».proof.Proof.RefRead
import proofs.«423243_j44985487458585_3_alg».proof.Proof.RefJudge
import proofs.«423243_j44985487458585_3_alg».proof.Proof.MoeParams
import proofs.«423243_j44985487458585_3_alg».proof.Proof.LibIndexed
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.ReferenceIdeal.RefLayer1

open Cert.ReferenceIdeal Cert.ReferenceIdeal.Gen Cert.ReferenceIdeal.ReadP Cert.ReferenceIdeal.RefJudge Cert.Moe.Spec
open Idealize.ShloMosaic Idealize.ShloMosaic.ValueIdx

/-! ## Words: an id in range is not negative and at most 11 -/

theorem cmpi_slt_zero_of_nonneg (x : BitVec 32) (h : 0 ≤ x.toInt) : IntOp.cmpi .slt x 0#32 = 0#1 := by
  have hs : x.slt 0#32 = false := by
    rw [Bool.eq_false_iff]
    intro hc
    rw [BitVec.slt_iff_toInt_lt] at hc
    simp at hc
    omega
  show BitVec.ofBool (x.slt 0#32) = 0#1
  rw [hs]
  rfl

theorem cmpi_sge_zero_of_nonneg (x : BitVec 32) (h : 0 ≤ x.toInt) : IntOp.cmpi .sge x 0#32 = 1#1 := by
  have hs : (0#32).sle x = true := by
    rw [BitVec.sle_iff_toInt_le]
    simpa using h
  show BitVec.ofBool ((0#32).sle x) = 1#1
  rw [hs]
  rfl

theorem cmpi_sle_eleven_of_lt (x : BitVec 32) (h : x.toInt < 12) : IntOp.cmpi .sle x 11#32 = 1#1 := by
  have h11 : (11#32 : BitVec 32).toInt = 11 := by decide
  have hs : x.sle 11#32 = true := by
    rw [BitVec.sle_iff_toInt_le, h11]
    omega
  show BitVec.ofBool (x.sle 11#32) = 1#1
  rw [hs]
  rfl

/-- The id wrapped by the axis length only if negative: an id that is not negative stays. -/
theorem wrap_select_of_nonneg (x len : BitVec 32) (h : 0 ≤ x.toInt) :
    Scalar.select (IntOp.cmpi .slt x 0#32) (IntOp.addi x len) x = x := by
  rw [cmpi_slt_zero_of_nonneg x h, select_zero]

/-! ## An and-reduce all of whose entries are 1 -/

theorem foldl_andi_one {ι : Type} (f : ι → BitVec 1) (l : List ι) (hl : ∀ n ∈ l, f n = 1#1) :
    l.foldl (fun r n => IntOp.andi r (f n)) 1#1 = 1#1 := by
  induction l with
  | nil => rfl
  | cons a t ih =>
    rw [List.foldl_cons, hl a List.mem_cons_self]
    exact ih (fun n hn => hl n (List.mem_cons_of_mem _ hn))

theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  unfold Host.reduce
  rw [hinit]
  exact foldl_andi_one (fun n => x (s.rowMajor.symm n)) _ (fun n _ => hx _)

/-! ## Two blocks side by side, read at a column -/

section concat

variable {α : Type} {n m₁ m₂ m : ℕ} (x₁ : (⟨2, ![n, m₁]⟩ : Shape).Idx → α) (x₂ : (⟨2, ![n, m₂]⟩ : Shape).Idx → α)
  (hc : Shape.Concatenates [(⟨2, ![n, m₁]⟩ : Shape), ⟨2, ![n, m₂]⟩] ⟨2, ![n, m]⟩ 1)

theorem concat_cols_left (r : Fin n) (l : Fin m) (l₁ : Fin m₁) (hl : l₁.val = l.val) :
    concatenate ⟨2, ![n, m]⟩ 1 [⟨⟨2, ![n, m₁]⟩, x₁⟩, ⟨⟨2, ![n, m₂]⟩, x₂⟩] hc (ix2 r l) = x₁ (ix2 r l₁) := by
  refine concatenate_pair_apply_left (t := ⟨2, ![n, m]⟩) (s₁ := ⟨2, ![n, m₁]⟩) (s₂ := ⟨2, ![n, m₂]⟩) (1 : Fin 2) x₁ x₂ hc
    (ix2 r l) rfl (ix2 r l₁) ?_
  intro b
  match b with
  | ⟨0, _⟩ => rfl
  | ⟨1, _⟩ => exact hl

theorem concat_cols_right (r : Fin n) (l : Fin m) (l₂ : Fin m₂) (hl : l₂.val + m₁ = l.val) :
    concatenate ⟨2, ![n, m]⟩ 1 [⟨⟨2, ![n, m₁]⟩, x₁⟩, ⟨⟨2, ![n, m₂]⟩, x₂⟩] hc (ix2 r l) = x₂ (ix2 r l₂) := by
  refine concatenate_pair_apply_right (t := ⟨2, ![n, m]⟩) (s₁ := ⟨2, ![n, m₁]⟩) (s₂ := ⟨2, ![n, m₂]⟩) (1 : Fin 2) x₁ x₂ hc
    (ix2 r l) rfl rfl (ix2 r l₂) ?_ hl
  intro b hb
  match b with
  | ⟨0, _⟩ => rfl
  | ⟨1, _⟩ => exact absurd rfl hb

end concat

/-! ## The lookup along the middle axis: a gather with the leading axis a batching axis -/

/-- The dimension numbers of `operand[b, idx[b, 0, 0], :]` for an operand `[B, J, H]` and start indices `[B, 1, 1]`. -/
abbrev takeAxisDims (B J H : ℕ)
    (wf : GatherDims.WF ⟨3, ![B, J, H]⟩ ⟨3, ![B, 1, 1]⟩ ⟨3, ![B, 1, H]⟩ [2] [1] [0] [1] [0] 2 ![1, 1, H]) :
    GatherDims ⟨3, ![B, J, H]⟩ ⟨3, ![B, 1, 1]⟩ ⟨3, ![B, 1, H]⟩ where
  offsetDims := [2]
  collapsedSliceDims := [1]
  operandBatchingDims := [0]
  startIndicesBatchingDims := [0]
  startIndexMap := [1]
  indexVectorDim := 2
  sliceSizes := ![1, 1, H]
  wf := wf

/-- Result element `(b, u, h)`: the operand at row `b`, at the start index `idx[b, u, 0]` read signed and clamped into
    the middle axis, at column `h`. -/
theorem gather_takeAxis_apply {α : Type} {B J H w : ℕ} (hJ : 0 < J)
    (wf : GatherDims.WF ⟨3, ![B, J, H]⟩ ⟨3, ![B, 1, 1]⟩ ⟨3, ![B, 1, H]⟩ [2] [1] [0] [1] [0] 2 ![1, 1, H])
    (x : (⟨3, ![B, J, H]⟩ : Shape).Idx → α) (idx : IVec ⟨3, ![B, 1, 1]⟩ w) (b : Fin B) (u : Fin 1) (h : Fin H) :
    Host.gather (takeAxisDims B J H wf) x idx (ix3 b u h)
      = x (ix3 b ⟨min (idx (ix3 b u (0 : Fin 1))).toInt.toNat (J - 1), by omega⟩ h) := by
  show x ((takeAxisDims B J H wf).operandIdx (ix3 b u h) idx) = _
  refine congrArg x (funext fun a => Fin.ext ?_)
  match a with
  | ⟨0, h0⟩ =>
    -- the batching axis: the result's row
    show GatherDims.start _ (ix3 b u h) idx ⟨0, h0⟩ + GatherDims.batchCoord _ (ix3 b u h) ⟨0, h0⟩
      + GatherDims.offCoord _ (ix3 b u h) ⟨0, h0⟩ = b.val
    have hmem : (⟨0, h0⟩ : Fin 3) ∈ ([0] : List (Fin 3)) := List.mem_singleton.mpr rfl
    rw [GatherDims.start_batching _ _ _ _ hmem,
      GatherDims.offCoord_eq_zero _ _ _ (fun hk => ((GatherDims.mem_sKept _ _).mp hk).2 hmem)]
    unfold GatherDims.batchCoord
    rw [dif_pos hmem]
    simp only [Nat.zero_add, Nat.add_zero]
    rfl
  | ⟨1, h1⟩ =>
    -- the collapsed axis the start index map names: the clamped start alone
    show GatherDims.start _ (ix3 b u h) idx ⟨1, h1⟩ + GatherDims.batchCoord _ (ix3 b u h) ⟨1, h1⟩
      + GatherDims.offCoord _ (ix3 b u h) ⟨1, h1⟩ = _
    have hmem : (⟨1, h1⟩ : Fin 3) ∈ ([1] : List (Fin 3)) := List.mem_singleton.mpr rfl
    have hnb : (⟨1, h1⟩ : Fin 3) ∉ ([0] : List (Fin 3)) := fun hm =>
      absurd (show (1 : ℕ) = 0 from congrArg Fin.val (List.mem_singleton.mp hm)) (by decide)
    rw [GatherDims.batchCoord_eq_zero _ _ _ hnb,
      GatherDims.offCoord_eq_zero _ _ _ (fun hk => ((GatherDims.mem_sKept _ _).mp hk).1 hmem)]
    simp only [Nat.add_zero]
    unfold GatherDims.start
    rw [dif_pos hmem]
    have hsi : GatherDims.siIdx (takeAxisDims B J H wf) (ix3 b u h)
        ⟨List.idxOf (⟨1, h1⟩ : Fin 3) ([1] : List (Fin 3)), List.idxOf_lt_length_iff.2 hmem⟩ = ix3 b u (0 : Fin 1) := by
      funext c
      refine Fin.ext ?_
      match c with
      | ⟨0, _⟩ => rfl
      | ⟨1, _⟩ => rfl
      | ⟨2, _⟩ => rfl
    rw [hsi]
    rfl
  | ⟨2, h2⟩ =>
    -- the offset axis: the result's column
    show GatherDims.start _ (ix3 b u h) idx ⟨2, h2⟩ + GatherDims.batchCoord _ (ix3 b u h) ⟨2, h2⟩
      + GatherDims.offCoord _ (ix3 b u h) ⟨2, h2⟩ = h.val
    have hns : (⟨2, h2⟩ : Fin 3) ∉ ([1] : List (Fin 3)) := fun hm =>
      absurd (show (2 : ℕ) = 1 from congrArg Fin.val (List.mem_singleton.mp hm)) (by decide)
    have hnb : (⟨2, h2⟩ : Fin 3) ∉ ([0] : List (Fin 3)) := fun hm =>
      absurd (show (2 : ℕ) = 0 from congrArg Fin.val (List.mem_singleton.mp hm)) (by decide)
    have hkept : (⟨2, h2⟩ : Fin 3) ∈ GatherDims.sKept (takeAxisDims B J H wf) :=
      (GatherDims.mem_sKept _ _).mpr ⟨hns, hnb⟩
    rw [GatherDims.batchCoord_eq_zero _ _ _ hnb]
    unfold GatherDims.start
    rw [dif_neg hns]
    unfold GatherDims.offCoord
    rw [dif_pos hkept]
    simp only [Nat.zero_add, Nat.add_zero]
    rfl

/-! ## The reference's first layer, one value at a time -/

section read

variable (x0 : (⟨S32768x35, .f32⟩ : BufTy).Contents (Elt Ideal)) (x1 : (⟨S32768, .i32⟩ : BufTy).Contents (Elt Ideal))
  (x2 : (⟨S256x36, .f32⟩ : BufTy).Contents (Elt Ideal)) (x3 : (⟨S256, .f32⟩ : BufTy).Contents (Elt Ideal))
  (x6 : (⟨S12x256x36, .f32⟩ : BufTy).Contents (Elt Ideal)) (x7 : (⟨S12x256, .f32⟩ : BufTy).Contents (Elt Ideal))

/-- The row followed by a 1. -/
theorem v1_apply (b : Fin 32768) (k : Fin 36) :
    val_main_v1 (F := Ideal) x0 (ix2 b k) = app1 (fun i : Fin 35 => x0 (ix2 b i)) k := by
  unfold val_main_v1 app1
  by_cases hk : k.val < 35
  · rw [dif_pos hk]
    exact concat_cols_left (n := 32768) (m₁ := 35) (m₂ := 1) (m := 36) x0 _ _ b k ⟨k.val, hk⟩ rfl
  · rw [dif_neg hk]
    refine (concat_cols_right (n := 32768) (m₁ := 35) (m₂ := 1) (m := 36) x0 _ _ b k (0 : Fin 1)
      (by have := k.isLt; show 0 + 35 = k.val; omega)).trans ?_
    rw [val_main_v0_apply]
    exact Ideal.ofBits_one_f32

/-- The row times every judge's matrix. -/
theorem v2_apply (b : Fin 32768) (j : Fin 12) (h : Fin 256) :
    val_main_v2 (F := Ideal) x0 x6 (ix3 b j h)
      = ∑ k : Fin 36, app1 (fun i : Fin 35 => x0 (ix2 b i)) k * x6 (ix3 j h k) := by
  rw [val_main_v2_apply]
  refine Finset.sum_congr rfl fun k _ => ?_
  have el : lidx_main_v2 (ix3 b j h) k = ix2 b k := funext fun a => Fin.ext (by
    match a with
    | ⟨0, _⟩ => rfl
    | ⟨1, _⟩ => rfl)
  have er : ridx_main_v2 (ix3 b j h) k = ix3 j h k := funext fun a => Fin.ext (by
    match a with
    | ⟨0, _⟩ => rfl
    | ⟨1, _⟩ => rfl
    | ⟨2, _⟩ => rfl)
  rw [el, er, v1_apply]

/-- The id the lookup uses: an id in range is not wrapped. -/
theorem call0_v4_apply (hr : InRange x1) (i : S32768x1x1.Idx) :
    val_main_call0_v4 (F := Ideal) x1 i = x1 (ix1 (i 0)) := by
  have e3 : val_main_v3 (F := Ideal) x1 i = x1 (ix1 (i 0)) := by
    rw [val_main_v3_apply]
    exact congrArg x1 (funext fun a => by
      match a with
      | ⟨0, _⟩ => rfl)
  show Scalar.select (IntOp.cmpi .slt (val_main_v3 (F := Ideal) x1 i) (val_main_call0_v0 (F := Ideal) i))
      (IntOp.addi (val_main_v3 (F := Ideal) x1 i) (val_main_call0_v2 (F := Ideal) i)) (val_main_v3 (F := Ideal) x1 i) = _
  rw [e3]
  exact wrap_select_of_nonneg _ _ (hr (i 0)).1

/-- The lookup's bounds check holds at every row. -/
theorem call0_v10_apply (hr : InRange x1) (i : S32768x1x1.Idx) : val_main_call0_v10 (F := Ideal) x1 i = 1#1 := by
  show IntOp.andi (IntOp.cmpi .sge (val_main_call0_v4 (F := Ideal) x1 i) (val_main_call0_v5 (F := Ideal) i))
      (IntOp.cmpi .sle (val_main_call0_v4 (F := Ideal) x1 i) (val_main_call0_v8 (F := Ideal) i)) = 1#1
  rw [call0_v4_apply x1 hr i]
  have h1 : IntOp.cmpi .sge (x1 (ix1 (i 0))) (val_main_call0_v5 (F := Ideal) i) = 1#1 :=
    cmpi_sge_zero_of_nonneg _ (hr (i 0)).1
  have h2 : IntOp.cmpi .sle (x1 (ix1 (i 0))) (val_main_call0_v8 (F := Ideal) i) = 1#1 :=
    cmpi_sle_eleven_of_lt _ (hr (i 0)).2
  rw [h1, h2]
  rfl

theorem call0_v11_apply (hr : InRange x1) (j : S32768x1.Idx) : val_main_call0_v11 (F := Ideal) x1 j = 1#1 := by
  unfold val_main_call0_v11
  exact reduce_andi_one _ _ _ _ j rfl (call0_v10_apply x1 hr)

/-- The lookup along the judge axis returns the row's product with its judge's matrix. -/
theorem v5_apply (hr : InRange x1) (b : Fin 32768) (h : Fin 256) :
    val_main_v5 (F := Ideal) x0 x1 x6 (ix2 b h)
      = ∑ k : Fin 36, app1 (fun i : Fin 35 => x0 (ix2 b i)) k * x6 (ix3 (judge x1 hr b) h k) := by
  rw [val_main_v5_apply]
  have e5 : idx_main_v5 (ix2 b h) = ix3 b (0 : Fin 1) h := funext fun a => Fin.ext (by
    have hb := b.isLt
    have hh := h.isLt
    match a with
    | ⟨0, _⟩ => show (b.val * 256 + h.val) / 256 = b.val; omega
    | ⟨1, _⟩ => rfl
    | ⟨2, _⟩ => show (b.val * 256 + h.val) % 256 = h.val; omega)
  rw [e5, val_main_v4_apply, val_main_call0_v13_apply, call0_v11_apply x1 hr, select_one]
  unfold val_main_call0_v12
  have hd : gather_S32768x12x256_S32768x1x1_S32768x1x256_2_1_0_0_1_2_11256
      = takeAxisDims 32768 12 256 Facts₀.gather_S32768x12x256_S32768x1x1_S32768x1x256_2_1_0_0_1_2_11256_wf := rfl
  rw [hd, gather_takeAxis_apply (by norm_num : 0 < 12)]
  refine (congrArg (fun z => val_main_v2 (F := Ideal) x0 x6 (ix3 b z h)) (Fin.ext ?_)).trans
    (v2_apply x0 x6 b (judge x1 hr b) h)
  show min (val_main_call0_v4 (F := Ideal) x1 (ix3 b (0 : Fin 1) (0 : Fin 1))).toInt.toNat (12 - 1) = (judge x1 hr b).val
  rw [call0_v4_apply x1 hr]
  show min (x1 (ix1 b)).toInt.toNat (12 - 1) = (judge x1 hr b).val
  rw [toInt_eq_judge x1 hr b]
  have := (judge x1 hr b).isLt
  omega

/-- The judge's bias row. -/
theorem v12_apply (hr : InRange x1) (b : Fin 32768) (h : Fin 256) :
    val_main_v12 (F := Ideal) x1 x7 (ix2 b h) = x7 (ix2 (judge x1 hr b) h) := by
  unfold val_main_v12
  rw [Cert.Rgcn.Lib.gather_rows_apply (N := 12) (K := 256) (R := 32768) (by norm_num)
    gather_S12x256_S32768x1_S32768x256_1_0_n_n_0_1_1256 Facts₀.gather_S12x256_S32768x1_S32768x256_1_0_n_n_0_1_1256_wf rfl]
  refine congrArg (fun z => x7 (ix2 z h)) (Fin.ext ?_)
  show min (val_main_v11 (F := Ideal) x1 (ix2 b (0 : Fin 1))).toInt.toNat (12 - 1) = (judge x1 hr b).val
  have e11 : val_main_v11 (F := Ideal) x1 (ix2 b (0 : Fin 1)) = x1 (ix1 b) := by
    rw [val_main_v11_apply]
    have e : idx_main_v11 (ix2 b (0 : Fin 1)) = ix1 b := funext fun a => by
      match a with
      | ⟨0, _⟩ => rfl
    rw [e]
    exact wrap_select_of_nonneg _ _ (hr b).1
  rw [e11, toInt_eq_judge x1 hr b]
  have := (judge x1 hr b).isLt
  omega

/-- The row times the shared matrix. -/
theorem v15_apply (b : Fin 32768) (h : Fin 256) :
    val_main_v15 (F := Ideal) x0 x2 (ix2 b h)
      = ∑ k : Fin 36, app1 (fun i : Fin 35 => x0 (ix2 b i)) k * x2 (ix2 h k) := by
  rw [val_main_v15_apply]
  refine Finset.sum_congr rfl fun k _ => ?_
  have el : lidx_main_v15 (ix2 b h) k = ix2 b k := funext fun a => Fin.ext (by
    match a with
    | ⟨0, _⟩ => rfl
    | ⟨1, _⟩ => rfl)
  have er : ridx_main_v15 (ix2 b h) k = ix2 k h := funext fun a => Fin.ext (by
    match a with
    | ⟨0, _⟩ => rfl
    | ⟨1, _⟩ => rfl)
  have e14 : idx_main_v14 (ix2 k h) = ix2 h k := funext fun a => Fin.ext (by
    match a with
    | ⟨0, _⟩ => rfl
    | ⟨1, _⟩ => rfl)
  rw [el, er, v1_apply, val_main_v14_apply, e14]

/-- The shared bias row. -/
theorem v17_apply (b : Fin 32768) (h : Fin 256) : val_main_v17 (F := Ideal) x3 (ix2 b h) = x3 (ix1 h) := by
  rw [val_main_v17_apply, val_main_v16_apply]
  exact congrArg x3 (funext fun a => by
    match a with
    | ⟨0, _⟩ => rfl)

end read

theorem layer1_apply (x0 : (⟨S32768x35, .f32⟩ : BufTy).Contents (Elt Ideal)) (x1 : (⟨S32768, .i32⟩ : BufTy).Contents (Elt Ideal)) (x2 : (⟨S256x36, .f32⟩ : BufTy).Contents (Elt Ideal)) (x3 : (⟨S256, .f32⟩ : BufTy).Contents (Elt Ideal)) (x6 : (⟨S12x256x36, .f32⟩ : BufTy).Contents (Elt Ideal)) (x7 : (⟨S12x256, .f32⟩ : BufTy).Contents (Elt Ideal)) (hr : InRange x1) (b : Fin 32768) (h : Fin 256) :
    val_main_v20 (F := Ideal) x0 x1 x2 x3 x6 x7 (ix2 b h)
      = relu (affR (app1 (fun i : Fin 35 => x0 (ix2 b i)))
          (fun (h : Fin 256) (i : Fin 36) => x2 (ix2 h i)) (fun (h : Fin 256) (i : Fin 36) => x6 (ix3 (judge x1 hr b) h i))
          (fun h : Fin 256 => x3 (ix1 h)) (fun h : Fin 256 => x7 (ix2 (judge x1 hr b) h)) h) := by
  have h0 : val_main_call1_v0 (F := Ideal) (ix2 b h) = 0 := Ideal.ofBits_zero_f32
  rw [val_main_v20_apply, val_main_v19_apply, val_main_v18_apply, val_main_v13_apply, v15_apply, v17_apply,
    v5_apply x0 x1 x6 hr, v12_apply x1 x7 hr, h0]
  rfl

end Cert.ReferenceIdeal.RefLayer1

end
-- ==== Proof.RefLayer2.lean ====
/-
  The reference's second hidden layer, read at `(b, g)`, over the first layer's values, with every id in `[0, 12)`.

  The same arrangement as the first layer one level up: the input is the first layer's row followed by a 1, the
  matrices are `W2` and `W2a[ids[b]]` (257 columns), the biases `b2` and `b2a[ids[b]]`.
-/
import proofs.«423243_j44985487458585_3_alg».proof.Proof.RefRead
import proofs.«423243_j44985487458585_3_alg».proof.Proof.RefJudge
import proofs.«423243_j44985487458585_3_alg».proof.Proof.MoeParams
import proofs.«423243_j44985487458585_3_alg».proof.Proof.LibIndexed
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefLayer2

open Cert.ReferenceIdeal Cert.ReferenceIdeal.Gen Cert.ReferenceIdeal.ReadP Cert.ReferenceIdeal.RefJudge Cert.Moe.Spec
open Idealize.ShloMosaic Idealize.ShloMosaic.ValueIdx

/-! ### Generic reads: two blocks side by side, a lookup along a batched axis, a fold over a unit axis, words -/

section Generic

variable {α : Type}

/-- Two blocks side by side, read at a lane of the first. -/
private theorem concat2_left {n m₁ m₂ m : ℕ} (x₁ : (⟨2, ![n, m₁]⟩ : Shape).Idx → α) (x₂ : (⟨2, ![n, m₂]⟩ : Shape).Idx → α)
    (h : Shape.Concatenates [(⟨2, ![n, m₁]⟩ : Shape), ⟨2, ![n, m₂]⟩] ⟨2, ![n, m]⟩ 1) (r : Fin n) (l : Fin m) (l₁ : Fin m₁)
    (hl : l₁.val = l.val) :
    concatenate ⟨2, ![n, m]⟩ 1 [⟨⟨2, ![n, m₁]⟩, x₁⟩, ⟨⟨2, ![n, m₂]⟩, x₂⟩] h (ix2 r l) = x₁ (ix2 r l₁) :=
  concatenate_pair_apply_left 1 x₁ x₂ h (ix2 r l) rfl (ix2 r l₁) (fun b => by
    match b with
    | ⟨0, _⟩ => rfl
    | ⟨1, _⟩ => exact hl)

/-- Two blocks side by side, read at a lane of the second. -/
private theorem concat2_right {n m₁ m₂ m : ℕ} (x₁ : (⟨2, ![n, m₁]⟩ : Shape).Idx → α) (x₂ : (⟨2, ![n, m₂]⟩ : Shape).Idx → α)
    (h : Shape.Concatenates [(⟨2, ![n, m₁]⟩ : Shape), ⟨2, ![n, m₂]⟩] ⟨2, ![n, m]⟩ 1) (r : Fin n) (l : Fin m) (l₂ : Fin m₂)
    (hl : l₂.val + m₁ = l.val) :
    concatenate ⟨2, ![n, m]⟩ 1 [⟨⟨2, ![n, m₁]⟩, x₁⟩, ⟨⟨2, ![n, m₂]⟩, x₂⟩] h (ix2 r l) = x₂ (ix2 r l₂) :=
  concatenate_pair_apply_right 1 x₁ x₂ h (ix2 r l) rfl rfl (ix2 r l₂) (fun b hb => by
    match b with
    | ⟨0, _⟩ => rfl
    | ⟨1, _⟩ => exact absurd rfl hb) hl

/-- A lookup along the middle axis of `[R, N, K]`, one start word per row: row `e`, lane `k` reads the operand at
    `(e, the row's word read signed and clamped into [0, N − 1], k)`. -/
private theorem gather_along_apply {R N K w : ℕ} (hN : 0 < N)
    (d : GatherDims ⟨3, ![R, N, K]⟩ ⟨3, ![R, 1, 1]⟩ ⟨3, ![R, 1, K]⟩)
    (wf : GatherDims.WF ⟨3, ![R, N, K]⟩ ⟨3, ![R, 1, 1]⟩ ⟨3, ![R, 1, K]⟩ [2] [1] [0] [1] [0] 2 ![1, 1, K])
    (hd : d = { offsetDims := [2], collapsedSliceDims := [1], operandBatchingDims := [0], startIndicesBatchingDims := [0], startIndexMap := [1], indexVectorDim := 2, sliceSizes := ![1, 1, K], wf := wf })
    (x : (⟨3, ![R, N, K]⟩ : Shape).Idx → α) (idx : IVec ⟨3, ![R, 1, 1]⟩ w) (e : Fin R) (k : Fin K) :
    Host.gather d x idx (ix3 e (0 : Fin 1) k)
      = x (ix3 e ⟨min (idx (ix3 e (0 : Fin 1) (0 : Fin 1))).toInt.toNat (N - 1), by omega⟩ k) := by
  subst hd
  unfold Host.gather
  congr 1
  funext a
  refine Fin.ext ?_
  match a with
  | ⟨0, h0⟩ =>
    -- the row axis: a batching axis, the coordinate is the result's row
    show GatherDims.start _ (ix3 e (0 : Fin 1) k) idx ⟨0, h0⟩ + GatherDims.batchCoord _ (ix3 e (0 : Fin 1) k) ⟨0, h0⟩ + GatherDims.offCoord _ (ix3 e (0 : Fin 1) k) ⟨0, h0⟩ = _
    have hb : (⟨0, h0⟩ : Fin 3) ∈ ([0] : List (Fin 3)) := List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb]
    simp only [Nat.add_zero, Nat.zero_add]
    rfl
  | ⟨1, h1⟩ =>
    -- the looked-up axis: collapsed and named by the start index map, the coordinate is the clamped start alone
    show GatherDims.start _ (ix3 e (0 : Fin 1) k) idx ⟨1, h1⟩ + GatherDims.batchCoord _ (ix3 e (0 : Fin 1) k) ⟨1, h1⟩ + GatherDims.offCoord _ (ix3 e (0 : Fin 1) k) ⟨1, h1⟩ = _
    have hnb : (⟨1, h1⟩ : Fin 3) ∉ ([0] : List (Fin 3)) := fun h =>
      absurd (Fin.ext_iff.mp (List.mem_singleton.mp h)) Nat.one_ne_zero
    rw [GatherDims.batchCoord_eq_zero _ _ _ hnb,
      GatherDims.offCoord_eq_zero _ _ _ (fun h => ((GatherDims.mem_sKept _ _).mp h).1 (List.mem_singleton.mpr rfl))]
    simp only [Nat.add_zero]
    have hmem : (⟨1, h1⟩ : Fin 3) ∈ ([1] : List (Fin 3)) := List.mem_singleton.mpr rfl
    unfold GatherDims.start
    rw [dif_pos hmem]
    have hsi : GatherDims.siIdx ({ offsetDims := [2], collapsedSliceDims := [1], operandBatchingDims := [0], startIndicesBatchingDims := [0], startIndexMap := [1], indexVectorDim := 2, sliceSizes := ![1, 1, K], wf := wf } : GatherDims ⟨3, ![R, N, K]⟩ ⟨3, ![R, 1, 1]⟩ ⟨3, ![R, 1, K]⟩) (ix3 e (0 : Fin 1) k)
        ⟨List.idxOf (⟨1, h1⟩ : Fin 3) ([1] : List (Fin 3)), List.idxOf_lt_length_iff.2 hmem⟩ = ix3 e (0 : Fin 1) (0 : Fin 1) := by
      funext b; refine Fin.ext ?_
      match b with
      | ⟨0, _⟩ => rfl
      | ⟨1, _⟩ => rfl
      | ⟨2, _⟩ => rfl
    rw [hsi]
    rfl
  | ⟨2, h2⟩ =>
    -- the lane axis: the one offset axis
    show GatherDims.start _ (ix3 e (0 : Fin 1) k) idx ⟨2, h2⟩ + GatherDims.batchCoord _ (ix3 e (0 : Fin 1) k) ⟨2, h2⟩ + GatherDims.offCoord _ (ix3 e (0 : Fin 1) k) ⟨2, h2⟩ = _
    have hnb : (⟨2, h2⟩ : Fin 3) ∉ ([0] : List (Fin 3)) := fun h =>
      absurd (Fin.ext_iff.mp (List.mem_singleton.mp h)) (show ¬ (2 : ℕ) = 0 by norm_num)
    have hne : (⟨2, h2⟩ : Fin 3) ∉ ([1] : List (Fin 3)) := fun h =>
      absurd (Fin.ext_iff.mp (List.mem_singleton.mp h)) (show ¬ (2 : ℕ) = 1 by norm_num)
    have hkept : (⟨2, h2⟩ : Fin 3) ∈ GatherDims.sKept ({ offsetDims := [2], collapsedSliceDims := [1], operandBatchingDims := [0], startIndicesBatchingDims := [0], startIndexMap := [1], indexVectorDim := 2, sliceSizes := ![1, 1, K], wf := wf } : GatherDims ⟨3, ![R, N, K]⟩ ⟨3, ![R, 1, 1]⟩ ⟨3, ![R, 1, K]⟩) :=
      (GatherDims.mem_sKept _ _).mpr ⟨hne, hnb⟩
    rw [GatherDims.batchCoord_eq_zero _ _ _ hnb]
    unfold GatherDims.start
    rw [dif_neg hne]
    unfold GatherDims.offCoord
    rw [dif_pos hkept]
    simp only [Nat.add_zero, Nat.zero_add]
    rfl

/-- A fold over an index set of one element is one application. -/
private theorem fold_fin_one {β : Type} (m : ℕ) (hm : m = 1) (op : β → β → β) [Std.Commutative op] [Std.Associative op]
    (c : β) (f : Fin m → β) : (Finset.univ : Finset (Fin m)).fold op c f = op (f ⟨0, by omega⟩) c := by
  subst hm
  rw [Finset.univ_unique, Finset.fold_singleton]
  rfl

/-- An and-reduce over a last axis of size one: the one element and the initial word. -/
private theorem and_reduce_unit {R : ℕ} (x : IVec ⟨3, ![R, 1, 1]⟩ 1) (init : IVec ⟨0, ![]⟩ 1)
    (h' : (⟨3, ![R, 1, 1]⟩ : Shape).ReducesTo [2] ⟨2, ![R, 1]⟩) (hu : 0 < (⟨0, ![]⟩ : Shape).numel) (e : Fin R) :
    Host.reduce IntOp.andi x init h' hu (ix2 e (0 : Fin 1))
      = IntOp.andi (x (ix3 e (0 : Fin 1) (0 : Fin 1))) (init (Shape.Idx.first hu)) := by
  have h : (⟨3, ![R, 1, 1]⟩ : Shape).Reduces [2] ⟨2, ![R, 1]⟩ := ⟨h'.1, Nat.succ_pos _, h'.2⟩
  rw [Host.reduce_eq_fold_single IntOp.andi x init h' h hu]
  refine (fold_fin_one _ rfl IntOp.andi _ _).trans ?_
  have hl : ∀ k0 : Fin ((⟨3, ![R, 1, 1]⟩ : Shape).size 2), h.lift (ix2 e (0 : Fin 1)) k0 = ix3 e (0 : Fin 1) (0 : Fin 1) := by
    intro k0
    funext c
    refine Fin.ext ?_
    show h.liftVal (ix2 e (0 : Fin 1)) k0.val c = _
    unfold Shape.Reduces.liftVal
    match c with
    | ⟨0, _⟩ => rfl
    | ⟨1, _⟩ => rfl
    | ⟨2, _⟩ =>
      have hk : k0.val < 1 := k0.isLt
      show k0.val = 0
      omega
  exact congrArg (fun z => IntOp.andi (x z) (init (Shape.Idx.first hu))) (hl _)

end Generic

/-! ### Words in range -/

private theorem cmpi_slt_zero (x : BitVec 32) (h : 0 ≤ x.toInt) : IntOp.cmpi .slt x 0#32 = 0#1 := by
  have h0 : (0#32 : BitVec 32).toInt = 0 := by decide
  have hf : x.slt 0#32 = false := by
    simp only [BitVec.slt, h0]
    exact decide_eq_false (by omega)
  unfold IntOp.cmpi
  simp only [hf]
  rfl

private theorem cmpi_sge_zero (x : BitVec 32) (h : 0 ≤ x.toInt) : IntOp.cmpi .sge x 0#32 = 1#1 := by
  have h0 : (0#32 : BitVec 32).toInt = 0 := by decide
  have ht : (0#32 : BitVec 32).sle x = true := by
    simp only [BitVec.sle, h0]
    exact decide_eq_true h
  unfold IntOp.cmpi
  simp only [ht]
  rfl

private theorem cmpi_sle_eleven (x : BitVec 32) (h : x.toInt < 12) : IntOp.cmpi .sle x 11#32 = 1#1 := by
  have h11 : (11#32 : BitVec 32).toInt = 11 := by decide
  have ht : x.sle 11#32 = true := by
    simp only [BitVec.sle, h11]
    exact decide_eq_true (by omega)
  unfold IntOp.cmpi
  simp only [ht]
  rfl

/-! ### The second layer's stages at row `b` -/

section Stages

variable (x0 : (⟨S32768x35, .f32⟩ : BufTy).Contents (Elt Ideal)) (x1 : (⟨S32768, .i32⟩ : BufTy).Contents (Elt Ideal))
  (x2 : (⟨S256x36, .f32⟩ : BufTy).Contents (Elt Ideal)) (x3 : (⟨S256, .f32⟩ : BufTy).Contents (Elt Ideal))
  (x4 : (⟨S256x257, .f32⟩ : BufTy).Contents (Elt Ideal)) (x5 : (⟨S256, .f32⟩ : BufTy).Contents (Elt Ideal))
  (x6 : (⟨S12x256x36, .f32⟩ : BufTy).Contents (Elt Ideal)) (x7 : (⟨S12x256, .f32⟩ : BufTy).Contents (Elt Ideal))
  (x8 : (⟨S12x256x257, .f32⟩ : BufTy).Contents (Elt Ideal)) (x9 : (⟨S12x256, .f32⟩ : BufTy).Contents (Elt Ideal))
  (hr : InRange x1) (b : Fin 32768)

/-- The row with a 1 appended. -/
private theorem v22_row (k : Fin 257) :
    val_main_v22 (F := Ideal) x0 x1 x2 x3 x6 x7 (ix2 b k)
      = app1 (fun h : Fin 256 => val_main_v20 (F := Ideal) x0 x1 x2 x3 x6 x7 (ix2 b h)) k := by
  unfold val_main_v22 app1
  by_cases hk : k.val < 256
  · rw [dif_pos hk]
    exact concat2_left _ _ _ b k ⟨k.val, hk⟩ rfl
  · rw [dif_neg hk]
    refine (concat2_right _ _ _ b k (0 : Fin 1) (by
      show 0 + 256 = k.val
      have := k.isLt
      omega)).trans ?_
    rw [val_main_v21_apply, val_main_cst_1_apply]
    show Ideal.ofBits .f32 0x3F800000#32 = 1
    simp [Ideal.ofBits, Ideal.ieee, -EReal.coe_mul]
    norm_num

/-- The per-judge products, at judge `j`. -/
private theorem v23_row (j : Fin 12) (g : Fin 256) :
    val_main_v23 (F := Ideal) x0 x1 x2 x3 x6 x7 x8 (ix3 b j g)
      = ∑ k : Fin 257, val_main_v22 (F := Ideal) x0 x1 x2 x3 x6 x7 (ix2 b k) * x8 (ix3 j g k) := by
  rw [val_main_v23_apply]
  refine Finset.sum_congr rfl fun k _ => ?_
  have hl : lidx_main_v23 (ix3 b j g) k = ix2 b k := funext fun a => Fin.ext (by
    match a with
    | ⟨0, _⟩ => rfl
    | ⟨1, _⟩ => rfl)
  have hrr : ridx_main_v23 (ix3 b j g) k = ix3 j g k := funext fun a => Fin.ext (by
    match a with
    | ⟨0, _⟩ => rfl
    | ⟨1, _⟩ => rfl
    | ⟨2, _⟩ => rfl)
  rw [hl, hrr]

/-- The shared products. -/
private theorem v36_row (g : Fin 256) :
    val_main_v36 (F := Ideal) x0 x1 x2 x3 x4 x6 x7 (ix2 b g)
      = ∑ k : Fin 257, val_main_v22 (F := Ideal) x0 x1 x2 x3 x6 x7 (ix2 b k) * x4 (ix2 g k) := by
  rw [val_main_v36_apply]
  refine Finset.sum_congr rfl fun k _ => ?_
  have hl : lidx_main_v36 (ix2 b g) k = ix2 b k := funext fun a => Fin.ext (by
    match a with
    | ⟨0, _⟩ => rfl
    | ⟨1, _⟩ => rfl)
  have hrr : idx_main_v35 (ridx_main_v36 (ix2 b g) k) = ix2 g k := funext fun a => Fin.ext (by
    match a with
    | ⟨0, _⟩ => rfl
    | ⟨1, _⟩ => rfl)
  rw [val_main_v35_apply, hl, hrr]

/-- The shared bias. -/
private theorem v38_row (g : Fin 256) : val_main_v38 (F := Ideal) x5 (ix2 b g) = x5 (ix1 g) := by
  have hi : idx_main_v37 (idx_main_v38 (ix2 b g)) = ix1 g := funext fun a => Fin.ext (by
    match a with
    | ⟨0, _⟩ => rfl)
  rw [val_main_v38_apply, val_main_v37_apply, hi]

/-- The relu's zero. -/
private theorem call3_v0_zero (i : S32768x256.Idx) : val_main_call3_v0 (F := Ideal) i = 0 := by
  rw [val_main_call3_v0_apply, val_main_call3_cst_apply]
  exact Ideal.ofBits_zero_f32

include hr

/-- In range, the lookup's wrapped id word is the id. -/
private theorem call2_v4_row :
    val_main_call2_v4 (F := Ideal) x1 (ix3 b (0 : Fin 1) (0 : Fin 1)) = x1 (ix1 b) := by
  have hi : idx_main_v24 (ix3 b (0 : Fin 1) (0 : Fin 1)) = ix1 b := funext fun a => Fin.ext (by
    match a with
    | ⟨0, _⟩ => rfl)
  rw [val_main_call2_v4_apply, val_main_call2_v1_apply, val_main_v24_apply, val_main_call2_v0_apply,
    val_main_call2_c_apply, hi, cmpi_slt_zero _ (hr b).1, select_zero]

/-- In range, the row gather's wrapped id word is the id. -/
private theorem v31_row : val_main_v31 (F := Ideal) x1 (ix1 b) = x1 (ix1 b) := by
  rw [val_main_v31_apply, val_main_v28_apply, val_main_v27_apply, val_main_c_2_apply, cmpi_slt_zero _ (hr b).1,
    select_zero]

/-- In range, the lookup's bounds check holds. -/
private theorem call2_v11_row : val_main_call2_v11 (F := Ideal) x1 (ix2 b (0 : Fin 1)) = 1#1 := by
  unfold val_main_call2_v11
  rw [and_reduce_unit, val_main_call2_v10_apply, val_main_call2_v6_apply, val_main_call2_v9_apply,
    call2_v4_row x1 hr b, val_main_call2_v5_apply, val_main_call2_c_2_apply, val_main_call2_v8_apply,
    val_main_call2_v7_apply, val_main_call2_c_1_apply, cmpi_sge_zero _ (hr b).1, cmpi_sle_eleven _ (hr b).2]
  rfl

/-- The clamped start of a lookup at an id in range is the judge. -/
private theorem clamp_judge : min (x1 (ix1 b)).toInt.toNat (12 - 1) = (judge x1 hr b).val := by
  rw [toInt_eq_judge x1 hr b, Int.toNat_natCast]
  have := (judge x1 hr b).isLt
  omega

/-- The lookup along the judge axis takes the row's judge. -/
private theorem call2_v12_row (g : Fin 256) :
    val_main_call2_v12 (F := Ideal) x0 x1 x2 x3 x6 x7 x8 (ix3 b (0 : Fin 1) g)
      = val_main_v23 (F := Ideal) x0 x1 x2 x3 x6 x7 x8 (ix3 b (judge x1 hr b) g) := by
  unfold val_main_call2_v12
  refine (gather_along_apply (N := 12) (by norm_num) _
    gather_S32768x12x256_S32768x1x1_S32768x1x256_2_1_0_0_1_2_11256.wf rfl _ _ b g).trans ?_
  refine congrArg (val_main_v23 (F := Ideal) x0 x1 x2 x3 x6 x7 x8) (funext fun a => Fin.ext ?_)
  match a with
  | ⟨0, _⟩ => rfl
  | ⟨1, _⟩ =>
    show min (val_main_call2_v4 (F := Ideal) x1 (ix3 b (0 : Fin 1) (0 : Fin 1))).toInt.toNat (12 - 1) = (judge x1 hr b).val
    rw [call2_v4_row x1 hr b]
    exact clamp_judge x1 hr b
  | ⟨2, _⟩ => rfl

/-- The looked-up products, reshaped. -/
private theorem v26_row (g : Fin 256) :
    val_main_v26 (F := Ideal) x0 x1 x2 x3 x6 x7 x8 (ix2 b g)
      = val_main_v23 (F := Ideal) x0 x1 x2 x3 x6 x7 x8 (ix3 b (judge x1 hr b) g) := by
  have hi : idx_main_v26 (ix2 b g) = ix3 b (0 : Fin 1) g := funext fun a => Fin.ext (by
    match a with
    | ⟨0, _⟩ =>
      show (b.val * 256 + g.val) / 256 = b.val
      omega
    | ⟨1, _⟩ => rfl
    | ⟨2, _⟩ =>
      show (b.val * 256 + g.val) % 256 = g.val
      omega)
  have hi13 : idx_main_call2_v13 (ix3 b (0 : Fin 1) g) = ix2 b (0 : Fin 1) := funext fun a => Fin.ext (by
    match a with
    | ⟨0, _⟩ => rfl
    | ⟨1, _⟩ => rfl)
  rw [val_main_v26_apply, hi, val_main_v25_apply, val_main_call2_v13_apply, hi13, call2_v11_row x1 hr b, select_one,
    call2_v12_row x0 x1 x2 x3 x6 x7 x8 hr b g]

/-- The judge's bias row. -/
private theorem v33_row (g : Fin 256) : val_main_v33 (F := Ideal) x1 x9 (ix2 b g) = x9 (ix2 (judge x1 hr b) g) := by
  unfold val_main_v33
  refine (Cert.Rgcn.Lib.gather_rows_apply (N := 12) (K := 256) (R := 32768) (by norm_num) _
    gather_S12x256_S32768x1_S32768x256_1_0_n_n_0_1_1256.wf rfl x9 _ b g).trans ?_
  refine congrArg x9 (funext fun a => Fin.ext ?_)
  have hi : idx_main_v32 (ix2 b (0 : Fin 1)) = ix1 b := funext fun a => Fin.ext (by
    match a with
    | ⟨0, _⟩ => rfl)
  match a with
  | ⟨0, _⟩ =>
    show min (val_main_v32 (F := Ideal) x1 (ix2 b (0 : Fin 1))).toInt.toNat (12 - 1) = (judge x1 hr b).val
    rw [val_main_v32_apply, hi, v31_row x1 hr b]
    exact clamp_judge x1 hr b
  | ⟨1, _⟩ => rfl

end Stages

theorem layer2_apply (x0 : (⟨S32768x35, .f32⟩ : BufTy).Contents (Elt Ideal)) (x1 : (⟨S32768, .i32⟩ : BufTy).Contents (Elt Ideal)) (x2 : (⟨S256x36, .f32⟩ : BufTy).Contents (Elt Ideal)) (x3 : (⟨S256, .f32⟩ : BufTy).Contents (Elt Ideal)) (x4 : (⟨S256x257, .f32⟩ : BufTy).Contents (Elt Ideal)) (x5 : (⟨S256, .f32⟩ : BufTy).Contents (Elt Ideal)) (x6 : (⟨S12x256x36, .f32⟩ : BufTy).Contents (Elt Ideal)) (x7 : (⟨S12x256, .f32⟩ : BufTy).Contents (Elt Ideal)) (x8 : (⟨S12x256x257, .f32⟩ : BufTy).Contents (Elt Ideal)) (x9 : (⟨S12x256, .f32⟩ : BufTy).Contents (Elt Ideal)) (hr : InRange x1) (b : Fin 32768) (g : Fin 256) :
    val_main_v41 (F := Ideal) x0 x1 x2 x3 x4 x5 x6 x7 x8 x9 (ix2 b g)
      = relu (affR (app1 (fun h : Fin 256 => val_main_v20 (F := Ideal) x0 x1 x2 x3 x6 x7 (ix2 b h)))
          (fun (g : Fin 256) (h : Fin 257) => x4 (ix2 g h)) (fun (g : Fin 256) (h : Fin 257) => x8 (ix3 (judge x1 hr b) g h))
          (fun g : Fin 256 => x5 (ix1 g)) (fun g : Fin 256 => x9 (ix2 (judge x1 hr b) g)) g) := by
  rw [val_main_v41_apply, val_main_v40_apply, val_main_v39_apply, val_main_v34_apply, v36_row, v38_row,
    v26_row x0 x1 x2 x3 x6 x7 x8 hr b g, v23_row, v33_row x1 x9 hr b g, call3_v0_zero]
  simp only [v22_row]
  rfl

end Cert.ReferenceIdeal.RefLayer2

end
-- ==== Proof.RefHeads.lean ====
/-
  The reference's logits, read at `(b, q, o)`, over the second layer's values, with every id in `[0, 12)`.

  `(z2b · V[q, o] + V_b[q, o]) + (aV[b, ids[b], q, o] + Va_b[ids[b], q, o])` with `z2b` the second layer's row
  followed by a 1 and `aV[b, j, q, o] = ∑ g, z2b[b, g] · Va[j, q, o, g]`: the affine arrangement with the 1 appended,
  its output index the pair `(q, o)`.
-/
import proofs.«423243_j44985487458585_3_alg».proof.Proof.RefRead
import proofs.«423243_j44985487458585_3_alg».proof.Proof.RefJudge
import proofs.«423243_j44985487458585_3_alg».proof.Proof.MoeParams
import proofs.«423243_j44985487458585_3_alg».proof.Proof.LibIndexed
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RefHeads

open Cert.ReferenceIdeal Cert.ReferenceIdeal.Gen Cert.ReferenceIdeal.ReadP Cert.ReferenceIdeal.RefJudge Cert.Moe.Spec
open Idealize.ShloMosaic Idealize.ShloMosaic.ValueIdx

/-! ## Library-style reads, over variable sizes -/

section generic
variable {α : Type}

/-- Columns followed by one more column, read at a column of the first piece: that column. -/
theorem concat_cols_apply_left {R N M : ℕ}
    (h : Shape.Concatenates [(⟨2, ![R, N]⟩ : Shape), ⟨2, ![R, 1]⟩] ⟨2, ![R, M]⟩ 1)
    (x : (⟨2, ![R, N]⟩ : Shape).Idx → α) (y : (⟨2, ![R, 1]⟩ : Shape).Idx → α) (r : Fin R) (c : Fin M) (c' : Fin N)
    (hc : c'.val = c.val) :
    concatenate ⟨2, ![R, M]⟩ 1 [⟨⟨2, ![R, N]⟩, x⟩, ⟨⟨2, ![R, 1]⟩, y⟩] h (ix2 r c) = x (ix2 r c') := by
  refine concatenate_pair_apply_left (t := ⟨2, ![R, M]⟩) (s₁ := ⟨2, ![R, N]⟩) (s₂ := ⟨2, ![R, 1]⟩) (1 : Fin 2) x y h
    (ix2 r c) rfl (ix2 r c') ?_
  intro b'
  match b' with
  | ⟨0, _⟩ => rfl
  | ⟨1, _⟩ => exact hc

/-- Columns followed by one more column, read at the last column: the added column. -/
theorem concat_cols_apply_right {R N M : ℕ}
    (h : Shape.Concatenates [(⟨2, ![R, N]⟩ : Shape), ⟨2, ![R, 1]⟩] ⟨2, ![R, M]⟩ 1)
    (x : (⟨2, ![R, N]⟩ : Shape).Idx → α) (y : (⟨2, ![R, 1]⟩ : Shape).Idx → α) (r : Fin R) (c : Fin M)
    (hc : c.val = N) :
    concatenate ⟨2, ![R, M]⟩ 1 [⟨⟨2, ![R, N]⟩, x⟩, ⟨⟨2, ![R, 1]⟩, y⟩] h (ix2 r c) = y (ix2 r (0 : Fin 1)) := by
  refine concatenate_pair_apply_right (t := ⟨2, ![R, M]⟩) (s₁ := ⟨2, ![R, N]⟩) (s₂ := ⟨2, ![R, 1]⟩) (1 : Fin 2) x y h
    (ix2 r c) rfl rfl (ix2 r (0 : Fin 1)) ?_ ?_
  · intro b' hb'
    match b', hb' with
    | ⟨0, _⟩, _ => rfl
    | ⟨1, _⟩, hb' => exact absurd rfl hb'
  · show 0 + N = c.val
    omega

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    have e : IntOp.andi 1#1 1#1 = 1#1 := by decide
    rw [e]
    exact foldl_andi_one f l (fun n hn => h n (List.mem_cons_of_mem a hn))

/-- A reduce by `and` from 1 of an array of one-bit words that are all 1 is 1 everywhere. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun n _ => hx n)

/-- A lookup of `[A, B]` slabs of a table `[N, A, B]` at start words `[R, 1]`, read at `(e, p, q)`: the slab the word
    `idx[e, 0]` names, read signed and clamped into `[0, N − 1]`. -/
theorem gather_slabs_apply {N A B R w : Nat}
    (d : GatherDims ⟨3, ![N, A, B]⟩ ⟨2, ![R, 1]⟩ ⟨3, ![R, A, B]⟩)
    (wf : GatherDims.WF ⟨3, ![N, A, B]⟩ ⟨2, ![R, 1]⟩ ⟨3, ![R, A, B]⟩ [1, 2] [0] [] [0] [] 1 ![1, A, B])
    (hd : d = { offsetDims := [1, 2], collapsedSliceDims := [0], operandBatchingDims := [], startIndicesBatchingDims := [], startIndexMap := [0], indexVectorDim := 1, sliceSizes := ![1, A, B], wf := wf })
    (x : (⟨3, ![N, A, B]⟩ : Shape).Idx → α) (idx : IVec ⟨2, ![R, 1]⟩ w) (e : Fin R) (p : Fin A) (q : Fin B) (n : Fin N)
    (hn : n.val = min (idx (ix2 e (0 : Fin 1))).toInt.toNat (N - 1)) :
    Host.gather d x idx (ix3 e p q) = x (ix3 n p q) := by
  subst hd
  unfold Host.gather
  congr 1
  funext a
  refine Fin.ext ?_
  match a with
  | ⟨0, h0⟩ =>
    show GatherDims.start _ (ix3 e p q) idx ⟨0, h0⟩ + GatherDims.batchCoord _ (ix3 e p q) ⟨0, h0⟩ + GatherDims.offCoord _ (ix3 e p q) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 3) ∈ ([0] : List (Fin 3)) := List.mem_singleton.mpr rfl
    unfold GatherDims.start
    rw [dif_pos hmem]
    have hsi : GatherDims.siIdx ({ offsetDims := [1, 2], collapsedSliceDims := [0], operandBatchingDims := [], startIndicesBatchingDims := [], startIndexMap := [0], indexVectorDim := 1, sliceSizes := ![1, A, B], wf := wf } : GatherDims ⟨3, ![N, A, B]⟩ ⟨2, ![R, 1]⟩ ⟨3, ![R, A, B]⟩) (ix3 e p q)
        ⟨List.idxOf (⟨0, h0⟩ : Fin 3) ([0] : List (Fin 3)), List.idxOf_lt_length_iff.2 hmem⟩ = ix2 e (0 : Fin 1) := by
      funext b; refine Fin.ext ?_
      match b with
      | ⟨0, _⟩ => rfl
      | ⟨1, _⟩ => rfl
    rw [hsi]
    exact hn.symm
  | ⟨1, h1⟩ =>
    show GatherDims.start _ (ix3 e p q) idx ⟨1, h1⟩ + GatherDims.batchCoord _ (ix3 e p q) ⟨1, h1⟩ + GatherDims.offCoord _ (ix3 e p q) ⟨1, h1⟩ = _
    have hne : (⟨1, h1⟩ : Fin 3) ∉ ([0] : List (Fin 3)) := fun h =>
      absurd (Fin.ext_iff.mp (List.mem_singleton.mp h)) Nat.one_ne_zero
    have hkept : (⟨1, h1⟩ : Fin 3) ∈ GatherDims.sKept ({ offsetDims := [1, 2], collapsedSliceDims := [0], operandBatchingDims := [], startIndicesBatchingDims := [], startIndexMap := [0], indexVectorDim := 1, sliceSizes := ![1, A, B], wf := wf } : GatherDims ⟨3, ![N, A, B]⟩ ⟨2, ![R, 1]⟩ ⟨3, ![R, A, B]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl
  | ⟨2, h2⟩ =>
    show GatherDims.start _ (ix3 e p q) idx ⟨2, h2⟩ + GatherDims.batchCoord _ (ix3 e p q) ⟨2, h2⟩ + GatherDims.offCoord _ (ix3 e p q) ⟨2, h2⟩ = _
    have hne : (⟨2, h2⟩ : Fin 3) ∉ ([0] : List (Fin 3)) := fun h =>
      absurd (Fin.ext_iff.mp (List.mem_singleton.mp h)) (Nat.succ_ne_zero 1)
    have hkept : (⟨2, h2⟩ : Fin 3) ∈ GatherDims.sKept ({ offsetDims := [1, 2], collapsedSliceDims := [0], operandBatchingDims := [], startIndicesBatchingDims := [], startIndexMap := [0], indexVectorDim := 1, sliceSizes := ![1, A, B], wf := wf } : GatherDims ⟨3, ![N, A, B]⟩ ⟨2, ![R, 1]⟩ ⟨3, ![R, A, B]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

end generic

/-- A lookup along the second axis of `[R, N, A, B]`, one word per leading row (start words `[R, 1, 1]`, the leading axis a
    batching axis), read at `(e, u, p, q)`: row `e`'s own `[A, B]` slab at the position the word `idx[e, u, 0]` names, read signed
    and clamped into `[0, N − 1]`. -/
theorem gather_batched_apply {α : Type} {R N A B w : Nat}
    (d : GatherDims ⟨4, ![R, N, A, B]⟩ ⟨3, ![R, 1, 1]⟩ ⟨4, ![R, 1, A, B]⟩)
    (wf : GatherDims.WF ⟨4, ![R, N, A, B]⟩ ⟨3, ![R, 1, 1]⟩ ⟨4, ![R, 1, A, B]⟩ [2, 3] [1] [0] [1] [0] 2 ![1, 1, A, B])
    (hd : d = { offsetDims := [2, 3], collapsedSliceDims := [1], operandBatchingDims := [0], startIndicesBatchingDims := [0], startIndexMap := [1], indexVectorDim := 2, sliceSizes := ![1, 1, A, B], wf := wf })
    (x : (⟨4, ![R, N, A, B]⟩ : Shape).Idx → α) (idx : IVec ⟨3, ![R, 1, 1]⟩ w) (e : Fin R) (u : Fin 1) (p : Fin A) (q : Fin B) (n : Fin N)
    (hn : n.val = min (idx (ix3 e u (0 : Fin 1))).toInt.toNat (N - 1)) :
    Host.gather d x idx (ix4 e u p q) = x (ix4 e n p q) := by
  subst hd
  unfold Host.gather
  congr 1
  funext a
  refine Fin.ext ?_
  match a with
  | ⟨0, h0⟩ =>
    -- the batching axis: the row's own coordinate
    show GatherDims.start _ (ix4 e u p q) idx ⟨0, h0⟩ + GatherDims.batchCoord _ (ix4 e u p q) ⟨0, h0⟩ + GatherDims.offCoord _ (ix4 e u p q) ⟨0, h0⟩ = _
    have hmem : (⟨0, h0⟩ : Fin 4) ∈ ([0] : List (Fin 4)) := List.mem_singleton.mpr rfl
    rw [GatherDims.start_batching _ _ _ _ hmem,
      GatherDims.offCoord_eq_zero _ _ _ (fun h => ((GatherDims.mem_sKept _ _).mp h).2 hmem)]
    unfold GatherDims.batchCoord
    rw [dif_pos hmem]
    simp only [Nat.add_zero, Nat.zero_add]
    rfl
  | ⟨1, h1⟩ =>
    -- the looked-up axis: collapsed and named by the start index map, the clamped start alone
    show GatherDims.start _ (ix4 e u p q) idx ⟨1, h1⟩ + GatherDims.batchCoord _ (ix4 e u p q) ⟨1, h1⟩ + GatherDims.offCoord _ (ix4 e u p q) ⟨1, h1⟩ = _
    have hnb : (⟨1, h1⟩ : Fin 4) ∉ ([0] : List (Fin 4)) := fun h =>
      absurd (Fin.ext_iff.mp (List.mem_singleton.mp h)) Nat.one_ne_zero
    have hmem : (⟨1, h1⟩ : Fin 4) ∈ ([1] : List (Fin 4)) := List.mem_singleton.mpr rfl
    rw [GatherDims.batchCoord_eq_zero _ _ _ hnb,
      GatherDims.offCoord_eq_zero _ _ _ (fun h => ((GatherDims.mem_sKept _ _).mp h).1 hmem)]
    simp only [Nat.add_zero]
    unfold GatherDims.start
    rw [dif_pos hmem]
    have hsi : GatherDims.siIdx ({ offsetDims := [2, 3], collapsedSliceDims := [1], operandBatchingDims := [0], startIndicesBatchingDims := [0], startIndexMap := [1], indexVectorDim := 2, sliceSizes := ![1, 1, A, B], wf := wf } : GatherDims ⟨4, ![R, N, A, B]⟩ ⟨3, ![R, 1, 1]⟩ ⟨4, ![R, 1, A, B]⟩) (ix4 e u p q)
        ⟨List.idxOf (⟨1, h1⟩ : Fin 4) ([1] : List (Fin 4)), List.idxOf_lt_length_iff.2 hmem⟩ = ix3 e u (0 : Fin 1) := by
      funext b; refine Fin.ext ?_
      match b with
      | ⟨0, _⟩ => rfl
      | ⟨1, _⟩ => rfl
      | ⟨2, _⟩ => rfl
    rw [hsi]
    exact hn.symm
  | ⟨2, h2⟩ =>
    show GatherDims.start _ (ix4 e u p q) idx ⟨2, h2⟩ + GatherDims.batchCoord _ (ix4 e u p q) ⟨2, h2⟩ + GatherDims.offCoord _ (ix4 e u p q) ⟨2, h2⟩ = _
    have hnb : (⟨2, h2⟩ : Fin 4) ∉ ([0] : List (Fin 4)) := fun h =>
      absurd (Fin.ext_iff.mp (List.mem_singleton.mp h)) (Nat.succ_ne_zero 1)
    have hnc : (⟨2, h2⟩ : Fin 4) ∉ ([1] : List (Fin 4)) := fun h =>
      absurd (Fin.ext_iff.mp (List.mem_singleton.mp h)) (by show ¬ (2 : ℕ) = 1; omega)
    have hkept : (⟨2, h2⟩ : Fin 4) ∈ GatherDims.sKept ({ offsetDims := [2, 3], collapsedSliceDims := [1], operandBatchingDims := [0], startIndicesBatchingDims := [0], startIndexMap := [1], indexVectorDim := 2, sliceSizes := ![1, 1, A, B], wf := wf } : GatherDims ⟨4, ![R, N, A, B]⟩ ⟨3, ![R, 1, 1]⟩ ⟨4, ![R, 1, A, B]⟩) :=
      (GatherDims.mem_sKept _ _).mpr ⟨hnc, hnb⟩
    rw [GatherDims.batchCoord_eq_zero _ _ _ hnb]
    unfold GatherDims.start
    rw [dif_neg hnc]
    unfold GatherDims.offCoord
    rw [dif_pos hkept]
    simp only [Nat.add_zero, Nat.zero_add]
    rfl
  | ⟨3, h3⟩ =>
    show GatherDims.start _ (ix4 e u p q) idx ⟨3, h3⟩ + GatherDims.batchCoord _ (ix4 e u p q) ⟨3, h3⟩ + GatherDims.offCoord _ (ix4 e u p q) ⟨3, h3⟩ = _
    have hnb : (⟨3, h3⟩ : Fin 4) ∉ ([0] : List (Fin 4)) := fun h =>
      absurd (Fin.ext_iff.mp (List.mem_singleton.mp h)) (Nat.succ_ne_zero 2)
    have hnc : (⟨3, h3⟩ : Fin 4) ∉ ([1] : List (Fin 4)) := fun h =>
      absurd (Fin.ext_iff.mp (List.mem_singleton.mp h)) (by show ¬ (3 : ℕ) = 1; omega)
    have hkept : (⟨3, h3⟩ : Fin 4) ∈ GatherDims.sKept ({ offsetDims := [2, 3], collapsedSliceDims := [1], operandBatchingDims := [0], startIndicesBatchingDims := [0], startIndexMap := [1], indexVectorDim := 2, sliceSizes := ![1, 1, A, B], wf := wf } : GatherDims ⟨4, ![R, N, A, B]⟩ ⟨3, ![R, 1, 1]⟩ ⟨4, ![R, 1, A, B]⟩) :=
      (GatherDims.mem_sKept _ _).mpr ⟨hnc, hnb⟩
    rw [GatherDims.batchCoord_eq_zero _ _ _ hnb]
    unfold GatherDims.start
    rw [dif_neg hnc]
    unfold GatherDims.offCoord
    rw [dif_pos hkept]
    simp only [Nat.add_zero, Nat.zero_add]
    rfl

/-! ## The reference's stages from the second layer's values to the logits -/

/-- The float word `0x3F800000` is one. -/
theorem ofBits_one : Ideal.ofBits .f32 0x3F800000#32 = 1 := by
  simp [Ideal.ofBits, Ideal.ieee, -EReal.coe_mul]; norm_num

/-- The numpy wrap of an index word (add the length where it is negative) leaves a nonnegative word alone. -/
theorem wrap_select (a c : BitVec 32) (h : 0 ≤ a.toInt) :
    Scalar.select (IntOp.cmpi .slt a 0#32) c a = a := by
  have hs : a.slt 0#32 = false := by
    rw [BitVec.slt_eq_decide, BitVec.toInt_zero]
    exact decide_eq_false (not_lt.mpr h)
  simp [Scalar.select, IntOp.cmpi, hs]

/-- A word in `[0, 12)` passes the lookup's bounds check `0 ≤ · ≤ 11`. -/
theorem bounds_check (a : BitVec 32) (h0 : 0 ≤ a.toInt) (h1 : a.toInt < 12) :
    IntOp.andi (IntOp.cmpi .sge a 0#32) (IntOp.cmpi .sle a 11#32) = 1#1 := by
  have ha : (0#32 : BitVec 32).sle a = true := by
    rw [BitVec.sle_eq_decide, BitVec.toInt_zero]
    exact decide_eq_true h0
  have e11 : (11#32 : BitVec 32).toInt = 11 := by decide
  have hb : a.sle 11#32 = true := by
    rw [BitVec.sle_eq_decide, e11]
    exact decide_eq_true (by omega)
  simp [IntOp.andi, IntOp.cmpi, ha, hb]

section stages
variable (x0 : (⟨S32768x35, .f32⟩ : BufTy).Contents (Elt Ideal)) (x1 : (⟨S32768, .i32⟩ : BufTy).Contents (Elt Ideal)) (x2 : (⟨S256x36, .f32⟩ : BufTy).Contents (Elt Ideal)) (x3 : (⟨S256, .f32⟩ : BufTy).Contents (Elt Ideal)) (x4 : (⟨S256x257, .f32⟩ : BufTy).Contents (Elt Ideal)) (x5 : (⟨S256, .f32⟩ : BufTy).Contents (Elt Ideal)) (x6 : (⟨S12x256x36, .f32⟩ : BufTy).Contents (Elt Ideal)) (x7 : (⟨S12x256, .f32⟩ : BufTy).Contents (Elt Ideal)) (x8 : (⟨S12x256x257, .f32⟩ : BufTy).Contents (Elt Ideal)) (x9 : (⟨S12x256, .f32⟩ : BufTy).Contents (Elt Ideal)) (x10 : (⟨S7x5x257, .f32⟩ : BufTy).Contents (Elt Ideal)) (x11 : (⟨S7x5, .f32⟩ : BufTy).Contents (Elt Ideal)) (x12 : (⟨S12x7x5x257, .f32⟩ : BufTy).Contents (Elt Ideal)) (x13 : (⟨S12x7x5, .f32⟩ : BufTy).Contents (Elt Ideal))

/-- The second layer's row followed by a 1. -/
theorem v43_apply (b : Fin 32768) (k : Fin 257) :
    val_main_v43 (F := Ideal) x0 x1 x2 x3 x4 x5 x6 x7 x8 x9 (ix2 b k) = (app1 (fun g : Fin 256 => val_main_v41 (F := Ideal) x0 x1 x2 x3 x4 x5 x6 x7 x8 x9 (ix2 b g))) k := by
  unfold val_main_v43 app1
  by_cases hk : k.val < 256
  · rw [dif_pos hk]
    exact concat_cols_apply_left _ _ _ b k ⟨k.val, hk⟩ rfl
  · rw [dif_neg hk]
    have hk' : k.val = 256 := by have := k.isLt; omega
    refine (concat_cols_apply_right _ _ _ b k hk').trans ?_
    rw [val_main_v42_apply, val_main_cst_4_apply]
    exact ofBits_one

/-- The shared product. -/
theorem v44_apply (b : Fin 32768) (q : Fin 7) (o : Fin 5) :
    val_main_v44 (F := Ideal) x0 x1 x2 x3 x4 x5 x6 x7 x8 x9 x10 (ix3 b q o) = ∑ k : Fin 257, (app1 (fun g : Fin 256 => val_main_v41 (F := Ideal) x0 x1 x2 x3 x4 x5 x6 x7 x8 x9 (ix2 b g))) k * x10 (ix3 q o k) := by
  rw [val_main_v44_apply]
  refine Finset.sum_congr rfl fun k _ => ?_
  have el : lidx_main_v44 (ix3 b q o) k = ix2 b k := funext fun a => Fin.ext (by
    match a with
    | ⟨0, _⟩ => rfl
    | ⟨1, _⟩ => rfl)
  have er : ridx_main_v44 (ix3 b q o) k = ix3 q o k := funext fun a => Fin.ext (by
    match a with
    | ⟨0, _⟩ => rfl
    | ⟨1, _⟩ => rfl
    | ⟨2, _⟩ => rfl)
  rw [el, er, v43_apply]

/-- The shared bias, broadcast over the rows. -/
theorem v46_apply (b : Fin 32768) (q : Fin 7) (o : Fin 5) :
    val_main_v46 (F := Ideal) x11 (ix3 b q o) = x11 (ix2 q o) := by
  rw [val_main_v46_apply, val_main_v45_apply]
  refine congrArg x11 (funext fun a => Fin.ext ?_)
  match a with
  | ⟨0, _⟩ => rfl
  | ⟨1, _⟩ => rfl

/-- The lookup's index word of row `i 0` is the row's id: in range, the wrap leaves it alone. -/
theorem call4_v5_apply (hr : InRange x1) (i : S32768x1x1.Idx) :
    val_main_call4_v5 (F := Ideal) x1 i = x1 (ix1 (i 0)) := by
  rw [val_main_call4_v5_apply, val_main_call4_v4_apply, val_main_call4_v1_apply, val_main_v49_apply,
    val_main_call4_v0_apply, val_main_call4_c_apply]
  have e : idx_main_v49 (idx_main_call4_v5 i) = ix1 (i 0) := funext fun a => Fin.ext (by
    match a with
    | ⟨0, _⟩ =>
      have h1 : (i 1).val < 1 := (i 1).isLt
      have h2 : (i 2).val < 1 := (i 2).isLt
      show (((i 0).val * 1 + (i 1).val) * 1 + (i 2).val) / 1 = (i 0).val
      omega)
  rw [e]
  exact wrap_select _ _ (hr (i 0)).1

/-- In range, every row passes the lookup's bounds check. -/
theorem call4_v11_one (hr : InRange x1) (i : S32768x1x1.Idx) : val_main_call4_v11 (F := Ideal) x1 i = 1#1 := by
  rw [val_main_call4_v11_apply, val_main_call4_v7_apply, val_main_call4_v10_apply, call4_v5_apply x1 hr,
    val_main_call4_v6_apply, val_main_call4_c_2_apply, val_main_call4_v9_apply, val_main_call4_v8_apply,
    val_main_call4_c_1_apply]
  exact bounds_check _ (hr (i 0)).1 (hr (i 0)).2

/-- The judge's product: the lookup along the judge axis takes the judge's slab of the product with every judge's matrix. -/
theorem v51_apply (hr : InRange x1) (b : Fin 32768) (q : Fin 7) (o : Fin 5) :
    val_main_v51 (F := Ideal) x0 x1 x2 x3 x4 x5 x6 x7 x8 x9 x12 (ix3 b q o)
      = ∑ k : Fin 257, (app1 (fun g : Fin 256 => val_main_v41 (F := Ideal) x0 x1 x2 x3 x4 x5 x6 x7 x8 x9 (ix2 b g))) k * x12 (ix4 (judge x1 hr b) q o k) := by
  rw [val_main_v51_apply]
  have e51 : idx_main_v51 (ix3 b q o) = ix4 b (0 : Fin 1) q o := funext fun a => Fin.ext (by
    have hb := b.isLt
    have hq := q.isLt
    have ho := o.isLt
    match a with
    | ⟨0, _⟩ => show ((b.val * 7 + q.val) * 5 + o.val) / 35 = b.val; omega
    | ⟨1, _⟩ => rfl
    | ⟨2, _⟩ => show ((b.val * 7 + q.val) * 5 + o.val) / 5 % 7 = q.val; omega
    | ⟨3, _⟩ => show ((b.val * 7 + q.val) * 5 + o.val) % 5 = o.val; omega)
  rw [e51, val_main_v50_apply, val_main_call4_v14_apply]
  have hsel : val_main_call4_v12 (F := Ideal) x1 (idx_main_call4_v14 (ix4 b (0 : Fin 1) q o)) = 1#1 := by
    unfold val_main_call4_v12
    exact reduce_andi_one _ _ _ _ _ rfl (call4_v11_one x1 hr)
  rw [hsel]
  show val_main_call4_v13 (F := Ideal) x0 x1 x2 x3 x4 x5 x6 x7 x8 x9 x12 (ix4 b (0 : Fin 1) q o) = _
  unfold val_main_call4_v13
  refine (gather_batched_apply _ _ rfl _ _ b (0 : Fin 1) q o (judge x1 hr b) ?_).trans ?_
  · rw [call4_v5_apply x1 hr]
    show (judge x1 hr b).val = min (x1 (ix1 b)).toInt.toNat (12 - 1)
    rw [toInt_eq_judge x1 hr b, Int.toNat_natCast]
    have := (judge x1 hr b).isLt
    omega
  rw [val_main_v48_apply]
  refine Finset.sum_congr rfl fun k _ => ?_
  have el : lidx_main_v48 (ix4 b (judge x1 hr b) q o) k = ix2 b k := funext fun a => Fin.ext (by
    match a with
    | ⟨0, _⟩ => rfl
    | ⟨1, _⟩ => rfl)
  have er : ridx_main_v48 (ix4 b (judge x1 hr b) q o) k = ix4 (judge x1 hr b) q o k := funext fun a => Fin.ext (by
    match a with
    | ⟨0, _⟩ => rfl
    | ⟨1, _⟩ => rfl
    | ⟨2, _⟩ => rfl
    | ⟨3, _⟩ => rfl)
  rw [el, er, v43_apply]

/-- The judge's bias: the lookup takes the judge's slab. -/
theorem v58_apply (hr : InRange x1) (b : Fin 32768) (q : Fin 7) (o : Fin 5) :
    val_main_v58 (F := Ideal) x1 x13 (ix3 b q o) = x13 (ix3 (judge x1 hr b) q o) := by
  unfold val_main_v58
  refine gather_slabs_apply _ _ rfl x13 _ b q o (judge x1 hr b) ?_
  rw [val_main_v57_apply, val_main_v56_apply, val_main_v53_apply, val_main_v52_apply, val_main_c_5_apply]
  have e : idx_main_v57 (ix2 b (0 : Fin 1)) = ix1 b := funext fun a => Fin.ext (by
    match a with
    | ⟨0, _⟩ => rfl)
  rw [e, wrap_select _ _ (hr b).1, toInt_eq_judge x1 hr b, Int.toNat_natCast]
  have := (judge x1 hr b).isLt
  omega

end stages

theorem heads_apply (x0 : (⟨S32768x35, .f32⟩ : BufTy).Contents (Elt Ideal)) (x1 : (⟨S32768, .i32⟩ : BufTy).Contents (Elt Ideal)) (x2 : (⟨S256x36, .f32⟩ : BufTy).Contents (Elt Ideal)) (x3 : (⟨S256, .f32⟩ : BufTy).Contents (Elt Ideal)) (x4 : (⟨S256x257, .f32⟩ : BufTy).Contents (Elt Ideal)) (x5 : (⟨S256, .f32⟩ : BufTy).Contents (Elt Ideal)) (x6 : (⟨S12x256x36, .f32⟩ : BufTy).Contents (Elt Ideal)) (x7 : (⟨S12x256, .f32⟩ : BufTy).Contents (Elt Ideal)) (x8 : (⟨S12x256x257, .f32⟩ : BufTy).Contents (Elt Ideal)) (x9 : (⟨S12x256, .f32⟩ : BufTy).Contents (Elt Ideal)) (x10 : (⟨S7x5x257, .f32⟩ : BufTy).Contents (Elt Ideal)) (x11 : (⟨S7x5, .f32⟩ : BufTy).Contents (Elt Ideal)) (x12 : (⟨S12x7x5x257, .f32⟩ : BufTy).Contents (Elt Ideal)) (x13 : (⟨S12x7x5, .f32⟩ : BufTy).Contents (Elt Ideal)) (hr : InRange x1) (b : Fin 32768) (q : Fin 7) (o : Fin 5) :
    val_main_v60 (F := Ideal) x0 x1 x2 x3 x4 x5 x6 x7 x8 x9 x10 x11 x12 x13 (ix3 b q o)
      = affR (app1 (fun g : Fin 256 => val_main_v41 (F := Ideal) x0 x1 x2 x3 x4 x5 x6 x7 x8 x9 (ix2 b g)))
          (fun (qo : Fin 7 × Fin 5) (g : Fin 257) => x10 (ix3 qo.1 qo.2 g)) (fun (qo : Fin 7 × Fin 5) (g : Fin 257) => x12 (ix4 (judge x1 hr b) qo.1 qo.2 g))
          (fun qo : Fin 7 × Fin 5 => x11 (ix2 qo.1 qo.2)) (fun qo : Fin 7 × Fin 5 => x13 (ix3 (judge x1 hr b) qo.1 qo.2)) (q, o) := by
  rw [val_main_v60_apply, val_main_v47_apply, val_main_v59_apply, v44_apply, v46_apply, v51_apply x0 x1 x2 x3 x4 x5 x6 x7 x8 x9 x12 hr,
    v58_apply x1 x13 hr]
  rfl

end Cert.ReferenceIdeal.RefHeads

end
-- ==== Proof.RefSoftmax.lean ====
/-
  The reference's result from its logits: a softmax over each question's five options.

  `exp (l − m) / ∑ exp (l − m)` with `m` the maximum of the five logits taken from −∞ (and once more against −∞:
  the same value).
-/
import proofs.«423243_j44985487458585_3_alg».proof.Proof.RefRead
import proofs.«423243_j44985487458585_3_alg».proof.Proof.RefJudge
import proofs.«423243_j44985487458585_3_alg».proof.Proof.MoeParams
import proofs.«423243_j44985487458585_3_alg».proof.Proof.LibIndexed
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefSoftmax

open Cert.ReferenceIdeal Cert.ReferenceIdeal.Gen Cert.ReferenceIdeal.ReadP Cert.ReferenceIdeal.RefJudge Cert.Moe.Spec
open Idealize.ShloMosaic Idealize.ShloMosaic.ValueIdx

section Reads

variable (x0 : (⟨S32768x35, .f32⟩ : BufTy).Contents (Elt Ideal)) (x1 : (⟨S32768, .i32⟩ : BufTy).Contents (Elt Ideal)) (x2 : (⟨S256x36, .f32⟩ : BufTy).Contents (Elt Ideal)) (x3 : (⟨S256, .f32⟩ : BufTy).Contents (Elt Ideal)) (x4 : (⟨S256x257, .f32⟩ : BufTy).Contents (Elt Ideal)) (x5 : (⟨S256, .f32⟩ : BufTy).Contents (Elt Ideal)) (x6 : (⟨S12x256x36, .f32⟩ : BufTy).Contents (Elt Ideal)) (x7 : (⟨S12x256, .f32⟩ : BufTy).Contents (Elt Ideal)) (x8 : (⟨S12x256x257, .f32⟩ : BufTy).Contents (Elt Ideal)) (x9 : (⟨S12x256, .f32⟩ : BufTy).Contents (Elt Ideal)) (x10 : (⟨S7x5x257, .f32⟩ : BufTy).Contents (Elt Ideal)) (x11 : (⟨S7x5, .f32⟩ : BufTy).Contents (Elt Ideal)) (x12 : (⟨S12x7x5x257, .f32⟩ : BufTy).Contents (Elt Ideal)) (x13 : (⟨S12x7x5, .f32⟩ : BufTy).Contents (Elt Ideal))

/-- The word `0xFF800000` denotes `−∞`. -/
theorem neg_inf_word : Ideal.ofBits .f32 0xFF800000#32 = (⊥ : EReal) := by
  simp [Ideal.ofBits, Ideal.ieee]

/-- The maximum over the five options, taken from `−∞`: the reduce of the logits over the last axis at `(b, q)`. -/
theorem max_read (b : Fin 32768) (q : Fin 7) :
    val_main_v61 (F := Ideal) x0 x1 x2 x3 x4 x5 x6 x7 x8 x9 x10 x11 x12 x13 (ix2 b q)
      = Finset.univ.fold max (⊥ : EReal) (fun o' : Fin 5 => val_main_v60 (F := Ideal) x0 x1 x2 x3 x4 x5 x6 x7 x8 x9 x10 x11 x12 x13 (ix3 b q o')) := by
  unfold val_main_v61
  generalize val_main_v60 (F := Ideal) x0 x1 x2 x3 x4 x5 x6 x7 x8 x9 x10 x11 x12 x13 = y
  have hR : S32768x7x5.Reduces [2] S32768x7 := by decide
  refine (Host.reduce_eq_fold_single (FloatOps.maximumf (F := Ideal) (φ := .f32)) y _ reducesTo_S32768x7x5_S32768x7_d2 hR h_S_
    (ix2 b q)).trans ?_
  have hl : ∀ k : Fin 5, hR.lift (ix2 b q) k = ix3 b q k := fun k => funext fun c => Fin.ext (by
    match c with
    | ⟨0, _⟩ => rfl
    | ⟨1, _⟩ => rfl
    | ⟨2, _⟩ => rfl)
  have hf : (y ∘ hR.lift (ix2 b q)) = fun o' : Fin 5 => y (ix3 b q o') := funext fun k => congrArg y (hl k)
  have hi : val_main_cst_7 (F := Ideal) (Shape.Idx.first h_S_) = (⊥ : EReal) := neg_inf_word
  have key : ∀ (init : EReal) (f g : Fin 5 → EReal), init = ⊥ → f = g →
      Finset.univ.fold (FloatOps.maximumf (F := Ideal) (φ := .f32)) init f = Finset.univ.fold max ⊥ g := by
    intro init f g h1 h2
    subst h1 h2
    rfl
  exact key _ _ _ hi hf

/-- The exponential of a logit less the maximum of its question's five: operation %67 at `(b, q, o)`. -/
theorem exp_read (b : Fin 32768) (q : Fin 7) (o : Fin 5) :
    val_main_v67 (F := Ideal) x0 x1 x2 x3 x4 x5 x6 x7 x8 x9 x10 x11 x12 x13 (ix3 b q o)
      = Ideal.exp (val_main_v60 (F := Ideal) x0 x1 x2 x3 x4 x5 x6 x7 x8 x9 x10 x11 x12 x13 (ix3 b q o)
          - Finset.univ.fold max (⊥ : EReal) (fun o' : Fin 5 => val_main_v60 (F := Ideal) x0 x1 x2 x3 x4 x5 x6 x7 x8 x9 x10 x11 x12 x13 (ix3 b q o'))) := by
  have e65 : idx_main_v64 (idx_main_v65 (ix3 b q o)) = ix2 b q := funext fun a => Fin.ext (by
    match a with
    | ⟨0, _⟩ => rfl
    | ⟨1, _⟩ => rfl)
  rw [val_main_v67_apply, val_main_v66_apply, val_main_v65_apply, val_main_v64_apply, e65, val_main_v63_apply,
    val_main_v62_apply, val_main_cst_8_apply, max_read]
  show Ideal.exp (_ - max (Ideal.ofBits .f32 0xFF800000#32) _) = _
  rw [neg_inf_word, max_eq_right bot_le]

end Reads

theorem softmax_apply (x0 : (⟨S32768x35, .f32⟩ : BufTy).Contents (Elt Ideal)) (x1 : (⟨S32768, .i32⟩ : BufTy).Contents (Elt Ideal)) (x2 : (⟨S256x36, .f32⟩ : BufTy).Contents (Elt Ideal)) (x3 : (⟨S256, .f32⟩ : BufTy).Contents (Elt Ideal)) (x4 : (⟨S256x257, .f32⟩ : BufTy).Contents (Elt Ideal)) (x5 : (⟨S256, .f32⟩ : BufTy).Contents (Elt Ideal)) (x6 : (⟨S12x256x36, .f32⟩ : BufTy).Contents (Elt Ideal)) (x7 : (⟨S12x256, .f32⟩ : BufTy).Contents (Elt Ideal)) (x8 : (⟨S12x256x257, .f32⟩ : BufTy).Contents (Elt Ideal)) (x9 : (⟨S12x256, .f32⟩ : BufTy).Contents (Elt Ideal)) (x10 : (⟨S7x5x257, .f32⟩ : BufTy).Contents (Elt Ideal)) (x11 : (⟨S7x5, .f32⟩ : BufTy).Contents (Elt Ideal)) (x12 : (⟨S12x7x5x257, .f32⟩ : BufTy).Contents (Elt Ideal)) (x13 : (⟨S12x7x5, .f32⟩ : BufTy).Contents (Elt Ideal)) (b : Fin 32768) (q : Fin 7) (o : Fin 5) :
    val_main_v71 (F := Ideal) x0 x1 x2 x3 x4 x5 x6 x7 x8 x9 x10 x11 x12 x13 (ix3 b q o)
      = softmax (fun o' : Fin 5 => val_main_v60 (F := Ideal) x0 x1 x2 x3 x4 x5 x6 x7 x8 x9 x10 x11 x12 x13 (ix3 b q o')) o := by
  have e70 : idx_main_v69 (idx_main_v70 (ix3 b q o)) = ix2 b q := funext fun a => Fin.ext (by
    match a with
    | ⟨0, _⟩ => rfl
    | ⟨1, _⟩ => rfl)
  have e68 : ∀ k : Fin 5, idx_main_v68 (ix2 b q) k = ix3 b q k := fun k => funext fun a => Fin.ext (by
    match a with
    | ⟨0, _⟩ => rfl
    | ⟨1, _⟩ => rfl
    | ⟨2, _⟩ => rfl)
  rw [val_main_v71_apply, val_main_v70_apply, val_main_v69_apply, e70, val_main_v68_apply]
  simp only [e68, exp_read, val_main_cst_9_apply, Ideal.ofBits_def, Ideal.ofBits_zero_f32, zero_add, Ideal.hostDivf_def]
  rfl

end Cert.ReferenceIdeal.RefSoftmax

end
-- ==== Proof.RefNet.lean ====
/-
  The reference's result, entry by entry: the routed network with a 1 appended to each layer's input.

  The softmax of the logits; the logits the affine arrangement over the second layer's row; that row the relu of the
  arrangement over the first layer's row; that row the relu of the arrangement over the input row: `netR` of the
  parameter arrays, the row's judge and the row.
-/
import proofs.«423243_j44985487458585_3_alg».proof.Proof.RefLayer1
import proofs.«423243_j44985487458585_3_alg».proof.Proof.RefLayer2
import proofs.«423243_j44985487458585_3_alg».proof.Proof.RefHeads
import proofs.«423243_j44985487458585_3_alg».proof.Proof.RefSoftmax
import proofs.«423243_j44985487458585_3_alg».proof.Proof.RefJudge
import proofs.«423243_j44985487458585_3_alg».proof.Proof.MoeParams

noncomputable section

namespace Cert.ReferenceIdeal.RefNet

open Cert.ReferenceIdeal Cert.ReferenceIdeal.Gen Cert.ReferenceIdeal.ReadP Cert.ReferenceIdeal.RefJudge Cert.Moe.Spec
open Idealize.ShloMosaic Idealize.ShloMosaic.ValueIdx

theorem ref_apply (x0 : (⟨S32768x35, .f32⟩ : BufTy).Contents (Elt Ideal)) (x1 : (⟨S32768, .i32⟩ : BufTy).Contents (Elt Ideal)) (x2 : (⟨S256x36, .f32⟩ : BufTy).Contents (Elt Ideal)) (x3 : (⟨S256, .f32⟩ : BufTy).Contents (Elt Ideal)) (x4 : (⟨S256x257, .f32⟩ : BufTy).Contents (Elt Ideal)) (x5 : (⟨S256, .f32⟩ : BufTy).Contents (Elt Ideal)) (x6 : (⟨S12x256x36, .f32⟩ : BufTy).Contents (Elt Ideal)) (x7 : (⟨S12x256, .f32⟩ : BufTy).Contents (Elt Ideal)) (x8 : (⟨S12x256x257, .f32⟩ : BufTy).Contents (Elt Ideal)) (x9 : (⟨S12x256, .f32⟩ : BufTy).Contents (Elt Ideal)) (x10 : (⟨S7x5x257, .f32⟩ : BufTy).Contents (Elt Ideal)) (x11 : (⟨S7x5, .f32⟩ : BufTy).Contents (Elt Ideal)) (x12 : (⟨S12x7x5x257, .f32⟩ : BufTy).Contents (Elt Ideal)) (x13 : (⟨S12x7x5, .f32⟩ : BufTy).Contents (Elt Ideal)) (hr : InRange x1) (b : Fin 32768) (q : Fin 7) (o : Fin 5) :
    val_main_v71 (F := Ideal) x0 x1 x2 x3 x4 x5 x6 x7 x8 x9 x10 x11 x12 x13 (ix3 b q o)
      = netR (paramsOf x2 x3 x4 x5 x6 x7 x8 x9 x10 x11 x12 x13) (judge x1 hr b) (fun i : Fin 35 => x0 (ix2 b i)) q o := by
  -- the first layer's row, then the second's, as functions
  have h1 : (fun h : Fin 256 => val_main_v20 (F := Ideal) x0 x1 x2 x3 x6 x7 (ix2 b h))
      = hid1R (paramsOf x2 x3 x4 x5 x6 x7 x8 x9 x10 x11 x12 x13) (judge x1 hr b) (fun i : Fin 35 => x0 (ix2 b i)) :=
    funext fun h => RefLayer1.layer1_apply x0 x1 x2 x3 x6 x7 hr b h
  have h2 : (fun g : Fin 256 => val_main_v41 (F := Ideal) x0 x1 x2 x3 x4 x5 x6 x7 x8 x9 (ix2 b g))
      = hid2R (paramsOf x2 x3 x4 x5 x6 x7 x8 x9 x10 x11 x12 x13) (judge x1 hr b) (fun i : Fin 35 => x0 (ix2 b i)) :=
    funext fun g => by
      rw [RefLayer2.layer2_apply x0 x1 x2 x3 x4 x5 x6 x7 x8 x9 hr b g, h1]; rfl
  have h3 : (fun o' : Fin 5 => val_main_v60 (F := Ideal) x0 x1 x2 x3 x4 x5 x6 x7 x8 x9 x10 x11 x12 x13 (ix3 b q o'))
      = logitR (paramsOf x2 x3 x4 x5 x6 x7 x8 x9 x10 x11 x12 x13) (judge x1 hr b) (fun i : Fin 35 => x0 (ix2 b i)) q :=
    funext fun o' => by
      rw [RefHeads.heads_apply x0 x1 x2 x3 x4 x5 x6 x7 x8 x9 x10 x11 x12 x13 hr b q o', h2]; rfl
  rw [RefSoftmax.softmax_apply x0 x1 x2 x3 x4 x5 x6 x7 x8 x9 x10 x11 x12 x13 b q o, h3]
  rfl

end Cert.ReferenceIdeal.RefNet

end
-- ==== Proof.PreDecode.lean ====
/-
  The precondition read back: every float argument holds real numbers, and every judge id is in `[0, 12)`.

  The precondition is a conjunction (a chain of `and`s of one-bit words) of one `all` per float argument, of
  `|x| < +∞` entry by entry, and of two `all`s over the ids, `id ≥ 0` and `id < 12` (signed). It is the word 1 exactly
  when every conjunct is; an `all` that is 1 gives its predicate at every index; an extended real whose absolute
  value `max x (−x)` is below `+∞` is neither `+∞` nor `−∞`, hence a real number.
-/
import proofs.«423243_j44985487458585_3_alg».proof.Pre_finite_inputs
import proofs.«423243_j44985487458585_3_alg».proof.Proof.Gen.Pre_finite_inputs
import proofs.«423243_j44985487458585_3_alg».proof.Proof.MoeSpec
import Idealize.ShloMosaic.Lib.ReduceAll
import Idealize.ShloMosaic.Lib.ValueIdx

noncomputable section

namespace Cert.Pre_finite_inputs.Decode

open Cert.Pre_finite_inputs Cert.Pre_finite_inputs.Gen Cert.Moe.Spec Idealize.ShloMosaic Idealize.ShloMosaic.ValueIdx

/-- The rank-0 shape has one index. -/
instance subsingleton_idx : Subsingleton S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- A one-bit word made from a boolean is 1 exactly when the boolean is true. -/
theorem ofBool_one {b : Bool} : BitVec.ofBool b = 1#1 ↔ b = true := by cases b <;> decide

/-- An extended real whose absolute value `max x (−x)` compares below `+∞` is a real number. -/
theorem isReal_of_abs_lt (x : EReal) (h : Ideal.cmp .olt (max x (-x)) (⊤ : EReal) = 1#1) : IsReal x := by
  have hlt : max x (-x) < (⊤ : EReal) := by
    have := ofBool_one.1 h
    exact of_decide_eq_true this
  have h1 : x ≠ ⊤ := fun e => by rw [e] at hlt; simp at hlt
  have h2 : x ≠ ⊥ := fun e => by rw [e] at hlt; simp at hlt
  exact ⟨x.toReal, (EReal.coe_toReal h1 h2).symm⟩

/-- One float argument: its `all` of `|x| < +∞` being 1 makes every entry a real number. -/
theorem real_of_all {S : Shape} {axes : List (Fin S.rank)} (hb : S_.BroadcastsInDim S (![] : Fin 0 → Fin S.rank))
    (hr : S.ReducesTo axes S_) (hu : 0 < S_.numel) (a : FVec Ideal S .f32)
    (e : Host.reduce IntOp.andi (cmpf .olt (Host.absf a) (broadcastInDim S ![] hb (constant S_ .f32 0x7F800000#32)))
      (constantI S_ 1 1#1) hr hu ix0 = 1#1) (i : S.Idx) : IsReal (a i) := by
  have hi := Host.reduce_andi_all _ _ hr hu ix0 e i
  refine isReal_of_abs_lt (a i) ?_
  rw [← inf_word]
  exact hi

/-- A one-bit `and` of two rank-0 words that is 1 at the index has both words 1 there. -/
theorem and_split {x y : IVec S_ 1} {i : S_.Idx} (h : andi x y i = 1#1) : x i = 1#1 ∧ y i = 1#1 :=
  IntOp.andi_eq_one.1 h

/-- The ids: an `all` of a comparison with a broadcast constant being 1 gives the comparison at every index. -/
theorem cmp_of_all {S : Shape} {axes : List (Fin S.rank)} (hb : S_.BroadcastsInDim S (![] : Fin 0 → Fin S.rank))
    (hr : S.ReducesTo axes S_) (hu : 0 < S_.numel) (p : CmpIPredicate) (a : IVec S 32) (c : BitVec 32)
    (e : Host.reduce IntOp.andi (cmpi p a (broadcastInDim S ![] hb (constantI S_ 32 c)))
      (constantI S_ 1 1#1) hr hu ix0 = 1#1) (i : S.Idx) : IntOp.cmpi p (a i) c = 1#1 :=
  Host.reduce_andi_all _ _ hr hu ix0 e i

theorem decode (a0 : FVec Ideal S32768x35 .f32) (a1 : IVec S32768 32) (a2 : FVec Ideal S256x36 .f32) (a3 : FVec Ideal S256 .f32) (a4 : FVec Ideal S256x257 .f32) (a5 : FVec Ideal S256 .f32) (a6 : FVec Ideal S12x256x36 .f32) (a7 : FVec Ideal S12x256 .f32) (a8 : FVec Ideal S12x256x257 .f32) (a9 : FVec Ideal S12x256 .f32) (a10 : FVec Ideal S7x5x257 .f32) (a11 : FVec Ideal S7x5 .f32) (a12 : FVec Ideal S12x7x5x257 .f32) (a13 : FVec Ideal S12x7x5 .f32)
    (h : fn (F := Ideal) a0 a1 a2 a3 a4 a5 a6 a7 a8 a9 a10 a11 a12 a13 = fun _ => 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i))
    ∧ (∀ b : Fin 32768, 0 ≤ (a1 (ix1 b)).toInt ∧ (a1 (ix1 b)).toInt < 12) := by
  have h0 := congrFun h ix0
  dsimp only [fn, fn_part1, fn_part2, fn_part3, fn_part4] at h0
  obtain ⟨h0, e14⟩ := and_split h0
  obtain ⟨h0, e13⟩ := and_split h0
  obtain ⟨h0, e12⟩ := and_split h0
  obtain ⟨h0, e11⟩ := and_split h0
  obtain ⟨h0, e10⟩ := and_split h0
  obtain ⟨h0, e9⟩ := and_split h0
  obtain ⟨h0, e8⟩ := and_split h0
  obtain ⟨h0, e7⟩ := and_split h0
  obtain ⟨h0, e6⟩ := and_split h0
  obtain ⟨h0, e5⟩ := and_split h0
  obtain ⟨h0, e4⟩ := and_split h0
  obtain ⟨h0, e3⟩ := and_split h0
  obtain ⟨h0, e2⟩ := and_split h0
  obtain ⟨e0, e1⟩ := and_split h0
  refine ⟨real_of_all _ _ _ a0 e0, real_of_all _ _ _ a2 e1, real_of_all _ _ _ a3 e2, real_of_all _ _ _ a4 e3,
    real_of_all _ _ _ a5 e4, real_of_all _ _ _ a6 e5, real_of_all _ _ _ a7 e6, real_of_all _ _ _ a8 e7,
    real_of_all _ _ _ a9 e8, real_of_all _ _ _ a10 e9, real_of_all _ _ _ a11 e10, real_of_all _ _ _ a12 e11,
    real_of_all _ _ _ a13 e12, fun b => ⟨?_, ?_⟩⟩
  · have := IntOp.cmpi_sge.1 (cmp_of_all _ _ _ .sge a1 0#32 e13 (ix1 b))
    simpa using this
  · have := IntOp.cmpi_slt.1 (cmp_of_all _ _ _ .slt a1 12#32 e14 (ix1 b))
    have h12 : (12#32 : BitVec 32).toInt = 12 := by decide
    rw [h12] at this
    exact this

end Cert.Pre_finite_inputs.Decode

end
-- ==== Proof.lean ====
/-
  A routed mixture of twelve judges (two hidden layers of 256 units, seven heads of five logits, a softmax per head),
  computed by grouping the rows by judge, against the same network computed row by row with every judge's output
  formed and one looked up: the two programs agree entry by entry on the extended reals, for finite parameters and
  rows and judge ids in `[0, 12)`.

  THE KERNEL PROGRAM clips the ids, sorts the rows by id (a stable sort), pads each judge's group to whole blocks of
  1024 slots, lays the rows out by slot, and runs one grid point per block; a table gives each block's judge, and the
  point's windows take that judge's slab of each parameter array, the shared and the judge's weights summed beforehand
  and the bias folded with the weights' last column (the column that multiplies the 1 the other program appends to each
  layer's input). After the region each row reads back its slot's first 35 lanes.
    * The side condition on the table (each word names one of the twelve slabs) holds for every input: the table is
      clipped into `[0, 11]` by the host. That gives the two kernel frames.
    * With ids in range the clip is the identity; along the sorting permutation the ids never decrease, so the rows of
      judge `j` occupy the sorted positions from (rows of smaller id) on, and position `k` of judge `j` is sent to slot
      `1024 · (blocks of smaller ids) + (k − rows of smaller id)`: distinct positions get distinct slots below `1024 · 44`,
      and the slot's block is owned by `j`. So the row laid out at the slot of row `b` is row `b`, its block's judge is
      `ids[b]`, and what the body stores there is the dense network of row `b` at judge `ids[b]`'s summed weights.
  THE REFERENCE appends a 1 to each layer's input, forms every judge's output and looks up `ids[b]`'s (an in-range id
  is not wrapped and passes the lookup's bounds check, so no fill value is selected).
  THE TWO ARRANGEMENTS AGREE on real data: `x · (W + Wa) = x · W + x · Wa` needs finite entries, which the precondition
  gives for the inputs and which each layer hands to the next (a finite sum of products of reals, a maximum with 0);
  the softmax heads are the same function of equal logits.
-/
import proofs.«423243_j44985487458585_3_alg».proof.Defs
import proofs.«423243_j44985487458585_3_alg».proof.Proof.Gen.Kernel
import proofs.«423243_j44985487458585_3_alg».proof.Proof.Gen.Kernel.Skeleton
import proofs.«423243_j44985487458585_3_alg».proof.Proof.Gen.Kernel.Launch
import proofs.«423243_j44985487458585_3_alg».proof.Proof.Gen.Kernel.Points
import proofs.«423243_j44985487458585_3_alg».proof.Proof.Gen.Kernel.Frame
import proofs.«423243_j44985487458585_3_alg».proof.Proof.Gen.KernelIdeal
import proofs.«423243_j44985487458585_3_alg».proof.Proof.Gen.KernelIdeal.Skeleton
import proofs.«423243_j44985487458585_3_alg».proof.Proof.Gen.KernelIdeal.Launch
import proofs.«423243_j44985487458585_3_alg».proof.Proof.Gen.KernelIdeal.Points
import proofs.«423243_j44985487458585_3_alg».proof.Proof.Gen.KernelIdeal.Frame
import proofs.«423243_j44985487458585_3_alg».proof.Proof.Gen.ReferenceIdeal
import proofs.«423243_j44985487458585_3_alg».proof.Proof.Gen.Pre_finite_inputs
import proofs.«423243_j44985487458585_3_alg».proof.Proof.OkKernel
import proofs.«423243_j44985487458585_3_alg».proof.Proof.OkIdeal
import proofs.«423243_j44985487458585_3_alg».proof.Proof.KernelValue
import proofs.«423243_j44985487458585_3_alg».proof.Proof.RefValue
import proofs.«423243_j44985487458585_3_alg».proof.Proof.RefNet
import proofs.«423243_j44985487458585_3_alg».proof.Proof.PreDecode
import proofs.«423243_j44985487458585_3_alg».proof.Proof.MoeSpec
import proofs.«423243_j44985487458585_3_alg».proof.Proof.MoeParams
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Moe.Spec

/-- The kernel program's frame: the table's side condition holds for every memory. -/
theorem frame_k : @Cert.frame_Kernel Cert.Kernel.Gen.facts Cert.Pre_finite_inputs.Gen.facts :=
  fun m ρ _ => Cert.Kernel.Gen.frame m ρ (Cert.Kernel.OkOfPre.ok m)

theorem frame_ki : @Cert.frame_KernelIdeal Cert.KernelIdeal.Gen.facts Cert.Pre_finite_inputs.Gen.facts :=
  fun m ρ _ => Cert.KernelIdeal.Gen.frame m ρ (Cert.KernelIdeal.OkOfPre.ok m)

/-- The reference's frame: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run (F := Ideal) m ρ)

set_option maxHeartbeats 4000000 in
/-- The two idealized programs end with equal results: entry `(b, q, o)` of both is the routed network of row `b`. -/
theorem algebraic : @Cert.algebraic_KernelIdeal_ReferenceIdeal Cert.KernelIdeal.Gen.facts Cert.ReferenceIdeal.Gen.facts Cert.Pre_finite_inputs.Gen.facts := by
  intro m ρ m' ρ' hpre hagree
  have hO := Cert.KernelIdeal.OkOfPre.ok m
  refine ⟨fun c => Pipeline.afterTail Cert.KernelIdeal.pcfgs (fun _ => Cert.KernelIdeal.Gen.adm m hO) (Cert.KernelIdeal.Gen.dats m hO) 0
      (Cert.KernelIdeal.Gen.V0 m) [Cert.KernelIdeal.Gen.hostOps1] c Cert.KernelIdeal.main_v151,
    Cert.KernelIdeal.KernelValue.run m ρ hO, ?_⟩
  refine (θ_run Cert.ReferenceIdeal.defs _ _).mono (fun _ h c => ⟨(h c).1.trans ?_, (h c).2⟩)
    (Cert.ReferenceIdeal.RefValue.run (F := Ideal) m' ρ')
  -- the precondition, decoded: real entries, ids in range
  obtain ⟨h0, h2, h3, h4, h5, h6, h7, h8, h9, h10, h11, h12, h13, hr⟩ :=
    Cert.Pre_finite_inputs.Decode.decode (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (hpre c)
  obtain ⟨e0, e1, e2, e3, e4, e5, e6, e7, e8, e9, e10, e11, e12, e13⟩ := hagree c
  rw [e0, e1, e2, e3, e4, e5, e6, e7, e8, e9, e10, e11, e12, e13]
  funext idx
  obtain ⟨b, q, o, rfl⟩ : ∃ (b : Fin 32768) (q : Fin 7) (o : Fin 5), idx = ix3 b q o := ⟨idx 0, idx 1, idx 2, eq_ix3 idx⟩
  refine (Cert.ReferenceIdeal.RefNet.ref_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) hr b q o).trans ?_
  refine Eq.trans ?_ (Cert.KernelIdeal.KernelValue.result_apply m hO c hr b q o).symm
  refine (netK_eq_netR _ ⟨fun h i => h2 _, fun h => h3 _, fun g h => h4 _, fun g => h5 _, fun j h i => h6 _, fun j h => h7 _,
    fun j g h => h8 _, fun j g => h9 _, fun q o g => h10 _, fun q o => h11 _, fun j q o g => h12 _, fun j q o => h13 _⟩
    _ _ (fun i => h0 _) q o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
